-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v107)) (v2 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v107) = v1 c
          ∧ r.2.mem ((c.tc : Thread Cert.KernelIdeal.nD Cert.KernelIdeal.τ).loc Cert.KernelIdeal.main_v153) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v210) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128 : Shape := ⟨1, ![128]⟩
abbrev S3x128x64 : Shape := ⟨3, ![3, 128, 64]⟩
abbrev S3x64 : Shape := ⟨2, ![3, 64]⟩
abbrev S3x64x64 : Shape := ⟨3, ![3, 64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_

variable [Facts]

def fn_part2 {F : FTy → Type} [FloatOps F] (main_arg10 : FVec F S3x64 .f32) (main_arg11 : FVec F S3x64 .f32) (main_v33 : IVec S_ 1) : IVec S_ 1 :=
  let main_v34 : FVec F S3x64 .f32 := Host.absf main_arg10
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg11
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  main_v43

def fn_part1 {F : FTy → Type} [FloatOps F] (main_arg7 : FVec F S3x64 .f32) (main_arg8 : FVec F S3x64x64 .f32) (main_arg9 : FVec F S3x64 .f32) (main_arg10 : FVec F S3x64 .f32) (main_arg11 : FVec F S3x64 .f32) (main_v13 : IVec S_ 1) (main_v16 : IVec S3x128x64 1) : IVec S_ 1 :=
  let main_c_5 : IVec S_ 1 := constantI S_ 1 1#1
  let main_v17 : IVec S_ 1 := (fun x v => Host.reduce IntOp.andi x v reducesTo_S3x128x64_S_d0_1_2 h_S_) main_v16 main_c_5
  let main_v18 : IVec S_ 1 := andi main_v13 main_v17
  let main_v19 : FVec F S3x64 .f32 := Host.absf main_arg7
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg8
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg9
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg10 main_arg11 main_v33

def fn {F : FTy → Type} [FloatOps F] (main_arg0 : FVec F S100000x128 .f32) (main_arg1 : IVec S2x1000000 32) (main_arg2 : IVec S2x1000000 32) (main_arg3 : IVec S2x1000000 32) (main_arg4 : FVec F S128 .f32) (main_arg5 : FVec F S128 .f32) (main_arg6 : FVec F S3x128x64 .f32) (main_arg7 : FVec F S3x64 .f32) (main_arg8 : FVec F S3x64x64 .f32) (main_arg9 : FVec F S3x64 .f32) (main_arg10 : FVec F S3x64 .f32) (main_arg11 : FVec F S3x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg4
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x64 .f32 := Host.absf main_arg6
  let main_cst_4 : FVec F S_ .f32 := constant S_ .f32 0x7F800000#32
  let main_v15 : FVec F S3x128x64 .f32 := broadcastInDim S3x128x64 ![] bcast_S_S3x128x64 main_cst_4
  let main_v16 : IVec S3x128x64 1 := cmpf .olt main_v14 main_v15
  fn_part1 (F := F) main_arg7 main_arg8 main_arg9 main_arg10 main_arg11 main_v13 main_v16
-- ==== Kernel.lean ====
abbrev S100000x128 : Shape := ⟨2, ![100000, 128]⟩
abbrev S2x1000000 : Shape := ⟨2, ![2, 1000000]⟩
abbrev S128 : Shape := ⟨1, ![128]⟩
abbrev S3x128x64 : Shape := ⟨3, ![3, 128, 64]⟩
abbrev S3x64 : Shape := ⟨2, ![3, 64]⟩
abbrev S3x64x64 : Shape := ⟨3, ![3, 64, 64]⟩
abbrev S1x128 : Shape := ⟨2, ![1, 128]⟩
abbrev S10000x128 : Shape := ⟨2, ![10000, 128]⟩
abbrev S_ : Shape := ⟨0, ![]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩
abbrev S1x128x64 : Shape := ⟨3, ![1, 128, 64]⟩
abbrev S128x64 : Shape := ⟨2, ![128, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S100000x64 : Shape := ⟨2, ![100000, 64]⟩
abbrev S5000x128 : Shape := ⟨2, ![5000, 128]⟩
abbrev S5000x64 : Shape := ⟨2, ![5000, 64]⟩
abbrev S10000x64 : Shape := ⟨2, ![10000, 64]⟩

abbrev nBuf : Space → Nat
  | .hbm => 194
  | .vmem => 64
  | .smem => 0
  | _ => 0

abbrev hbmTy0_0 (i : Nat) : BufTy := match i % 128 with
  | 0 => ⟨S100000x128, .f32⟩
  | 1 => ⟨S2x1000000, .i32⟩
  | 2 => ⟨S2x1000000, .i32⟩
  | 3 => ⟨S2x1000000, .i32⟩
  | 4 => ⟨S128, .f32⟩
  | 5 => ⟨S128, .f32⟩
  | 6 => ⟨S3x128x64, .f32⟩
  | 7 => ⟨S3x64, .f32⟩
  | 8 => ⟨S3x64x64, .f32⟩
  | 9 => ⟨S3x64, .f32⟩
  | 10 => ⟨S3x64, .f32⟩
  | 11 => ⟨S3x64, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S_, .f32⟩
  | 18 => ⟨S1x128, .f32⟩
  | 19 => ⟨S1x128, .f32⟩
  | 20 => ⟨S1x128, .f32⟩
  | 21 => ⟨S1x128, .f32⟩
  | 22 => ⟨S_, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S1x128, .f32⟩
  | 31 => ⟨S100000x128, .f32⟩
  | 32 => ⟨S1x1000000, .i32⟩
  | 33 => ⟨S1000000, .i32⟩
  | 34 => ⟨S1x1000000, .i32⟩
  | 35 => ⟨S1000000, .i32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x128, .f32⟩
  | 45 => ⟨S_, .f32⟩
  | 46 => ⟨S100000x128, .f32⟩
  | 47 => ⟨S1000000x1, .i32⟩
  | 48 => ⟨S100000x128, .f32⟩
  | 49 => ⟨S1x128x64, .f32⟩
  | 50 => ⟨S128x64, .f32⟩
  | 51 => ⟨S128x64, .bf16⟩
  | 52 => ⟨S1x64x64, .f32⟩
  | 53 => ⟨S64x64, .f32⟩
  | 54 => ⟨S64x64, .bf16⟩
  | 55 => ⟨S1x64, .f32⟩
  | 56 => ⟨S64, .f32⟩
  | 57 => ⟨S1x64, .f32⟩
  | 58 => ⟨S1x64, .f32⟩
  | 59 => ⟨S64, .f32⟩
  | 60 => ⟨S1x64, .f32⟩
  | 61 => ⟨S100000x64, .f32⟩
  | 62 => ⟨S1x64, .f32⟩
  | 63 => ⟨S1x64, .f32⟩
  | 64 => ⟨S_, .f32⟩
  | 65 => ⟨S1x64, .f32⟩
  | 66 => ⟨S1x64, .f32⟩
  | 67 => ⟨S_, .f32⟩
  | 68 => ⟨S1x64, .f32⟩
  | 69 => ⟨S1x64, .f32⟩
  | 70 => ⟨S1x64, .f32⟩
  | 71 => ⟨S1x64, .f32⟩
  | 72 => ⟨S_, .f32⟩
  | 73 => ⟨S1x64, .f32⟩
  | 74 => ⟨S1x64, .f32⟩
  | 75 => ⟨S1x64, .f32⟩
  | 76 => ⟨S1x64, .f32⟩
  | 77 => ⟨S64, .f32⟩
  | 78 => ⟨S1x64, .f32⟩
  | 79 => ⟨S1x64, .f32⟩
  | 80 => ⟨S1x64, .f32⟩
  | 81 => ⟨S64, .f32⟩
  | 82 => ⟨S1x64, .f32⟩
  | 83 => ⟨S1x64, .f32⟩
  | 84 => ⟨S1x64, .f32⟩
  | 85 => ⟨S100000x64, .f32⟩
  | 86 => ⟨S1x1000000, .i32⟩
  | 87 => ⟨S1000000, .i32⟩
  | 88 => ⟨S1x1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x128, .f32⟩
  | 99 => ⟨S_, .f32⟩
  | 100 => ⟨S100000x128, .f32⟩
  | 101 => ⟨S1000000x1, .i32⟩
  | 102 => ⟨S100000x128, .f32⟩
  | 103 => ⟨S1x128x64, .f32⟩
  | 104 => ⟨S128x64, .f32⟩
  | 105 => ⟨S128x64, .bf16⟩
  | 106 => ⟨S1x64x64, .f32⟩
  | 107 => ⟨S64x64, .f32⟩
  | 108 => ⟨S64x64, .bf16⟩
  | 109 => ⟨S1x64, .f32⟩
  | 110 => ⟨S64, .f32⟩
  | 111 => ⟨S1x64, .f32⟩
  | 112 => ⟨S1x64, .f32⟩
  | 113 => ⟨S64, .f32⟩
  | 114 => ⟨S1x64, .f32⟩
  | 115 => ⟨S100000x64, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S1x64, .f32⟩
  | 125 => ⟨S1x64, .f32⟩
  | 126 => ⟨S_, .f32⟩
  | 127 => ⟨S1x64, .f32⟩
  | _ => ⟨S100000x128, .f32⟩

abbrev hbmTy0_1 (i : Nat) : BufTy := match i % 128 with
  | 0 => ⟨S1x64, .f32⟩
  | 1 => ⟨S1x64, .f32⟩
  | 2 => ⟨S1x64, .f32⟩
  | 3 => ⟨S64, .f32⟩
  | 4 => ⟨S1x64, .f32⟩
  | 5 => ⟨S1x64, .f32⟩
  | 6 => ⟨S1x64, .f32⟩
  | 7 => ⟨S64, .f32⟩
  | 8 => ⟨S1x64, .f32⟩
  | 9 => ⟨S1x64, .f32⟩
  | 10 => ⟨S1x64, .f32⟩
  | 11 => ⟨S100000x64, .f32⟩
  | 12 => ⟨S1x1000000, .i32⟩
  | 13 => ⟨S1000000, .i32⟩
  | 14 => ⟨S1x1000000, .i32⟩
  | 15 => ⟨S1000000, .i32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x128, .f32⟩
  | 25 => ⟨S_, .f32⟩
  | 26 => ⟨S100000x128, .f32⟩
  | 27 => ⟨S1000000x1, .i32⟩
  | 28 => ⟨S100000x128, .f32⟩
  | 29 => ⟨S1x128x64, .f32⟩
  | 30 => ⟨S128x64, .f32⟩
  | 31 => ⟨S128x64, .bf16⟩
  | 32 => ⟨S1x64x64, .f32⟩
  | 33 => ⟨S64x64, .f32⟩
  | 34 => ⟨S64x64, .bf16⟩
  | 35 => ⟨S1x64, .f32⟩
  | 36 => ⟨S64, .f32⟩
  | 37 => ⟨S1x64, .f32⟩
  | 38 => ⟨S1x64, .f32⟩
  | 39 => ⟨S64, .f32⟩
  | 40 => ⟨S1x64, .f32⟩
  | 41 => ⟨S100000x64, .f32⟩
  | 42 => ⟨S1x64, .f32⟩
  | 43 => ⟨S1x64, .f32⟩
  | 44 => ⟨S_, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S1x64, .f32⟩
  | 51 => ⟨S1x64, .f32⟩
  | 52 => ⟨S_, .f32⟩
  | 53 => ⟨S1x64, .f32⟩
  | 54 => ⟨S1x64, .f32⟩
  | 55 => ⟨S1x64, .f32⟩
  | 56 => ⟨S1x64, .f32⟩
  | 57 => ⟨S64, .f32⟩
  | 58 => ⟨S1x64, .f32⟩
  | 59 => ⟨S1x64, .f32⟩
  | 60 => ⟨S1x64, .f32⟩
  | 61 => ⟨S64, .f32⟩
  | 62 => ⟨S1x64, .f32⟩
  | 63 => ⟨S1x64, .f32⟩
  | 64 => ⟨S1x64, .f32⟩
  | 65 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S1x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S1x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .bf16⟩
  | .local _ .vmem, ⟨15, _⟩ => ⟨S1x64, .f32⟩
  | .local _ .vmem, ⟨16, _⟩ => ⟨S64x64, .bf16⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S1x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x64, .bf16⟩
  | .local _ .vmem, ⟨33, _⟩ => ⟨S1x64, .f32⟩
  | .local _ .vmem, ⟨34, _⟩ => ⟨S64x64, .bf16⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S1x64, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S1x64, .f32⟩
  | .local _ .vmem, ⟨43, _⟩ => ⟨S1x64, .f32⟩
  | .local _ .vmem, ⟨44, _⟩ => ⟨S10000x64, .f32⟩
  | .local _ .vmem, ⟨45, _⟩ => ⟨S10000x64, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x64, .bf16⟩
  | .local _ .vmem, ⟨51, _⟩ => ⟨S1x64, .f32⟩
  | .local _ .vmem, ⟨52, _⟩ => ⟨S64x64, .bf16⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S1x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S1x64, .f32⟩
  | .local _ .vmem, ⟨61, _⟩ => ⟨S1x64, .f32⟩
  | .local _ .vmem, ⟨62, _⟩ => ⟨S10000x64, .f32⟩
  | .local _ .vmem, ⟨63, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42_0 : Ref sig .tc := ⟨.hbm, 61, rfl⟩
abbrev main_v42_1 : Ref sig .tc := ⟨.hbm, 62, rfl⟩
abbrev main_v42_2 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_7 : Ref sig .tc := ⟨.hbm, 90, rfl⟩
abbrev main_v66 : Ref sig .tc := ⟨.hbm, 91, rfl⟩
abbrev main_v67 : Ref sig .tc := ⟨.hbm, 92, rfl⟩
abbrev main_c_8 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_9 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88_0 : Ref sig .tc := ⟨.hbm, 115, rfl⟩
abbrev main_v88_1 : Ref sig .tc := ⟨.hbm, 116, rfl⟩
abbrev main_v88_2 : Ref sig .tc := ⟨.hbm, 117, rfl⟩
abbrev main_cst_10 : Ref sig .tc := ⟨.hbm, 118, rfl⟩
abbrev main_v89 : Ref sig .tc := ⟨.hbm, 119, rfl⟩
abbrev main_v90 : Ref sig .tc := ⟨.hbm, 120, rfl⟩
abbrev main_cst_11 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_12 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_c_13 : Ref sig .tc := ⟨.hbm, 144, rfl⟩
abbrev main_v112 : Ref sig .tc := ⟨.hbm, 145, rfl⟩
abbrev main_v113 : Ref sig .tc := ⟨.hbm, 146, rfl⟩
abbrev main_c_14 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_15 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134_0 : Ref sig .tc := ⟨.hbm, 169, rfl⟩
abbrev main_v134_1 : Ref sig .tc := ⟨.hbm, 170, rfl⟩
abbrev main_v134_2 : Ref sig .tc := ⟨.hbm, 171, rfl⟩
abbrev main_cst_16 : Ref sig .tc := ⟨.hbm, 172, rfl⟩
abbrev main_v135 : Ref sig .tc := ⟨.hbm, 173, rfl⟩
abbrev main_v136 : Ref sig .tc := ⟨.hbm, 174, rfl⟩
abbrev main_cst_17 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_18 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc2_stg7_0 : Ref sig .tc := ⟨.vmem, 20, rfl⟩
abbrev cc2_stg8_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc4_stg7_0 : Ref sig .tc := ⟨.vmem, 38, rfl⟩
abbrev cc4_stg8_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg6_0 : Ref sig .tc := ⟨.vmem, 54, rfl⟩
abbrev cc6_stg6_1 : Ref sig .tc := ⟨.vmem, 55, rfl⟩
abbrev cc6_stg7_0 : Ref sig .tc := ⟨.vmem, 56, rfl⟩
abbrev cc6_stg8_0 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg3_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc2_sem7_0 : DmaSem sig := 20
abbrev cc2_sem8_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37
abbrev cc4_sem7_0 : DmaSem sig := 38
abbrev cc4_sem8_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem6_0 : DmaSem sig := 54
abbrev cc6_sem6_1 : DmaSem sig := 55
abbrev cc6_sem7_0 : DmaSem sig := 56
abbrev cc6_sem8_0 : DmaSem sig := 57
abbrev cc7_sem0_0 : DmaSem sig := 58
abbrev cc7_sem0_1 : DmaSem sig := 59
abbrev cc7_sem1_0 : DmaSem sig := 60
abbrev cc7_sem2_0 : DmaSem sig := 61
abbrev cc7_sem3_0 : DmaSem sig := 62
abbrev cc7_sem3_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S1x128_S1x128 : S1x128.ShapeCasts S1x128
  reduces_S10000x128_S128 : S10000x128.Reduces [0] S128
  shapeCasts_S128_S1x128 : S128.ShapeCasts S1x128
  bcast_S_S1x128 : S_.BroadcastsInDim S1x128 (![] : Fin 0 → Fin S1x128.rank)
  broadcasts_S1x128_S10000x128 : S1x128.Broadcasts S10000x128
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  slices_S3x128x64_S1x128x64_0_0_0 : S3x128x64.Slices ![0, 0, 0] S1x128x64
  shapeCasts_S1x128x64_S128x64 : S1x128x64.ShapeCasts S128x64
  bitsLt_bf16_f32 : FTy.bits .bf16 < FTy.bits .f32
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S1x64_S1x64_0_0 : ∀ a, (![0, 0] : Fin 2 → Nat) a + S1x64.size a ≤ S1x64.size a
  h_S1x64 : 0 < S1x64.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S1x64 : S_.BroadcastsInDim S1x64 (![] : Fin 0 → Fin S1x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  slices_S3x128x64_S1x128x64_1_0_0 : S3x128x64.Slices ![1, 0, 0] S1x128x64
  slices_S3x64x64_S1x64x64_1_0_0 : S3x64x64.Slices ![1, 0, 0] S1x64x64
  slices_S3x64_S1x64_1_0 : S3x64.Slices ![1, 0] S1x64
  slices_S3x128x64_S1x128x64_2_0_0 : S3x128x64.Slices ![2, 0, 0] S1x128x64
  slices_S3x64x64_S1x64x64_2_0_0 : S3x64x64.Slices ![2, 0, 0] S1x64x64
  slices_S3x64_S1x64_2_0 : S3x64.Slices ![2, 0] S1x64
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .bf16 = 32 ∨ (Rect.block (s := S128x64) S128x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .bf16 = 32 ∨ (Rect.block (s := S64x64) S64x64.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .bf16 = 32 ∨ (Rect.block (s := S128x64) S128x64.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .bf16 = 32 ∨ (Rect.block (s := S64x64) S64x64.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .bf16 = 32 ∨ (Rect.block (s := S128x64) S128x64.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .bf16 = 32 ∨ (Rect.block (s := S64x64) S64x64.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S100000x64.size a
  hwx6_6 : ∀ i : grid6.Coords, EltTy.bits .f32 = 32 ∨ (Rect.block (s := S100000x64) S5000x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x64.size a ≤ S1x64.size a
  hwx6_8 : ∀ i : grid6.Coords, EltTy.bits .f32 = 32 ∨ (Rect.block (s := S1x64) S1x64.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v42_1) S1x64.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v42_2) S1x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v42_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v15) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v78) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v87) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v88_0) S5000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v88_1) S1x64.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v88_2) S1x64.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v88_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v106) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v15) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v121) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v124) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v127) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v133) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v134_0) S5000x64.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v134_1) S1x64.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v134_2) S1x64.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v134_0) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v147) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v152) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v153) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128 : Shape := ⟨1, ![128]⟩
abbrev S3x128x64 : Shape := ⟨3, ![3, 128, 64]⟩
abbrev S3x64 : Shape := ⟨2, ![3, 64]⟩
abbrev S3x64x64 : Shape := ⟨3, ![3, 64, 64]⟩
abbrev S_ : Shape := ⟨0, ![]⟩
abbrev S1x128 : Shape := ⟨2, ![1, 128]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩
abbrev S1x128x64 : Shape := ⟨3, ![1, 128, 64]⟩
abbrev S128x64 : Shape := ⟨2, ![128, 64]⟩
abbrev S100000x64 : Shape := ⟨2, ![100000, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩

abbrev nBuf : Space → Nat
  | .hbm => 258
  | .vmem => 0
  | .smem => 0
  | _ => 0

abbrev hbmTy0_0 (i : Nat) : BufTy := match i % 128 with
  | 0 => ⟨S100000x128, .f32⟩
  | 1 => ⟨S2x1000000, .i32⟩
  | 2 => ⟨S2x1000000, .i32⟩
  | 3 => ⟨S2x1000000, .i32⟩
  | 4 => ⟨S128, .f32⟩
  | 5 => ⟨S128, .f32⟩
  | 6 => ⟨S3x128x64, .f32⟩
  | 7 => ⟨S3x64, .f32⟩
  | 8 => ⟨S3x64x64, .f32⟩
  | 9 => ⟨S3x64, .f32⟩
  | 10 => ⟨S3x64, .f32⟩
  | 11 => ⟨S3x64, .f32⟩
  | 12 => ⟨S_, .f32⟩
  | 13 => ⟨S128, .f32⟩
  | 14 => ⟨S_, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S100000x128, .f32⟩
  | 21 => ⟨S_, .f32⟩
  | 22 => ⟨S128, .f32⟩
  | 23 => ⟨S_, .f32⟩
  | 24 => ⟨S128, .f32⟩
  | 25 => ⟨S128, .f32⟩
  | 26 => ⟨S1x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S128, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S1x1000000, .i32⟩
  | 43 => ⟨S1000000, .i32⟩
  | 44 => ⟨S1x1000000, .i32⟩
  | 45 => ⟨S1000000, .i32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x128, .f32⟩
  | 55 => ⟨S_, .f32⟩
  | 56 => ⟨S100000x128, .f32⟩
  | 57 => ⟨S1000000x1, .i32⟩
  | 58 => ⟨S100000x128, .f32⟩
  | 59 => ⟨S100000x128, .f32⟩
  | 60 => ⟨S1x128x64, .f32⟩
  | 61 => ⟨S128x64, .f32⟩
  | 62 => ⟨S100000x64, .f32⟩
  | 63 => ⟨S1x64, .f32⟩
  | 64 => ⟨S64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S1x64x64, .f32⟩
  | 72 => ⟨S64x64, .f32⟩
  | 73 => ⟨S100000x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S1x64, .f32⟩
  | 80 => ⟨S64, .f32⟩
  | 81 => ⟨S1x64, .f32⟩
  | 82 => ⟨S64, .f32⟩
  | 83 => ⟨S_, .f32⟩
  | 84 => ⟨S64, .f32⟩
  | 85 => ⟨S_, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S100000x64, .f32⟩
  | 92 => ⟨S_, .f32⟩
  | 93 => ⟨S64, .f32⟩
  | 94 => ⟨S_, .f32⟩
  | 95 => ⟨S64, .f32⟩
  | 96 => ⟨S64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S64, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S100000x64, .f32⟩
  | 114 => ⟨S1x1000000, .i32⟩
  | 115 => ⟨S1000000, .i32⟩
  | 116 => ⟨S1x1000000, .i32⟩
  | 117 => ⟨S1000000, .i32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x128, .f32⟩
  | 127 => ⟨S_, .f32⟩
  | _ => ⟨S100000x128, .f32⟩

abbrev hbmTy0_1 (i : Nat) : BufTy := match i % 128 with
  | 0 => ⟨S100000x128, .f32⟩
  | 1 => ⟨S1000000x1, .i32⟩
  | 2 => ⟨S100000x128, .f32⟩
  | 3 => ⟨S100000x128, .f32⟩
  | 4 => ⟨S1x128x64, .f32⟩
  | 5 => ⟨S128x64, .f32⟩
  | 6 => ⟨S100000x64, .f32⟩
  | 7 => ⟨S1x64, .f32⟩
  | 8 => ⟨S64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S1x64x64, .f32⟩
  | 16 => ⟨S64x64, .f32⟩
  | 17 => ⟨S100000x64, .f32⟩
  | 18 => ⟨S1x64, .f32⟩
  | 19 => ⟨S64, .f32⟩
  | 20 => ⟨S1x64, .f32⟩
  | 21 => ⟨S100000x64, .f32⟩
  | 22 => ⟨S100000x64, .f32⟩
  | 23 => ⟨S1x64, .f32⟩
  | 24 => ⟨S64, .f32⟩
  | 25 => ⟨S1x64, .f32⟩
  | 26 => ⟨S64, .f32⟩
  | 27 => ⟨S_, .f32⟩
  | 28 => ⟨S64, .f32⟩
  | 29 => ⟨S_, .f32⟩
  | 30 => ⟨S64, .f32⟩
  | 31 => ⟨S64, .f32⟩
  | 32 => ⟨S1x64, .f32⟩
  | 33 => ⟨S100000x64, .f32⟩
  | 34 => ⟨S100000x64, .f32⟩
  | 35 => ⟨S100000x64, .f32⟩
  | 36 => ⟨S_, .f32⟩
  | 37 => ⟨S64, .f32⟩
  | 38 => ⟨S_, .f32⟩
  | 39 => ⟨S64, .f32⟩
  | 40 => ⟨S64, .f32⟩
  | 41 => ⟨S1x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S_, .f32⟩
  | 48 => ⟨S64, .f32⟩
  | 49 => ⟨S64, .f32⟩
  | 50 => ⟨S64, .f32⟩
  | 51 => ⟨S1x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S100000x64, .f32⟩
  | 58 => ⟨S1x1000000, .i32⟩
  | 59 => ⟨S1000000, .i32⟩
  | 60 => ⟨S1x1000000, .i32⟩
  | 61 => ⟨S1000000, .i32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x128, .f32⟩
  | 71 => ⟨S_, .f32⟩
  | 72 => ⟨S100000x128, .f32⟩
  | 73 => ⟨S1000000x1, .i32⟩
  | 74 => ⟨S100000x128, .f32⟩
  | 75 => ⟨S100000x128, .f32⟩
  | 76 => ⟨S1x128x64, .f32⟩
  | 77 => ⟨S128x64, .f32⟩
  | 78 => ⟨S100000x64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S1x64x64, .f32⟩
  | 88 => ⟨S64x64, .f32⟩
  | 89 => ⟨S100000x64, .f32⟩
  | 90 => ⟨S1x64, .f32⟩
  | 91 => ⟨S64, .f32⟩
  | 92 => ⟨S1x64, .f32⟩
  | 93 => ⟨S100000x64, .f32⟩
  | 94 => ⟨S100000x64, .f32⟩
  | 95 => ⟨S1x64, .f32⟩
  | 96 => ⟨S64, .f32⟩
  | 97 => ⟨S1x64, .f32⟩
  | 98 => ⟨S64, .f32⟩
  | 99 => ⟨S_, .f32⟩
  | 100 => ⟨S64, .f32⟩
  | 101 => ⟨S_, .f32⟩
  | 102 => ⟨S64, .f32⟩
  | 103 => ⟨S64, .f32⟩
  | 104 => ⟨S1x64, .f32⟩
  | 105 => ⟨S100000x64, .f32⟩
  | 106 => ⟨S100000x64, .f32⟩
  | 107 => ⟨S100000x64, .f32⟩
  | 108 => ⟨S_, .f32⟩
  | 109 => ⟨S64, .f32⟩
  | 110 => ⟨S_, .f32⟩
  | 111 => ⟨S64, .f32⟩
  | 112 => ⟨S64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S64, .f32⟩
  | 121 => ⟨S64, .f32⟩
  | 122 => ⟨S64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S100000x128, .f32⟩

abbrev hbmTy0_2 (i : Nat) : BufTy := match i % 128 with
  | 0 => ⟨S100000x64, .f32⟩
  | 1 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_6 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_8 : Ref sig .tc := ⟨.hbm, 92, rfl⟩
abbrev main_v68 : Ref sig .tc := ⟨.hbm, 93, rfl⟩
abbrev main_cst_9 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_10 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_11 : Ref sig .tc := ⟨.hbm, 118, rfl⟩
abbrev main_v91 : Ref sig .tc := ⟨.hbm, 119, rfl⟩
abbrev main_v92 : Ref sig .tc := ⟨.hbm, 120, rfl⟩
abbrev main_c_12 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_13 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_call1_cst : Ref sig .tc := ⟨.hbm, 140, rfl⟩
abbrev main_call1_v0 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_14 : Ref sig .tc := ⟨.hbm, 155, rfl⟩
abbrev main_v123 : Ref sig .tc := ⟨.hbm, 156, rfl⟩
abbrev main_cst_15 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_16 : Ref sig .tc := ⟨.hbm, 164, rfl⟩
abbrev main_v130 : Ref sig .tc := ⟨.hbm, 165, rfl⟩
abbrev main_cst_17 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_18 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_c_19 : Ref sig .tc := ⟨.hbm, 190, rfl⟩
abbrev main_v153 : Ref sig .tc := ⟨.hbm, 191, rfl⟩
abbrev main_v154 : Ref sig .tc := ⟨.hbm, 192, rfl⟩
abbrev main_c_20 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_cst_21 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_call2_cst : Ref sig .tc := ⟨.hbm, 212, rfl⟩
abbrev main_call2_v0 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_cst_22 : Ref sig .tc := ⟨.hbm, 227, rfl⟩
abbrev main_v185 : Ref sig .tc := ⟨.hbm, 228, rfl⟩
abbrev main_cst_23 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_cst_24 : Ref sig .tc := ⟨.hbm, 236, rfl⟩
abbrev main_v192 : Ref sig .tc := ⟨.hbm, 237, rfl⟩
abbrev main_cst_25 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_cst_26 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩

abbrev nD : Nat := 1
abbrev τ : Topo := Topo.v7x

variable {F : FTy → Type} [FloatOps F]

class Facts₀ : Prop where
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  reducesTo_S100000x64_S64_d0 : S100000x64.ReducesTo [0] S64
  bcast_S_S64 : S_.BroadcastsInDim S64 (![] : Fin 0 → Fin S64.rank)
  slices_S3x128x64_S1x128x64_1_0_0 : S3x128x64.Slices ![1, 0, 0] S1x128x64
  slices_S3x64_S1x64_1_0 : S3x64.Slices ![1, 0] S1x64
  slices_S3x64x64_S1x64x64_1_0_0 : S3x64x64.Slices ![1, 0, 0] S1x64x64
  slices_S3x128x64_S1x128x64_2_0_0 : S3x128x64.Slices ![2, 0, 0] S1x128x64
  slices_S3x64_S1x64_2_0 : S3x64.Slices ![2, 0] S1x64
  slices_S3x64x64_S1x64x64_2_0_0 : S3x64x64.Slices ![2, 0, 0] S1x64x64
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The mathematics of the certificate, free of any program.

  Both programs compute, per branch, a batch normalisation of the node features, a neighbourhood sum, a two-layer
  perceptron, a second batch normalisation and a hyperbolic tangent. They differ in how a batch normalisation is
  arranged: one program centres first, `γ·(h − μ)·(σ² + ε)^(−1/2) + β` with `σ² = mean((h − μ)²)`; the other folds the
  statistics into a scale and a shift, `h·s + (β − μ·s)` with `s = γ·(E[h²] − μ² + ε)^(−1/2)`. Over the reals these agree
  because `mean((h − μ)²) = E[h²] − μ²`; over the extended reals the step needs every entry to be a real number, which is
  why realness is carried through every stage (a gather re-indexes, a scatter-add and a contraction are finite sums).
-/
import Idealize.ShloMosaic.PureOps.Ideal
import Idealize.ShloMosaic.PureOps.Ideal.Laws
import Idealize.ShloMosaic.PureOps.Contract
import Idealize.ShloMosaic.PureOps.ShapeOps
import Mathlib.Logic.Equiv.Fin.Basic
import Mathlib.Data.Fintype.BigOperators
import Mathlib.Algebra.BigOperators.Fin

noncomputable section

namespace Cert.Spec

open Idealize.ShloMosaic

/-- An extended real that is a real number. -/
def IsR (a : EReal) : Prop := ∃ r : ℝ, a = (r : EReal)

theorem IsR.add {a b : EReal} (ha : IsR a) (hb : IsR b) : IsR (a + b) := by
  obtain ⟨x, rfl⟩ := ha; obtain ⟨y, rfl⟩ := hb; exact ⟨x + y, (EReal.coe_add x y).symm⟩
theorem IsR.sub {a b : EReal} (ha : IsR a) (hb : IsR b) : IsR (a - b) := by
  obtain ⟨x, rfl⟩ := ha; obtain ⟨y, rfl⟩ := hb; exact ⟨x - y, (EReal.coe_sub x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩
theorem IsR.zero : IsR 0 := ⟨0, rfl⟩
theorem IsR.max {a b : EReal} (ha : IsR a) (hb : IsR b) : IsR (max a b) := by
  rcases max_choice a b with h | h <;> rw [h] <;> assumption
theorem IsR.sum {ι : Type*} (s : Finset ι) (f : ι → EReal) (hf : ∀ i ∈ s, IsR (f i)) : IsR (∑ i ∈ s, f i) := by
  classical
  induction s using Finset.induction_on with
  | empty => simpa using IsR.zero
  | insert a s ha ih =>
    rw [Finset.sum_insert ha]
    exact IsR.add (hf a (Finset.mem_insert_self a s)) (ih fun i hi => hf i (Finset.mem_insert_of_mem hi))
theorem IsR.tanh {a : EReal} (ha : IsR a) : IsR (Ideal.tanh a) := by
  obtain ⟨x, rfl⟩ := ha; exact ⟨Real.tanh x, rfl⟩

/-- The float word of the node count, and of the variance offset. -/
abbrev nLit : EReal := Ideal.ofBits .f32 0x47C35000#32
abbrev epsLit : EReal := Ideal.ofBits .f32 0x3727C5AC#32

/-- The first word denotes the real 100000. -/
theorem nLit_eq : nLit = ((100000 : ℝ) : EReal) := by
  -- sign 0, exponent 143, fraction 0x435000: (2^23 + 0x435000) · 2^(143 − 127 − 23) = 12800000 / 2^7
  simp [Ideal.ofBits, Ideal.ieee, -EReal.coe_mul]
  norm_num
/-- The second denotes a positive real. -/
theorem epsLit_pos : ∃ e : ℝ, 0 < e ∧ epsLit = (e : EReal) := by
  -- sign 0, exponent 110, fraction 0x27C5AC: a normal number, (2^23 + 0x27C5AC) · 2^(110 − 127 − 23)
  refine ⟨(2 ^ 23 + 0x27C5AC : ℕ) * (2 : ℝ) ^ ((110 : ℤ) - 127 - 23), by positivity, ?_⟩
  simp [Ideal.ofBits, Ideal.ieee, -EReal.coe_mul]

/-! ## Batch normalisation over the rows, in the two arrangements -/

section BN
variable {N C : ℕ}

/-- Centred arrangement: the column mean as a host sum from zero divided by the count. -/
def meanR (h : Fin N → Fin C → EReal) (k : Fin C) : EReal := Ideal.div (0 + ∑ r : Fin N, h r k) nLit
def varR (h : Fin N → Fin C → EReal) (k : Fin C) : EReal :=
  Ideal.div (0 + ∑ r : Fin N, (h r k - meanR h k) * (h r k - meanR h k)) nLit
def bnR (h : Fin N → Fin C → EReal) (γ β : Fin C → EReal) (r : Fin N) (k : Fin C) : EReal :=
  γ k * (h r k - meanR h k) * Ideal.rsqrt (varR h k + epsLit) + β k

/-- Scale-and-shift arrangement, from the column sums of `h` and of `h²`. -/
def meanK (h : Fin N → Fin C → EReal) (k : Fin C) : EReal := Ideal.div (∑ r : Fin N, h r k) nLit
def varK (h : Fin N → Fin C → EReal) (k : Fin C) : EReal :=
  Ideal.div (∑ r : Fin N, h r k * h r k) nLit - meanK h k * meanK h k
def scaleK (h : Fin N → Fin C → EReal) (γ : Fin C → EReal) (k : Fin C) : EReal := γ k * Ideal.rsqrt (varK h k + epsLit)
def shiftK (h : Fin N → Fin C → EReal) (γ β : Fin C → EReal) (k : Fin C) : EReal := β k - meanK h k * scaleK h γ k
def bnK (h : Fin N → Fin C → EReal) (γ β : Fin C → EReal) (r : Fin N) (k : Fin C) : EReal :=
  h r k * scaleK h γ k + shiftK h γ β k

/-! ### Over the reals -/

/-- A finite sum of coerced reals is the coerced sum. -/
theorem ereal_sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mean of the squared deviations is the mean of the squares less the squared mean, when `c` is the
    reciprocal of the number of summands. -/
theorem mean_sq_dev_eq {n : ℕ} (a : Fin n → ℝ) (c : ℝ) (hc : (n : ℝ) * c = 1) :
    (∑ r, (a r - (∑ r, a r) * c) * (a r - (∑ r, a r) * c)) * c
      = (∑ r, a r * a r) * c - ((∑ r, a r) * c) * ((∑ r, a r) * c) := by
  set S := ∑ r, a r with hS
  have h1 : ∑ r, (a r - S * c) * (a r - S * c)
      = (∑ r, a r * a r) - 2 * (S * c) * S + (n : ℝ) * ((S * c) * (S * c)) := by
    have : ∀ r, (a r - S * c) * (a r - S * c) = a r * a r - 2 * (S * c) * a r + (S * c) * (S * c) := fun r => by ring
    simp only [this, Finset.sum_add_distrib, Finset.sum_sub_distrib, ← Finset.mul_sum, Finset.sum_const,
      Finset.card_univ, Fintype.card_fin, nsmul_eq_mul, ← hS]
    ring
  rw [h1]
  have h2 : (n : ℝ) * (S * c * (S * c)) * c = S * c * (S * c) * ((n : ℝ) * c) := by ring
  have : ((∑ r, a r * a r) - 2 * (S * c) * S + (n : ℝ) * ((S * c) * (S * c))) * c
      = (∑ r, a r * a r) * c - 2 * (S * c) * (S * c) + (n : ℝ) * (S * c * (S * c)) * c := by ring
  rw [this, h2, hc]; ring

/-- A scaled sum of squares is not negative. -/
theorem var_nonneg {n : ℕ} (a : Fin n → ℝ) (m c : ℝ) (hc : 0 ≤ c) :
    0 ≤ (∑ r, (a r - m) * (a r - m)) * c :=
  mul_nonneg (Finset.sum_nonneg fun r _ => mul_self_nonneg _) hc

/-! ### The statistics of an array of reals, as coerced reals -/

theorem meanK_coe (a : Fin N → Fin C → ℝ) (k : Fin C) :
    meanK (fun r k => ((a r k : ℝ) : EReal)) k = (((∑ r, a r k) * (1 / 100000 : ℝ) : ℝ) : EReal) := by
  simp only [meanK]
  rw [nLit_eq, Ideal.div_coe (by norm_num), ereal_sum_coe, ← EReal.coe_mul]

theorem meanR_coe (a : Fin N → Fin C → ℝ) (k : Fin C) :
    meanR (fun r k => ((a r k : ℝ) : EReal)) k = (((∑ r, a r k) * (1 / 100000 : ℝ) : ℝ) : EReal) := by
  simp only [meanR]
  rw [nLit_eq, Ideal.div_coe (by norm_num), zero_add, ereal_sum_coe, ← EReal.coe_mul]

theorem varK_coe (a : Fin N → Fin C → ℝ) (k : Fin C) :
    varK (fun r k => ((a r k : ℝ) : EReal)) k
      = (((∑ r, a r k * a r k) * (1 / 100000 : ℝ)
          - ((∑ r, a r k) * (1 / 100000 : ℝ)) * ((∑ r, a r k) * (1 / 100000 : ℝ)) : ℝ) : EReal) := by
  simp only [varK]
  rw [meanK_coe, nLit_eq, Ideal.div_coe (by norm_num)]
  simp only [← EReal.coe_mul, ereal_sum_coe, ← EReal.coe_sub]

theorem varR_coe (a : Fin N → Fin C → ℝ) (k : Fin C) :
    varR (fun r k => ((a r k : ℝ) : EReal)) k
      = (((∑ r, (a r k - (∑ r, a r k) * (1 / 100000 : ℝ)) * (a r k - (∑ r, a r k) * (1 / 100000 : ℝ)))
          * (1 / 100000 : ℝ) : ℝ) : EReal) := by
  simp only [varR]
  rw [meanR_coe, nLit_eq, Ideal.div_coe (by norm_num), zero_add]
  simp only [← EReal.coe_sub, ← EReal.coe_mul, ereal_sum_coe]

/-- With as many rows as the count word says, the two variances are the same real. -/
theorem varK_eq_varR (hN : N = 100000) (a : Fin N → Fin C → ℝ) (k : Fin C) :
    varK (fun r k => ((a r k : ℝ) : EReal)) k = varR (fun r k => ((a r k : ℝ) : EReal)) k := by
  have hc : (N : ℝ) * (1 / 100000 : ℝ) = 1 := by rw [hN]; norm_num
  rw [varK_coe, varR_coe]
  exact congrArg _ (mean_sq_dev_eq (fun r => a r k) _ hc).symm

/-- The variance plus a positive offset is a positive real, so its reciprocal root is a real. -/
theorem rsqrt_varR_coe (a : Fin N → Fin C → ℝ) (k : Fin C) (e : ℝ) (he : 0 < e) :
    ∃ R : ℝ, Ideal.rsqrt (varR (fun r k => ((a r k : ℝ) : EReal)) k + (e : EReal)) = (R : EReal) := by
  rw [varR_coe, ← EReal.coe_add, Ideal.rsqrt_coe]
  have hpos : 0 < (∑ r, (a r k - (∑ r, a r k) * (1 / 100000 : ℝ)) * (a r k - (∑ r, a r k) * (1 / 100000 : ℝ)))
      * (1 / 100000 : ℝ) + e :=
    add_pos_of_nonneg_of_pos (var_nonneg (fun r => a r k) _ _ (by norm_num)) he
  rw [if_neg (not_lt.mpr hpos.le), if_neg hpos.ne']
  exact ⟨_, rfl⟩

/-- The two arrangements agree on real entries when the count word is the number of rows. -/
theorem bnK_eq_bnR (hN : N = 100000) (h : Fin N → Fin C → EReal) (γ β : Fin C → EReal)
    (hh : ∀ r k, IsR (h r k)) (hγ : ∀ k, IsR (γ k)) (hβ : ∀ k, IsR (β k)) (r : Fin N) (k : Fin C) :
    bnK h γ β r k = bnR h γ β r k := by
  have hh' : ∀ r k, ∃ x : ℝ, h r k = (x : EReal) := hh
  have hγ' : ∀ k, ∃ x : ℝ, γ k = (x : EReal) := hγ
  have hβ' : ∀ k, ∃ x : ℝ, β k = (x : EReal) := hβ
  choose a ha using hh'
  choose g hg using hγ'
  choose b hb using hβ'
  obtain rfl : h = fun r k => ((a r k : ℝ) : EReal) := funext fun r => funext fun k => ha r k
  obtain rfl : γ = fun k => ((g k : ℝ) : EReal) := funext hg
  obtain rfl : β = fun k => ((b k : ℝ) : EReal) := funext hb
  obtain ⟨e, he, hE⟩ := epsLit_pos
  obtain ⟨R, hR⟩ := rsqrt_varR_coe a k e he
  simp only [bnK, bnR, shiftK, scaleK]
  rw [varK_eq_varR hN, meanK_coe, meanR_coe, hE, hR]
  -- h·(g·R) + (b − m·(g·R)) = g·(h − m)·R + b over the reals
  simp only [← EReal.coe_mul, ← EReal.coe_sub, ← EReal.coe_add]
  exact congrArg _ (by ring)

/-- A normalised real array is real. -/
theorem bnR_isR (hN : N = 100000) (h : Fin N → Fin C → EReal) (γ β : Fin C → EReal)
    (hh : ∀ r k, IsR (h r k)) (hγ : ∀ k, IsR (γ k)) (hβ : ∀ k, IsR (β k)) (r : Fin N) (k : Fin C) :
    IsR (bnR h γ β r k) := by
  have hh' : ∀ r k, ∃ x : ℝ, h r k = (x : EReal) := hh
  choose a ha using hh'
  obtain rfl : h = fun r k => ((a r k : ℝ) : EReal) := funext fun r => funext fun k => ha r k
  obtain ⟨e, he, hE⟩ := epsLit_pos
  obtain ⟨R, hR⟩ := rsqrt_varR_coe a k e he
  simp only [bnR]
  rw [meanR_coe, hE, hR]
  exact IsR.add (IsR.mul (IsR.mul (hγ k) (IsR.sub ⟨_, rfl⟩ ⟨_, rfl⟩)) ⟨R, rfl⟩) (hβ k)
end BN

/-! ## The perceptron -/

/-- Two dense layers with a rectifier between them, on `xn + agg`. -/
def mlp {N : ℕ} (xn agg : Fin N → Fin 128 → EReal) (W1 : Fin 128 → Fin 64 → EReal) (b1 : Fin 64 → EReal)
    (W2 : Fin 64 → Fin 64 → EReal) (b2 : Fin 64 → EReal) (r : Fin N) (k : Fin 64) : EReal :=
  (∑ j : Fin 64, max ((∑ i : Fin 128, (xn r i + agg r i) * W1 i j) + b1 j) 0 * W2 j k) + b2 k

theorem mlp_isR {N : ℕ} (xn agg : Fin N → Fin 128 → EReal) (W1 : Fin 128 → Fin 64 → EReal) (b1 : Fin 64 → EReal)
    (W2 : Fin 64 → Fin 64 → EReal) (b2 : Fin 64 → EReal)
    (hx : ∀ r i, IsR (xn r i)) (ha : ∀ r i, IsR (agg r i)) (hW1 : ∀ i j, IsR (W1 i j)) (hb1 : ∀ j, IsR (b1 j))
    (hW2 : ∀ j k, IsR (W2 j k)) (hb2 : ∀ k, IsR (b2 k)) (r : Fin N) (k : Fin 64) :
    IsR (mlp xn agg W1 b1 W2 b2 r k) := by
  unfold mlp
  exact IsR.add
    (IsR.sum _ _ fun j _ =>
      IsR.mul
        (IsR.max (IsR.add (IsR.sum _ _ fun i _ => IsR.mul (IsR.add (hx r i) (ha r i)) (hW1 i j)) (hb1 j)) IsR.zero)
        (hW2 j k))
    (hb2 k)

/-! ## The neighbourhood sum keeps real entries real -/

theorem gather_isR {s si t : Shape} {w : ℕ} (d : GatherDims s si t) (x : s.Idx → EReal) (idx : IVec si w)
    (hx : ∀ i, IsR (x i)) (j : t.Idx) : IsR (Host.gather d x idx j) := hx _

theorem scatterAdd_isR {s si u : Shape} {w : ℕ} (d : ScatterDims s si u) (x : FVec Ideal s .f32) (idx : IVec si w)
    (upd : FVec Ideal u .f32) (hx : ∀ i, IsR (x i)) (hu : ∀ j, IsR (upd j)) (i : s.Idx) :
    IsR (Host.scatterAdd d x idx upd i) := by
  -- each element plus the finite sum of the updates that land on it
  show IsR (Ideal.hostScatterAdd d x idx upd i)
  unfold Ideal.hostScatterAdd
  exact IsR.add (hx i) (IsR.sum _ _ fun j _ => hu j)

/-! ## A sum over all rows, block by block -/

theorem sum_blocks {T B : ℕ} (f : Fin (T * B) → EReal) :
    ∑ t : Fin T, ∑ q : Fin B, f ⟨t.val * B + q.val, by
      have := t.isLt; have := q.isLt; nlinarith [Nat.mul_le_mul_right B (Nat.succ_le_of_lt t.isLt)]⟩ = ∑ r : Fin (T * B), f r := by
  -- the pairs (block, offset) enumerate the rows once each
  rw [← (finProdFinEquiv (m := T) (n := B)).sum_comp f, Fintype.sum_prod_type]
  refine Finset.sum_congr rfl fun t _ => Finset.sum_congr rfl fun q _ => congrArg f (Fin.ext ?_)
  simp only [finProdFinEquiv_apply_val]
  rw [Nat.mul_comm, Nat.add_comm]

/-! ## A branch's result in the two arrangements -/

/-- One branch's result with the closing normalisation centred. -/
def outR {N : ℕ} (xn agg : Fin N → Fin 128 → EReal) (W1 : Fin 128 → Fin 64 → EReal) (b1 : Fin 64 → EReal)
    (W2 : Fin 64 → Fin 64 → EReal) (b2 γ β : Fin 64 → EReal) (r : Fin N) (k : Fin 64) : EReal :=
  Ideal.tanh (bnR (mlp xn agg W1 b1 W2 b2) γ β r k)

/-- The same with the closing normalisation as a scale and a shift. -/
def outK {N : ℕ} (xn agg : Fin N → Fin 128 → EReal) (W1 : Fin 128 → Fin 64 → EReal) (b1 : Fin 64 → EReal)
    (W2 : Fin 64 → Fin 64 → EReal) (b2 γ β : Fin 64 → EReal) (r : Fin N) (k : Fin 64) : EReal :=
  Ideal.tanh (bnK (mlp xn agg W1 b1 W2 b2) γ β r k)

end Cert.Spec

end
-- ==== Proof.R2Pay.lean ====
/-
  The arithmetic of the perceptron call's body on one row block, read entry by entry on the extended reals: the block's
  perceptron values, and the two running rows after the block's column sums are added.
-/
import proofs.«107533_j36429912605472_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R2Pay

open Cert.KernelIdeal Cert.KernelIdeal.Gen
open Idealize.ShloMosaic Idealize.ShloMosaic.ValueIdx

/-! ## The two products of a block: which operand entries meet at a contraction coordinate -/

/-! The first product contracts the 128 input features: of the left operand's index the row is the output's row and the
column the contraction coordinate; of the right operand's index the row is the contraction coordinate and the column
the output's column. -/

theorem lhsIn_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsIn_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsIn_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsIn_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The first product into the zero block, at row `p` and column `j`: the sum over the 128 input features. -/
theorem matmulIn_apply (x : FVec Ideal S5000x128 .bf16) (w : FVec Ideal S128x64 .bf16) (p : Fin 5000) (j : Fin 64) :
    matmul dot_S5000x128_S128x64_S5000x64_1_0_0_1_n_n none x w (constant (F := Ideal) S5000x64 .f32 0x00000000#32) (ix2 p j)
      = ∑ i : Fin 128, x (ix2 p i) * w (ix2 i j) := by
  simp only [matmul]
  rw [Ideal.matmul_constant_zero_apply, ← Equiv.sum_comp (contrEquiv1 dot_S5000x128_S128x64_S5000x64_1_0_0_1_n_n 128 rfl rfl).symm]
  refine Finset.sum_congr rfl fun c _ => ?_
  have hc := contrEquiv1_symm_val dot_S5000x128_S128x64_S5000x64_1_0_0_1_n_n 128 rfl rfl c
  have el : dot_S5000x128_S128x64_S5000x64_1_0_0_1_n_n.lhsIdx (ix2 p j) ((contrEquiv1 dot_S5000x128_S128x64_S5000x64_1_0_0_1_n_n 128 rfl rfl).symm c) = ix2 p c := funext fun a => Fin.ext (by
    match a with
    | ⟨0, _⟩ => exact lhsIn_0 _ _
    | ⟨1, _⟩ => exact (lhsIn_1 _ _).trans hc)
  have er : dot_S5000x128_S128x64_S5000x64_1_0_0_1_n_n.rhsIdx (ix2 p j) ((contrEquiv1 dot_S5000x128_S128x64_S5000x64_1_0_0_1_n_n 128 rfl rfl).symm c) = ix2 c j := funext fun a => Fin.ext (by
    match a with
    | ⟨0, _⟩ => exact (rhsIn_0 _ _).trans hc
    | ⟨1, _⟩ => exact rhsIn_1 _ _)
  rw [el, er]

/-! The second product contracts the 64 hidden features, in the same way. -/

theorem lhsHid_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsHid_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsHid_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsHid_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The second product into the zero block, at row `p` and column `j`: the sum over the 64 hidden features. -/
theorem matmulHid_apply (x : FVec Ideal S5000x64 .bf16) (w : FVec Ideal S64x64 .bf16) (p : Fin 5000) (j : Fin 64) :
    matmul dot_S5000x64_S64x64_S5000x64_1_0_0_1_n_n none x w (constant (F := Ideal) S5000x64 .f32 0x00000000#32) (ix2 p j)
      = ∑ i : Fin 64, x (ix2 p i) * w (ix2 i j) := by
  simp only [matmul]
  rw [Ideal.matmul_constant_zero_apply, ← Equiv.sum_comp (contrEquiv1 dot_S5000x64_S64x64_S5000x64_1_0_0_1_n_n 64 rfl rfl).symm]
  refine Finset.sum_congr rfl fun c _ => ?_
  have hc := contrEquiv1_symm_val dot_S5000x64_S64x64_S5000x64_1_0_0_1_n_n 64 rfl rfl c
  have el : dot_S5000x64_S64x64_S5000x64_1_0_0_1_n_n.lhsIdx (ix2 p j) ((contrEquiv1 dot_S5000x64_S64x64_S5000x64_1_0_0_1_n_n 64 rfl rfl).symm c) = ix2 p c := funext fun a => Fin.ext (by
    match a with
    | ⟨0, _⟩ => exact lhsHid_0 _ _
    | ⟨1, _⟩ => exact (lhsHid_1 _ _).trans hc)
  have er : dot_S5000x64_S64x64_S5000x64_1_0_0_1_n_n.rhsIdx (ix2 p j) ((contrEquiv1 dot_S5000x64_S64x64_S5000x64_1_0_0_1_n_n 64 rfl rfl).symm c) = ix2 c j := funext fun a => Fin.ext (by
    match a with
    | ⟨0, _⟩ => exact (rhsHid_0 _ _).trans hc
    | ⟨1, _⟩ => exact rhsHid_1 _ _)
  rw [el, er]

/-! ## Column sums of a block -/

/-- The sum of a block over its rows, laid out as a one-row array: at column `k` it is the sum of the block's column `k`. -/
theorem colsum_apply (x : FVec Ideal S5000x64 .f32) (u : Fin 1) (k : Fin 64) :
    shapeCast S1x64 (multiReduction (F := Ideal) .add [0] S64 x 0x00000000#32 reduces_S5000x64_S64 (.inl rfl) rfl)
        shapeCasts_S64_S1x64 (ix2 u k)
      = ∑ p : Fin 5000, x (ix2 p k) := by
  rw [shapeCast_a_1a_apply]
  refine (Ideal.multiReduction_add_single x 0x00000000#32 reduces_S5000x64_S64 (.inl rfl) rfl (ix1 k)).trans ?_
  refine Finset.sum_congr rfl fun p _ => congrArg x (funext fun a => ?_)
  match a with
  | ⟨0, _⟩ => rfl
  | ⟨1, _⟩ => rfl

/-! ## The payloads -/

/-- The block's perceptron values: `relu((x + a)·W1 + b1)·W2 + b2` at row `p`, column `k`. -/
theorem pay4_apply (v3 v5 : Vec Ideal S5000x128 .f32) (v9 : Vec Ideal S128x64 .bf16) (v12 : Vec Ideal S1x64 .f32)
    (v19 : Vec Ideal S64x64 .bf16) (v22 : Vec Ideal S1x64 .f32) (p : Fin 5000) (k : Fin 64) :
    k2_pay4 (F := Ideal) v3 v5 v9 v12 v19 v22 (ix2 p k)
      = (∑ j : Fin 64, max ((∑ i : Fin 128, (v3 (ix2 p i) + v5 (ix2 p i)) * v9 (ix2 i j)) + v12 (ix2 0 j)) 0
          * v19 (ix2 j k)) + v22 (ix2 0 k) := by
  unfold k2_pay4
  simp only [shapeCast_self]
  rw [addf_apply, broadcastTo_1b_ab_apply, matmulHid_apply]
  refine congrArg (· + v22 (ix2 0 k)) (Finset.sum_congr rfl fun j _ => ?_)
  rw [truncf_apply, maximumf_apply, addf_apply, broadcast_apply, broadcastTo_1b_ab_apply, matmulIn_apply,
    Ideal.ofBits_def, Ideal.ofBits_zero_f32]
  refine congrArg (fun t => max (t + v12 (ix2 0 j)) 0 * v19 (ix2 j k)) (Finset.sum_congr rfl fun i _ => ?_)
  rw [truncf_apply, addf_apply]

/-- The running row of sums after the block: the row before plus the block's column sums. -/
theorem pay5_apply (v3 v5 : Vec Ideal S5000x128 .f32) (v9 : Vec Ideal S128x64 .bf16) (v12 : Vec Ideal S1x64 .f32)
    (v19 : Vec Ideal S64x64 .bf16) (v22 : Vec Ideal S1x64 .f32) (v27 : Vec Ideal S1x64 .f32) (k : Fin 64) :
    k2_pay5 (F := Ideal) v3 v5 v9 v12 v19 v22 v27 (ix2 0 k)
      = v27 (ix2 0 k) + ∑ p : Fin 5000, k2_pay4 (F := Ideal) v3 v5 v9 v12 v19 v22 (ix2 p k) := by
  unfold k2_pay5
  rw [addf_apply, shapeCast_self, colsum_apply]

/-- The running row of sums of squares after the block. -/
theorem pay1_apply (v25 : FVec Ideal S5000x64 .f32) (v33 : Vec Ideal S1x64 .f32) (k : Fin 64) :
    k2_pay1 (F := Ideal) v25 v33 (ix2 0 k) = v33 (ix2 0 k) + ∑ p : Fin 5000, v25 (ix2 p k) * v25 (ix2 p k) := by
  unfold k2_pay1
  rw [addf_apply, shapeCast_self, colsum_apply]
  refine congrArg (v33 (ix2 0 k) + ·) (Finset.sum_congr rfl fun p _ => ?_)
  rw [mulf_apply]

/-- The two rows a first block starts from are zero. -/
theorem pay2_apply (k : Fin 64) : k2_pay2 (F := Ideal) (ix2 0 k) = 0 := by
  unfold k2_pay2
  rw [broadcast_apply, Ideal.ofBits_def, Ideal.ofBits_zero_f32]
theorem pay3_apply (k : Fin 64) : k2_pay3 (F := Ideal) (ix2 0 k) = 0 := by
  unfold k2_pay3
  rw [broadcast_apply, Ideal.ofBits_def, Ideal.ofBits_zero_f32]

end Cert.KernelIdeal.R2Pay

end
-- ==== Proof.R2.lean ====
/-
  The perceptron call of a branch: over twenty row blocks it computes `relu((xn + agg)·W1 + b1)·W2 + b2` for the block's
  rows (a change of float format is the identity on the extended reals, and a matrix product into a zero accumulator is
  the plain contraction), writes the block out, and accumulates per column the sum of the block's entries and of their
  squares from zero. So the result array is the perceptron of the whole arrays, and the two rows its column sums.

  The order of the argument: what one run of the body leaves in each result buffer, as the body's arithmetic of the
  buffers it reads; the operand blocks of a point read off the arrays (row `p` of block `t` is row `5000 t + p`);
  by induction on the point, the block buffer holds the perceptron's rows of the point's block and the two running
  rows hold the column sums over the rows of the blocks so far; the block written back by point `t` is block `t` of the
  perceptron array and row `r` is written by point `r / 5000`; the running rows are written back once, after the last
  block, when the sums over twenty blocks of five thousand rows are the sums over all hundred thousand rows.
-/
import proofs.«107533_j36429912605472_1_alg».proof.Proof.Gen.KernelIdeal.Frame
import proofs.«107533_j36429912605472_1_alg».proof.Proof.R2Pay
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.R2

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

/-! ## What one run of the body leaves in each result buffer -/

section Pieces

variable {F : FTy → Type} [FloatOps F]

/-- Every store and load of the body sits at offset zero of its buffer. -/
theorem hz : (![0, 0] : Fin 2 → Nat) = fun _ => 0 := funext fun a => by fin_cases a <;> rfl

/-- A later point leaves in the block buffer the perceptron values of the point's operand blocks. -/
theorem out_B_6 (c : Dev nD) (i : grid2.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : ¬cond2_0 i)
    (xa : Vec F S5000x128 .f32) (xb : Vec F S5000x128 .f32) (xc : Vec F S128x64 .bf16) (xd : Vec F S1x64 .f32) (xe : Vec F S64x64 .bf16) (xf : Vec F S1x64 .f32) (ya yb : Vec F S1x64 .f32) :
    out2_B_6 c i ma wa mb wb mc wc md wd me we mf wf mg wg mh wh mi wi hc xa xb xc xd xe xf ya yb = k2_pay4 xa xb xc xd xe xf := by
  unfold out2_B_6
  rw [View.read_writes_eq_canon _ _ _ (cover2_B_6 c i ma wa mb wb mc wc md wd me we mf wf mg wg mh wh mi wi hc xa xb xc xd xe xf ya yb)]
  unfold kernelRun2_B
  dsimp only
  sl_unfold_words
  rw [View.canon_unit_zero hz]
  simp only [View.readAt_eq_ld, wa.read_unread, wb.read_unread, wc.read_unread, wd.read_unread, we.read_unread, wf.read_unread,
    View.ld_unit_zero (S := S5000x128) hz, View.ld_unit_zero (S := S128x64) hz, View.ld_unit_zero (S := S64x64) hz,
    View.ld_unit_zero (S := S1x64) hz, View.ld_unit_zero (S := S5000x64) hz]

/-- A later point adds the block's column sums to the first running row. -/
theorem out_B_7 (c : Dev nD) (i : grid2.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : ¬cond2_0 i)
    (xa : Vec F S5000x128 .f32) (xb : Vec F S5000x128 .f32) (xc : Vec F S128x64 .bf16) (xd : Vec F S1x64 .f32) (xe : Vec F S64x64 .bf16) (xf : Vec F S1x64 .f32) (ya yb : Vec F S1x64 .f32) :
    out2_B_7 c i ma wa mb wb mc wc md wd me we mf wf mg wg mh wh mi wi hc xa xb xc xd xe xf ya yb = k2_pay5 xa xb xc xd xe xf ya := by
  unfold out2_B_7
  rw [View.read_writes_eq_canon _ _ _ (cover2_B_7 c i ma wa mb wb mc wc md wd me we mf wf mg wg mh wh mi wi hc xa xb xc xd xe xf ya yb)]
  unfold kernelRun2_B
  dsimp only
  sl_unfold_words
  rw [View.canon_unit_zero hz]
  simp only [View.readAt_eq_ld, wa.read_unread, wb.read_unread, wc.read_unread, wd.read_unread, we.read_unread, wf.read_unread, wh.read_unread,
    View.ld_unit_zero (S := S5000x128) hz, View.ld_unit_zero (S := S128x64) hz, View.ld_unit_zero (S := S64x64) hz,
    View.ld_unit_zero (S := S1x64) hz, View.ld_unit_zero (S := S5000x64) hz]

/-- A later point adds the column sums of the block's squares to the second running row. -/
theorem out_B_8 (c : Dev nD) (i : grid2.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : ¬cond2_0 i)
    (xa : Vec F S5000x128 .f32) (xb : Vec F S5000x128 .f32) (xc : Vec F S128x64 .bf16) (xd : Vec F S1x64 .f32) (xe : Vec F S64x64 .bf16) (xf : Vec F S1x64 .f32) (ya yb : Vec F S1x64 .f32) :
    out2_B_8 c i ma wa mb wb mc wc md wd me we mf wf mg wg mh wh mi wi hc xa xb xc xd xe xf ya yb = k2_pay1 (k2_pay4 xa xb xc xd xe xf) yb := by
  unfold out2_B_8
  rw [View.read_writes_eq_canon _ _ _ (cover2_B_8 c i ma wa mb wb mc wc md wd me we mf wf mg wg mh wh mi wi hc xa xb xc xd xe xf ya yb)]
  unfold kernelRun2_B
  dsimp only
  sl_unfold_words
  rw [View.canon_unit_zero hz]
  simp only [View.readAt_eq_ld, wa.read_unread, wb.read_unread, wc.read_unread, wd.read_unread, we.read_unread, wf.read_unread, wi.read_unread,
    View.ld_unit_zero (S := S5000x128) hz, View.ld_unit_zero (S := S128x64) hz, View.ld_unit_zero (S := S64x64) hz,
    View.ld_unit_zero (S := S1x64) hz, View.ld_unit_zero (S := S5000x64) hz]

/-- The first point leaves the same block values. -/
theorem out_A_6 (c : Dev nD) (i : grid2.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : cond2_0 i)
    (xa : Vec F S5000x128 .f32) (xb : Vec F S5000x128 .f32) (xc : Vec F S128x64 .bf16) (xd : Vec F S1x64 .f32) (xe : Vec F S64x64 .bf16) (xf : Vec F S1x64 .f32) :
    out2_A_6 c i ma wa mb wb mc wc md wd me we mf wf mg wg mh wh mi wi hc xa xb xc xd xe xf = k2_pay4 xa xb xc xd xe xf := by
  unfold out2_A_6
  rw [View.read_writes_eq_canon _ _ _ (cover2_A_6 c i ma wa mb wb mc wc md wd me we mf wf mg wg mh wh mi wi hc xa xb xc xd xe xf)]
  unfold kernelRun2_A
  dsimp only
  sl_unfold_words
  rw [View.canon_unit_zero hz]
  simp only [View.readAt_eq_ld, wa.read_unread, wb.read_unread, wc.read_unread, wd.read_unread, we.read_unread, wf.read_unread,
    View.ld_unit_zero (S := S5000x128) hz, View.ld_unit_zero (S := S128x64) hz, View.ld_unit_zero (S := S64x64) hz,
    View.ld_unit_zero (S := S1x64) hz, View.ld_unit_zero (S := S5000x64) hz]

/-- The first point stores the zero row, reads it back and adds the block's column sums to it. -/
theorem out_A_7 (c : Dev nD) (i : grid2.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : cond2_0 i)
    (xa : Vec F S5000x128 .f32) (xb : Vec F S5000x128 .f32) (xc : Vec F S128x64 .bf16) (xd : Vec F S1x64 .f32) (xe : Vec F S64x64 .bf16) (xf : Vec F S1x64 .f32) :
    out2_A_7 c i ma wa mb wb mc wc md wd me we mf wf mg wg mh wh mi wi hc xa xb xc xd xe xf = k2_pay5 xa xb xc xd xe xf k2_pay2 := by
  unfold out2_A_7
  rw [View.read_writes_eq_canon _ _ _ (cover2_A_7 c i ma wa mb wb mc wc md wd me we mf wf mg wg mh wh mi wi hc xa xb xc xd xe xf)]
  unfold kernelRun2_A
  dsimp only
  sl_unfold_words
  rw [View.canon_cons_unit_zero (S := S1x64) hz]
  simp only [View.readAt_eq_ld, wa.read_unread, wb.read_unread, wc.read_unread, wd.read_unread, we.read_unread, wf.read_unread, View.readCov_unit_zero (S := S1x64) _ hz,
    View.ld_unit_zero (S := S5000x128) hz, View.ld_unit_zero (S := S128x64) hz, View.ld_unit_zero (S := S64x64) hz,
    View.ld_unit_zero (S := S1x64) hz, View.ld_unit_zero (S := S5000x64) hz]

/-- The first point does the same with the squares. -/
theorem out_A_8 (c : Dev nD) (i : grid2.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : cond2_0 i)
    (xa : Vec F S5000x128 .f32) (xb : Vec F S5000x128 .f32) (xc : Vec F S128x64 .bf16) (xd : Vec F S1x64 .f32) (xe : Vec F S64x64 .bf16) (xf : Vec F S1x64 .f32) :
    out2_A_8 c i ma wa mb wb mc wc md wd me we mf wf mg wg mh wh mi wi hc xa xb xc xd xe xf = k2_pay1 (k2_pay4 xa xb xc xd xe xf) k2_pay3 := by
  unfold out2_A_8
  rw [View.read_writes_eq_canon _ _ _ (cover2_A_8 c i ma wa mb wb mc wc md wd me we mf wf mg wg mh wh mi wi hc xa xb xc xd xe xf)]
  unfold kernelRun2_A
  dsimp only
  sl_unfold_words
  rw [View.canon_cons_unit_zero (S := S1x64) hz]
  simp only [View.readAt_eq_ld, wa.read_unread, wb.read_unread, wc.read_unread, wd.read_unread, we.read_unread, wf.read_unread, View.readCov_unit_zero (S := S1x64) _ hz,
    View.ld_unit_zero (S := S5000x128) hz, View.ld_unit_zero (S := S128x64) hz, View.ld_unit_zero (S := S64x64) hz,
    View.ld_unit_zero (S := S1x64) hz, View.ld_unit_zero (S := S5000x64) hz]

end Pieces

/-! ## Sums over the rows, block by block -/

/-- Row `p` of block `s`. -/
def row (s : Fin 20) (p : Fin 5000) : Fin 100000 :=
  ⟨5000 * s.val + p.val, by have := s.isLt; have := p.isLt; omega⟩

/-- The sum of `f` over the rows of block `s` (zero past the last block). -/
def blockSum (f : Fin 100000 → EReal) (s : ℕ) : EReal :=
  if hs : s < 20 then ∑ p : Fin 5000, f (row ⟨s, hs⟩ p) else 0

theorem blockSum_of_lt (f : Fin 100000 → EReal) (s : ℕ) (hs : s < 20) :
    blockSum f s = ∑ p : Fin 5000, f (row ⟨s, hs⟩ p) := dif_pos hs

/-- The sum of `f` over the rows of blocks `0 … n`. -/
def runSum (f : Fin 100000 → EReal) (n : ℕ) : EReal := ∑ s ∈ Finset.range (n + 1), blockSum f s

theorem runSum_zero (f : Fin 100000 → EReal) : runSum f 0 = blockSum f 0 := Finset.sum_range_one _

theorem runSum_succ (f : Fin 100000 → EReal) (n : ℕ) : runSum f (n + 1) = runSum f n + blockSum f (n + 1) :=
  Finset.sum_range_succ _ (n + 1)

/-- The twenty blocks of five thousand rows are the hundred thousand rows. -/
def rowEquiv : Fin 20 × Fin 5000 ≃ Fin 100000 := finProdFinEquiv.trans (finCongr (by norm_num))

theorem rowEquiv_apply (x : Fin 20 × Fin 5000) : rowEquiv x = row x.1 x.2 :=
  Fin.ext (by show x.2.val + 5000 * x.1.val = 5000 * x.1.val + x.2.val; omega)

/-- After the last block the running sum is the sum over all rows. -/
theorem runSum_last (f : Fin 100000 → EReal) : runSum f 19 = ∑ r : Fin 100000, f r := by
  show ∑ s ∈ Finset.range 20, blockSum f s = _
  rw [Finset.sum_range (fun s => blockSum f s)]
  have hb : ∀ s : Fin 20, blockSum f s.val = ∑ p : Fin 5000, f (row s p) := fun s => dif_pos s.isLt
  rw [Finset.sum_congr rfl (fun s _ => hb s), ← Fintype.sum_prod_type' (fun s p => f (row s p))]
  exact Fintype.sum_equiv rowEquiv _ _ (fun x => by rw [rowEquiv_apply])

-- the buffer contents the call is entered from
variable (V : (c : Dev nD) → (b : Ref sig .tc) → Buf (Elt Ideal) ((c : Thread nD τ).loc b))

/-- The call's six operand arrays and its three result arrays, by their literal types. -/
abbrev xn (c : Dev nD) : Vec Ideal S100000x128 .f32 := V c main_v15
abbrev ag (c : Dev nD) : Vec Ideal S100000x128 .f32 := V c main_v29
abbrev w1 (c : Dev nD) : Vec Ideal S128x64 .bf16 := V c main_v32
abbrev b1 (c : Dev nD) : Vec Ideal S1x64 .f32 := V c main_v38
abbrev w2 (c : Dev nD) : Vec Ideal S64x64 .bf16 := V c main_v35
abbrev b2 (c : Dev nD) : Vec Ideal S1x64 .f32 := V c main_v41
abbrev h2 (c : Dev nD) : Vec Ideal S100000x64 .f32 := (dat2 (F := Ideal) V c).arrAt 6 cfg2.N
abbrev t1 (c : Dev nD) : Vec Ideal S1x64 .f32 := (dat2 (F := Ideal) V c).arrAt 7 cfg2.N
abbrev t2 (c : Dev nD) : Vec Ideal S1x64 .f32 := (dat2 (F := Ideal) V c).arrAt 8 cfg2.N

/-- The perceptron of the whole operand arrays. -/
def H (c : Dev nD) : Fin 100000 → Fin 64 → EReal := fun r k =>
  (∑ j : Fin 64, max ((∑ i : Fin 128, (xn V c (ix2 r i) + ag V c (ix2 r i)) * w1 V c (ix2 i j)) + b1 V c (ix2 0 j)) 0
      * w2 V c (ix2 j k)) + b2 V c (ix2 0 k)

/-! ## The operand blocks of a point -/

/-- The index maps, decided over the grid: the two row-blocked operands and the row-blocked result move with the
    point along the rows; every other window stays at its one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- The operand blocks at point `t`, by their literal types. -/
abbrev xblk (c : Dev nD) (t : Fin cfg2.N) : Vec Ideal S5000x128 .f32 := iblk2 V c 0 t
abbrev ablk (c : Dev nD) (t : Fin cfg2.N) : Vec Ideal S5000x128 .f32 := iblk2 V c 1 t
abbrev w1blk (c : Dev nD) (t : Fin cfg2.N) : Vec Ideal S128x64 .bf16 := iblk2 V c 2 t
abbrev b1blk (c : Dev nD) (t : Fin cfg2.N) : Vec Ideal S1x64 .f32 := iblk2 V c 3 t
abbrev w2blk (c : Dev nD) (t : Fin cfg2.N) : Vec Ideal S64x64 .bf16 := iblk2 V c 4 t
abbrev b2blk (c : Dev nD) (t : Fin cfg2.N) : Vec Ideal S1x64 .f32 := iblk2 V c 5 t

/-- Row `p` of the first operand's block at point `t` is row `5000 t + p` of the array. -/
theorem xblk_apply (c : Dev nD) (t : Fin cfg2.N) (p : Fin 5000) (i : Fin 128) (r : Fin 100000)
    (hr : r.val = 5000 * t.val + p.val) : xblk V c t (ix2 p i) = xn V c (ix2 r i) := by
  obtain ⟨e0, e1, -⟩ := idx_facts t
  show V c main_v15 (((cfg2.win 0).blk t).view.emb (ix2 p i)) = V c main_v15 (ix2 r i)
  refine congrArg (V c main_v15) ?_
  funext a; apply Fin.ext
  match a with
  | ⟨0, _⟩ => show win2_0.index t (0 : Fin 2) * 5000 + 1 * p.val = r.val; omega
  | ⟨1, _⟩ => show win2_0.index t (1 : Fin 2) * 128 + 1 * i.val = i.val; omega

/-- The same for the second operand. -/
theorem ablk_apply (c : Dev nD) (t : Fin cfg2.N) (p : Fin 5000) (i : Fin 128) (r : Fin 100000)
    (hr : r.val = 5000 * t.val + p.val) : ablk V c t (ix2 p i) = ag V c (ix2 r i) := by
  obtain ⟨-, -, e0, e1, -⟩ := idx_facts t
  show V c main_v29 (((cfg2.win 1).blk t).view.emb (ix2 p i)) = V c main_v29 (ix2 r i)
  refine congrArg (V c main_v29) ?_
  funext a; apply Fin.ext
  match a with
  | ⟨0, _⟩ => show win2_1.index t (0 : Fin 2) * 5000 + 1 * p.val = r.val; omega
  | ⟨1, _⟩ => show win2_1.index t (1 : Fin 2) * 128 + 1 * i.val = i.val; omega

/-- The weight and bias windows hold their whole arrays at every point. -/
theorem w1blk_apply (c : Dev nD) (t : Fin cfg2.N) (i : Fin 128) (j : Fin 64) :
    w1blk V c t (ix2 i j) = w1 V c (ix2 i j) := by
  obtain ⟨-, -, -, -, e0, e1, -⟩ := idx_facts t
  show V c main_v32 (((cfg2.win 2).blk t).view.emb (ix2 i j)) = V c main_v32 (ix2 i j)
  refine congrArg (V c main_v32) ?_
  funext a; apply Fin.ext
  match a with
  | ⟨0, _⟩ => show win2_2.index t (0 : Fin 2) * 128 + 1 * i.val = i.val; omega
  | ⟨1, _⟩ => show win2_2.index t (1 : Fin 2) * 64 + 1 * j.val = j.val; omega

theorem b1blk_apply (c : Dev nD) (t : Fin cfg2.N) (j : Fin 64) :
    b1blk V c t (ix2 0 j) = b1 V c (ix2 0 j) := by
  obtain ⟨-, -, -, -, -, -, e0, e1, -⟩ := idx_facts t
  show V c main_v38 (((cfg2.win 3).blk t).view.emb (ix2 0 j)) = V c main_v38 (ix2 0 j)
  refine congrArg (V c main_v38) ?_
  funext a; apply Fin.ext
  match a with
  | ⟨0, _⟩ => show win2_3.index t (0 : Fin 2) * 1 + 1 * 0 = 0; omega
  | ⟨1, _⟩ => show win2_3.index t (1 : Fin 2) * 64 + 1 * j.val = j.val; omega

theorem w2blk_apply (c : Dev nD) (t : Fin cfg2.N) (j : Fin 64) (k : Fin 64) :
    w2blk V c t (ix2 j k) = w2 V c (ix2 j k) := by
  obtain ⟨-, -, -, -, -, -, -, -, e0, e1, -⟩ := idx_facts t
  show V c main_v35 (((cfg2.win 4).blk t).view.emb (ix2 j k)) = V c main_v35 (ix2 j k)
  refine congrArg (V c main_v35) ?_
  funext a; apply Fin.ext
  match a with
  | ⟨0, _⟩ => show win2_4.index t (0 : Fin 2) * 64 + 1 * j.val = j.val; omega
  | ⟨1, _⟩ => show win2_4.index t (1 : Fin 2) * 64 + 1 * k.val = k.val; omega

theorem b2blk_apply (c : Dev nD) (t : Fin cfg2.N) (k : Fin 64) :
    b2blk V c t (ix2 0 k) = b2 V c (ix2 0 k) := by
  obtain ⟨-, -, -, -, -, -, -, -, -, -, e0, e1, -⟩ := idx_facts t
  show V c main_v41 (((cfg2.win 5).blk t).view.emb (ix2 0 k)) = V c main_v41 (ix2 0 k)
  refine congrArg (V c main_v41) ?_
  funext a; apply Fin.ext
  match a with
  | ⟨0, _⟩ => show win2_5.index t (0 : Fin 2) * 1 + 1 * 0 = 0; omega
  | ⟨1, _⟩ => show win2_5.index t (1 : Fin 2) * 64 + 1 * k.val = k.val; omega

/-! ## What each point leaves in the result buffers -/

/-- An entry of the block's perceptron values is the perceptron's entry at the block's row in the arrays. -/
theorem pay4_blk (c : Dev nD) (t : Fin cfg2.N) (p : Fin 5000) (k : Fin 64) (r : Fin 100000)
    (hr : r.val = 5000 * t.val + p.val) :
    k2_pay4 (F := Ideal) (xblk V c t) (ablk V c t) (w1blk V c t) (b1blk V c t) (w2blk V c t) (b2blk V c t) (ix2 p k) = H V c r k := by
  rw [R2Pay.pay4_apply]
  unfold H
  simp only [xblk_apply V c t p _ r hr, ablk_apply V c t p _ r hr, w1blk_apply V c t, b1blk_apply V c t,
    w2blk_apply V c t, b2blk_apply V c t]

/-- Every point leaves its block's perceptron values in the block buffer. -/
theorem blockAt (c : Dev nD) (t : Fin cfg2.N) :
    (outsAt2 V c t.val t.isLt).1 = k2_pay4 (F := Ideal) (xblk V c t) (ablk V c t) (w1blk V c t) (b1blk V c t) (w2blk V c t) (b2blk V c t) := by
  by_cases h0 : t.val % 20 = 0
  · rw [outsAt2_A V c t h0]
    dsimp only
    exact out_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (xblk V c t) (ablk V c t) (w1blk V c t) (b1blk V c t) (w2blk V c t) (b2blk V c t)
  · rw [outsAt2_B V c t h0]
    dsimp only
    exact out_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (xblk V c t) (ablk V c t) (w1blk V c t) (b1blk V c t) (w2blk V c t) (b2blk V c t)
      (outsAt2 V c (t.val - 1) (Nat.lt_of_le_of_lt (Nat.sub_le _ _) t.isLt)).2.1 (outsAt2 V c (t.val - 1) (Nat.lt_of_le_of_lt (Nat.sub_le _ _) t.isLt)).2.2

/-- After point `n` the first running row holds the perceptron's column sums over the rows of blocks `0 … n`. -/
theorem sumAt (c : Dev nD) (k : Fin 64) : ∀ (n : ℕ) (h : n < cfg2.N),
    (outsAt2 V c n h).2.1 (ix2 0 k) = runSum (fun r => H V c r k) n
  | 0, h => by
    rw [outsAt2_A V c ⟨0, h⟩ rfl]
    dsimp only
    refine (congrFun (out_A_7 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) ((hcond2_0 ⟨0, h⟩).mpr rfl)
      (xblk V c ⟨0, h⟩) (ablk V c ⟨0, h⟩) (w1blk V c ⟨0, h⟩) (b1blk V c ⟨0, h⟩) (w2blk V c ⟨0, h⟩) (b2blk V c ⟨0, h⟩)) (ix2 0 k)).trans ?_
    rw [R2Pay.pay5_apply, R2Pay.pay2_apply, zero_add, runSum_zero, blockSum_of_lt _ 0 (by omega)]
    exact Finset.sum_congr rfl fun p _ => pay4_blk V c ⟨0, h⟩ p k (row ⟨0, by omega⟩ p) rfl
  | n + 1, h => by
    have hN : cfg2.N = 20 := N_2
    have h0 : ¬(⟨n + 1, h⟩ : Fin cfg2.N).val % 20 = 0 := by dsimp only; omega
    rw [outsAt2_B V c ⟨n + 1, h⟩ h0]
    dsimp only
    refine (congrFun (out_B_7 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩)
      (fun hh => h0 ((hcond2_0 ⟨n + 1, h⟩).mp hh)) (xblk V c ⟨n + 1, h⟩) (ablk V c ⟨n + 1, h⟩) (w1blk V c ⟨n + 1, h⟩) (b1blk V c ⟨n + 1, h⟩) (w2blk V c ⟨n + 1, h⟩) (b2blk V c ⟨n + 1, h⟩)
      (outsAt2 V c n (Nat.lt_of_succ_lt h)).2.1 (outsAt2 V c n (Nat.lt_of_succ_lt h)).2.2) (ix2 0 k)).trans ?_
    rw [R2Pay.pay5_apply, runSum_succ, sumAt c k n (Nat.lt_of_succ_lt h), blockSum_of_lt _ (n + 1) (by omega)]
    exact congrArg _ (Finset.sum_congr rfl fun p _ => pay4_blk V c ⟨n + 1, h⟩ p k (row ⟨n + 1, by omega⟩ p) rfl)

/-- After point `n` the second running row holds the column sums of the perceptron's squares over those rows. -/
theorem sumsqAt (c : Dev nD) (k : Fin 64) : ∀ (n : ℕ) (h : n < cfg2.N),
    (outsAt2 V c n h).2.2 (ix2 0 k) = runSum (fun r => H V c r k * H V c r k) n
  | 0, h => by
    rw [outsAt2_A V c ⟨0, h⟩ rfl]
    dsimp only
    refine (congrFun (out_A_8 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) ((hcond2_0 ⟨0, h⟩).mpr rfl)
      (xblk V c ⟨0, h⟩) (ablk V c ⟨0, h⟩) (w1blk V c ⟨0, h⟩) (b1blk V c ⟨0, h⟩) (w2blk V c ⟨0, h⟩) (b2blk V c ⟨0, h⟩)) (ix2 0 k)).trans ?_
    rw [R2Pay.pay1_apply, R2Pay.pay3_apply, zero_add, runSum_zero, blockSum_of_lt _ 0 (by omega)]
    exact Finset.sum_congr rfl fun p _ => by rw [pay4_blk V c ⟨0, h⟩ p k (row ⟨0, by omega⟩ p) rfl]
  | n + 1, h => by
    have hN : cfg2.N = 20 := N_2
    have h0 : ¬(⟨n + 1, h⟩ : Fin cfg2.N).val % 20 = 0 := by dsimp only; omega
    rw [outsAt2_B V c ⟨n + 1, h⟩ h0]
    dsimp only
    refine (congrFun (out_B_8 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩)
      (fun hh => h0 ((hcond2_0 ⟨n + 1, h⟩).mp hh)) (xblk V c ⟨n + 1, h⟩) (ablk V c ⟨n + 1, h⟩) (w1blk V c ⟨n + 1, h⟩) (b1blk V c ⟨n + 1, h⟩) (w2blk V c ⟨n + 1, h⟩) (b2blk V c ⟨n + 1, h⟩)
      (outsAt2 V c n (Nat.lt_of_succ_lt h)).2.1 (outsAt2 V c n (Nat.lt_of_succ_lt h)).2.2) (ix2 0 k)).trans ?_
    rw [R2Pay.pay1_apply, runSum_succ, sumsqAt c k n (Nat.lt_of_succ_lt h), blockSum_of_lt _ (n + 1) (by omega)]
    exact congrArg _ (Finset.sum_congr rfl fun p _ => by rw [pay4_blk V c ⟨n + 1, h⟩ p k (row ⟨n + 1, by omega⟩ p) rfl])

/-! ## From the blocks to the arrays -/

/-- The perceptron as an array. -/
abbrev Harr (c : Dev nD) : Vec Ideal S100000x64 .f32 := fun i => H V c (i 0) (i 1)

/-- A block of five thousand rows whose entries are the perceptron's at rows `5000 t + p` is block `t` of the
    perceptron array. -/
theorem blk_read (c : Dev nD) (t : Fin cfg2.N) (x : Vec Ideal S5000x64 .f32)
    (hx : ∀ (p : Fin 5000) (k : Fin 64) (r : Fin 100000), r.val = 5000 * t.val + p.val → x (ix2 p k) = H V c r k) :
    (x : S5000x64.Idx → Elt Ideal .f32) = ((cfg2.win 6).blk t).view.read (Elt Ideal) (Harr V c) := by
  obtain ⟨-, -, -, -, -, -, -, -, -, -, -, -, e0, e1, -⟩ := idx_facts t
  have hN : cfg2.N = 20 := N_2
  have ht : t.val < 20 := lt_of_lt_of_eq t.isLt hN
  funext j
  obtain ⟨p, k, rfl⟩ : ∃ (p : Fin 5000) (k : Fin 64), j = ix2 p k := ⟨j 0, j 1, eq_ix2 j⟩
  show x (ix2 p k) = H V c ((((cfg2.win 6).blk t).view.emb (ix2 p k)) 0) ((((cfg2.win 6).blk t).view.emb (ix2 p k)) 1)
  have hp : p.val < 5000 := p.isLt
  rw [hx p k ⟨5000 * t.val + p.val, by omega⟩ rfl]
  refine congrArg₂ (H V c) (Fin.ext ?_) (Fin.ext ?_)
  · show 5000 * t.val + p.val = win2_6.index t (0 : Fin 2) * 5000 + 1 * p.val; omega
  · show k.val = win2_6.index t (1 : Fin 2) * 64 + 1 * k.val; omega

/-- What point `t` writes back is block `t` of the perceptron array. -/
theorem flushed_blk (c : Dev nD) (t : Fin cfg2.N) :
    (dat2 (F := Ideal) V c).flushed 6 t = ((cfg2.win 6).blk t).view.read (Elt Ideal) (Harr V c) := by
  show (cfg2.win 6).cut (grid2.coords t) ((dat2 (F := Ideal) V c).after 6 t) = _
  rw [after2_6, blockAt V c t]
  exact blk_read V c t _ (fun p k r hr => pay4_blk V c t p k r hr)

/-- An index of the result array is in point `t`'s block iff each coordinate is in the block's range on its axis. -/
theorem mem_blk (t : Fin cfg2.N) (i : S100000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v42_0).slice (win2_6.rect t)).set ↔ _
  rw [View.set_slice_whole, Rect.mem_set_unit]
  exact Iff.rfl

/-- Row `r` is written back by point `r / 5000`. -/
theorem cover_blk (i : S100000x64.Idx) :
    ∃ t : Fin cfg2.N, (cfg2.win 6).flush t = true ∧ i ∈ ((cfg2.win 6).blk t).view.set := by
  have hN : cfg2.N = 20 := N_2
  have hi0 : (i 0).val < 100000 := (i 0).isLt
  have hi1 : (i 1).val < 64 := (i 1).isLt
  have ht : (i 0).val / 5000 < cfg2.N := by rw [hN]; omega
  obtain ⟨-, -, -, -, -, -, -, -, -, -, -, -, e0, e1, -⟩ := idx_facts ⟨(i 0).val / 5000, ht⟩
  refine ⟨⟨(i 0).val / 5000, ht⟩, flush2_6 _, ?_⟩
  rw [mem_blk]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [e0]; dsimp only; omega
  | ⟨1, _⟩ =>
    show win2_6.index ⟨(i 0).val / 5000, ht⟩ (1 : Fin 2) * 64 ≤ (i 1).val
      ∧ (i 1).val < win2_6.index ⟨(i 0).val / 5000, ht⟩ (1 : Fin 2) * 64 + 64
    rw [e1]; omega

/-- The result array is the perceptron array. -/
theorem result_eq (c : Dev nD) : h2 V c = Harr V c :=
  (dat2 (F := Ideal) V c).arrAt_eq_of_cover 6 (Harr V c) (fun t _ => flushed_blk V c t) cover_blk

/-- The result array is the perceptron, entry by entry. -/
theorem final_h2 (c : Dev nD) (r : Fin 100000) (k : Fin 64) : h2 V c (ix2 r k) = H V c r k :=
  congrFun (result_eq V c) (ix2 r k)

/-! ## The two running rows, written back once -/

/-- The perceptron's column sums, and those of its squares, as rows. -/
def sumRow (c : Dev nD) : Vec Ideal S1x64 .f32 := fun i => ∑ r : Fin 100000, H V c r (i 1)
def sumsqRow (c : Dev nD) : Vec Ideal S1x64 .f32 := fun i => ∑ r : Fin 100000, H V c r (i 1) * H V c r (i 1)

theorem sumRow_apply (c : Dev nD) (k : Fin 64) : sumRow V c (ix2 0 k) = ∑ r : Fin 100000, H V c r k := by
  unfold sumRow; rfl
theorem sumsqRow_apply (c : Dev nD) (k : Fin 64) :
    sumsqRow V c (ix2 0 k) = ∑ r : Fin 100000, H V c r k * H V c r k := by
  unfold sumsqRow; rfl

/-- The first row window's one block is its whole array: a row with the entries of `G` is that block of `G`. -/
theorem row_read_sum (t : Fin cfg2.N) (x G : Vec Ideal S1x64 .f32) (hx : ∀ k : Fin 64, x (ix2 0 k) = G (ix2 0 k)) :
    (x : S1x64.Idx → Elt Ideal .f32) = ((cfg2.win 7).blk t).view.read (Elt Ideal) G := by
  obtain ⟨-, -, -, -, -, -, -, -, -, -, -, -, -, -, e0, e1, -⟩ := idx_facts t
  funext j
  obtain ⟨z, k, rfl⟩ : ∃ (z : Fin 1) (k : Fin 64), j = ix2 z k := ⟨j 0, j 1, eq_ix2 j⟩
  obtain rfl : z = 0 := Subsingleton.elim _ _
  show x (ix2 (0 : Fin 1) k) = G (((cfg2.win 7).blk t).view.emb (ix2 (0 : Fin 1) k))
  have he : ((cfg2.win 7).blk t).view.emb (ix2 (0 : Fin 1) k) = ix2 (0 : Fin 1) k := by
    funext a; apply Fin.ext
    match a with
    | ⟨0, _⟩ => show win2_7.index t (0 : Fin 2) * 1 + 1 * 0 = 0; omega
    | ⟨1, _⟩ => show win2_7.index t (1 : Fin 2) * 64 + 1 * k.val = k.val; omega
  rw [he, hx k]

/-- The one write-back, at the last point, writes the whole sum. -/
theorem flushed_sum (c : Dev nD) (t : Fin cfg2.N) (hf : (cfg2.win 7).flush t = true) :
    (dat2 (F := Ideal) V c).flushed 7 t = ((cfg2.win 7).blk t).view.read (Elt Ideal) (sumRow V c) := by
  have hN : cfg2.N = 20 := N_2
  have hl : t.val = 19 := by have := (flush2_7 t).mp hf; have := t.isLt; omega
  show (cfg2.win 7).cut (grid2.coords t) ((dat2 (F := Ideal) V c).after 7 t) = _
  rw [after2_7]
  refine row_read_sum t (outsAt2 V c t.val t.isLt).2.1 (sumRow V c) (fun k => ?_)
  rw [sumAt V c k t.val t.isLt, hl, runSum_last, sumRow_apply]

/-- Every entry of the row is in the last point's block. -/
theorem cover_sum (i : S1x64.Idx) :
    ∃ t : Fin cfg2.N, (cfg2.win 7).flush t = true ∧ i ∈ ((cfg2.win 7).blk t).view.set := by
  have hN : cfg2.N = 20 := N_2
  have ht : 19 < cfg2.N := by rw [hN]; omega
  have hi0 : (i 0).val < 1 := (i 0).isLt
  have hi1 : (i 1).val < 64 := (i 1).isLt
  obtain ⟨-, -, -, -, -, -, -, -, -, -, -, -, -, -, e0, e1, -⟩ := idx_facts ⟨19, ht⟩
  refine ⟨⟨19, ht⟩, (flush2_7 _).mpr rfl, ?_⟩
  show i ∈ ((View.whole main_v42_1).slice (win2_7.rect ⟨19, ht⟩)).set
  rw [View.set_slice_whole, Rect.mem_set_unit]
  intro a
  match a with
  | ⟨0, _⟩ =>
    show win2_7.index ⟨19, ht⟩ (0 : Fin 2) * 1 ≤ (i 0).val ∧ (i 0).val < win2_7.index ⟨19, ht⟩ (0 : Fin 2) * 1 + 1
    rw [e0]; omega
  | ⟨1, _⟩ =>
    show win2_7.index ⟨19, ht⟩ (1 : Fin 2) * 64 ≤ (i 1).val ∧ (i 1).val < win2_7.index ⟨19, ht⟩ (1 : Fin 2) * 64 + 64
    rw [e1]; omega

/-- The second row window's one block is its whole array: a row with the entries of `G` is that block of `G`. -/
theorem row_read_sumsq (t : Fin cfg2.N) (x G : Vec Ideal S1x64 .f32) (hx : ∀ k : Fin 64, x (ix2 0 k) = G (ix2 0 k)) :
    (x : S1x64.Idx → Elt Ideal .f32) = ((cfg2.win 8).blk t).view.read (Elt Ideal) G := by
  obtain ⟨-, -, -, -, -, -, -, -, -, -, -, -, -, -, -, -, e0, e1⟩ := idx_facts t
  funext j
  obtain ⟨z, k, rfl⟩ : ∃ (z : Fin 1) (k : Fin 64), j = ix2 z k := ⟨j 0, j 1, eq_ix2 j⟩
  obtain rfl : z = 0 := Subsingleton.elim _ _
  show x (ix2 (0 : Fin 1) k) = G (((cfg2.win 8).blk t).view.emb (ix2 (0 : Fin 1) k))
  have he : ((cfg2.win 8).blk t).view.emb (ix2 (0 : Fin 1) k) = ix2 (0 : Fin 1) k := by
    funext a; apply Fin.ext
    match a with
    | ⟨0, _⟩ => show win2_8.index t (0 : Fin 2) * 1 + 1 * 0 = 0; omega
    | ⟨1, _⟩ => show win2_8.index t (1 : Fin 2) * 64 + 1 * k.val = k.val; omega
  rw [he, hx k]

/-- The one write-back, at the last point, writes the whole sum. -/
theorem flushed_sumsq (c : Dev nD) (t : Fin cfg2.N) (hf : (cfg2.win 8).flush t = true) :
    (dat2 (F := Ideal) V c).flushed 8 t = ((cfg2.win 8).blk t).view.read (Elt Ideal) (sumsqRow V c) := by
  have hN : cfg2.N = 20 := N_2
  have hl : t.val = 19 := by have := (flush2_8 t).mp hf; have := t.isLt; omega
  show (cfg2.win 8).cut (grid2.coords t) ((dat2 (F := Ideal) V c).after 8 t) = _
  rw [after2_8]
  refine row_read_sumsq t (outsAt2 V c t.val t.isLt).2.2 (sumsqRow V c) (fun k => ?_)
  rw [sumsqAt V c k t.val t.isLt, hl, runSum_last, sumsqRow_apply]

/-- Every entry of the row is in the last point's block. -/
theorem cover_sumsq (i : S1x64.Idx) :
    ∃ t : Fin cfg2.N, (cfg2.win 8).flush t = true ∧ i ∈ ((cfg2.win 8).blk t).view.set := by
  have hN : cfg2.N = 20 := N_2
  have ht : 19 < cfg2.N := by rw [hN]; omega
  have hi0 : (i 0).val < 1 := (i 0).isLt
  have hi1 : (i 1).val < 64 := (i 1).isLt
  obtain ⟨-, -, -, -, -, -, -, -, -, -, -, -, -, -, -, -, e0, e1⟩ := idx_facts ⟨19, ht⟩
  refine ⟨⟨19, ht⟩, (flush2_8 _).mpr rfl, ?_⟩
  show i ∈ ((View.whole main_v42_2).slice (win2_8.rect ⟨19, ht⟩)).set
  rw [View.set_slice_whole, Rect.mem_set_unit]
  intro a
  match a with
  | ⟨0, _⟩ =>
    show win2_8.index ⟨19, ht⟩ (0 : Fin 2) * 1 ≤ (i 0).val ∧ (i 0).val < win2_8.index ⟨19, ht⟩ (0 : Fin 2) * 1 + 1
    rw [e0]; omega
  | ⟨1, _⟩ =>
    show win2_8.index ⟨19, ht⟩ (1 : Fin 2) * 64 ≤ (i 1).val ∧ (i 1).val < win2_8.index ⟨19, ht⟩ (1 : Fin 2) * 64 + 64
    rw [e1]; omega

/-- The first accumulated row ends at the perceptron's column sums. -/
theorem final_sum (c : Dev nD) (k : Fin 64) : t1 V c (ix2 0 k) = ∑ r : Fin 100000, H V c r k :=
  (congrFun ((dat2 (F := Ideal) V c).arrAt_eq_of_cover 7 (sumRow V c) (flushed_sum V c) cover_sum) (ix2 0 k)).trans
    (sumRow_apply V c k)

/-- The second at the column sums of its squares. -/
theorem final_sumsq (c : Dev nD) (k : Fin 64) : t2 V c (ix2 0 k) = ∑ r : Fin 100000, H V c r k * H V c r k :=
  (congrFun ((dat2 (F := Ideal) V c).arrAt_eq_of_cover 8 (sumsqRow V c) (flushed_sumsq V c) cover_sumsq) (ix2 0 k)).trans
    (sumsqRow_apply V c k)

end Cert.KernelIdeal.R2
end
-- ==== Proof.R3.lean ====
/-
  The closing elementwise call of a branch: `tanh(h·scale + shift)` block by block over the rows; the blocks tile the
  rows, so the whole result array is that function entry by entry.
-/
import proofs.«107533_j36429912605472_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R3

open Cert.KernelIdeal Cert.KernelIdeal.Gen
open Idealize.ShloMosaic Idealize.ShloMosaic.TcCoe Idealize.SL.Sem Idealize.ShloMosaic.ValueIdx
open Idealize.ShloMosaic.Pipeline (Dat)

-- the buffer contents the call is entered from
variable (V : (c : Dev nD) → (b : Ref sig .tc) → Buf (Elt Ideal) ((c : Thread nD τ).loc b))

/-- The call's three operand arrays and its result array, by their literal types. -/
abbrev hin (c : Dev nD) : Vec Ideal S100000x64 .f32 := V c main_v42_0
abbrev scl (c : Dev nD) : Vec Ideal S1x64 .f32 := V c main_v55
abbrev sft (c : Dev nD) : Vec Ideal S1x64 .f32 := V c main_v60
abbrev res (c : Dev nD) : Vec Ideal S100000x64 .f32 := (dat3 (F := Ideal) V c).arrAt 3 cfg3.N

/-! ## One block: the body's value at an entry -/

/-- The stores and loads of the body all start at the block's origin. -/
theorem origin_zero : (![0, 0] : Fin 2 → Nat) = fun _ => 0 := funext fun a => by fin_cases a <;> rfl

/-- The body's value at row `p`, lane `k` of a block: `tanh` of that entry of the hidden block times the scale row's
    lane `k` plus the shift row's lane `k` (every operand is first cast to its own shape, which changes nothing, and
    each one-row operand is repeated over the rows; `tanh` acts entry by entry). -/
theorem affine_tanh_apply (v0 : Vec Ideal S10000x64 .f32) (v2 v6 : Vec Ideal S1x64 .f32) (p : Fin 10000) (k : Fin 64) :
    k3_pay1 v0 v2 v6 (ix2 p k) = Ideal.tanh (v0 (ix2 p k) * v2 (ix2 0 k) + v6 (ix2 0 k)) := by
  unfold k3_pay1
  show Ideal.tanh (shapeCast S10000x64 v0 _ (ix2 p k) * broadcastTo S10000x64 (shapeCast S1x64 v2 _) _ (ix2 p k)
      + broadcastTo S10000x64 (shapeCast S1x64 v6 _) _ (ix2 p k)) = _
  rw [broadcastTo_1b_ab_apply, broadcastTo_1b_ab_apply, shapeCast_self, shapeCast_self, shapeCast_self]

/-! ## The whole array -/

/-- What the result array ends holding: `tanh(h·scale + shift)`, the two rows read at the entry's lane. -/
abbrev affineTanh (h : Vec Ideal S100000x64 .f32) (s b : Vec Ideal S1x64 .f32) : Vec Ideal S100000x64 .f32 :=
  fun i => Ideal.tanh (h i * s (ix2 0 (i 1)) + b (ix2 0 (i 1)))

/-- The four index maps over the ten grid points: the hidden window and the result window sit at block `(t, 0)`, the
    two one-row windows at block `(0, 0)`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem points : cfg3.N = 10 := N_3

/-- Row `p` of block `t` is row `10000·t + p` of the array. -/
def row (t : Fin cfg3.N) (p : Fin 10000) : Fin 100000 :=
  ⟨t.val * 10000 + p.val, by have := t.isLt; have := points; have := p.isLt; omega⟩

/-- Where entry `(p, k)` of the result window's block at point `t` lies in the result array. -/
theorem emb_res (t : Fin cfg3.N) (p : Fin 10000) (k : Fin 64) :
    ((cfg3.win 3).blk t).view.emb (ix2 p k) = ix2 (row t p) k := by
  obtain ⟨-, -, -, -, -, -, e0, e1⟩ := idx_facts t
  funext a; apply Fin.ext
  match a with
  | ⟨0, _⟩ => show win3_3.index t (0 : Fin 2) * 10000 + 1 * p.val = t.val * 10000 + p.val; omega
  | ⟨1, _⟩ => show win3_3.index t (1 : Fin 2) * 64 + 1 * k.val = k.val; omega

/-- The hidden window's block at point `t` lies over the same rows. -/
theorem emb_h (t : Fin cfg3.N) (p : Fin 10000) (k : Fin 64) :
    ((cfg3.win 0).blk t).view.emb (ix2 p k) = ix2 (row t p) k := by
  obtain ⟨e0, e1, -⟩ := idx_facts t
  funext a; apply Fin.ext
  match a with
  | ⟨0, _⟩ => show win3_0.index t (0 : Fin 2) * 10000 + 1 * p.val = t.val * 10000 + p.val; omega
  | ⟨1, _⟩ => show win3_0.index t (1 : Fin 2) * 64 + 1 * k.val = k.val; omega

/-- The scale window's one block is the whole scale row, at every point. -/
theorem emb_s (t : Fin cfg3.N) (k : Fin 64) :
    ((cfg3.win 1).blk t).view.emb (ix2 (0 : Fin 1) k) = ix2 (0 : Fin 1) k := by
  obtain ⟨-, -, e0, e1, -⟩ := idx_facts t
  funext a; apply Fin.ext
  match a with
  | ⟨0, _⟩ => show win3_1.index t (0 : Fin 2) * 1 + 1 * 0 = 0; omega
  | ⟨1, _⟩ => show win3_1.index t (1 : Fin 2) * 64 + 1 * k.val = k.val; omega

/-- The shift window's one block is the whole shift row, at every point. -/
theorem emb_b (t : Fin cfg3.N) (k : Fin 64) :
    ((cfg3.win 2).blk t).view.emb (ix2 (0 : Fin 1) k) = ix2 (0 : Fin 1) k := by
  obtain ⟨-, -, -, -, e0, e1, -⟩ := idx_facts t
  funext a; apply Fin.ext
  match a with
  | ⟨0, _⟩ => show win3_2.index t (0 : Fin 2) * 1 + 1 * 0 = 0; omega
  | ⟨1, _⟩ => show win3_2.index t (1 : Fin 2) * 64 + 1 * k.val = k.val; omega

/-- What point `t` writes back is block `t` of `tanh(h·scale + shift)`: the body's one store fills the block with its
    value on the three operand blocks, and those are the operands read over the same rows (the rows themselves, for the
    two one-row operands). -/
theorem flushed_eq (c : Dev nD) (t : Fin cfg3.N) :
    (dat3 V c).flushed 3 t
      = ((cfg3.win 3).blk t).view.read (Elt Ideal) (affineTanh (hin V c) (scl V c) (sft V c)) := by
  show (cfg3.win 3).cut (grid3.coords t) ((dat3 V c).after 3 t) = _
  rw [after3_3]
  unfold out3_3
  rw [View.canon_unit_zero origin_zero]
  simp only [View.ld_unit_zero (S := S10000x64) origin_zero, View.ld_unit_zero (S := S1x64) origin_zero]
  refine funext fun (j : S10000x64.Idx) => ?_
  obtain ⟨p, k, rfl⟩ : ∃ (p : Fin 10000) (k : Fin 64), j = ix2 p k := ⟨j 0, j 1, eq_ix2 j⟩
  refine (affine_tanh_apply (iblk3 V c 0 t) (iblk3 V c 1 t) (iblk3 V c 2 t) p k).trans ?_
  show Ideal.tanh (hin V c (((cfg3.win 0).blk t).view.emb (ix2 p k))
        * scl V c (((cfg3.win 1).blk t).view.emb (ix2 (0 : Fin 1) k))
      + sft V c (((cfg3.win 2).blk t).view.emb (ix2 (0 : Fin 1) k)))
    = affineTanh (hin V c) (scl V c) (sft V c) (((cfg3.win 3).blk t).view.emb (ix2 p k))
  rw [emb_h, emb_s, emb_b, emb_res]

/-- An index of the result array is in point `t`'s block iff each coordinate is in the block's range on its axis. -/
theorem mem_blk (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v61).slice (win3_3.rect t)).set ↔ _
  rw [View.set_slice_whole, Rect.mem_set_unit]
  exact Iff.rfl

/-- The ten blocks tile the rows: row `r` is in the block of point `r / 10000`, and every point writes back. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ : ∃ t : Fin cfg3.N, t.val = (i 0).val / 10000 := ⟨⟨(i 0).val / 10000, by have := points; omega⟩, rfl⟩
  obtain ⟨-, -, -, -, -, -, e0, e1⟩ := idx_facts t
  refine ⟨t, flush3_3 t, ?_⟩
  rw [mem_blk]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 64 ≤ (i 1).val ∧ (i 1).val < win3_3.index t (1 : Fin 2) * 64 + 64
    omega

/-- So the result array is `tanh(h·scale + shift)` as one function of the operand arrays. -/
theorem res_eq (c : Dev nD) : res V c = affineTanh (hin V c) (scl V c) (sft V c) :=
  (dat3 V c).arrAt_eq_of_cover 3 (affineTanh (hin V c) (scl V c) (sft V c)) (fun t _ => flushed_eq V c t) cover

/-- After the call the result array holds `tanh(h·scale + shift)` at every entry. -/
theorem final (c : Dev nD) (r : Fin 100000) (k : Fin 64) :
    res V c (ix2 r k) = Ideal.tanh (hin V c (ix2 r k) * scl V c (ix2 0 k) + sft V c (ix2 0 k)) :=
  congrFun (res_eq V c) (ix2 r k)

end Cert.KernelIdeal.R3

end
-- ==== Proof.HostVals.lean ====
/-
  The host operations between the calls, read at the ideal instance from the buffer contents `W` they start from: the
  scale and shift rows of a batch normalisation from the accumulated column sums (mean = sum / n, variance = sum of
  squares / n − mean², scale = γ·(variance + ε)^(−1/2), shift = β − mean·scale), a branch's neighbourhood sum of the
  normalised features (kept as one unopened function of the edge array and the feature array), and a branch's slices of
  the stacked weights (a change of float format is the identity on the extended reals).
-/
import proofs.«107533_j36429912605472_1_alg».proof.Proof.Gen.KernelIdeal.Launch
import proofs.«107533_j36429912605472_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.ValueIdx
open Cert.Spec

/-- Which feature row each edge reads: row 0 of the edge array, a negative entry wrapped by the node count. -/
def srcIdx (e : IVec S2x1000000 32) : IVec S1000000x1 32 :=
  broadcastInDim S1000000x1 ![0] bcast_S1000000_S1000000x1_0
    (select
      (cmpi .slt (shapeCast _ (extractStridedSlice S1x1000000 ![0, 0] e slices_S2x1000000_S1x1000000_0_0) shapeCasts_S1x1000000_S1000000)
        (broadcastInDim S1000000 ![] bcast_S_S1000000 (constantI S_ 32 0#32)))
      (addi (shapeCast _ (extractStridedSlice S1x1000000 ![0, 0] e slices_S2x1000000_S1x1000000_0_0) shapeCasts_S1x1000000_S1000000)
        (broadcastInDim S1000000 ![] bcast_S_S1000000 (constantI S_ 32 100000#32)))
      (shapeCast _ (extractStridedSlice S1x1000000 ![0, 0] e slices_S2x1000000_S1x1000000_0_0) shapeCasts_S1x1000000_S1000000))

/-- Which row each edge is added into: row 1 of the edge array. -/
def dstIdx (e : IVec S2x1000000 32) : IVec S1000000x1 32 :=
  broadcastInDim S1000000x1 ![0] bcast_S1000000_S1000000x1_0
    (shapeCast _ (extractStridedSlice S1x1000000 ![1, 0] e slices_S2x1000000_S1x1000000_1_0) shapeCasts_S1x1000000_S1000000)

/-- The neighbourhood sum of a feature array along an edge array: gathered rows added into a zero array. -/
def aggK (e : IVec S2x1000000 32) (a : FVec Ideal S100000x128 .f32) : FVec Ideal S100000x128 .f32 :=
  Host.scatterAdd (F := Ideal) scatter_S100000x128_S1000000x1_S1000000x128_1_0_0_1
    (broadcastInDim S100000x128 ![] bcast_S_S100000x128 (constant (F := Ideal) S_ .f32 0x00000000#32)) (dstIdx e)
    (Host.gather gather_S100000x128_S1000000x1_S1000000x128_1_0_n_n_0_1_1128 a (srcIdx e))

/-- An array of extended reals read at an index (the accessor fixes the literal shape and format). -/
abbrev f32At {S : Shape} (x : FVec Ideal S .f32) (i : S.Idx) : EReal := x i
abbrev bf16At {S : Shape} (x : FVec Ideal S .bf16) (i : S.Idx) : EReal := x i

/-! ## Layout operations of the host at an index -/

/-- A stack of matrices cut along its first axis from `o` reads, at `(u, i, j)`, the stack at `(r, i, j)` with `r = o + u`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (u : Fin m) (i : Fin n1) (j : Fin n2) (r : Fin n0) (hr : r.val = o + u.val) :
    extractStridedSlice ⟨3, ![m, n1, n2]⟩ ![o, 0, 0] X h (ix3 u i j) = X (ix3 r i j) :=
  extractStridedSlice_apply _ _ _ _ _ (fun ax => by
    match ax with
    | ⟨0, _⟩ => exact hr
    | ⟨1, _⟩ => exact (Nat.zero_add _).symm
    | ⟨2, _⟩ => exact (Nat.zero_add _).symm)

/-- Member `r` of a stack of matrices as the host takes it (cut out, the unit axis dropped, the float format changed):
at `(i, j)` it is the stack at `(r, i, j)`. -/
theorem member_apply {n a b : ℕ} (o : ℕ) (x : FVec Ideal ⟨3, ![n, a, b]⟩ .f32)
    (hs : (⟨3, ![n, a, b]⟩ : Shape).Slices ![o, 0, 0] ⟨3, ![1, a, b]⟩)
    (hc : (⟨3, ![1, a, b]⟩ : Shape).ShapeCasts ⟨2, ![a, b]⟩) (hlt : FTy.bits .bf16 < FTy.bits .f32)
    (i : Fin a) (j : Fin b) (r : Fin n) (hr : r.val = o + (0 : Fin 1).val) :
    truncf .bf16 (shapeCast ⟨2, ![a, b]⟩ (extractStridedSlice ⟨3, ![1, a, b]⟩ ![o, 0, 0] x hs) hc) hlt (ix2 i j)
      = x (ix3 r i j) := by
  rw [truncf_apply, shapeCast_1ab_ab_apply, slice3_axis0_apply o x hs 0 i j r hr]

/-- Row `r` of a stack of rows as the host takes it (cut out, flattened, laid out as one row again): at `(u, k)` it is
the stack at `(r, k)`. -/
theorem rowOf_apply {α : Type} {n b : ℕ} (o : ℕ) (x : (⟨2, ![n, b]⟩ : Shape).Idx → α)
    (hs : (⟨2, ![n, b]⟩ : Shape).Slices ![o, 0] ⟨2, ![1, b]⟩)
    (h1 : (⟨2, ![1, b]⟩ : Shape).ShapeCasts ⟨1, ![b]⟩) (h2 : (⟨1, ![b]⟩ : Shape).ShapeCasts ⟨2, ![1, b]⟩)
    (u : Fin 1) (k : Fin b) (r : Fin n) (hr : r.val = o + (0 : Fin 1).val) :
    shapeCast ⟨2, ![1, b]⟩ (shapeCast ⟨1, ![b]⟩ (extractStridedSlice ⟨2, ![1, b]⟩ ![o, 0] x hs) h1) h2 (ix2 u k)
      = x (ix2 r k) := by
  rw [shapeCast_a_1a_apply, shapeCast_1a_a_apply, slice2_axis0_apply o x hs 0 k r hr]

/-! ## The scale and shift rows of a batch normalisation, as the host computes them -/

/-- The scale row from the row of sums `s1`, the row of sums of squares `s2` and the row `g` of γ:
`g · (s2/n − (s1/n)·(s1/n) + ε)^(−1/2)`. -/
def scaleRow {S : Shape} (hb : S_.BroadcastsInDim S (![] : Fin 0 → Fin S.rank)) (s1 s2 g : FVec Ideal S .f32) : FVec Ideal S .f32 :=
  mulf g (Host.rsqrt (addf
    (subf (Host.divf s2 (broadcastInDim S ![] hb (constant (F := Ideal) S_ .f32 0x47C35000#32)))
      (mulf (Host.divf s1 (broadcastInDim S ![] hb (constant (F := Ideal) S_ .f32 0x47C35000#32)))
        (Host.divf s1 (broadcastInDim S ![] hb (constant (F := Ideal) S_ .f32 0x47C35000#32)))))
    (broadcastInDim S ![] hb (constant (F := Ideal) S_ .f32 0x3727C5AC#32))))

theorem scaleRow_apply {S : Shape} (hb : S_.BroadcastsInDim S (![] : Fin 0 → Fin S.rank)) (s1 s2 g : FVec Ideal S .f32) (i : S.Idx) :
    scaleRow hb s1 s2 g i
      = g i * Ideal.rsqrt (Ideal.div (s2 i) nLit - Ideal.div (s1 i) nLit * Ideal.div (s1 i) nLit + epsLit) := rfl

/-- The shift row from the row of sums `s1`, the row `bt` of β and the scale row `sc`: `bt − (s1/n)·sc`. -/
def shiftRow {S : Shape} (hb : S_.BroadcastsInDim S (![] : Fin 0 → Fin S.rank)) (s1 bt sc : FVec Ideal S .f32) : FVec Ideal S .f32 :=
  subf bt (mulf (Host.divf s1 (broadcastInDim S ![] hb (constant (F := Ideal) S_ .f32 0x47C35000#32))) sc)

theorem shiftRow_apply {S : Shape} (hb : S_.BroadcastsInDim S (![] : Fin 0 → Fin S.rank)) (s1 bt sc : FVec Ideal S .f32) (i : S.Idx) :
    shiftRow hb s1 bt sc i = bt i - Ideal.div (s1 i) nLit * sc i := rfl

variable (W : Valuation τ sig (Elt Ideal))

/-! ## The stretch before the first elementwise call (`hostOps1`): the input normalisation's scale and shift rows -/

theorem h1_scale (k : Fin 128) :
    f32At (S := S1x128) (StableHlo.after (hostOps1 (F := Ideal)) W (Proc.devRef .tc main_v11)) (ix2 0 k)
      = f32At (S := S128) (W (Proc.devRef .tc main_arg4)) (ix1 k)
        * Ideal.rsqrt (Ideal.div (f32At (S := S1x128) (W (Proc.devRef .tc main_v0_1)) (ix2 0 k)) nLit
            - Ideal.div (f32At (S := S1x128) (W (Proc.devRef .tc main_v0_0)) (ix2 0 k)) nLit * Ideal.div (f32At (S := S1x128) (W (Proc.devRef .tc main_v0_0)) (ix2 0 k)) nLit + epsLit) := by
  have e : StableHlo.after (hostOps1 (F := Ideal)) W (Proc.devRef .tc main_v11)
      = scaleRow bcast_S_S1x128 (W (Proc.devRef .tc main_v0_0)) (W (Proc.devRef .tc main_v0_1))
          (shapeCast S1x128 (W (Proc.devRef .tc main_arg4)) shapeCasts_S128_S1x128) := by
    after_results_simp <;> rfl
  unfold f32At
  rw [e, scaleRow_apply, shapeCast_a_1a_apply]
theorem h1_shift (k : Fin 128) :
    f32At (S := S1x128) (StableHlo.after (hostOps1 (F := Ideal)) W (Proc.devRef .tc main_v14)) (ix2 0 k)
      = f32At (S := S128) (W (Proc.devRef .tc main_arg5)) (ix1 k)
        - Ideal.div (f32At (S := S1x128) (W (Proc.devRef .tc main_v0_0)) (ix2 0 k)) nLit
          * f32At (S := S1x128) (StableHlo.after (hostOps1 (F := Ideal)) W (Proc.devRef .tc main_v11)) (ix2 0 k) := by
  have e11 : StableHlo.after (hostOps1 (F := Ideal)) W (Proc.devRef .tc main_v11)
      = scaleRow bcast_S_S1x128 (W (Proc.devRef .tc main_v0_0)) (W (Proc.devRef .tc main_v0_1))
          (shapeCast S1x128 (W (Proc.devRef .tc main_arg4)) shapeCasts_S128_S1x128) := by
    after_results_simp <;> rfl
  have e : StableHlo.after (hostOps1 (F := Ideal)) W (Proc.devRef .tc main_v14)
      = shiftRow bcast_S_S1x128 (W (Proc.devRef .tc main_v0_0))
          (shapeCast S1x128 (W (Proc.devRef .tc main_arg5)) shapeCasts_S128_S1x128)
          (scaleRow bcast_S_S1x128 (W (Proc.devRef .tc main_v0_0)) (W (Proc.devRef .tc main_v0_1))
            (shapeCast S1x128 (W (Proc.devRef .tc main_arg4)) shapeCasts_S128_S1x128)) := by
    after_results_simp <;> rfl
  unfold f32At
  rw [e, e11, shiftRow_apply, shapeCast_a_1a_apply]
theorem h1_keep_x : StableHlo.after (hostOps1 (F := Ideal)) W (Proc.devRef .tc main_arg0) = (W (Proc.devRef .tc main_arg0)) := by
  after_results_simp

/-! ## Branch 0: the stretch before its perceptron call (`hostOps2`) and before its closing call (`hostOps3`) -/

theorem h2_agg : StableHlo.after (hostOps2 (F := Ideal)) W (Proc.devRef .tc main_v29) = aggK (W (Proc.devRef .tc main_arg1)) (W (Proc.devRef .tc main_v15)) := by
  after_results_simp <;> rfl
theorem h2_w1 (i : Fin 128) (j : Fin 64) :
    bf16At (S := S128x64) (StableHlo.after (hostOps2 (F := Ideal)) W (Proc.devRef .tc main_v32)) (ix2 i j) = f32At (S := S3x128x64) (W (Proc.devRef .tc main_arg6)) (ix3 0 i j) := by
  have e : StableHlo.after (hostOps2 (F := Ideal)) W (Proc.devRef .tc main_v32)
      = truncf (F := Ideal) .bf16 (shapeCast S128x64 (extractStridedSlice S1x128x64 ![0, 0, 0]
          (W (Proc.devRef .tc main_arg6)) slices_S3x128x64_S1x128x64_0_0_0) shapeCasts_S1x128x64_S128x64)
          bitsLt_bf16_f32 := by
    after_results_simp <;> rfl
  unfold bf16At f32At
  rw [e, member_apply 0 _ _ _ _ i j 0 rfl]
theorem h2_b1 (j : Fin 64) :
    f32At (S := S1x64) (StableHlo.after (hostOps2 (F := Ideal)) W (Proc.devRef .tc main_v38)) (ix2 0 j) = f32At (S := S3x64) (W (Proc.devRef .tc main_arg7)) (ix2 0 j) := by
  have e : StableHlo.after (hostOps2 (F := Ideal)) W (Proc.devRef .tc main_v38)
      = shapeCast S1x64 (shapeCast S64 (extractStridedSlice S1x64 ![0, 0] (W (Proc.devRef .tc main_arg7))
          slices_S3x64_S1x64_0_0) shapeCasts_S1x64_S64) shapeCasts_S64_S1x64 := by
    after_results_simp <;> rfl
  unfold f32At
  rw [e, rowOf_apply 0 _ _ _ _ 0 j 0 rfl]
theorem h2_w2 (j k : Fin 64) :
    bf16At (S := S64x64) (StableHlo.after (hostOps2 (F := Ideal)) W (Proc.devRef .tc main_v35)) (ix2 j k) = f32At (S := S3x64x64) (W (Proc.devRef .tc main_arg8)) (ix3 0 j k) := by
  have e : StableHlo.after (hostOps2 (F := Ideal)) W (Proc.devRef .tc main_v35)
      = truncf (F := Ideal) .bf16 (shapeCast S64x64 (extractStridedSlice S1x64x64 ![0, 0, 0]
          (W (Proc.devRef .tc main_arg8)) slices_S3x64x64_S1x64x64_0_0_0) shapeCasts_S1x64x64_S64x64)
          bitsLt_bf16_f32 := by
    after_results_simp <;> rfl
  unfold bf16At f32At
  rw [e, member_apply 0 _ _ _ _ j k 0 rfl]
theorem h2_b2 (k : Fin 64) :
    f32At (S := S1x64) (StableHlo.after (hostOps2 (F := Ideal)) W (Proc.devRef .tc main_v41)) (ix2 0 k) = f32At (S := S3x64) (W (Proc.devRef .tc main_arg9)) (ix2 0 k) := by
  have e : StableHlo.after (hostOps2 (F := Ideal)) W (Proc.devRef .tc main_v41)
      = shapeCast S1x64 (shapeCast S64 (extractStridedSlice S1x64 ![0, 0] (W (Proc.devRef .tc main_arg9))
          slices_S3x64_S1x64_0_0) shapeCasts_S1x64_S64) shapeCasts_S64_S1x64 := by
    after_results_simp <;> rfl
  unfold f32At
  rw [e, rowOf_apply 0 _ _ _ _ 0 k 0 rfl]
theorem h2_keep_xn : StableHlo.after (hostOps2 (F := Ideal)) W (Proc.devRef .tc main_v15) = (W (Proc.devRef .tc main_v15)) := by
  after_results_simp

theorem h3_scale (k : Fin 64) :
    f32At (S := S1x64) (StableHlo.after (hostOps3 (F := Ideal)) W (Proc.devRef .tc main_v55)) (ix2 0 k)
      = f32At (S := S3x64) (W (Proc.devRef .tc main_arg10)) (ix2 0 k)
        * Ideal.rsqrt (Ideal.div (f32At (S := S1x64) (W (Proc.devRef .tc main_v42_2)) (ix2 0 k)) nLit
            - Ideal.div (f32At (S := S1x64) (W (Proc.devRef .tc main_v42_1)) (ix2 0 k)) nLit * Ideal.div (f32At (S := S1x64) (W (Proc.devRef .tc main_v42_1)) (ix2 0 k)) nLit + epsLit) := by
  have e : StableHlo.after (hostOps3 (F := Ideal)) W (Proc.devRef .tc main_v55)
      = scaleRow bcast_S_S1x64 (W (Proc.devRef .tc main_v42_1)) (W (Proc.devRef .tc main_v42_2))
          (shapeCast S1x64 (shapeCast S64 (extractStridedSlice S1x64 ![0, 0] (W (Proc.devRef .tc main_arg10))
            slices_S3x64_S1x64_0_0) shapeCasts_S1x64_S64) shapeCasts_S64_S1x64) := by
    after_results_simp <;> rfl
  unfold f32At
  rw [e, scaleRow_apply, rowOf_apply 0 _ _ _ _ 0 k 0 rfl]
theorem h3_shift (k : Fin 64) :
    f32At (S := S1x64) (StableHlo.after (hostOps3 (F := Ideal)) W (Proc.devRef .tc main_v60)) (ix2 0 k)
      = f32At (S := S3x64) (W (Proc.devRef .tc main_arg11)) (ix2 0 k)
        - Ideal.div (f32At (S := S1x64) (W (Proc.devRef .tc main_v42_1)) (ix2 0 k)) nLit
          * f32At (S := S1x64) (StableHlo.after (hostOps3 (F := Ideal)) W (Proc.devRef .tc main_v55)) (ix2 0 k) := by
  have e55 : StableHlo.after (hostOps3 (F := Ideal)) W (Proc.devRef .tc main_v55)
      = scaleRow bcast_S_S1x64 (W (Proc.devRef .tc main_v42_1)) (W (Proc.devRef .tc main_v42_2))
          (shapeCast S1x64 (shapeCast S64 (extractStridedSlice S1x64 ![0, 0] (W (Proc.devRef .tc main_arg10))
            slices_S3x64_S1x64_0_0) shapeCasts_S1x64_S64) shapeCasts_S64_S1x64) := by
    after_results_simp <;> rfl
  have e : StableHlo.after (hostOps3 (F := Ideal)) W (Proc.devRef .tc main_v60)
      = shiftRow bcast_S_S1x64 (W (Proc.devRef .tc main_v42_1))
          (shapeCast S1x64 (shapeCast S64 (extractStridedSlice S1x64 ![0, 0] (W (Proc.devRef .tc main_arg11))
            slices_S3x64_S1x64_0_0) shapeCasts_S1x64_S64) shapeCasts_S64_S1x64)
          (scaleRow bcast_S_S1x64 (W (Proc.devRef .tc main_v42_1)) (W (Proc.devRef .tc main_v42_2))
            (shapeCast S1x64 (shapeCast S64 (extractStridedSlice S1x64 ![0, 0] (W (Proc.devRef .tc main_arg10))
              slices_S3x64_S1x64_0_0) shapeCasts_S1x64_S64) shapeCasts_S64_S1x64)) := by
    after_results_simp <;> rfl
  unfold f32At
  rw [e, e55, shiftRow_apply, rowOf_apply 0 _ _ _ _ 0 k 0 rfl]
theorem h3_keep_h : StableHlo.after (hostOps3 (F := Ideal)) W (Proc.devRef .tc main_v42_0) = (W (Proc.devRef .tc main_v42_0)) := by
  after_results_simp

/-! ## Branch 1: the stretch before its perceptron call (`hostOps4`) and before its closing call (`hostOps5`) -/

theorem h4_agg : StableHlo.after (hostOps4 (F := Ideal)) W (Proc.devRef .tc main_v75) = aggK (W (Proc.devRef .tc main_arg2)) (W (Proc.devRef .tc main_v15)) := by
  after_results_simp <;> rfl
theorem h4_w1 (i : Fin 128) (j : Fin 64) :
    bf16At (S := S128x64) (StableHlo.after (hostOps4 (F := Ideal)) W (Proc.devRef .tc main_v78)) (ix2 i j) = f32At (S := S3x128x64) (W (Proc.devRef .tc main_arg6)) (ix3 1 i j) := by
  have e : StableHlo.after (hostOps4 (F := Ideal)) W (Proc.devRef .tc main_v78)
      = truncf (F := Ideal) .bf16 (shapeCast S128x64 (extractStridedSlice S1x128x64 ![1, 0, 0]
          (W (Proc.devRef .tc main_arg6)) slices_S3x128x64_S1x128x64_1_0_0) shapeCasts_S1x128x64_S128x64)
          bitsLt_bf16_f32 := by
    after_results_simp <;> rfl
  unfold bf16At f32At
  rw [e, member_apply 1 _ _ _ _ i j 1 rfl]
theorem h4_b1 (j : Fin 64) :
    f32At (S := S1x64) (StableHlo.after (hostOps4 (F := Ideal)) W (Proc.devRef .tc main_v84)) (ix2 0 j) = f32At (S := S3x64) (W (Proc.devRef .tc main_arg7)) (ix2 1 j) := by
  have e : StableHlo.after (hostOps4 (F := Ideal)) W (Proc.devRef .tc main_v84)
      = (shapeCast S1x64 (shapeCast S64 (extractStridedSlice S1x64 ![1, 0] (W (Proc.devRef .tc main_arg7))
            slices_S3x64_S1x64_1_0) shapeCasts_S1x64_S64) shapeCasts_S64_S1x64) := by
    after_results_simp <;> rfl
  unfold f32At
  rw [e, rowOf_apply 1 _ _ _ _ 0 j 1 rfl]
theorem h4_w2 (j k : Fin 64) :
    bf16At (S := S64x64) (StableHlo.after (hostOps4 (F := Ideal)) W (Proc.devRef .tc main_v81)) (ix2 j k) = f32At (S := S3x64x64) (W (Proc.devRef .tc main_arg8)) (ix3 1 j k) := by
  have e : StableHlo.after (hostOps4 (F := Ideal)) W (Proc.devRef .tc main_v81)
      = truncf (F := Ideal) .bf16 (shapeCast S64x64 (extractStridedSlice S1x64x64 ![1, 0, 0]
          (W (Proc.devRef .tc main_arg8)) slices_S3x64x64_S1x64x64_1_0_0) shapeCasts_S1x64x64_S64x64)
          bitsLt_bf16_f32 := by
    after_results_simp <;> rfl
  unfold bf16At f32At
  rw [e, member_apply 1 _ _ _ _ j k 1 rfl]
theorem h4_b2 (k : Fin 64) :
    f32At (S := S1x64) (StableHlo.after (hostOps4 (F := Ideal)) W (Proc.devRef .tc main_v87)) (ix2 0 k) = f32At (S := S3x64) (W (Proc.devRef .tc main_arg9)) (ix2 1 k) := by
  have e : StableHlo.after (hostOps4 (F := Ideal)) W (Proc.devRef .tc main_v87)
      = (shapeCast S1x64 (shapeCast S64 (extractStridedSlice S1x64 ![1, 0] (W (Proc.devRef .tc main_arg9))
            slices_S3x64_S1x64_1_0) shapeCasts_S1x64_S64) shapeCasts_S64_S1x64) := by
    after_results_simp <;> rfl
  unfold f32At
  rw [e, rowOf_apply 1 _ _ _ _ 0 k 1 rfl]
theorem h4_keep_xn : StableHlo.after (hostOps4 (F := Ideal)) W (Proc.devRef .tc main_v15) = (W (Proc.devRef .tc main_v15)) := by
  after_results_simp

theorem h5_scale (k : Fin 64) :
    f32At (S := S1x64) (StableHlo.after (hostOps5 (F := Ideal)) W (Proc.devRef .tc main_v101)) (ix2 0 k)
      = f32At (S := S3x64) (W (Proc.devRef .tc main_arg10)) (ix2 1 k)
        * Ideal.rsqrt (Ideal.div (f32At (S := S1x64) (W (Proc.devRef .tc main_v88_2)) (ix2 0 k)) nLit
            - Ideal.div (f32At (S := S1x64) (W (Proc.devRef .tc main_v88_1)) (ix2 0 k)) nLit * Ideal.div (f32At (S := S1x64) (W (Proc.devRef .tc main_v88_1)) (ix2 0 k)) nLit + epsLit) := by
  have e : StableHlo.after (hostOps5 (F := Ideal)) W (Proc.devRef .tc main_v101)
      = (scaleRow bcast_S_S1x64 (W (Proc.devRef .tc main_v88_1)) (W (Proc.devRef .tc main_v88_2))
          (shapeCast S1x64 (shapeCast S64 (extractStridedSlice S1x64 ![1, 0] (W (Proc.devRef .tc main_arg10))
            slices_S3x64_S1x64_1_0) shapeCasts_S1x64_S64) shapeCasts_S64_S1x64)) := by
    after_results_simp <;> rfl
  unfold f32At
  rw [e, scaleRow_apply, rowOf_apply 1 _ _ _ _ 0 k 1 rfl]
theorem h5_shift (k : Fin 64) :
    f32At (S := S1x64) (StableHlo.after (hostOps5 (F := Ideal)) W (Proc.devRef .tc main_v106)) (ix2 0 k)
      = f32At (S := S3x64) (W (Proc.devRef .tc main_arg11)) (ix2 1 k)
        - Ideal.div (f32At (S := S1x64) (W (Proc.devRef .tc main_v88_1)) (ix2 0 k)) nLit
          * f32At (S := S1x64) (StableHlo.after (hostOps5 (F := Ideal)) W (Proc.devRef .tc main_v101)) (ix2 0 k) := by
  have esc : StableHlo.after (hostOps5 (F := Ideal)) W (Proc.devRef .tc main_v101)
      = (scaleRow bcast_S_S1x64 (W (Proc.devRef .tc main_v88_1)) (W (Proc.devRef .tc main_v88_2))
          (shapeCast S1x64 (shapeCast S64 (extractStridedSlice S1x64 ![1, 0] (W (Proc.devRef .tc main_arg10))
            slices_S3x64_S1x64_1_0) shapeCasts_S1x64_S64) shapeCasts_S64_S1x64)) := by
    after_results_simp <;> rfl
  have e : StableHlo.after (hostOps5 (F := Ideal)) W (Proc.devRef .tc main_v106)
      = shiftRow bcast_S_S1x64 (W (Proc.devRef .tc main_v88_1))
          (shapeCast S1x64 (shapeCast S64 (extractStridedSlice S1x64 ![1, 0] (W (Proc.devRef .tc main_arg11))
            slices_S3x64_S1x64_1_0) shapeCasts_S1x64_S64) shapeCasts_S64_S1x64)
          (scaleRow bcast_S_S1x64 (W (Proc.devRef .tc main_v88_1)) (W (Proc.devRef .tc main_v88_2))
          (shapeCast S1x64 (shapeCast S64 (extractStridedSlice S1x64 ![1, 0] (W (Proc.devRef .tc main_arg10))
            slices_S3x64_S1x64_1_0) shapeCasts_S1x64_S64) shapeCasts_S64_S1x64)) := by
    after_results_simp <;> rfl
  unfold f32At
  rw [e, esc, shiftRow_apply, rowOf_apply 1 _ _ _ _ 0 k 1 rfl]
theorem h5_keep_h : StableHlo.after (hostOps5 (F := Ideal)) W (Proc.devRef .tc main_v88_0) = (W (Proc.devRef .tc main_v88_0)) := by
  after_results_simp

/-! ## Branch 2: the stretch before its perceptron call (`hostOps6`) and before its closing call (`hostOps7`) -/

theorem h6_agg : StableHlo.after (hostOps6 (F := Ideal)) W (Proc.devRef .tc main_v121) = aggK (W (Proc.devRef .tc main_arg3)) (W (Proc.devRef .tc main_v15)) := by
  after_results_simp <;> rfl
theorem h6_w1 (i : Fin 128) (j : Fin 64) :
    bf16At (S := S128x64) (StableHlo.after (hostOps6 (F := Ideal)) W (Proc.devRef .tc main_v124)) (ix2 i j) = f32At (S := S3x128x64) (W (Proc.devRef .tc main_arg6)) (ix3 2 i j) := by
  have e : StableHlo.after (hostOps6 (F := Ideal)) W (Proc.devRef .tc main_v124)
      = truncf (F := Ideal) .bf16 (shapeCast S128x64 (extractStridedSlice S1x128x64 ![2, 0, 0]
          (W (Proc.devRef .tc main_arg6)) slices_S3x128x64_S1x128x64_2_0_0) shapeCasts_S1x128x64_S128x64)
          bitsLt_bf16_f32 := by
    after_results_simp <;> rfl
  unfold bf16At f32At
  rw [e, member_apply 2 _ _ _ _ i j 2 rfl]
theorem h6_b1 (j : Fin 64) :
    f32At (S := S1x64) (StableHlo.after (hostOps6 (F := Ideal)) W (Proc.devRef .tc main_v130)) (ix2 0 j) = f32At (S := S3x64) (W (Proc.devRef .tc main_arg7)) (ix2 2 j) := by
  have e : StableHlo.after (hostOps6 (F := Ideal)) W (Proc.devRef .tc main_v130)
      = (shapeCast S1x64 (shapeCast S64 (extractStridedSlice S1x64 ![2, 0] (W (Proc.devRef .tc main_arg7))
            slices_S3x64_S1x64_2_0) shapeCasts_S1x64_S64) shapeCasts_S64_S1x64) := by
    after_results_simp <;> rfl
  unfold f32At
  rw [e, rowOf_apply 2 _ _ _ _ 0 j 2 rfl]
theorem h6_w2 (j k : Fin 64) :
    bf16At (S := S64x64) (StableHlo.after (hostOps6 (F := Ideal)) W (Proc.devRef .tc main_v127)) (ix2 j k) = f32At (S := S3x64x64) (W (Proc.devRef .tc main_arg8)) (ix3 2 j k) := by
  have e : StableHlo.after (hostOps6 (F := Ideal)) W (Proc.devRef .tc main_v127)
      = truncf (F := Ideal) .bf16 (shapeCast S64x64 (extractStridedSlice S1x64x64 ![2, 0, 0]
          (W (Proc.devRef .tc main_arg8)) slices_S3x64x64_S1x64x64_2_0_0) shapeCasts_S1x64x64_S64x64)
          bitsLt_bf16_f32 := by
    after_results_simp <;> rfl
  unfold bf16At f32At
  rw [e, member_apply 2 _ _ _ _ j k 2 rfl]
theorem h6_b2 (k : Fin 64) :
    f32At (S := S1x64) (StableHlo.after (hostOps6 (F := Ideal)) W (Proc.devRef .tc main_v133)) (ix2 0 k) = f32At (S := S3x64) (W (Proc.devRef .tc main_arg9)) (ix2 2 k) := by
  have e : StableHlo.after (hostOps6 (F := Ideal)) W (Proc.devRef .tc main_v133)
      = (shapeCast S1x64 (shapeCast S64 (extractStridedSlice S1x64 ![2, 0] (W (Proc.devRef .tc main_arg9))
            slices_S3x64_S1x64_2_0) shapeCasts_S1x64_S64) shapeCasts_S64_S1x64) := by
    after_results_simp <;> rfl
  unfold f32At
  rw [e, rowOf_apply 2 _ _ _ _ 0 k 2 rfl]
theorem h6_keep_xn : StableHlo.after (hostOps6 (F := Ideal)) W (Proc.devRef .tc main_v15) = (W (Proc.devRef .tc main_v15)) := by
  after_results_simp

theorem h7_scale (k : Fin 64) :
    f32At (S := S1x64) (StableHlo.after (hostOps7 (F := Ideal)) W (Proc.devRef .tc main_v147)) (ix2 0 k)
      = f32At (S := S3x64) (W (Proc.devRef .tc main_arg10)) (ix2 2 k)
        * Ideal.rsqrt (Ideal.div (f32At (S := S1x64) (W (Proc.devRef .tc main_v134_2)) (ix2 0 k)) nLit
            - Ideal.div (f32At (S := S1x64) (W (Proc.devRef .tc main_v134_1)) (ix2 0 k)) nLit * Ideal.div (f32At (S := S1x64) (W (Proc.devRef .tc main_v134_1)) (ix2 0 k)) nLit + epsLit) := by
  have e : StableHlo.after (hostOps7 (F := Ideal)) W (Proc.devRef .tc main_v147)
      = (scaleRow bcast_S_S1x64 (W (Proc.devRef .tc main_v134_1)) (W (Proc.devRef .tc main_v134_2))
          (shapeCast S1x64 (shapeCast S64 (extractStridedSlice S1x64 ![2, 0] (W (Proc.devRef .tc main_arg10))
            slices_S3x64_S1x64_2_0) shapeCasts_S1x64_S64) shapeCasts_S64_S1x64)) := by
    after_results_simp <;> rfl
  unfold f32At
  rw [e, scaleRow_apply, rowOf_apply 2 _ _ _ _ 0 k 2 rfl]
theorem h7_shift (k : Fin 64) :
    f32At (S := S1x64) (StableHlo.after (hostOps7 (F := Ideal)) W (Proc.devRef .tc main_v152)) (ix2 0 k)
      = f32At (S := S3x64) (W (Proc.devRef .tc main_arg11)) (ix2 2 k)
        - Ideal.div (f32At (S := S1x64) (W (Proc.devRef .tc main_v134_1)) (ix2 0 k)) nLit
          * f32At (S := S1x64) (StableHlo.after (hostOps7 (F := Ideal)) W (Proc.devRef .tc main_v147)) (ix2 0 k) := by
  have esc : StableHlo.after (hostOps7 (F := Ideal)) W (Proc.devRef .tc main_v147)
      = (scaleRow bcast_S_S1x64 (W (Proc.devRef .tc main_v134_1)) (W (Proc.devRef .tc main_v134_2))
          (shapeCast S1x64 (shapeCast S64 (extractStridedSlice S1x64 ![2, 0] (W (Proc.devRef .tc main_arg10))
            slices_S3x64_S1x64_2_0) shapeCasts_S1x64_S64) shapeCasts_S64_S1x64)) := by
    after_results_simp <;> rfl
  have e : StableHlo.after (hostOps7 (F := Ideal)) W (Proc.devRef .tc main_v152)
      = shiftRow bcast_S_S1x64 (W (Proc.devRef .tc main_v134_1))
          (shapeCast S1x64 (shapeCast S64 (extractStridedSlice S1x64 ![2, 0] (W (Proc.devRef .tc main_arg11))
            slices_S3x64_S1x64_2_0) shapeCasts_S1x64_S64) shapeCasts_S64_S1x64)
          (scaleRow bcast_S_S1x64 (W (Proc.devRef .tc main_v134_1)) (W (Proc.devRef .tc main_v134_2))
          (shapeCast S1x64 (shapeCast S64 (extractStridedSlice S1x64 ![2, 0] (W (Proc.devRef .tc main_arg10))
            slices_S3x64_S1x64_2_0) shapeCasts_S1x64_S64) shapeCasts_S64_S1x64)) := by
    after_results_simp <;> rfl
  unfold f32At
  rw [e, esc, shiftRow_apply, rowOf_apply 2 _ _ _ _ 0 k 2 rfl]
theorem h7_keep_h : StableHlo.after (hostOps7 (F := Ideal)) W (Proc.devRef .tc main_v134_0) = (W (Proc.devRef .tc main_v134_0)) := by
  after_results_simp

end Cert.KernelIdeal.HostVals

end
-- ==== Proof.Keep.lean ====
/-
  Buffers that later segments leave alone. Between the launch and the return the program alternates calls and stretches
  of host operations; a call changes only its own output arrays, a host operation only the buffer it writes. So an
  argument array read at a later segment boundary is still the launch contents, the normalised features written by the
  first elementwise call are still there when the second and third branch read them, and a branch's result array is still
  there at the return.
-/
import proofs.«107533_j36429912605472_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A host stretch none of whose operations writes the buffer leaves it as it was: the line's writes are listed
    operation by operation and the buffer is told apart from each. -/
macro "host_keeps " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Argument arrays at the boundaries where a stretch or a call reads them -/

/-! The node features are the one argument a call reads: input window 0 of the first call. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) :=
        (W1_arr m ρ c 0).trans (((dat0 (V0 m ρ) c).arrAt_in 0 rfl _).trans (A_eq0 (V0 m ρ) c 0))
    _ = m ((c : Thread nD τ).loc main_arg0) := rfl
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := W1_of_ne m ρ c main_arg4 (by decide)
    _ = m ((c : Thread nD τ).loc main_arg4) := rfl
theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := W1_of_ne m ρ c main_arg5 (by decide)
    _ = m ((c : Thread nD τ).loc main_arg5) := rfl

/-! No call has any other argument among its arrays, and no host operation writes an argument: after the second call. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := by host_keeps hostOps1 main_arg1
    _ = W0 m ρ c (Proc.devRef .tc main_arg1) := W1_of_ne m ρ c main_arg1 (by decide)
    _ = m ((c : Thread nD τ).loc main_arg1) := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := by host_keeps hostOps1 main_arg2
    _ = W0 m ρ c (Proc.devRef .tc main_arg2) := W1_of_ne m ρ c main_arg2 (by decide)
    _ = m ((c : Thread nD τ).loc main_arg2) := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := by host_keeps hostOps1 main_arg3
    _ = W0 m ρ c (Proc.devRef .tc main_arg3) := W1_of_ne m ρ c main_arg3 (by decide)
    _ = m ((c : Thread nD τ).loc main_arg3) := rfl
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := by host_keeps hostOps1 main_arg6
    _ = W0 m ρ c (Proc.devRef .tc main_arg6) := W1_of_ne m ρ c main_arg6 (by decide)
    _ = m ((c : Thread nD τ).loc main_arg6) := rfl
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := by host_keeps hostOps1 main_arg7
    _ = W0 m ρ c (Proc.devRef .tc main_arg7) := W1_of_ne m ρ c main_arg7 (by decide)
    _ = m ((c : Thread nD τ).loc main_arg7) := rfl
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := by host_keeps hostOps1 main_arg8
    _ = W0 m ρ c (Proc.devRef .tc main_arg8) := W1_of_ne m ρ c main_arg8 (by decide)
    _ = m ((c : Thread nD τ).loc main_arg8) := rfl
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := by host_keeps hostOps1 main_arg9
    _ = W0 m ρ c (Proc.devRef .tc main_arg9) := W1_of_ne m ρ c main_arg9 (by decide)
    _ = m ((c : Thread nD τ).loc main_arg9) := rfl

/-! After the third call. -/
theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := by host_keeps hostOps2 main_arg10
    _ = W2 m ρ c (Proc.devRef .tc main_arg10) := W3_of_ne m ρ c main_arg10 (by decide)
    _ = W1 m ρ c (Proc.devRef .tc main_arg10) := by host_keeps hostOps1 main_arg10
    _ = W0 m ρ c (Proc.devRef .tc main_arg10) := W1_of_ne m ρ c main_arg10 (by decide)
    _ = m ((c : Thread nD τ).loc main_arg10) := rfl
theorem W5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := by host_keeps hostOps2 main_arg11
    _ = W2 m ρ c (Proc.devRef .tc main_arg11) := W3_of_ne m ρ c main_arg11 (by decide)
    _ = W1 m ρ c (Proc.devRef .tc main_arg11) := by host_keeps hostOps1 main_arg11
    _ = W0 m ρ c (Proc.devRef .tc main_arg11) := W1_of_ne m ρ c main_arg11 (by decide)
    _ = m ((c : Thread nD τ).loc main_arg11) := rfl

/-! After the fourth call: two more calls and two more host stretches on top of the contents after the second. -/
theorem W7_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := by host_keeps hostOps3 main_arg2
    _ = W4 m ρ c (Proc.devRef .tc main_arg2) := W5_of_ne m ρ c main_arg2 (by decide)
    _ = W3 m ρ c (Proc.devRef .tc main_arg2) := by host_keeps hostOps2 main_arg2
    _ = m ((c : Thread nD τ).loc main_arg2) := W3_arg2 m ρ c
theorem W7_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := by host_keeps hostOps3 main_arg3
    _ = W4 m ρ c (Proc.devRef .tc main_arg3) := W5_of_ne m ρ c main_arg3 (by decide)
    _ = W3 m ρ c (Proc.devRef .tc main_arg3) := by host_keeps hostOps2 main_arg3
    _ = m ((c : Thread nD τ).loc main_arg3) := W3_arg3 m ρ c
theorem W7_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := by host_keeps hostOps3 main_arg6
    _ = W4 m ρ c (Proc.devRef .tc main_arg6) := W5_of_ne m ρ c main_arg6 (by decide)
    _ = W3 m ρ c (Proc.devRef .tc main_arg6) := by host_keeps hostOps2 main_arg6
    _ = m ((c : Thread nD τ).loc main_arg6) := W3_arg6 m ρ c
theorem W7_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := by host_keeps hostOps3 main_arg7
    _ = W4 m ρ c (Proc.devRef .tc main_arg7) := W5_of_ne m ρ c main_arg7 (by decide)
    _ = W3 m ρ c (Proc.devRef .tc main_arg7) := by host_keeps hostOps2 main_arg7
    _ = m ((c : Thread nD τ).loc main_arg7) := W3_arg7 m ρ c
theorem W7_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := by host_keeps hostOps3 main_arg8
    _ = W4 m ρ c (Proc.devRef .tc main_arg8) := W5_of_ne m ρ c main_arg8 (by decide)
    _ = W3 m ρ c (Proc.devRef .tc main_arg8) := by host_keeps hostOps2 main_arg8
    _ = m ((c : Thread nD τ).loc main_arg8) := W3_arg8 m ρ c
theorem W7_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := by host_keeps hostOps3 main_arg9
    _ = W4 m ρ c (Proc.devRef .tc main_arg9) := W5_of_ne m ρ c main_arg9 (by decide)
    _ = W3 m ρ c (Proc.devRef .tc main_arg9) := by host_keeps hostOps2 main_arg9
    _ = m ((c : Thread nD τ).loc main_arg9) := W3_arg9 m ρ c

/-! After the fifth call, on top of the contents after the third. -/
theorem W9_arg10 (c : Dev nD) : W9 m ρ c (Proc.devRef .tc main_arg10) = m ((c : Thread nD τ).loc main_arg10) :=
  calc W9 m ρ c (Proc.devRef .tc main_arg10)
    _ = W8 m ρ c (Proc.devRef .tc main_arg10) := W9_of_ne m ρ c main_arg10 (by decide)
    _ = W7 m ρ c (Proc.devRef .tc main_arg10) := by host_keeps hostOps4 main_arg10
    _ = W6 m ρ c (Proc.devRef .tc main_arg10) := W7_of_ne m ρ c main_arg10 (by decide)
    _ = W5 m ρ c (Proc.devRef .tc main_arg10) := by host_keeps hostOps3 main_arg10
    _ = m ((c : Thread nD τ).loc main_arg10) := W5_arg10 m ρ c
theorem W9_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of_ne m ρ c main_arg11 (by decide)
    _ = W7 m ρ c (Proc.devRef .tc main_arg11) := by host_keeps hostOps4 main_arg11
    _ = W6 m ρ c (Proc.devRef .tc main_arg11) := W7_of_ne m ρ c main_arg11 (by decide)
    _ = W5 m ρ c (Proc.devRef .tc main_arg11) := by host_keeps hostOps3 main_arg11
    _ = m ((c : Thread nD τ).loc main_arg11) := W5_arg11 m ρ c

/-! After the sixth call, on top of the contents after the fourth. -/
theorem W11_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := by host_keeps hostOps5 main_arg3
    _ = W8 m ρ c (Proc.devRef .tc main_arg3) := W9_of_ne m ρ c main_arg3 (by decide)
    _ = W7 m ρ c (Proc.devRef .tc main_arg3) := by host_keeps hostOps4 main_arg3
    _ = m ((c : Thread nD τ).loc main_arg3) := W7_arg3 m ρ c
theorem W11_arg6 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := by host_keeps hostOps5 main_arg6
    _ = W8 m ρ c (Proc.devRef .tc main_arg6) := W9_of_ne m ρ c main_arg6 (by decide)
    _ = W7 m ρ c (Proc.devRef .tc main_arg6) := by host_keeps hostOps4 main_arg6
    _ = m ((c : Thread nD τ).loc main_arg6) := W7_arg6 m ρ c
theorem W11_arg7 (c : Dev nD) : W11 m ρ c (Proc.devRef .tc main_arg7) = m ((c : Thread nD τ).loc main_arg7) :=
  calc W11 m ρ c (Proc.devRef .tc main_arg7)
    _ = W10 m ρ c (Proc.devRef .tc main_arg7) := W11_of_ne m ρ c main_arg7 (by decide)
    _ = W9 m ρ c (Proc.devRef .tc main_arg7) := by host_keeps hostOps5 main_arg7
    _ = W8 m ρ c (Proc.devRef .tc main_arg7) := W9_of_ne m ρ c main_arg7 (by decide)
    _ = W7 m ρ c (Proc.devRef .tc main_arg7) := by host_keeps hostOps4 main_arg7
    _ = m ((c : Thread nD τ).loc main_arg7) := W7_arg7 m ρ c
theorem W11_arg8 (c : Dev nD) : W11 m ρ c (Proc.devRef .tc main_arg8) = m ((c : Thread nD τ).loc main_arg8) :=
  calc W11 m ρ c (Proc.devRef .tc main_arg8)
    _ = W10 m ρ c (Proc.devRef .tc main_arg8) := W11_of_ne m ρ c main_arg8 (by decide)
    _ = W9 m ρ c (Proc.devRef .tc main_arg8) := by host_keeps hostOps5 main_arg8
    _ = W8 m ρ c (Proc.devRef .tc main_arg8) := W9_of_ne m ρ c main_arg8 (by decide)
    _ = W7 m ρ c (Proc.devRef .tc main_arg8) := by host_keeps hostOps4 main_arg8
    _ = m ((c : Thread nD τ).loc main_arg8) := W7_arg8 m ρ c
theorem W11_arg9 (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := by host_keeps hostOps5 main_arg9
    _ = W8 m ρ c (Proc.devRef .tc main_arg9) := W9_of_ne m ρ c main_arg9 (by decide)
    _ = W7 m ρ c (Proc.devRef .tc main_arg9) := by host_keeps hostOps4 main_arg9
    _ = m ((c : Thread nD τ).loc main_arg9) := W7_arg9 m ρ c

/-! After the seventh call, on top of the contents after the fifth. -/
theorem W13_arg10 (c : Dev nD) : W13 m ρ c (Proc.devRef .tc main_arg10) = m ((c : Thread nD τ).loc main_arg10) :=
  calc W13 m ρ c (Proc.devRef .tc main_arg10)
    _ = W12 m ρ c (Proc.devRef .tc main_arg10) := W13_of_ne m ρ c main_arg10 (by decide)
    _ = W11 m ρ c (Proc.devRef .tc main_arg10) := by host_keeps hostOps6 main_arg10
    _ = W10 m ρ c (Proc.devRef .tc main_arg10) := W11_of_ne m ρ c main_arg10 (by decide)
    _ = W9 m ρ c (Proc.devRef .tc main_arg10) := by host_keeps hostOps5 main_arg10
    _ = m ((c : Thread nD τ).loc main_arg10) := W9_arg10 m ρ c
theorem W13_arg11 (c : Dev nD) : W13 m ρ c (Proc.devRef .tc main_arg11) = m ((c : Thread nD τ).loc main_arg11) :=
  calc W13 m ρ c (Proc.devRef .tc main_arg11)
    _ = W12 m ρ c (Proc.devRef .tc main_arg11) := W13_of_ne m ρ c main_arg11 (by decide)
    _ = W11 m ρ c (Proc.devRef .tc main_arg11) := by host_keeps hostOps6 main_arg11
    _ = W10 m ρ c (Proc.devRef .tc main_arg11) := W11_of_ne m ρ c main_arg11 (by decide)
    _ = W9 m ρ c (Proc.devRef .tc main_arg11) := by host_keeps hostOps5 main_arg11
    _ = m ((c : Thread nD τ).loc main_arg11) := W9_arg11 m ρ c

/-! ## The normalised features when the later branches read them -/

/-! The third call reads them through its input window 0; the fourth call does not have them among its arrays. -/
theorem W7_xn (c : Dev nD) : W7 m ρ c (Proc.devRef .tc main_v15) = W3 m ρ c (Proc.devRef .tc main_v15) :=
  calc W7 m ρ c (Proc.devRef .tc main_v15)
    _ = W6 m ρ c (Proc.devRef .tc main_v15) := W7_of_ne m ρ c main_v15 (by decide)
    _ = W5 m ρ c (Proc.devRef .tc main_v15) := by host_keeps hostOps3 main_v15
    _ = W4 m ρ c (Proc.devRef .tc main_v15) :=
        (W5_arr m ρ c 0).trans (((dat2 (V4 m ρ) c).arrAt_in 0 rfl _).trans (A_eq2 (V4 m ρ) c 0))
    _ = W3 m ρ c (Proc.devRef .tc main_v15) := by host_keeps hostOps2 main_v15
/-! Likewise the fifth call reads them through its input window 0 and the sixth does not have them. -/
theorem W11_xn (c : Dev nD) : W11 m ρ c (Proc.devRef .tc main_v15) = W3 m ρ c (Proc.devRef .tc main_v15) :=
  calc W11 m ρ c (Proc.devRef .tc main_v15)
    _ = W10 m ρ c (Proc.devRef .tc main_v15) := W11_of_ne m ρ c main_v15 (by decide)
    _ = W9 m ρ c (Proc.devRef .tc main_v15) := by host_keeps hostOps5 main_v15
    _ = W8 m ρ c (Proc.devRef .tc main_v15) :=
        (W9_arr m ρ c 0).trans (((dat4 (V8 m ρ) c).arrAt_in 0 rfl _).trans (A_eq4 (V8 m ρ) c 0))
    _ = W7 m ρ c (Proc.devRef .tc main_v15) := by host_keeps hostOps4 main_v15
    _ = W3 m ρ c (Proc.devRef .tc main_v15) := W7_xn m ρ c

/-! ## The first two branches' results at the return -/

/-! The fourth call's result is an array of no later call and the target of no later host operation. -/
theorem W11_out0 (c : Dev nD) : W11 m ρ c (Proc.devRef .tc main_v61) = W7 m ρ c (Proc.devRef .tc main_v61) :=
  calc W11 m ρ c (Proc.devRef .tc main_v61)
    _ = W10 m ρ c (Proc.devRef .tc main_v61) := W11_of_ne m ρ c main_v61 (by decide)
    _ = W9 m ρ c (Proc.devRef .tc main_v61) := by host_keeps hostOps5 main_v61
    _ = W8 m ρ c (Proc.devRef .tc main_v61) := W9_of_ne m ρ c main_v61 (by decide)
    _ = W7 m ρ c (Proc.devRef .tc main_v61) := by host_keeps hostOps4 main_v61
theorem W15_out0 (c : Dev nD) : W15 m ρ c (Proc.devRef .tc main_v61) = W7 m ρ c (Proc.devRef .tc main_v61) :=
  calc W15 m ρ c (Proc.devRef .tc main_v61)
    _ = W14 m ρ c (Proc.devRef .tc main_v61) := W15_of_ne m ρ c main_v61 (by decide)
    _ = W13 m ρ c (Proc.devRef .tc main_v61) := by host_keeps hostOps7 main_v61
    _ = W12 m ρ c (Proc.devRef .tc main_v61) := W13_of_ne m ρ c main_v61 (by decide)
    _ = W11 m ρ c (Proc.devRef .tc main_v61) := by host_keeps hostOps6 main_v61
    _ = W7 m ρ c (Proc.devRef .tc main_v61) := W11_out0 m ρ c
/-! So is the sixth call's result. -/
theorem W15_out1 (c : Dev nD) : W15 m ρ c (Proc.devRef .tc main_v107) = W11 m ρ c (Proc.devRef .tc main_v107) :=
  calc W15 m ρ c (Proc.devRef .tc main_v107)
    _ = W14 m ρ c (Proc.devRef .tc main_v107) := W15_of_ne m ρ c main_v107 (by decide)
    _ = W13 m ρ c (Proc.devRef .tc main_v107) := by host_keeps hostOps7 main_v107
    _ = W12 m ρ c (Proc.devRef .tc main_v107) := W13_of_ne m ρ c main_v107 (by decide)
    _ = W11 m ρ c (Proc.devRef .tc main_v107) := by host_keeps hostOps6 main_v107

end Cert.KernelIdeal.Keep

end
-- ==== Proof.R0.lean ====
/-
  The statistics call on the node features: over ten row blocks it accumulates, per column, the sum of the entries and
  the sum of their squares, starting from zero at the first block. Addition on the extended reals is associative and
  commutative, so the accumulated rows are the plain column sums over all rows.
-/
import proofs.«107533_j36429912605472_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.SL.Sem Idealize.ShloMosaic.ValueIdx
open Idealize.ShloMosaic.Pipeline (Dat)

/-! ## The body's arithmetic, entry by entry -/

/-- The first row's update: the old entry plus the block's column sum. -/
theorem pay3_apply (v3 : Vec Ideal S10000x128 .f32) (v4 : Vec Ideal S1x128 .f32) (k : Fin 128) :
    k0_pay3 v3 v4 (ix2 (0 : Fin 1) k) = v4 (ix2 (0 : Fin 1) k) + ∑ p : Fin 10000, v3 (ix2 p k) := by
  unfold k0_pay3
  rw [addf_apply, shapeCast_self, shapeCast_a_1a_apply]
  refine congrArg (v4 (ix2 (0 : Fin 1) k) + ·) ?_
  refine (Ideal.multiReduction_add_single v3 _ reduces_S10000x128_S128 (.inl rfl) rfl (ix1 k)).trans ?_
  refine Finset.sum_congr rfl fun p _ => congrArg v3 ?_
  funext a
  match a with
  | ⟨0, _⟩ => rfl
  | ⟨1, _⟩ => rfl

/-- The second row's update: the old entry plus the block's column sum of squares. -/
theorem pay4_apply (v3 : Vec Ideal S10000x128 .f32) (v10 : Vec Ideal S1x128 .f32) (k : Fin 128) :
    k0_pay4 v3 v10 (ix2 (0 : Fin 1) k)
      = v10 (ix2 (0 : Fin 1) k) + ∑ p : Fin 10000, v3 (ix2 p k) * v3 (ix2 p k) := by
  unfold k0_pay4
  rw [addf_apply, shapeCast_self, shapeCast_a_1a_apply]
  refine congrArg (v10 (ix2 (0 : Fin 1) k) + ·) ?_
  refine (Ideal.multiReduction_add_single (mulf v3 v3) _ reduces_S10000x128_S128 (.inl rfl) rfl (ix1 k)).trans ?_
  refine Finset.sum_congr rfl fun p _ => ?_
  have e : reduces_S10000x128_S128.lift (ix1 k) p = ix2 p k := by
    funext a
    match a with
    | ⟨0, _⟩ => rfl
    | ⟨1, _⟩ => rfl
  exact congrArg (fun i => v3 i * v3 i) e

/-- The rows the first block starts from are zero. -/
theorem pay1_apply (j : S1x128.Idx) : (k0_pay1 (F := Ideal)) j = 0 := by
  unfold k0_pay1
  exact Ideal.ofBits_zero_f32

theorem pay2_apply (j : S1x128.Idx) : (k0_pay2 (F := Ideal)) j = 0 := by
  unfold k0_pay2
  exact Ideal.ofBits_zero_f32

/-! ## What the body leaves in the two rows' buffers, case by case -/

theorem hz : (![0, 0] : Fin 2 → Nat) = fun _ => 0 := funext fun a => by fin_cases a <;> rfl

section Pieces
variable {F : FTy → Type} [FloatOps F]

/-- At a later block the first row's buffer, holding `xo1`, is left at its update by the block `x`. -/
theorem out_B_1 (c : Dev nD) (i : grid0.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond0_0 i) (x : Vec F S10000x128 .f32) (xo1 xo2 : Vec F S1x128 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz]
  simp only [View.readAt_eq_ld, h1.read_unread, h2.read_unread, View.ld_unit_zero (S := S10000x128) hz,
    View.ld_unit_zero (S := S1x128) hz]

/-- At a later block the second row's buffer, holding `xo2`, is left at its update by the block `x`. -/
theorem out_B_2 (c : Dev nD) (i : grid0.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond0_0 i) (x : Vec F S10000x128 .f32) (xo1 xo2 : Vec F S1x128 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz]
  simp only [View.readAt_eq_ld, h1.read_unread, h3.read_unread, View.ld_unit_zero (S := S10000x128) hz,
    View.ld_unit_zero (S := S1x128) hz]

/-- At the first block the first row's buffer is zeroed, read back, and left at the zero row's update by the block. -/
theorem out_A_1 (c : Dev nD) (i : grid0.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond0_0 i) (x : Vec F S10000x128 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x128) hz, View.readCov_unit_zero (S := S1x128) _ hz]
  simp only [View.readAt_eq_ld, h1.read_unread, View.ld_unit_zero (S := S10000x128) hz]

/-- At the first block the second row's buffer is zeroed, read back, and left at the zero row's update by the block. -/
theorem out_A_2 (c : Dev nD) (i : grid0.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond0_0 i) (x : Vec F S10000x128 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x128) hz, View.readCov_unit_zero (S := S1x128) _ hz]
  simp only [View.readAt_eq_ld, h1.read_unread, View.ld_unit_zero (S := S10000x128) hz]
end Pieces

/-! ## The blocks of the operand, and the running sums -/

-- the buffer contents the call is entered from
variable (V : (c : Dev nD) → (b : Ref sig .tc) → Buf (Elt Ideal) ((c : Thread nD τ).loc b))

/-- The operand array and the two accumulated rows, by their literal types. -/
abbrev xin (c : Dev nD) : Vec Ideal S100000x128 .f32 := V c main_arg0
abbrev s1 (c : Dev nD) : Vec Ideal S1x128 .f32 := (dat0 (F := Ideal) V c).arrAt 1 cfg0.N
abbrev s2 (c : Dev nD) : Vec Ideal S1x128 .f32 := (dat0 (F := Ideal) V c).arrAt 2 cfg0.N

/-- The operand's row block the body reads at point `t`, by its literal type. -/
abbrev xblk (c : Dev nD) (t : Fin cfg0.N) : Vec Ideal S10000x128 .f32 := iblk0 (F := Ideal) V c 0 t

/-- Column `k` of the operand as a sequence over all naturals: entry `r` below the array's 100000 rows, zero past them. -/
def col (c : Dev nD) (k : Fin 128) (r : ℕ) : EReal := if h : r < 100000 then xin V c (ix2 ⟨r, h⟩ k) else 0

/-- The operand's window at point `t` is row block `t`, all 128 columns: decided over the grid. -/
theorem idx_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row `p` of block `t` is row `10000 t + p` of the operand. -/
theorem xblk_apply (c : Dev nD) (t : Fin cfg0.N) (p : Fin 10000) (k : Fin 128) :
    xblk V c t (ix2 p k) = col V c k (10000 * t.val + p.val) := by
  have hN : t.val < 10 := lt_of_lt_of_eq t.isLt (show cfg0.N = 10 from N_0)
  have hr : 10000 * t.val + p.val < 100000 := by omega
  obtain ⟨e0, e1⟩ := idx_x t
  unfold col
  rw [dif_pos hr]
  show iblk0 (F := Ideal) V c 0 t (ix2 p k) = _
  unfold iblk0
  rw [View.read_apply]
  show V c main_arg0 _ = V c main_arg0 _
  congr 1
  funext a
  apply Fin.ext
  match a with
  | ⟨0, _⟩ => show win0_0.index t (0 : Fin 2) * 10000 + 1 * p.val = 10000 * t.val + p.val; omega
  | ⟨1, _⟩ => show win0_0.index t (1 : Fin 2) * 128 + 1 * k.val = k.val; omega

/-- A block's column sum is the sum of the column's entries over the block's 10000 rows. -/
theorem blk_sum (c : Dev nD) (t : Fin cfg0.N) (k : Fin 128) :
    ∑ p : Fin 10000, xblk V c t (ix2 p k) = ∑ r ∈ Finset.range 10000, col V c k (10000 * t.val + r) := by
  rw [Finset.sum_range]
  exact Finset.sum_congr rfl fun p _ => xblk_apply V c t p k

theorem blk_sumsq (c : Dev nD) (t : Fin cfg0.N) (k : Fin 128) :
    ∑ p : Fin 10000, xblk V c t (ix2 p k) * xblk V c t (ix2 p k)
      = ∑ r ∈ Finset.range 10000, col V c k (10000 * t.val + r) * col V c k (10000 * t.val + r) := by
  rw [Finset.sum_range]
  exact Finset.sum_congr rfl fun p _ => by rw [xblk_apply V c t p k]

/-- After the first block the rows hold that block's column sums and column sums of squares. -/
theorem rows_first (c : Dev nD) (t : Fin cfg0.N) (h0 : t.val % 10 = 0) (k : Fin 128) :
    (outsAt0 (F := Ideal) V c t.val t.isLt).1 (ix2 (0 : Fin 1) k) = ∑ p : Fin 10000, xblk V c t (ix2 p k)
    ∧ (outsAt0 (F := Ideal) V c t.val t.isLt).2 (ix2 (0 : Fin 1) k)
        = ∑ p : Fin 10000, xblk V c t (ix2 p k) * xblk V c t (ix2 p k) := by
  rw [outsAt0_A V c t h0]
  dsimp only
  constructor
  · refine (congrFun (out_A_1 (F := Ideal) c (grid0.coords t) (ms0_0 t) (hs0_0 t) (ms0_1 t) (hs0_1 t) (ms0_2 t) (hs0_2 t)
      ((hcond0_0 t).mpr h0) (xblk V c t)) (ix2 (0 : Fin 1) k)).trans ?_
    rw [pay3_apply, pay1_apply, zero_add]
  · refine (congrFun (out_A_2 (F := Ideal) c (grid0.coords t) (ms0_0 t) (hs0_0 t) (ms0_1 t) (hs0_1 t) (ms0_2 t) (hs0_2 t)
      ((hcond0_0 t).mpr h0) (xblk V c t)) (ix2 (0 : Fin 1) k)).trans ?_
    rw [pay4_apply, pay2_apply, zero_add]

/-- After a later block each row holds what it held after the block before, plus the block's column sum (of squares). -/
theorem rows_next (c : Dev nD) (t : Fin cfg0.N) (h0 : ¬t.val % 10 = 0) (k : Fin 128) :
    (outsAt0 (F := Ideal) V c t.val t.isLt).1 (ix2 (0 : Fin 1) k)
        = (outsAt0 (F := Ideal) V c (t.val - 1) (Nat.lt_of_le_of_lt (Nat.sub_le _ _) t.isLt)).1 (ix2 (0 : Fin 1) k)
          + ∑ p : Fin 10000, xblk V c t (ix2 p k)
    ∧ (outsAt0 (F := Ideal) V c t.val t.isLt).2 (ix2 (0 : Fin 1) k)
        = (outsAt0 (F := Ideal) V c (t.val - 1) (Nat.lt_of_le_of_lt (Nat.sub_le _ _) t.isLt)).2 (ix2 (0 : Fin 1) k)
          + ∑ p : Fin 10000, xblk V c t (ix2 p k) * xblk V c t (ix2 p k) := by
  rw [outsAt0_B V c t h0]
  dsimp only
  constructor
  · refine (congrFun (out_B_1 (F := Ideal) c (grid0.coords t) (ms0_0 t) (hs0_0 t) (ms0_1 t) (hs0_1 t) (ms0_2 t) (hs0_2 t)
      (fun h => h0 ((hcond0_0 t).mp h)) (xblk V c t)
      (outsAt0 (F := Ideal) V c (t.val - 1) (Nat.lt_of_le_of_lt (Nat.sub_le _ _) t.isLt)).1
      (outsAt0 (F := Ideal) V c (t.val - 1) (Nat.lt_of_le_of_lt (Nat.sub_le _ _) t.isLt)).2) (ix2 (0 : Fin 1) k)).trans ?_
    rw [pay3_apply]
  · refine (congrFun (out_B_2 (F := Ideal) c (grid0.coords t) (ms0_0 t) (hs0_0 t) (ms0_1 t) (hs0_1 t) (ms0_2 t) (hs0_2 t)
      (fun h => h0 ((hcond0_0 t).mp h)) (xblk V c t)
      (outsAt0 (F := Ideal) V c (t.val - 1) (Nat.lt_of_le_of_lt (Nat.sub_le _ _) t.isLt)).1
      (outsAt0 (F := Ideal) V c (t.val - 1) (Nat.lt_of_le_of_lt (Nat.sub_le _ _) t.isLt)).2) (ix2 (0 : Fin 1) k)).trans ?_
    rw [pay4_apply]

/-- THE RUNNING SUMS: after block `n` the rows hold the column's sum, and sum of squares, over the first
    `10000 (n + 1)` rows — by induction on the block. -/
theorem rows_eq (c : Dev nD) (k : Fin 128) : ∀ (n : ℕ) (h : n < cfg0.N),
    (outsAt0 (F := Ideal) V c n h).1 (ix2 (0 : Fin 1) k) = ∑ r ∈ Finset.range (10000 * (n + 1)), col V c k r
    ∧ (outsAt0 (F := Ideal) V c n h).2 (ix2 (0 : Fin 1) k)
        = ∑ r ∈ Finset.range (10000 * (n + 1)), col V c k r * col V c k r
  | 0, h => by
    obtain ⟨e1, e2⟩ := rows_first V c ⟨0, h⟩ rfl k
    refine ⟨e1.trans ?_, e2.trans ?_⟩
    · rw [blk_sum]
      exact Finset.sum_congr rfl fun r _ => by rw [show 10000 * (⟨0, h⟩ : Fin cfg0.N).val + r = r from by simp]
    · rw [blk_sumsq]
      exact Finset.sum_congr rfl fun r _ => by rw [show 10000 * (⟨0, h⟩ : Fin cfg0.N).val + r = r from by simp]
  | n + 1, h => by
    have hN : cfg0.N = 10 := N_0
    have hB : ¬(⟨n + 1, h⟩ : Fin cfg0.N).val % 10 = 0 := by dsimp only; omega
    obtain ⟨e1, e2⟩ := rows_next V c ⟨n + 1, h⟩ hB k
    obtain ⟨i1, i2⟩ := rows_eq c k n (Nat.lt_of_succ_lt h)
    have hs : 10000 * (n + 1 + 1) = 10000 * (n + 1) + 10000 := by omega
    refine ⟨e1.trans ?_, e2.trans ?_⟩
    · rw [blk_sum, hs, Finset.sum_range_add]
      exact congrArg (· + _) i1
    · rw [blk_sumsq, hs, Finset.sum_range_add]
      exact congrArg (· + _) i2

/-! ## From the last block's buffers to the arrays -/

theorem h9 : 9 < cfg0.N := by rw [show cfg0.N = 10 from N_0]; decide

/-- The one write-back of the first row, at the last point, writes what the buffer holds there: block (0, 0) of the
    [1,128] array, read through zero offsets, is the array. -/
theorem flushed1_eq (c : Dev nD) (t : Fin cfg0.N) (hf : (cfg0.win 1).flush t = true) :
    (dat0 (F := Ideal) V c).flushed 1 t
      = ((cfg0.win 1).blk t).view.read (Elt Ideal) (outsAt0 (F := Ideal) V c 9 h9).1 := by
  have hN : cfg0.N = 10 := N_0
  have ht : t.val = 9 := by have := (flush0_1 t).mp hf; have := t.isLt; omega
  obtain rfl : t = t0_9 := Fin.ext ht
  show (cfg0.win 1).cut (grid0.coords t0_9) ((dat0 (F := Ideal) V c).after 1 t0_9) = _
  rw [after0_1]
  have hz' : (fun a => win0_1.index t0_9 a * main_v0_0.ty.shape.size a) = fun _ => 0 :=
    funext fun a => by fin_cases a <;> decide
  exact (Memref.read_access_unit_zero (Elt Ideal) main_v0_0 hz' (fun a => by rw [congrFun hz' a]; simp)
    (outsAt0 (F := Ideal) V c 9 h9).1).symm

/-- The same for the second row. -/
theorem flushed2_eq (c : Dev nD) (t : Fin cfg0.N) (hf : (cfg0.win 2).flush t = true) :
    (dat0 (F := Ideal) V c).flushed 2 t
      = ((cfg0.win 2).blk t).view.read (Elt Ideal) (outsAt0 (F := Ideal) V c 9 h9).2 := by
  have hN : cfg0.N = 10 := N_0
  have ht : t.val = 9 := by have := (flush0_2 t).mp hf; have := t.isLt; omega
  obtain rfl : t = t0_9 := Fin.ext ht
  show (cfg0.win 2).cut (grid0.coords t0_9) ((dat0 (F := Ideal) V c).after 2 t0_9) = _
  rw [after0_2]
  have hz' : (fun a => win0_2.index t0_9 a * main_v0_1.ty.shape.size a) = fun _ => 0 :=
    funext fun a => by fin_cases a <;> decide
  exact (Memref.read_access_unit_zero (Elt Ideal) main_v0_1 hz' (fun a => by rw [congrFun hz' a]; simp)
    (outsAt0 (F := Ideal) V c 9 h9).2).symm

/-- So the first row's array ends holding the buffer's contents after the last block: that one block covers it. -/
theorem final1 (c : Dev nD) : s1 V c = (outsAt0 (F := Ideal) V c 9 h9).1 :=
  (dat0 (F := Ideal) V c).arrAt_eq_of_cover 1 (outsAt0 (F := Ideal) V c 9 h9).1 (flushed1_eq V c) fun i =>
    ⟨t0_9, (flush0_1 t0_9).mpr rfl, by
      show i ∈ ((View.whole main_v0_0).slice (win0_1.rect t0_9)).set
      rw [View.set_slice_whole, Rect.mem_set_unit]
      intro a
      have h0 : (i 0 : Nat) < 1 := (i 0).isLt
      have h1 : (i 1 : Nat) < 128 := (i 1).isLt
      match a with
      | ⟨0, _⟩ =>
        show win0_1.index t0_9 0 * win0_1.size 0 ≤ (i 0 : Nat)
          ∧ (i 0 : Nat) < win0_1.index t0_9 0 * win0_1.size 0 + win0_1.xsize (grid0.coords t0_9) 0
        rw [show win0_1.index t0_9 0 * win0_1.size 0 = 0 from by decide +kernel,
          show win0_1.xsize (grid0.coords t0_9) 0 = 1 from by decide +kernel]
        omega
      | ⟨1, _⟩ =>
        show win0_1.index t0_9 1 * win0_1.size 1 ≤ (i 1 : Nat)
          ∧ (i 1 : Nat) < win0_1.index t0_9 1 * win0_1.size 1 + win0_1.xsize (grid0.coords t0_9) 1
        rw [show win0_1.index t0_9 1 * win0_1.size 1 = 0 from by decide +kernel,
          show win0_1.xsize (grid0.coords t0_9) 1 = 128 from by decide +kernel]
        omega⟩

/-- The same for the second row. -/
theorem final2 (c : Dev nD) : s2 V c = (outsAt0 (F := Ideal) V c 9 h9).2 :=
  (dat0 (F := Ideal) V c).arrAt_eq_of_cover 2 (outsAt0 (F := Ideal) V c 9 h9).2 (flushed2_eq V c) fun i =>
    ⟨t0_9, (flush0_2 t0_9).mpr rfl, by
      show i ∈ ((View.whole main_v0_1).slice (win0_2.rect t0_9)).set
      rw [View.set_slice_whole, Rect.mem_set_unit]
      intro a
      have h0 : (i 0 : Nat) < 1 := (i 0).isLt
      have h1 : (i 1 : Nat) < 128 := (i 1).isLt
      match a with
      | ⟨0, _⟩ =>
        show win0_2.index t0_9 0 * win0_2.size 0 ≤ (i 0 : Nat)
          ∧ (i 0 : Nat) < win0_2.index t0_9 0 * win0_2.size 0 + win0_2.xsize (grid0.coords t0_9) 0
        rw [show win0_2.index t0_9 0 * win0_2.size 0 = 0 from by decide +kernel,
          show win0_2.xsize (grid0.coords t0_9) 0 = 1 from by decide +kernel]
        omega
      | ⟨1, _⟩ =>
        show win0_2.index t0_9 1 * win0_2.size 1 ≤ (i 1 : Nat)
          ∧ (i 1 : Nat) < win0_2.index t0_9 1 * win0_2.size 1 + win0_2.xsize (grid0.coords t0_9) 1
        rw [show win0_2.index t0_9 1 * win0_2.size 1 = 0 from by decide +kernel,
          show win0_2.xsize (grid0.coords t0_9) 1 = 128 from by decide +kernel]
        omega⟩

/-- The column's sequence summed over the array's 100000 rows is the sum over the array's row index. -/
theorem col_sum (c : Dev nD) (k : Fin 128) :
    ∑ r ∈ Finset.range (10000 * (9 + 1)), col V c k r = ∑ r : Fin 100000, xin V c (ix2 r k) := by
  show ∑ r ∈ Finset.range 100000, col V c k r = _
  rw [Finset.sum_range]
  exact Finset.sum_congr rfl fun r _ => by unfold col; rw [dif_pos r.isLt]

theorem col_sumsq (c : Dev nD) (k : Fin 128) :
    ∑ r ∈ Finset.range (10000 * (9 + 1)), col V c k r * col V c k r
      = ∑ r : Fin 100000, xin V c (ix2 r k) * xin V c (ix2 r k) := by
  show ∑ r ∈ Finset.range 100000, col V c k r * col V c k r = _
  rw [Finset.sum_range]
  exact Finset.sum_congr rfl fun r _ => by unfold col; rw [dif_pos r.isLt]

/-- The first row ends at the column sums. -/
theorem final_sum (c : Dev nD) (k : Fin 128) :
    s1 V c (ix2 0 k) = ∑ r : Fin 100000, xin V c (ix2 r k) := by
  rw [final1 V c]
  exact ((rows_eq V c k 9 h9).1).trans (col_sum V c k)

/-- The second row ends at the column sums of squares. -/
theorem final_sumsq (c : Dev nD) (k : Fin 128) :
    s2 V c (ix2 0 k) = ∑ r : Fin 100000, xin V c (ix2 r k) * xin V c (ix2 r k) := by
  rw [final2 V c]
  exact ((rows_eq V c k 9 h9).2).trans (col_sumsq V c k)

end Cert.KernelIdeal.R0

end
-- ==== Proof.R1.lean ====
/-
  The first elementwise call: every row block of the node features is multiplied by a row of scales and a row of
  shifts is added; the blocks tile the rows, so the whole result array is `x·scale + shift`, entry by entry.
-/
import proofs.«107533_j36429912605472_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.SL.Sem Idealize.ShloMosaic.ValueIdx
open Idealize.ShloMosaic.Pipeline (Dat)

-- the buffer contents the call is entered from
variable (V : (c : Dev nD) → (b : Ref sig .tc) → Buf (Elt Ideal) ((c : Thread nD τ).loc b))

/-- The call's three operand arrays and its result array, by their literal types. -/
abbrev xin (c : Dev nD) : Vec Ideal S100000x128 .f32 := V c main_arg0
abbrev scl (c : Dev nD) : Vec Ideal S1x128 .f32 := V c main_v11
abbrev sft (c : Dev nD) : Vec Ideal S1x128 .f32 := V c main_v14
abbrev res (c : Dev nD) : Vec Ideal S100000x128 .f32 := (dat1 (F := Ideal) V c).arrAt 3 cfg1.N

/-! ## One block: the body's value at an entry -/

/-- The stores and loads of the body all start at the block's origin. -/
theorem origin_zero : (![0, 0] : Fin 2 → Nat) = fun _ => 0 := funext fun a => by fin_cases a <;> rfl

/-- The body's value at row `p`, lane `k` of a block: that entry of the feature block times the scale row's lane `k`,
    plus the shift row's lane `k` (each one-row operand is cast to its own shape and repeated over the rows). -/
theorem affine_apply (v0 : Vec Ideal S10000x128 .f32) (v1 v5 : Vec Ideal S1x128 .f32) (p : Fin 10000) (k : Fin 128) :
    k1_pay1 v0 v1 v5 (ix2 p k) = v0 (ix2 p k) * v1 (ix2 0 k) + v5 (ix2 0 k) := by
  unfold k1_pay1
  show v0 (ix2 p k) * broadcastTo S10000x128 (shapeCast S1x128 v1 _) _ (ix2 p k)
      + broadcastTo S10000x128 (shapeCast S1x128 v5 _) _ (ix2 p k) = _
  rw [broadcastTo_1b_ab_apply, broadcastTo_1b_ab_apply, shapeCast_self, shapeCast_self]

/-! ## The whole array -/

/-- What the result array ends holding: `x·scale + shift`, the two rows read at the entry's lane. -/
abbrev affine (x : Vec Ideal S100000x128 .f32) (s b : Vec Ideal S1x128 .f32) : Vec Ideal S100000x128 .f32 :=
  fun i => x i * s (ix2 0 (i 1)) + b (ix2 0 (i 1))

/-- The four index maps over the ten grid points: the feature window and the result window sit at block `(t, 0)`, the
    two one-row windows at block `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem points : cfg1.N = 10 := N_1

/-- Row `p` of block `t` is row `10000·t + p` of the array. -/
def row (t : Fin cfg1.N) (p : Fin 10000) : Fin 100000 :=
  ⟨t.val * 10000 + p.val, by have := t.isLt; have := points; have := p.isLt; omega⟩

/-- Where entry `(p, k)` of the result window's block at point `t` lies in the result array. -/
theorem emb_res (t : Fin cfg1.N) (p : Fin 10000) (k : Fin 128) :
    ((cfg1.win 3).blk t).view.emb (ix2 p k) = ix2 (row t p) k := by
  obtain ⟨-, -, -, -, -, -, e0, e1⟩ := idx_facts t
  funext a; apply Fin.ext
  match a with
  | ⟨0, _⟩ => show win1_3.index t (0 : Fin 2) * 10000 + 1 * p.val = t.val * 10000 + p.val; omega
  | ⟨1, _⟩ => show win1_3.index t (1 : Fin 2) * 128 + 1 * k.val = k.val; omega

/-- The feature window's block at point `t` lies over the same rows. -/
theorem emb_x (t : Fin cfg1.N) (p : Fin 10000) (k : Fin 128) :
    ((cfg1.win 0).blk t).view.emb (ix2 p k) = ix2 (row t p) k := by
  obtain ⟨e0, e1, -⟩ := idx_facts t
  funext a; apply Fin.ext
  match a with
  | ⟨0, _⟩ => show win1_0.index t (0 : Fin 2) * 10000 + 1 * p.val = t.val * 10000 + p.val; omega
  | ⟨1, _⟩ => show win1_0.index t (1 : Fin 2) * 128 + 1 * k.val = k.val; omega

/-- The scale window's one block is the whole scale row, at every point. -/
theorem emb_s (t : Fin cfg1.N) (k : Fin 128) :
    ((cfg1.win 1).blk t).view.emb (ix2 (0 : Fin 1) k) = ix2 (0 : Fin 1) k := by
  obtain ⟨-, -, e0, e1, -⟩ := idx_facts t
  funext a; apply Fin.ext
  match a with
  | ⟨0, _⟩ => show win1_1.index t (0 : Fin 2) * 1 + 1 * 0 = 0; omega
  | ⟨1, _⟩ => show win1_1.index t (1 : Fin 2) * 128 + 1 * k.val = k.val; omega

/-- The shift window's one block is the whole shift row, at every point. -/
theorem emb_b (t : Fin cfg1.N) (k : Fin 128) :
    ((cfg1.win 2).blk t).view.emb (ix2 (0 : Fin 1) k) = ix2 (0 : Fin 1) k := by
  obtain ⟨-, -, -, -, e0, e1, -⟩ := idx_facts t
  funext a; apply Fin.ext
  match a with
  | ⟨0, _⟩ => show win1_2.index t (0 : Fin 2) * 1 + 1 * 0 = 0; omega
  | ⟨1, _⟩ => show win1_2.index t (1 : Fin 2) * 128 + 1 * k.val = k.val; omega

/-- What point `t` writes back is block `t` of `x·scale + shift`: the body's one store fills the block with its value
    on the three operand blocks, and those are the operands read over the same rows (the rows themselves, for the two
    one-row operands). -/
theorem flushed_eq (c : Dev nD) (t : Fin cfg1.N) :
    (dat1 V c).flushed 3 t
      = ((cfg1.win 3).blk t).view.read (Elt Ideal) (affine (xin V c) (scl V c) (sft V c)) := by
  show (cfg1.win 3).cut (grid1.coords t) ((dat1 V c).after 3 t) = _
  rw [after1_3]
  unfold out1_3
  rw [View.canon_unit_zero origin_zero]
  simp only [View.ld_unit_zero (S := S10000x128) origin_zero, View.ld_unit_zero (S := S1x128) origin_zero]
  refine funext fun (j : S10000x128.Idx) => ?_
  obtain ⟨p, k, rfl⟩ : ∃ (p : Fin 10000) (k : Fin 128), j = ix2 p k := ⟨j 0, j 1, eq_ix2 j⟩
  refine (affine_apply (iblk1 V c 0 t) (iblk1 V c 1 t) (iblk1 V c 2 t) p k).trans ?_
  show xin V c (((cfg1.win 0).blk t).view.emb (ix2 p k)) * scl V c (((cfg1.win 1).blk t).view.emb (ix2 (0 : Fin 1) k))
      + sft V c (((cfg1.win 2).blk t).view.emb (ix2 (0 : Fin 1) k))
    = affine (xin V c) (scl V c) (sft V c) (((cfg1.win 3).blk t).view.emb (ix2 p k))
  rw [emb_x, emb_s, emb_b, emb_res]

/-- An index of the result array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v15).slice (win1_3.rect t)).set ↔ _
  rw [View.set_slice_whole, Rect.mem_set_unit]
  exact Iff.rfl

/-- The ten blocks tile the rows: row `r` is in the block of point `r / 10000`, and every point writes back. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 10000 := ⟨⟨(i 0).val / 10000, by have := points; omega⟩, rfl⟩
  obtain ⟨-, -, -, -, -, -, e0, e1⟩ := idx_facts t
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 128 ≤ (i 1).val ∧ (i 1).val < win1_3.index t (1 : Fin 2) * 128 + 128
    omega

/-- So the result array is `x·scale + shift` as one function of the operand arrays. -/
theorem res_eq (c : Dev nD) : res V c = affine (xin V c) (scl V c) (sft V c) :=
  (dat1 V c).arrAt_eq_of_cover 3 (affine (xin V c) (scl V c) (sft V c)) (fun t _ => flushed_eq V c t) cover

/-- After the call the result array holds `x·scale + shift` at every entry. -/
theorem final (c : Dev nD) (r : Fin 100000) (k : Fin 128) :
    res V c (ix2 r k) = xin V c (ix2 r k) * scl V c (ix2 0 k) + sft V c (ix2 0 k) :=
  congrFun (res_eq V c) (ix2 r k)

end Cert.KernelIdeal.R1

end
-- ==== Proof.KIn.lean ====
/-
  The first two calls and the stretch between them, composed: the column sums of the node features and of their squares
  (first call), the scale and shift rows the host makes of them, and the elementwise call that applies them. Together
  they leave, in the buffer every branch reads, the batch normalisation of the node features in its scale-and-shift
  arrangement.
-/
import proofs.«107533_j36429912605472_1_alg».proof.Proof.Gen.KernelIdeal.Frame
import proofs.«107533_j36429912605472_1_alg».proof.Proof.Spec
import proofs.«107533_j36429912605472_1_alg».proof.Proof.R0
import proofs.«107533_j36429912605472_1_alg».proof.Proof.R1
import proofs.«107533_j36429912605472_1_alg».proof.Proof.HostVals
import proofs.«107533_j36429912605472_1_alg».proof.Proof.Keep
import Idealize.ShloMosaic.Lib.ValueIdx

set_option maxRecDepth 16384

noncomputable section

namespace Cert.KernelIdeal.KIn

open Cert.KernelIdeal Cert.KernelIdeal.Gen
open Idealize.ShloMosaic Idealize.ShloMosaic.TcCoe Idealize.SL.Sem Idealize.ShloMosaic.ValueIdx
open Cert.Spec

variable (m : (ℓ : Loc nD τ sig) → Buf (Elt Ideal) ℓ) (ρ : Dev nD → PrngReg) (c : Dev nD)

/-- The node features and the input normalisation's two parameter rows, as launched. -/
abbrev aX : FVec Ideal S100000x128 .f32 := m ((c : Thread nD τ).loc main_arg0)
abbrev aG : FVec Ideal S128 .f32 := m ((c : Thread nD τ).loc main_arg4)
abbrev aB : FVec Ideal S128 .f32 := m ((c : Thread nD τ).loc main_arg5)

/-- The normalised node features in the scale-and-shift arrangement, entry by entry and as an array. -/
def xnK : Fin 100000 → Fin 128 → EReal :=
  bnK (fun r i => aX m c (ix2 r i)) (fun i => aG m c (ix1 i)) (fun i => aB m c (ix1 i))
def xnKArr : FVec Ideal S100000x128 .f32 := fun i => xnK m c (i 0) (i 1)

/-- After the first call the first accumulated row holds the column sums of the launched features. -/
theorem sum_row (k : Fin 128) :
    HostVals.f32At (S := S1x128) (W1 m ρ c (Proc.devRef .tc main_v0_0)) (ix2 0 k)
      = ∑ r : Fin 100000, aX m c (ix2 r k) :=
  (congrFun (W1_arr m ρ c 1) (ix2 (0 : Fin 1) k)).trans (R0.final_sum (V0 m ρ) c k)

/-- And the second the column sums of their squares. -/
theorem sumsq_row (k : Fin 128) :
    HostVals.f32At (S := S1x128) (W1 m ρ c (Proc.devRef .tc main_v0_1)) (ix2 0 k)
      = ∑ r : Fin 100000, aX m c (ix2 r k) * aX m c (ix2 r k) :=
  (congrFun (W1_arr m ρ c 2) (ix2 (0 : Fin 1) k)).trans (R0.final_sumsq (V0 m ρ) c k)

/-- The scale row the host makes of them is the specification's scale. -/
theorem scale_row (k : Fin 128) :
    HostVals.f32At (S := S1x128) (W2 m ρ c (Proc.devRef .tc main_v11)) (ix2 0 k)
      = scaleK (fun r i => aX m c (ix2 r i)) (fun i => aG m c (ix1 i)) k := by
  refine (HostVals.h1_scale (W1 m ρ c) k).trans ?_
  rw [sum_row, sumsq_row, show HostVals.f32At (S := S128) (W1 m ρ c (Proc.devRef .tc main_arg4)) (ix1 k) = aG m c (ix1 k)
    from congrFun (Keep.W1_arg4 m ρ c) (ix1 k)]
  rfl

/-- The shift row likewise. -/
theorem shift_row (k : Fin 128) :
    HostVals.f32At (S := S1x128) (W2 m ρ c (Proc.devRef .tc main_v14)) (ix2 0 k)
      = shiftK (fun r i => aX m c (ix2 r i)) (fun i => aG m c (ix1 i)) (fun i => aB m c (ix1 i)) k := by
  refine (HostVals.h1_shift (W1 m ρ c) k).trans ?_
  rw [show HostVals.f32At (S := S1x128) (StableHlo.after (hostOps1 (F := Ideal)) (W1 m ρ c) (Proc.devRef .tc main_v11)) (ix2 0 k)
      = scaleK (fun r i => aX m c (ix2 r i)) (fun i => aG m c (ix1 i)) k from scale_row m ρ c k,
    sum_row, show HostVals.f32At (S := S128) (W1 m ρ c (Proc.devRef .tc main_arg5)) (ix1 k) = aB m c (ix1 k)
    from congrFun (Keep.W1_arg5 m ρ c) (ix1 k)]
  rfl

/-- The features the elementwise call reads are the launched ones. -/
theorem x_kept : (W2 m ρ c (Proc.devRef .tc main_arg0) : FVec Ideal S100000x128 .f32) = aX m c :=
  (HostVals.h1_keep_x (W1 m ρ c)).trans (Keep.W1_arg0 m ρ c)

/-- After the first elementwise call the buffer the branches read holds the normalised features. -/
theorem xn_eq : W3 m ρ c (Proc.devRef .tc main_v15) = xnKArr m c := by
  refine funext fun (i : S100000x128.Idx) => ?_
  obtain ⟨r, k, rfl⟩ : ∃ (r : Fin 100000) (k : Fin 128), i = ix2 r k := ⟨i 0, i 1, eq_ix2 i⟩
  refine (congrFun (W3_arr m ρ c 3) (ix2 r k)).trans ?_
  refine (R1.final (V2 m ρ) c r k).trans ?_
  show HostVals.f32At (S := S100000x128) (W2 m ρ c (Proc.devRef .tc main_arg0)) (ix2 r k)
      * HostVals.f32At (S := S1x128) (W2 m ρ c (Proc.devRef .tc main_v11)) (ix2 0 k)
      + HostVals.f32At (S := S1x128) (W2 m ρ c (Proc.devRef .tc main_v14)) (ix2 0 k)
    = bnK (fun r i => aX m c (ix2 r i)) (fun i => aG m c (ix1 i)) (fun i => aB m c (ix1 i)) r k
  rw [scale_row, shift_row, x_kept]
  rfl

end Cert.KernelIdeal.KIn

end
-- ==== Proof.KB0.lean ====
/-
  One branch composed: the host's neighbourhood sum and weight slices, the perceptron call, the host's scale and shift
  rows from the perceptron's column sums, and the closing elementwise call. Together they leave in the branch's result
  array the hyperbolic tangent of the scale-and-shift batch normalisation of the perceptron of the normalised features.
-/
import proofs.«107533_j36429912605472_1_alg».proof.Proof.Gen.KernelIdeal.Frame
import proofs.«107533_j36429912605472_1_alg».proof.Proof.Spec
import proofs.«107533_j36429912605472_1_alg».proof.Proof.R2
import proofs.«107533_j36429912605472_1_alg».proof.Proof.R3
import proofs.«107533_j36429912605472_1_alg».proof.Proof.HostVals
import proofs.«107533_j36429912605472_1_alg».proof.Proof.Keep
import proofs.«107533_j36429912605472_1_alg».proof.Proof.KIn
import Idealize.ShloMosaic.Lib.ValueIdx

set_option maxRecDepth 16384

noncomputable section

namespace Cert.KernelIdeal.KB0

open Cert.KernelIdeal Cert.KernelIdeal.Gen
open Idealize.ShloMosaic Idealize.ShloMosaic.TcCoe Idealize.SL.Sem Idealize.ShloMosaic.ValueIdx
open Cert.Spec Cert.KernelIdeal.HostVals

variable (m : (ℓ : Loc nD τ sig) → Buf (Elt Ideal) ℓ) (ρ : Dev nD → PrngReg) (c : Dev nD)

/-- The branch's index in the stacked parameter arrays. -/
abbrev bi : Fin 3 := 0

/-- The branch's edge array and the stacked parameter arrays, as launched. -/
abbrev aE : IVec S2x1000000 32 := m ((c : Thread nD τ).loc main_arg1)
abbrev aW1 : FVec Ideal S3x128x64 .f32 := m ((c : Thread nD τ).loc main_arg6)
abbrev aB1 : FVec Ideal S3x64 .f32 := m ((c : Thread nD τ).loc main_arg7)
abbrev aW2 : FVec Ideal S3x64x64 .f32 := m ((c : Thread nD τ).loc main_arg8)
abbrev aB2 : FVec Ideal S3x64 .f32 := m ((c : Thread nD τ).loc main_arg9)
abbrev aGo : FVec Ideal S3x64 .f32 := m ((c : Thread nD τ).loc main_arg10)
abbrev aBo : FVec Ideal S3x64 .f32 := m ((c : Thread nD τ).loc main_arg11)

/-- The branch's neighbourhood sums of the normalised features, entry by entry. -/
def agg : Fin 100000 → Fin 128 → EReal := fun r i => aggK (aE m c) (KIn.xnKArr m c) (ix2 r i)

/-- The branch's perceptron. -/
def HK : Fin 100000 → Fin 64 → EReal :=
  mlp (KIn.xnK m c) (agg m c) (fun i j => aW1 m c (ix3 bi i j)) (fun j => aB1 m c (ix2 bi j))
    (fun j k => aW2 m c (ix3 bi j k)) (fun k => aB2 m c (ix2 bi k))

/-- The normalised features are still in their buffer when this branch starts. -/
theorem xn_at : W3 m ρ c (Proc.devRef .tc main_v15) = KIn.xnKArr m c :=
  KIn.xn_eq m ρ c

/-- What the perceptron call is entered from. -/
theorem xn_in : V4 m ρ c main_v15 = KIn.xnKArr m c :=
  (h2_keep_xn (W3 m ρ c)).trans (xn_at m ρ c)

theorem agg_in : V4 m ρ c main_v29 = aggK (aE m c) (KIn.xnKArr m c) := by
  refine (h2_agg (W3 m ρ c)).trans ?_
  rw [Keep.W3_arg1 m ρ c, xn_at m ρ c]

/-- The perceptron call's result array is the branch's perceptron. -/
theorem H_eq : R2.H (V4 m ρ) c = HK m c := by
  funext r k
  unfold R2.H HK mlp agg
  have hx : ∀ i, R2.xn (V4 m ρ) c (ix2 r i) = KIn.xnK m c r i := fun i => by
    show (V4 m ρ c main_v15 : FVec Ideal S100000x128 .f32) (ix2 r i) = _
    rw [xn_in m ρ c]; rfl
  have ha : ∀ i, R2.ag (V4 m ρ) c (ix2 r i) = aggK (aE m c) (KIn.xnKArr m c) (ix2 r i) := fun i => by
    show (V4 m ρ c main_v29 : FVec Ideal S100000x128 .f32) (ix2 r i) = _
    rw [agg_in m ρ c]
  have hw1 : ∀ i j, R2.w1 (V4 m ρ) c (ix2 i j) = aW1 m c (ix3 bi i j) := fun i j =>
    (h2_w1 (W3 m ρ c) i j).trans (by rw [Keep.W3_arg6 m ρ c])
  have hb1 : ∀ j, R2.b1 (V4 m ρ) c (ix2 0 j) = aB1 m c (ix2 bi j) := fun j =>
    (h2_b1 (W3 m ρ c) j).trans (by rw [Keep.W3_arg7 m ρ c])
  have hw2 : ∀ j k, R2.w2 (V4 m ρ) c (ix2 j k) = aW2 m c (ix3 bi j k) := fun j k =>
    (h2_w2 (W3 m ρ c) j k).trans (by rw [Keep.W3_arg8 m ρ c])
  have hb2 : ∀ k, R2.b2 (V4 m ρ) c (ix2 0 k) = aB2 m c (ix2 bi k) := fun k =>
    (h2_b2 (W3 m ρ c) k).trans (by rw [Keep.W3_arg9 m ρ c])
  simp only [hx, ha, hw1, hb1, hw2, hb2]

/-- The three arrays the perceptron call leaves, at the boundary after it. -/
theorem h_out (r : Fin 100000) (k : Fin 64) :
    f32At (S := S100000x64) (W5 m ρ c (Proc.devRef .tc main_v42_0)) (ix2 r k) = HK m c r k := by
  have e : W5 m ρ c (Proc.devRef .tc main_v42_0) = (dat2 (F := Ideal) (V4 m ρ) c).arrAt 6 cfg2.N := W5_arr m ρ c 6
  show (W5 m ρ c (Proc.devRef .tc main_v42_0) : FVec Ideal S100000x64 .f32) (ix2 r k) = _
  rw [e]
  exact (R2.final_h2 (V4 m ρ) c r k).trans (congrFun (congrFun (H_eq m ρ c) r) k)
theorem sum_out (k : Fin 64) :
    f32At (S := S1x64) (W5 m ρ c (Proc.devRef .tc main_v42_1)) (ix2 0 k) = ∑ r : Fin 100000, HK m c r k := by
  have e : W5 m ρ c (Proc.devRef .tc main_v42_1) = (dat2 (F := Ideal) (V4 m ρ) c).arrAt 7 cfg2.N := W5_arr m ρ c 7
  show (W5 m ρ c (Proc.devRef .tc main_v42_1) : FVec Ideal S1x64 .f32) (ix2 0 k) = _
  rw [e]
  refine (R2.final_sum (V4 m ρ) c k).trans ?_
  rw [H_eq]
theorem sumsq_out (k : Fin 64) :
    f32At (S := S1x64) (W5 m ρ c (Proc.devRef .tc main_v42_2)) (ix2 0 k) = ∑ r : Fin 100000, HK m c r k * HK m c r k := by
  have e : W5 m ρ c (Proc.devRef .tc main_v42_2) = (dat2 (F := Ideal) (V4 m ρ) c).arrAt 8 cfg2.N := W5_arr m ρ c 8
  show (W5 m ρ c (Proc.devRef .tc main_v42_2) : FVec Ideal S1x64 .f32) (ix2 0 k) = _
  rw [e]
  refine (R2.final_sumsq (V4 m ρ) c k).trans ?_
  rw [H_eq]

/-- The host's scale and shift rows are those of the perceptron's batch normalisation. -/
theorem scale_eq (k : Fin 64) :
    f32At (S := S1x64) (W6 m ρ c (Proc.devRef .tc main_v55)) (ix2 0 k) = scaleK (HK m c) (fun k => aGo m c (ix2 bi k)) k := by
  refine (h3_scale (W5 m ρ c) k).trans ?_
  rw [sum_out, sumsq_out, Keep.W5_arg10 m ρ c]
  rfl
theorem shift_eq (k : Fin 64) :
    f32At (S := S1x64) (W6 m ρ c (Proc.devRef .tc main_v60)) (ix2 0 k)
      = shiftK (HK m c) (fun k => aGo m c (ix2 bi k)) (fun k => aBo m c (ix2 bi k)) k := by
  refine (h3_shift (W5 m ρ c) k).trans ?_
  rw [sum_out, Keep.W5_arg11 m ρ c]
  show _ - _ * f32At (S := S1x64) (W6 m ρ c (Proc.devRef .tc main_v55)) (ix2 0 k) = _
  rw [scale_eq]
  rfl

/-- The branch's result array after its closing call. -/
theorem out (r : Fin 100000) (k : Fin 64) :
    f32At (S := S100000x64) (W7 m ρ c (Proc.devRef .tc main_v61)) (ix2 r k)
      = outK (KIn.xnK m c) (agg m c) (fun i j => aW1 m c (ix3 bi i j)) (fun j => aB1 m c (ix2 bi j))
          (fun j k => aW2 m c (ix3 bi j k)) (fun k => aB2 m c (ix2 bi k)) (fun k => aGo m c (ix2 bi k))
          (fun k => aBo m c (ix2 bi k)) r k := by
  have e7 : W7 m ρ c (Proc.devRef .tc main_v61) = (dat3 (F := Ideal) (V6 m ρ) c).arrAt 3 cfg3.N := W7_arr m ρ c 3
  have hfin := R3.final (V6 m ρ) c r k
  have hh : R3.hin (V6 m ρ) c (ix2 r k) = HK m c r k := by
    show f32At (S := S100000x64) (W6 m ρ c (Proc.devRef .tc main_v42_0)) (ix2 r k) = _
    rw [show W6 m ρ c (Proc.devRef .tc main_v42_0) = W5 m ρ c (Proc.devRef .tc main_v42_0) from h3_keep_h (W5 m ρ c)]
    exact h_out m ρ c r k
  have hs : R3.scl (V6 m ρ) c (ix2 0 k) = scaleK (HK m c) (fun k => aGo m c (ix2 bi k)) k := scale_eq m ρ c k
  have ht : R3.sft (V6 m ρ) c (ix2 0 k) = shiftK (HK m c) (fun k => aGo m c (ix2 bi k)) (fun k => aBo m c (ix2 bi k)) k :=
    shift_eq m ρ c k
  show (W7 m ρ c (Proc.devRef .tc main_v61) : FVec Ideal S100000x64 .f32) (ix2 r k) = _
  rw [e7]
  refine hfin.trans ?_
  rw [hh, hs, ht]
  rfl

end Cert.KernelIdeal.KB0

end
-- ==== Proof.RefStages.lean ====
/-
  The reference program read stage by stage on the extended reals: its result arrays are, entry by entry, the hyperbolic
  tangent of the centred batch normalisation of the perceptron of the normalised node features and their neighbourhood
  sums. The neighbourhood sum (a gather along the edge sources, a scatter-add along the edge targets) is kept as one
  unopened function of the edge array and the feature array.
-/
import proofs.«107533_j36429912605472_1_alg».proof.Proof.Gen.ReferenceIdeal.Run
import proofs.«107533_j36429912605472_1_alg».proof.Proof.Gen.ReferenceIdeal.Read
import proofs.«107533_j36429912605472_1_alg».proof.Proof.Spec
import Idealize.ShloMosaic.Lib.ValueIdx
import Idealize.ShloMosaic.Lib.ValueLayout

set_option maxRecDepth 16384

noncomputable section

namespace Cert.ReferenceIdeal.Stages

open Cert.ReferenceIdeal Cert.ReferenceIdeal.Gen
open Idealize.ShloMosaic Idealize.ShloMosaic.TcCoe Idealize.SL.Sem Idealize.ShloMosaic.ValueIdx
open Cert.Spec

/-- The neighbourhood sum of a feature array along an edge array: row 0 of the edges (negative entries wrapped by the
    node count) says which feature row each edge reads, row 1 which row of a zero array it is added into. -/
def aggR (e : (⟨S2x1000000, .i32⟩ : BufTy).Contents (Elt Ideal)) (a : FVec Ideal S100000x128 .f32) : FVec Ideal S100000x128 .f32 :=
  Host.scatterAdd (F := Ideal) scatter_S100000x128_S1000000x1_S1000000x128_1_0_0_1 (Read.val_main_v36 (F := Ideal))
    (Read.val_main_v37 (F := Ideal) e)
    (Host.gather gather_S100000x128_S1000000x1_S1000000x128_1_0_n_n_0_1_1128 a (Read.val_main_v34 (F := Ideal) e))

/-- Two indices with the same coordinates are equal. -/
theorem idx1_ext {n : Nat} {j j' : (⟨1, ![n]⟩ : Shape).Idx} (h : j 0 = j' 0) : j = j' := by
  funext a; match a with | ⟨0, _⟩ => exact h
theorem idx2_ext {n0 n1 : Nat} {j j' : (⟨2, ![n0, n1]⟩ : Shape).Idx} (h0 : j 0 = j' 0) (h1 : j 1 = j' 1) : j = j' := by
  funext a; match a with | ⟨0, _⟩ => exact h0 | ⟨1, _⟩ => exact h1
theorem idx3_ext {n0 n1 n2 : Nat} {j j' : (⟨3, ![n0, n1, n2]⟩ : Shape).Idx} (h0 : j 0 = j' 0) (h1 : j 1 = j' 1)
    (h2 : j 2 = j' 2) : j = j' := by
  funext a; match a with | ⟨0, _⟩ => exact h0 | ⟨1, _⟩ => exact h1 | ⟨2, _⟩ => exact h2

/-! ## The normalised features -/

section First
variable (x0 : (⟨S100000x128, .f32⟩ : BufTy).Contents (Elt Ideal)) (x4 x5 : (⟨S128, .f32⟩ : BufTy).Contents (Elt Ideal))

/-- The column mean. -/
theorem mean_at (i : Fin 128) :
    Read.val_main_v2 (F := Ideal) x0 (ix1 i) = meanR (fun r i => x0 (ix2 r i)) i := by
  rw [Read.val_main_v2_apply, Read.val_main_v0_apply, Read.val_main_v1_apply, Read.val_main_cst_apply,
    Read.val_main_cst_0_apply]
  simp only [Ideal.hostDivf_def, Ideal.ofBits_def, Ideal.ofBits_zero_f32,
    show ∀ k, Read.idx_main_v0 (ix1 i) k = ix2 k i from fun k => idx2_ext rfl rfl]
  rfl

/-- The mean spread over the rows (it is spread twice, once for the variance and once for the centring). -/
theorem v4_at (r : Fin 100000) (i : Fin 128) :
    Read.val_main_v4 (F := Ideal) x0 (ix2 r i) = meanR (fun r i => x0 (ix2 r i)) i := by
  rw [Read.val_main_v4_apply, Read.val_main_v3_apply,
    show Read.idx_main_v3 (Read.idx_main_v4 (ix2 r i)) = ix1 i from idx1_ext rfl]
  exact mean_at x0 i
theorem v11_at (r : Fin 100000) (i : Fin 128) :
    Read.val_main_v11 (F := Ideal) x0 (ix2 r i) = meanR (fun r i => x0 (ix2 r i)) i := by
  rw [Read.val_main_v11_apply, Read.val_main_v10_apply,
    show Read.idx_main_v10 (Read.idx_main_v11 (ix2 r i)) = ix1 i from idx1_ext rfl]
  exact mean_at x0 i

/-- The column variance: the mean of the squared deviations. -/
theorem var_at (i : Fin 128) :
    Read.val_main_v9 (F := Ideal) x0 (ix1 i) = varR (fun r i => x0 (ix2 r i)) i := by
  rw [Read.val_main_v9_apply, Read.val_main_v7_apply, Read.val_main_v8_apply, Read.val_main_cst_1_apply,
    Read.val_main_cst_2_apply]
  simp only [Read.val_main_v6_apply, Read.val_main_v5_apply,
    show ∀ k, Read.idx_main_v7 (ix1 i) k = ix2 k i from fun k => idx2_ext rfl rfl, v4_at,
    Ideal.hostDivf_def, Ideal.ofBits_def, Ideal.ofBits_zero_f32, Ideal.mulf_def, Ideal.subf_def]
  rfl

/-- The normalised features, entry by entry. -/
theorem v24_at (r : Fin 100000) (i : Fin 128) :
    Read.val_main_v24 (F := Ideal) x0 x4 x5 (ix2 r i)
      = bnR (fun r i => x0 (ix2 r i)) (fun i => x4 (ix1 i)) (fun i => x5 (ix1 i)) r i := by
  rw [Read.val_main_v24_apply, Read.val_main_v21_apply, Read.val_main_v15_apply, Read.val_main_v12_apply, v11_at,
    Read.val_main_v14_apply, Read.val_main_v13_apply, Read.val_main_v20_apply, Read.val_main_v19_apply,
    Read.val_main_v18_apply, Read.val_main_v17_apply, Read.val_main_v16_apply, Read.val_main_cst_3_apply,
    Read.val_main_v23_apply, Read.val_main_v22_apply,
    show Read.idx_main_v13 (Read.idx_main_v14 (ix2 r i)) = ix1 i from idx1_ext rfl,
    show Read.idx_main_v19 (Read.idx_main_v20 (ix2 r i)) = ix1 i from idx1_ext rfl,
    show Read.idx_main_v22 (Read.idx_main_v23 (ix2 r i)) = ix1 i from idx1_ext rfl, var_at]
  simp only [Ideal.addf_def, Ideal.mulf_def, Ideal.subf_def, Ideal.hostUnary_rsqrt_def, Ideal.ofBits_def]
  rfl

/-- The same as an array. -/
theorem v24_eq :
    Read.val_main_v24 (F := Ideal) x0 x4 x5
      = fun j => bnR (fun r i => x0 (ix2 r i)) (fun i => x4 (ix1 i)) (fun i => x5 (ix1 i)) (j 0) (j 1) := by
  funext j
  rw [eq_ix2 j]
  exact v24_at x0 x4 x5 (j 0) (j 1)
end First

/-! ## Branch 0: the perceptron's weights and biases are slices of the stacked arrays -/

section B0
variable (x0 : (⟨S100000x128, .f32⟩ : BufTy).Contents (Elt Ideal)) (x1 : (⟨S2x1000000, .i32⟩ : BufTy).Contents (Elt Ideal))
  (x4 x5 : (⟨S128, .f32⟩ : BufTy).Contents (Elt Ideal)) (x6 : (⟨S3x128x64, .f32⟩ : BufTy).Contents (Elt Ideal))
  (x7 : (⟨S3x64, .f32⟩ : BufTy).Contents (Elt Ideal)) (x8 : (⟨S3x64x64, .f32⟩ : BufTy).Contents (Elt Ideal))
  (x9 x10 x11 : (⟨S3x64, .f32⟩ : BufTy).Contents (Elt Ideal))

theorem w1_at0 (i : Fin 128) (j : Fin 64) : Read.val_main_v41 (F := Ideal) x6 (ix2 i j) = x6 (ix3 0 i j) := by
  rw [Read.val_main_v41_apply, Read.val_main_v40_apply]
  refine congrArg x6 (idx3_ext rfl (Fin.ext ?_) (Fin.ext ?_))
  · show (i.val * 64 + j.val) / 64 % 128 = i.val
    have := i.isLt; have := j.isLt; omega
  · show (i.val * 64 + j.val) % 64 = j.val
    have := j.isLt; omega

theorem b1_at0 (r : Fin 100000) (j : Fin 64) : Read.val_main_v46 (F := Ideal) x7 (ix2 r j) = x7 (ix2 0 j) := by
  rw [Read.val_main_v46_apply, Read.val_main_v45_apply, Read.val_main_v44_apply, Read.val_main_v43_apply]
  refine congrArg x7 (idx2_ext rfl (Fin.ext ?_))
  show j.val % 64 = j.val
  have := j.isLt; omega

theorem w2_at0 (j k : Fin 64) : Read.val_main_v50 (F := Ideal) x8 (ix2 j k) = x8 (ix3 0 j k) := by
  rw [Read.val_main_v50_apply, Read.val_main_v49_apply]
  refine congrArg x8 (idx3_ext rfl (Fin.ext ?_) (Fin.ext ?_))
  · show (j.val * 64 + k.val) / 64 % 64 = j.val
    have := j.isLt; have := k.isLt; omega
  · show (j.val * 64 + k.val) % 64 = k.val
    have := k.isLt; omega

theorem b2_at0 (r : Fin 100000) (k : Fin 64) : Read.val_main_v55 (F := Ideal) x9 (ix2 r k) = x9 (ix2 0 k) := by
  rw [Read.val_main_v55_apply, Read.val_main_v54_apply, Read.val_main_v53_apply, Read.val_main_v52_apply]
  refine congrArg x9 (idx2_ext rfl (Fin.ext ?_))
  show k.val % 64 = k.val
  have := k.isLt; omega

theorem zero_at0 (i : S100000x64.Idx) : Read.val_main_call0_v0 (F := Ideal) i = 0 := by
  rw [Read.val_main_call0_v0_apply, Read.val_main_call0_cst_apply, Ideal.ofBits_def, Ideal.ofBits_zero_f32]

/-- Branch 0's perceptron on the normalised features plus their neighbourhood sums. -/
theorem v56_at (r : Fin 100000) (k : Fin 64) :
    Read.val_main_v56 (F := Ideal) x0 x1 x4 x5 x6 x7 x8 x9 (ix2 r k)
      = mlp (fun r i => Read.val_main_v24 (F := Ideal) x0 x4 x5 (ix2 r i))
          (fun r i => Read.val_main_v38 (F := Ideal) x0 x1 x4 x5 (ix2 r i))
          (fun i j => x6 (ix3 0 i j)) (fun j => x7 (ix2 0 j)) (fun j k => x8 (ix3 0 j k)) (fun k => x9 (ix2 0 k)) r k := by
  rw [Read.val_main_v56_apply, Read.val_main_v51_apply, b2_at0]
  simp only [show ∀ j, Read.lidx_main_v51 (ix2 r k) j = ix2 r j from fun j => idx2_ext rfl rfl,
    show ∀ j, Read.ridx_main_v51 (ix2 r k) j = ix2 j k from fun j => idx2_ext rfl rfl,
    w2_at0, Read.val_main_v48_apply, zero_at0, Read.val_main_v47_apply, b1_at0, Read.val_main_v42_apply,
    show ∀ j i, Read.lidx_main_v42 (ix2 r j) i = ix2 r i from fun j i => idx2_ext rfl rfl,
    show ∀ j i, Read.ridx_main_v42 (ix2 r j) i = ix2 i j from fun j i => idx2_ext rfl rfl,
    w1_at0, Read.val_main_v39_apply, Ideal.addf_def, Ideal.maximumf_def]
  rfl

/-! ### Branch 0: the closing normalisation and the hyperbolic tangent -/

/-- Branch 0's perceptron stage by rows and columns. -/
local notation "H0" =>
  (fun (r : Fin 100000) (k : Fin 64) => Read.val_main_v56 (F := Ideal) x0 x1 x4 x5 x6 x7 x8 x9 (ix2 r k))

theorem g_at0 (k : Fin 64) : Read.val_main_v58 (F := Ideal) x10 (ix1 k) = x10 (ix2 0 k) := by
  rw [Read.val_main_v58_apply, Read.val_main_v57_apply]
  refine congrArg x10 (idx2_ext rfl (Fin.ext ?_))
  show k.val % 64 = k.val
  have := k.isLt; omega
theorem be_at0 (k : Fin 64) : Read.val_main_v60 (F := Ideal) x11 (ix1 k) = x11 (ix2 0 k) := by
  rw [Read.val_main_v60_apply, Read.val_main_v59_apply]
  refine congrArg x11 (idx2_ext rfl (Fin.ext ?_))
  show k.val % 64 = k.val
  have := k.isLt; omega

theorem mean_at0 (k : Fin 64) :
    Read.val_main_v63 (F := Ideal) x0 x1 x4 x5 x6 x7 x8 x9 (ix1 k) = meanR H0 k := by
  rw [Read.val_main_v63_apply, Read.val_main_v61_apply, Read.val_main_v62_apply, Read.val_main_cst_6_apply,
    Read.val_main_cst_7_apply]
  simp only [Ideal.hostDivf_def, Ideal.ofBits_def, Ideal.ofBits_zero_f32,
    show ∀ q, Read.idx_main_v61 (ix1 k) q = ix2 q k from fun q => idx2_ext rfl rfl]
  rfl
theorem v65_at (r : Fin 100000) (k : Fin 64) :
    Read.val_main_v65 (F := Ideal) x0 x1 x4 x5 x6 x7 x8 x9 (ix2 r k) = meanR H0 k := by
  rw [Read.val_main_v65_apply, Read.val_main_v64_apply,
    show Read.idx_main_v64 (Read.idx_main_v65 (ix2 r k)) = ix1 k from idx1_ext rfl]
  exact mean_at0 x0 x1 x4 x5 x6 x7 x8 x9 k
theorem v72_at (r : Fin 100000) (k : Fin 64) :
    Read.val_main_v72 (F := Ideal) x0 x1 x4 x5 x6 x7 x8 x9 (ix2 r k) = meanR H0 k := by
  rw [Read.val_main_v72_apply, Read.val_main_v71_apply,
    show Read.idx_main_v71 (Read.idx_main_v72 (ix2 r k)) = ix1 k from idx1_ext rfl]
  exact mean_at0 x0 x1 x4 x5 x6 x7 x8 x9 k

theorem var_at0 (k : Fin 64) :
    Read.val_main_v70 (F := Ideal) x0 x1 x4 x5 x6 x7 x8 x9 (ix1 k) = varR H0 k := by
  rw [Read.val_main_v70_apply, Read.val_main_v68_apply, Read.val_main_v69_apply, Read.val_main_cst_8_apply,
    Read.val_main_cst_9_apply]
  simp only [Read.val_main_v67_apply, Read.val_main_v66_apply,
    show ∀ q, Read.idx_main_v68 (ix1 k) q = ix2 q k from fun q => idx2_ext rfl rfl, v65_at,
    Ideal.hostDivf_def, Ideal.ofBits_def, Ideal.ofBits_zero_f32, Ideal.mulf_def, Ideal.subf_def]
  rfl

/-- Branch 0's result stage, entry by entry. -/
theorem v86_at (r : Fin 100000) (k : Fin 64) :
    Read.val_main_v86 (F := Ideal) x0 x1 x4 x5 x6 x7 x8 x9 x10 x11 (ix2 r k)
      = Ideal.tanh (bnR H0 (fun k => x10 (ix2 0 k)) (fun k => x11 (ix2 0 k)) r k) := by
  rw [Read.val_main_v86_apply, Read.val_main_v85_apply, Read.val_main_v82_apply, Read.val_main_v76_apply,
    Read.val_main_v73_apply, v72_at, Read.val_main_v75_apply, Read.val_main_v74_apply, Read.val_main_v81_apply,
    Read.val_main_v80_apply, Read.val_main_v79_apply, Read.val_main_v78_apply, Read.val_main_v77_apply,
    Read.val_main_cst_10_apply, Read.val_main_v84_apply, Read.val_main_v83_apply,
    show Read.idx_main_v74 (Read.idx_main_v75 (ix2 r k)) = ix1 k from idx1_ext rfl,
    show Read.idx_main_v80 (Read.idx_main_v81 (ix2 r k)) = ix1 k from idx1_ext rfl,
    show Read.idx_main_v83 (Read.idx_main_v84 (ix2 r k)) = ix1 k from idx1_ext rfl, var_at0, g_at0, be_at0]
  simp only [Ideal.addf_def, Ideal.mulf_def, Ideal.subf_def, Ideal.hostUnary_rsqrt_def, Ideal.hostUnary_tanh_def,
    Ideal.ofBits_def]
  rfl

end B0

/-! ## Branch 1: the same three steps over the second edge array and slice 1 of the stacked parameters -/

section B1
variable (x0 : (⟨S100000x128, .f32⟩ : BufTy).Contents (Elt Ideal)) (x2 : (⟨S2x1000000, .i32⟩ : BufTy).Contents (Elt Ideal))
  (x4 x5 : (⟨S128, .f32⟩ : BufTy).Contents (Elt Ideal)) (x6 : (⟨S3x128x64, .f32⟩ : BufTy).Contents (Elt Ideal))
  (x7 : (⟨S3x64, .f32⟩ : BufTy).Contents (Elt Ideal)) (x8 : (⟨S3x64x64, .f32⟩ : BufTy).Contents (Elt Ideal))
  (x9 x10 x11 : (⟨S3x64, .f32⟩ : BufTy).Contents (Elt Ideal))

theorem w1_at1 (i : Fin 128) (j : Fin 64) : Read.val_main_v103 (F := Ideal) x6 (ix2 i j) = x6 (ix3 1 i j) := by
  rw [Read.val_main_v103_apply, Read.val_main_v102_apply]
  refine congrArg x6 (idx3_ext rfl (Fin.ext ?_) (Fin.ext ?_))
  · show (i.val * 64 + j.val) / 64 % 128 = i.val
    have := i.isLt; have := j.isLt; omega
  · show (i.val * 64 + j.val) % 64 = j.val
    have := j.isLt; omega

theorem b1_at1 (r : Fin 100000) (j : Fin 64) : Read.val_main_v108 (F := Ideal) x7 (ix2 r j) = x7 (ix2 1 j) := by
  rw [Read.val_main_v108_apply, Read.val_main_v107_apply, Read.val_main_v106_apply, Read.val_main_v105_apply]
  refine congrArg x7 (idx2_ext rfl (Fin.ext ?_))
  show j.val % 64 = j.val
  have := j.isLt; omega

theorem w2_at1 (j k : Fin 64) : Read.val_main_v112 (F := Ideal) x8 (ix2 j k) = x8 (ix3 1 j k) := by
  rw [Read.val_main_v112_apply, Read.val_main_v111_apply]
  refine congrArg x8 (idx3_ext rfl (Fin.ext ?_) (Fin.ext ?_))
  · show (j.val * 64 + k.val) / 64 % 64 = j.val
    have := j.isLt; have := k.isLt; omega
  · show (j.val * 64 + k.val) % 64 = k.val
    have := k.isLt; omega

theorem b2_at1 (r : Fin 100000) (k : Fin 64) : Read.val_main_v117 (F := Ideal) x9 (ix2 r k) = x9 (ix2 1 k) := by
  rw [Read.val_main_v117_apply, Read.val_main_v116_apply, Read.val_main_v115_apply, Read.val_main_v114_apply]
  refine congrArg x9 (idx2_ext rfl (Fin.ext ?_))
  show k.val % 64 = k.val
  have := k.isLt; omega

theorem zero_at1 (i : S100000x64.Idx) : Read.val_main_call1_v0 (F := Ideal) i = 0 := by
  rw [Read.val_main_call1_v0_apply, Read.val_main_call1_cst_apply, Ideal.ofBits_def, Ideal.ofBits_zero_f32]

/-- Branch 1's perceptron on the normalised features plus their neighbourhood sums. -/
theorem v118_at (r : Fin 100000) (k : Fin 64) :
    Read.val_main_v118 (F := Ideal) x0 x2 x4 x5 x6 x7 x8 x9 (ix2 r k)
      = mlp (fun r i => Read.val_main_v24 (F := Ideal) x0 x4 x5 (ix2 r i))
          (fun r i => Read.val_main_v100 (F := Ideal) x0 x2 x4 x5 (ix2 r i))
          (fun i j => x6 (ix3 1 i j)) (fun j => x7 (ix2 1 j)) (fun j k => x8 (ix3 1 j k)) (fun k => x9 (ix2 1 k)) r k := by
  rw [Read.val_main_v118_apply, Read.val_main_v113_apply, b2_at1]
  simp only [show ∀ j, Read.lidx_main_v113 (ix2 r k) j = ix2 r j from fun j => idx2_ext rfl rfl,
    show ∀ j, Read.ridx_main_v113 (ix2 r k) j = ix2 j k from fun j => idx2_ext rfl rfl,
    w2_at1, Read.val_main_v110_apply, zero_at1, Read.val_main_v109_apply, b1_at1, Read.val_main_v104_apply,
    show ∀ j i, Read.lidx_main_v104 (ix2 r j) i = ix2 r i from fun j i => idx2_ext rfl rfl,
    show ∀ j i, Read.ridx_main_v104 (ix2 r j) i = ix2 i j from fun j i => idx2_ext rfl rfl,
    w1_at1, Read.val_main_v101_apply, Ideal.addf_def, Ideal.maximumf_def]
  rfl

/-- Branch 1's perceptron stage by rows and columns. -/
local notation "H1" =>
  (fun (r : Fin 100000) (k : Fin 64) => Read.val_main_v118 (F := Ideal) x0 x2 x4 x5 x6 x7 x8 x9 (ix2 r k))

theorem g_at1 (k : Fin 64) : Read.val_main_v120 (F := Ideal) x10 (ix1 k) = x10 (ix2 1 k) := by
  rw [Read.val_main_v120_apply, Read.val_main_v119_apply]
  refine congrArg x10 (idx2_ext rfl (Fin.ext ?_))
  show k.val % 64 = k.val
  have := k.isLt; omega
theorem be_at1 (k : Fin 64) : Read.val_main_v122 (F := Ideal) x11 (ix1 k) = x11 (ix2 1 k) := by
  rw [Read.val_main_v122_apply, Read.val_main_v121_apply]
  refine congrArg x11 (idx2_ext rfl (Fin.ext ?_))
  show k.val % 64 = k.val
  have := k.isLt; omega

theorem mean_at1 (k : Fin 64) :
    Read.val_main_v125 (F := Ideal) x0 x2 x4 x5 x6 x7 x8 x9 (ix1 k) = meanR H1 k := by
  rw [Read.val_main_v125_apply, Read.val_main_v123_apply, Read.val_main_v124_apply, Read.val_main_cst_14_apply,
    Read.val_main_cst_15_apply]
  simp only [Ideal.hostDivf_def, Ideal.ofBits_def, Ideal.ofBits_zero_f32,
    show ∀ q, Read.idx_main_v123 (ix1 k) q = ix2 q k from fun q => idx2_ext rfl rfl]
  rfl
theorem v127_at (r : Fin 100000) (k : Fin 64) :
    Read.val_main_v127 (F := Ideal) x0 x2 x4 x5 x6 x7 x8 x9 (ix2 r k) = meanR H1 k := by
  rw [Read.val_main_v127_apply, Read.val_main_v126_apply,
    show Read.idx_main_v126 (Read.idx_main_v127 (ix2 r k)) = ix1 k from idx1_ext rfl]
  exact mean_at1 x0 x2 x4 x5 x6 x7 x8 x9 k
theorem v134_at (r : Fin 100000) (k : Fin 64) :
    Read.val_main_v134 (F := Ideal) x0 x2 x4 x5 x6 x7 x8 x9 (ix2 r k) = meanR H1 k := by
  rw [Read.val_main_v134_apply, Read.val_main_v133_apply,
    show Read.idx_main_v133 (Read.idx_main_v134 (ix2 r k)) = ix1 k from idx1_ext rfl]
  exact mean_at1 x0 x2 x4 x5 x6 x7 x8 x9 k

theorem var_at1 (k : Fin 64) :
    Read.val_main_v132 (F := Ideal) x0 x2 x4 x5 x6 x7 x8 x9 (ix1 k) = varR H1 k := by
  rw [Read.val_main_v132_apply, Read.val_main_v130_apply, Read.val_main_v131_apply, Read.val_main_cst_16_apply,
    Read.val_main_cst_17_apply]
  simp only [Read.val_main_v129_apply, Read.val_main_v128_apply,
    show ∀ q, Read.idx_main_v130 (ix1 k) q = ix2 q k from fun q => idx2_ext rfl rfl, v127_at,
    Ideal.hostDivf_def, Ideal.ofBits_def, Ideal.ofBits_zero_f32, Ideal.mulf_def, Ideal.subf_def]
  rfl

/-- Branch 1's result stage, entry by entry. -/
theorem v148_at (r : Fin 100000) (k : Fin 64) :
    Read.val_main_v148 (F := Ideal) x0 x2 x4 x5 x6 x7 x8 x9 x10 x11 (ix2 r k)
      = Ideal.tanh (bnR H1 (fun k => x10 (ix2 1 k)) (fun k => x11 (ix2 1 k)) r k) := by
  rw [Read.val_main_v148_apply, Read.val_main_v147_apply, Read.val_main_v144_apply, Read.val_main_v138_apply,
    Read.val_main_v135_apply, v134_at, Read.val_main_v137_apply, Read.val_main_v136_apply, Read.val_main_v143_apply,
    Read.val_main_v142_apply, Read.val_main_v141_apply, Read.val_main_v140_apply, Read.val_main_v139_apply,
    Read.val_main_cst_18_apply, Read.val_main_v146_apply, Read.val_main_v145_apply,
    show Read.idx_main_v136 (Read.idx_main_v137 (ix2 r k)) = ix1 k from idx1_ext rfl,
    show Read.idx_main_v142 (Read.idx_main_v143 (ix2 r k)) = ix1 k from idx1_ext rfl,
    show Read.idx_main_v145 (Read.idx_main_v146 (ix2 r k)) = ix1 k from idx1_ext rfl, var_at1, g_at1, be_at1]
  simp only [Ideal.addf_def, Ideal.mulf_def, Ideal.subf_def, Ideal.hostUnary_rsqrt_def, Ideal.hostUnary_tanh_def,
    Ideal.ofBits_def]
  rfl

end B1

/-! ## Branch 2: the same three steps over the third edge array and slice 2 of the stacked parameters -/

section B2
variable (x0 : (⟨S100000x128, .f32⟩ : BufTy).Contents (Elt Ideal)) (x3 : (⟨S2x1000000, .i32⟩ : BufTy).Contents (Elt Ideal))
  (x4 x5 : (⟨S128, .f32⟩ : BufTy).Contents (Elt Ideal)) (x6 : (⟨S3x128x64, .f32⟩ : BufTy).Contents (Elt Ideal))
  (x7 : (⟨S3x64, .f32⟩ : BufTy).Contents (Elt Ideal)) (x8 : (⟨S3x64x64, .f32⟩ : BufTy).Contents (Elt Ideal))
  (x9 x10 x11 : (⟨S3x64, .f32⟩ : BufTy).Contents (Elt Ideal))

theorem w1_at2 (i : Fin 128) (j : Fin 64) : Read.val_main_v165 (F := Ideal) x6 (ix2 i j) = x6 (ix3 2 i j) := by
  rw [Read.val_main_v165_apply, Read.val_main_v164_apply]
  refine congrArg x6 (idx3_ext rfl (Fin.ext ?_) (Fin.ext ?_))
  · show (i.val * 64 + j.val) / 64 % 128 = i.val
    have := i.isLt; have := j.isLt; omega
  · show (i.val * 64 + j.val) % 64 = j.val
    have := j.isLt; omega

theorem b1_at2 (r : Fin 100000) (j : Fin 64) : Read.val_main_v170 (F := Ideal) x7 (ix2 r j) = x7 (ix2 2 j) := by
  rw [Read.val_main_v170_apply, Read.val_main_v169_apply, Read.val_main_v168_apply, Read.val_main_v167_apply]
  refine congrArg x7 (idx2_ext rfl (Fin.ext ?_))
  show j.val % 64 = j.val
  have := j.isLt; omega

theorem w2_at2 (j k : Fin 64) : Read.val_main_v174 (F := Ideal) x8 (ix2 j k) = x8 (ix3 2 j k) := by
  rw [Read.val_main_v174_apply, Read.val_main_v173_apply]
  refine congrArg x8 (idx3_ext rfl (Fin.ext ?_) (Fin.ext ?_))
  · show (j.val * 64 + k.val) / 64 % 64 = j.val
    have := j.isLt; have := k.isLt; omega
  · show (j.val * 64 + k.val) % 64 = k.val
    have := k.isLt; omega

theorem b2_at2 (r : Fin 100000) (k : Fin 64) : Read.val_main_v179 (F := Ideal) x9 (ix2 r k) = x9 (ix2 2 k) := by
  rw [Read.val_main_v179_apply, Read.val_main_v178_apply, Read.val_main_v177_apply, Read.val_main_v176_apply]
  refine congrArg x9 (idx2_ext rfl (Fin.ext ?_))
  show k.val % 64 = k.val
  have := k.isLt; omega

theorem zero_at2 (i : S100000x64.Idx) : Read.val_main_call2_v0 (F := Ideal) i = 0 := by
  rw [Read.val_main_call2_v0_apply, Read.val_main_call2_cst_apply, Ideal.ofBits_def, Ideal.ofBits_zero_f32]

/-- Branch 2's perceptron on the normalised features plus their neighbourhood sums. -/
theorem v180_at (r : Fin 100000) (k : Fin 64) :
    Read.val_main_v180 (F := Ideal) x0 x3 x4 x5 x6 x7 x8 x9 (ix2 r k)
      = mlp (fun r i => Read.val_main_v24 (F := Ideal) x0 x4 x5 (ix2 r i))
          (fun r i => Read.val_main_v162 (F := Ideal) x0 x3 x4 x5 (ix2 r i))
          (fun i j => x6 (ix3 2 i j)) (fun j => x7 (ix2 2 j)) (fun j k => x8 (ix3 2 j k)) (fun k => x9 (ix2 2 k)) r k := by
  rw [Read.val_main_v180_apply, Read.val_main_v175_apply, b2_at2]
  simp only [show ∀ j, Read.lidx_main_v175 (ix2 r k) j = ix2 r j from fun j => idx2_ext rfl rfl,
    show ∀ j, Read.ridx_main_v175 (ix2 r k) j = ix2 j k from fun j => idx2_ext rfl rfl,
    w2_at2, Read.val_main_v172_apply, zero_at2, Read.val_main_v171_apply, b1_at2, Read.val_main_v166_apply,
    show ∀ j i, Read.lidx_main_v166 (ix2 r j) i = ix2 r i from fun j i => idx2_ext rfl rfl,
    show ∀ j i, Read.ridx_main_v166 (ix2 r j) i = ix2 i j from fun j i => idx2_ext rfl rfl,
    w1_at2, Read.val_main_v163_apply, Ideal.addf_def, Ideal.maximumf_def]
  rfl

/-- Branch 2's perceptron stage by rows and columns. -/
local notation "H2" =>
  (fun (r : Fin 100000) (k : Fin 64) => Read.val_main_v180 (F := Ideal) x0 x3 x4 x5 x6 x7 x8 x9 (ix2 r k))

theorem g_at2 (k : Fin 64) : Read.val_main_v182 (F := Ideal) x10 (ix1 k) = x10 (ix2 2 k) := by
  rw [Read.val_main_v182_apply, Read.val_main_v181_apply]
  refine congrArg x10 (idx2_ext rfl (Fin.ext ?_))
  show k.val % 64 = k.val
  have := k.isLt; omega
theorem be_at2 (k : Fin 64) : Read.val_main_v184 (F := Ideal) x11 (ix1 k) = x11 (ix2 2 k) := by
  rw [Read.val_main_v184_apply, Read.val_main_v183_apply]
  refine congrArg x11 (idx2_ext rfl (Fin.ext ?_))
  show k.val % 64 = k.val
  have := k.isLt; omega

theorem mean_at2 (k : Fin 64) :
    Read.val_main_v187 (F := Ideal) x0 x3 x4 x5 x6 x7 x8 x9 (ix1 k) = meanR H2 k := by
  rw [Read.val_main_v187_apply, Read.val_main_v185_apply, Read.val_main_v186_apply, Read.val_main_cst_22_apply,
    Read.val_main_cst_23_apply]
  simp only [Ideal.hostDivf_def, Ideal.ofBits_def, Ideal.ofBits_zero_f32,
    show ∀ q, Read.idx_main_v185 (ix1 k) q = ix2 q k from fun q => idx2_ext rfl rfl]
  rfl
theorem v189_at (r : Fin 100000) (k : Fin 64) :
    Read.val_main_v189 (F := Ideal) x0 x3 x4 x5 x6 x7 x8 x9 (ix2 r k) = meanR H2 k := by
  rw [Read.val_main_v189_apply, Read.val_main_v188_apply,
    show Read.idx_main_v188 (Read.idx_main_v189 (ix2 r k)) = ix1 k from idx1_ext rfl]
  exact mean_at2 x0 x3 x4 x5 x6 x7 x8 x9 k
theorem v196_at (r : Fin 100000) (k : Fin 64) :
    Read.val_main_v196 (F := Ideal) x0 x3 x4 x5 x6 x7 x8 x9 (ix2 r k) = meanR H2 k := by
  rw [Read.val_main_v196_apply, Read.val_main_v195_apply,
    show Read.idx_main_v195 (Read.idx_main_v196 (ix2 r k)) = ix1 k from idx1_ext rfl]
  exact mean_at2 x0 x3 x4 x5 x6 x7 x8 x9 k

theorem var_at2 (k : Fin 64) :
    Read.val_main_v194 (F := Ideal) x0 x3 x4 x5 x6 x7 x8 x9 (ix1 k) = varR H2 k := by
  rw [Read.val_main_v194_apply, Read.val_main_v192_apply, Read.val_main_v193_apply, Read.val_main_cst_24_apply,
    Read.val_main_cst_25_apply]
  simp only [Read.val_main_v191_apply, Read.val_main_v190_apply,
    show ∀ q, Read.idx_main_v192 (ix1 k) q = ix2 q k from fun q => idx2_ext rfl rfl, v189_at,
    Ideal.hostDivf_def, Ideal.ofBits_def, Ideal.ofBits_zero_f32, Ideal.mulf_def, Ideal.subf_def]
  rfl

/-- Branch 2's result stage, entry by entry. -/
theorem v210_at (r : Fin 100000) (k : Fin 64) :
    Read.val_main_v210 (F := Ideal) x0 x3 x4 x5 x6 x7 x8 x9 x10 x11 (ix2 r k)
      = Ideal.tanh (bnR H2 (fun k => x10 (ix2 2 k)) (fun k => x11 (ix2 2 k)) r k) := by
  rw [Read.val_main_v210_apply, Read.val_main_v209_apply, Read.val_main_v206_apply, Read.val_main_v200_apply,
    Read.val_main_v197_apply, v196_at, Read.val_main_v199_apply, Read.val_main_v198_apply, Read.val_main_v205_apply,
    Read.val_main_v204_apply, Read.val_main_v203_apply, Read.val_main_v202_apply, Read.val_main_v201_apply,
    Read.val_main_cst_26_apply, Read.val_main_v208_apply, Read.val_main_v207_apply,
    show Read.idx_main_v198 (Read.idx_main_v199 (ix2 r k)) = ix1 k from idx1_ext rfl,
    show Read.idx_main_v204 (Read.idx_main_v205 (ix2 r k)) = ix1 k from idx1_ext rfl,
    show Read.idx_main_v207 (Read.idx_main_v208 (ix2 r k)) = ix1 k from idx1_ext rfl, var_at2, g_at2, be_at2]
  simp only [Ideal.addf_def, Ideal.mulf_def, Ideal.subf_def, Ideal.hostUnary_rsqrt_def, Ideal.hostUnary_tanh_def,
    Ideal.ofBits_def]
  rfl

end B2

variable (m : (ℓ : Loc nD τ sig) → Buf (Elt Ideal) ℓ) (c : Dev nD)

/-- The argument arrays by their literal types. -/
abbrev aX : Vec Ideal S100000x128 .f32 := m ((c.tc : Thread nD τ).loc main_arg0)
abbrev aG : Vec Ideal S128 .f32 := m ((c.tc : Thread nD τ).loc main_arg4)
abbrev aB : Vec Ideal S128 .f32 := m ((c.tc : Thread nD τ).loc main_arg5)
abbrev aW1 : Vec Ideal S3x128x64 .f32 := m ((c.tc : Thread nD τ).loc main_arg6)
abbrev aB1 : Vec Ideal S3x64 .f32 := m ((c.tc : Thread nD τ).loc main_arg7)
abbrev aW2 : Vec Ideal S3x64x64 .f32 := m ((c.tc : Thread nD τ).loc main_arg8)
abbrev aB2 : Vec Ideal S3x64 .f32 := m ((c.tc : Thread nD τ).loc main_arg9)
abbrev aGo : Vec Ideal S3x64 .f32 := m ((c.tc : Thread nD τ).loc main_arg10)
abbrev aBo : Vec Ideal S3x64 .f32 := m ((c.tc : Thread nD τ).loc main_arg11)

/-- The normalised node features, entry by entry and as an array. -/
def xn : Fin 100000 → Fin 128 → EReal :=
  bnR (fun r i => aX m c (ix2 r i)) (fun i => aG m c (ix1 i)) (fun i => aB m c (ix1 i))
def xnArr : FVec Ideal S100000x128 .f32 := fun i => xn m c (i 0) (i 1)

/-- Branch `b`'s result from its edge array `e`. -/
def out (b : Fin 3) (e : (⟨S2x1000000, .i32⟩ : BufTy).Contents (Elt Ideal)) : Fin 100000 → Fin 64 → EReal :=
  outR (xn m c) (fun r i => aggR e (xnArr m c) (ix2 r i)) (fun i j => aW1 m c (ix3 b i j)) (fun j => aB1 m c (ix2 b j))
    (fun j k => aW2 m c (ix3 b j k)) (fun k => aB2 m c (ix2 b k)) (fun k => aGo m c (ix2 b k)) (fun k => aBo m c (ix2 b k))

/-! ## From the stage readings to a branch's result -/

/-- Branch 0's neighbourhood-sum stage is `aggR` of the normalised features along the first edge array. -/
theorem v38_eq (x0 : (⟨S100000x128, .f32⟩ : BufTy).Contents (Elt Ideal)) (x1 : (⟨S2x1000000, .i32⟩ : BufTy).Contents (Elt Ideal))
    (x4 x5 : (⟨S128, .f32⟩ : BufTy).Contents (Elt Ideal)) :
    Read.val_main_v38 (F := Ideal) x0 x1 x4 x5 = aggR x1 (Read.val_main_v24 (F := Ideal) x0 x4 x5) := rfl

/-- The normalised-features stage at the run's arguments is `xnArr`. -/
theorem v24_xnArr : Read.val_main_v24 (F := Ideal) (aX m c) (aG m c) (aB m c) = xnArr m c :=
  v24_eq (aX m c) (aG m c) (aB m c)

/-- A branch's result from three readings: its neighbourhood-sum stage `agg`, its perceptron stage `H` and its
    result stage `V`. -/
theorem out_of_stages (b : Fin 3) (e : (⟨S2x1000000, .i32⟩ : BufTy).Contents (Elt Ideal))
    (agg : FVec Ideal S100000x128 .f32) (H : Fin 100000 → Fin 64 → EReal) (V : Vec Ideal S100000x64 .f32)
    (hagg : agg = aggR e (Read.val_main_v24 (F := Ideal) (aX m c) (aG m c) (aB m c)))
    (hH : ∀ r k, H r k
      = mlp (fun r i => Read.val_main_v24 (F := Ideal) (aX m c) (aG m c) (aB m c) (ix2 r i)) (fun r i => agg (ix2 r i))
          (fun i j => aW1 m c (ix3 b i j)) (fun j => aB1 m c (ix2 b j)) (fun j k => aW2 m c (ix3 b j k))
          (fun k => aB2 m c (ix2 b k)) r k)
    (hV : ∀ r k, V (ix2 r k) = Ideal.tanh (bnR H (fun k => aGo m c (ix2 b k)) (fun k => aBo m c (ix2 b k)) r k))
    (r : Fin 100000) (k : Fin 64) : V (ix2 r k) = out m c b e r k := by
  have hH' : H = mlp (xn m c) (fun r i => aggR e (xnArr m c) (ix2 r i)) (fun i j => aW1 m c (ix3 b i j))
      (fun j => aB1 m c (ix2 b j)) (fun j k => aW2 m c (ix3 b j k)) (fun k => aB2 m c (ix2 b k)) := by
    funext r k
    rw [hH, hagg, v24_xnArr]
    rfl
  rw [hV, hH']
  rfl

/-- Branch 1's neighbourhood-sum stage is `aggR` along the second edge array: its index and zero stages are other
    constants with the bodies of branch 0's. -/
theorem v100_eq (x0 : (⟨S100000x128, .f32⟩ : BufTy).Contents (Elt Ideal)) (x2 : (⟨S2x1000000, .i32⟩ : BufTy).Contents (Elt Ideal))
    (x4 x5 : (⟨S128, .f32⟩ : BufTy).Contents (Elt Ideal)) :
    Read.val_main_v100 (F := Ideal) x0 x2 x4 x5 = aggR x2 (Read.val_main_v24 (F := Ideal) x0 x4 x5) := rfl

/-- Branch 2's neighbourhood-sum stage is `aggR` along the third edge array, for the same reason. -/
theorem v162_eq (x0 : (⟨S100000x128, .f32⟩ : BufTy).Contents (Elt Ideal)) (x3 : (⟨S2x1000000, .i32⟩ : BufTy).Contents (Elt Ideal))
    (x4 x5 : (⟨S128, .f32⟩ : BufTy).Contents (Elt Ideal)) :
    Read.val_main_v162 (F := Ideal) x0 x3 x4 x5 = aggR x3 (Read.val_main_v24 (F := Ideal) x0 x4 x5) := rfl

/-- The three result arrays of the reference's run are the three branches' results. -/
theorem res0 (r : Fin 100000) (k : Fin 64) :
    (Value.res_out0 (F := Ideal) m c : Vec Ideal S100000x64 .f32) (ix2 r k)
      = out m c 0 (m ((c.tc : Thread nD τ).loc main_arg1)) r k := by
  show (Value.res_main_v86 (F := Ideal) m c : Vec Ideal S100000x64 .f32) (ix2 r k) = _
  rw [Read.val_main_v86_eq]
  exact out_of_stages m c 0 _ _ _ _ (v38_eq _ _ _ _) (fun r k => v56_at _ _ _ _ _ _ _ _ r k)
    (fun r k => v86_at _ _ _ _ _ _ _ _ _ _ r k) r k
theorem res1 (r : Fin 100000) (k : Fin 64) :
    (Value.res_out1 (F := Ideal) m c : Vec Ideal S100000x64 .f32) (ix2 r k)
      = out m c 1 (m ((c.tc : Thread nD τ).loc main_arg2)) r k := by
  show (Value.res_main_v148 (F := Ideal) m c : Vec Ideal S100000x64 .f32) (ix2 r k) = _
  rw [Read.val_main_v148_eq]
  exact out_of_stages m c 1 _ _ _ _ (v100_eq _ _ _ _) (fun r k => v118_at _ _ _ _ _ _ _ _ r k)
    (fun r k => v148_at _ _ _ _ _ _ _ _ _ _ r k) r k
theorem res2 (r : Fin 100000) (k : Fin 64) :
    (Value.res_out2 (F := Ideal) m c : Vec Ideal S100000x64 .f32) (ix2 r k)
      = out m c 2 (m ((c.tc : Thread nD τ).loc main_arg3)) r k := by
  show (Value.res_main_v210 (F := Ideal) m c : Vec Ideal S100000x64 .f32) (ix2 r k) = _
  rw [Read.val_main_v210_eq]
  exact out_of_stages m c 2 _ _ _ _ (v162_eq _ _ _ _) (fun r k => v180_at _ _ _ _ _ _ _ _ r k)
    (fun r k => v210_at _ _ _ _ _ _ _ _ _ _ r k) r k

end Cert.ReferenceIdeal.Stages

end
-- ==== Proof.SpecBranch.lean ====
/-
  One whole branch in the two arrangements. With real node features and real parameters, the normalised features agree
  in the two arrangements; the neighbourhood sum keeps real entries real; the perceptron of real entries is real; so the
  closing normalisation agrees as well, and with it the branch's result.
-/
import proofs.«107533_j36429912605472_1_alg».proof.Proof.Spec
import Idealize.ShloMosaic.Lib.ValueIdx

noncomputable section

namespace Cert.Spec

open Idealize.ShloMosaic Idealize.ShloMosaic.ValueIdx

/-- A branch's result does not depend on the arrangement of its two batch normalisations, for real inputs and any
    neighbourhood sum `A` that keeps real arrays real. -/
theorem branch_eq (X : Fin 100000 → Fin 128 → EReal) (γi βi : Fin 128 → EReal)
    (A : FVec Ideal (⟨2, ![100000, 128]⟩ : Shape) .f32 → FVec Ideal (⟨2, ![100000, 128]⟩ : Shape) .f32)
    (W1 : Fin 128 → Fin 64 → EReal) (b1 : Fin 64 → EReal) (W2 : Fin 64 → Fin 64 → EReal) (b2 γ β : Fin 64 → EReal)
    (hX : ∀ r i, IsR (X r i)) (hγi : ∀ i, IsR (γi i)) (hβi : ∀ i, IsR (βi i))
    (hA : ∀ a, (∀ i, IsR (a i)) → ∀ i, IsR (A a i))
    (hW1 : ∀ i j, IsR (W1 i j)) (hb1 : ∀ j, IsR (b1 j)) (hW2 : ∀ j k, IsR (W2 j k)) (hb2 : ∀ k, IsR (b2 k))
    (hγ : ∀ k, IsR (γ k)) (hβ : ∀ k, IsR (β k)) (r : Fin 100000) (k : Fin 64) :
    outK (bnK X γi βi) (fun r i => A (fun i => bnK X γi βi (i 0) (i 1)) (ix2 r i)) W1 b1 W2 b2 γ β r k
      = outR (bnR X γi βi) (fun r i => A (fun i => bnR X γi βi (i 0) (i 1)) (ix2 r i)) W1 b1 W2 b2 γ β r k := by
  -- the opening normalisation: the two arrangements are one array, and it is real
  have hbn : bnK X γi βi = bnR X γi βi :=
    funext fun r => funext fun i => bnK_eq_bnR rfl X γi βi hX hγi hβi r i
  rw [hbn]
  have hxn : ∀ r i, IsR (bnR X γi βi r i) := bnR_isR rfl X γi βi hX hγi hβi
  -- the neighbourhood sum of that real array is real
  have hagg : ∀ r i, IsR (A (fun i => bnR X γi βi (i 0) (i 1)) (ix2 r i)) :=
    fun r i => hA _ (fun i => hxn (i 0) (i 1)) (ix2 r i)
  -- so the perceptron's entries are real, and the closing normalisation agrees on them
  unfold outK outR
  exact congrArg Ideal.tanh
    (bnK_eq_bnR rfl _ γ β (mlp_isR _ _ W1 b1 W2 b2 hxn hagg hW1 hb1 hW2 hb2) hγ hβ r k)

end Cert.Spec

end
-- ==== Proof.Agg.lean ====
/-
  The two programs' neighbourhood sums are one function: both gather rows of the feature array along the wrapped first
  row of the edge array and add them into a zero array along its second row, with the same dimension numbers. It keeps
  real arrays real: a gather re-indexes, a scatter-add adds finitely many entries.
-/
import proofs.«107533_j36429912605472_1_alg».proof.Proof.HostVals
import proofs.«107533_j36429912605472_1_alg».proof.Proof.RefStages
import proofs.«107533_j36429912605472_1_alg».proof.Proof.Spec

set_option maxRecDepth 16384

noncomputable section

namespace Cert.Agg

open Idealize.ShloMosaic Cert.Spec

/-- The two programs' scatter dimension numbers are the same record. -/
theorem scatter_rec : Cert.KernelIdeal.scatter_S100000x128_S1000000x1_S1000000x128_1_0_0_1
    = Cert.ReferenceIdeal.scatter_S100000x128_S1000000x1_S1000000x128_1_0_0_1 := rfl

/-- So are their gather dimension numbers. -/
theorem gather_rec : Cert.KernelIdeal.gather_S100000x128_S1000000x1_S1000000x128_1_0_n_n_0_1_1128
    = Cert.ReferenceIdeal.gather_S100000x128_S1000000x1_S1000000x128_1_0_n_n_0_1_1128 := rfl

open Cert.ReferenceIdeal.Read in
/-- Which feature row each edge reads: in both programs row 0 of the edge array as a vector, a negative entry wrapped by
    the node count, as a column. -/
theorem src_eq (e : IVec Cert.KernelIdeal.S2x1000000 32) :
    Cert.KernelIdeal.HostVals.srcIdx e = val_main_v34 (F := Ideal) e := by
  unfold Cert.KernelIdeal.HostVals.srcIdx val_main_v34 val_main_v33 val_main_v30 val_main_v32 val_main_v26 val_main_v25
    val_main_v29 val_main_v31 val_main_c val_main_c_4
  rfl

open Cert.ReferenceIdeal.Read in
/-- Which row each edge is added into: in both programs row 1 of the edge array as a column. -/
theorem dst_eq (e : IVec Cert.KernelIdeal.S2x1000000 32) :
    Cert.KernelIdeal.HostVals.dstIdx e = val_main_v37 (F := Ideal) e := by
  unfold Cert.KernelIdeal.HostVals.dstIdx val_main_v37 val_main_v28 val_main_v27
  rfl

open Cert.ReferenceIdeal.Read in
/-- The array the sums start from: in both programs the zero word repeated over the whole shape. -/
theorem zero_eq :
    broadcastInDim Cert.KernelIdeal.S100000x128 ![] Cert.KernelIdeal.Facts₀.bcast_S_S100000x128
        (constant (F := Ideal) Cert.KernelIdeal.S_ .f32 0x00000000#32)
      = val_main_v36 (F := Ideal) := by
  unfold val_main_v36 val_main_cst_5
  rfl

/-- The kernel program's neighbourhood sum is the reference's. -/
theorem agg_eq (e : IVec Cert.KernelIdeal.S2x1000000 32) (a : FVec Ideal Cert.KernelIdeal.S100000x128 .f32) :
    Cert.KernelIdeal.HostVals.aggK e a = Cert.ReferenceIdeal.Stages.aggR e a := by
  unfold Cert.KernelIdeal.HostVals.aggK Cert.ReferenceIdeal.Stages.aggR
  rw [src_eq, dst_eq, zero_eq, scatter_rec, gather_rec]

/-- It keeps real arrays real. -/
theorem aggK_isR (e : IVec Cert.KernelIdeal.S2x1000000 32) (a : FVec Ideal Cert.KernelIdeal.S100000x128 .f32)
    (ha : ∀ i, IsR (a i)) (i : Cert.KernelIdeal.S100000x128.Idx) : IsR (Cert.KernelIdeal.HostVals.aggK e a i) := by
  unfold Cert.KernelIdeal.HostVals.aggK
  refine scatterAdd_isR _ _ _ _ (fun i => ?_) (fun j => gather_isR _ a _ ha j) i
  -- the array the sums start from holds the zero word's value, the real 0
  show IsR (Ideal.ofBits .f32 0x00000000#32)
  rw [Ideal.ofBits_zero_f32]
  exact IsR.zero

end Cert.Agg

end
-- ==== Proof.Finite.lean ====
/-
  From the precondition to real entries: the precondition says of every float input that each entry's absolute value is
  below the infinity word, so on the extended reals each entry is a real number.
-/
import proofs.«107533_j36429912605472_1_alg».proof.Defs
import proofs.«107533_j36429912605472_1_alg».proof.Proof.Gen.Pre_finite_inputs
import proofs.«107533_j36429912605472_1_alg».proof.Proof.Spec
import Idealize.ShloMosaic.Lib.ReduceAll
import Idealize.ShloMosaic.Lib.ValueIdx

noncomputable section

namespace Cert.Finite

open Idealize.ShloMosaic Idealize.ShloMosaic.TcCoe Idealize.SL.Sem Idealize.ShloMosaic.ValueIdx
open Cert.KernelIdeal Cert.Spec

/-- The result of a reduction over all axes has one index. -/
instance : Subsingleton Cert.Pre_finite_inputs.S_.Idx := ⟨fun a b => funext fun d => d.elim0⟩

/-- The infinity word denotes the top element. -/
theorem infWord_eq_top : Ideal.ofBits .f32 0x7F800000#32 = (⊤ : EReal) := by simp [Ideal.ofBits, Ideal.ieee]

/-- An extended real whose absolute value `max x (−x)` is strictly below `+∞` is neither infinity, so it is a real. -/
theorem isR_of_abs_lt_inf (x : EReal)
    (h : Ideal.cmp .olt (max x (-x)) (Ideal.ofBits .f32 0x7F800000#32) = 1#1) : IsR x := by
  rw [infWord_eq_top] at h
  have h' : BitVec.ofBool (decide (max x (-x) < (⊤ : EReal))) = 1#1 := h
  have hlt : max x (-x) < (⊤ : EReal) := by
    by_contra hn
    rw [decide_eq_false hn] at h'
    exact absurd h' (by decide)
  rw [max_lt_iff] at hlt
  induction x using EReal.rec with
  | bot => exact absurd hlt.2 (by simp)
  | coe r => exact ⟨r, rfl⟩
  | top => exact absurd hlt.1 (by simp)

/-- An array whose test "every `|x i|` is below the infinity word", reduced by `and` over all axes, came out one has
    real entries. -/
theorem real_of_all_finite {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] bc (constant Cert.Pre_finite_inputs.S_ .f32 0x7F800000#32)))
          (constantI Cert.Pre_finite_inputs.S_ 1 1#1) hr hu j = 1#1) (i : s.Idx) : IsR (x i) :=
  isR_of_abs_lt_inf (x i) (Host.reduce_andi_all _ _ hr hu j e i)

/-- Under the precondition every entry of every float argument array is a real number. -/
theorem args_real [hP : Cert.Pre_finite_inputs.Facts] (m : (ℓ : Loc nD τ sig) → Buf (Elt Ideal) ℓ) (h : Cert.Pre_KernelIdeal m)
    (c : Dev nD) :
    (∀ i, IsR ((m ((c.tc : Thread nD τ).loc main_arg0) : Vec Ideal S100000x128 .f32) i))
    ∧ (∀ i, IsR ((m ((c.tc : Thread nD τ).loc main_arg4) : Vec Ideal S128 .f32) i))
    ∧ (∀ i, IsR ((m ((c.tc : Thread nD τ).loc main_arg5) : Vec Ideal S128 .f32) i))
    ∧ (∀ i, IsR ((m ((c.tc : Thread nD τ).loc main_arg6) : Vec Ideal S3x128x64 .f32) i))
    ∧ (∀ i, IsR ((m ((c.tc : Thread nD τ).loc main_arg7) : Vec Ideal S3x64 .f32) i))
    ∧ (∀ i, IsR ((m ((c.tc : Thread nD τ).loc main_arg8) : Vec Ideal S3x64x64 .f32) i))
    ∧ (∀ i, IsR ((m ((c.tc : Thread nD τ).loc main_arg9) : Vec Ideal S3x64 .f32) i))
    ∧ (∀ i, IsR ((m ((c.tc : Thread nD τ).loc main_arg10) : Vec Ideal S3x64 .f32) i))
    ∧ (∀ i, IsR ((m ((c.tc : Thread nD τ).loc main_arg11) : Vec Ideal S3x64 .f32) i)) := by
  -- the predicate's one entry is the conjunction, by `and`, of the nine arrays' tests
  have e := congrFun (h c) ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨e0, e4⟩, e5⟩, e6⟩, e7⟩, e8⟩, e9⟩, e10⟩, e11⟩ := e
  exact ⟨real_of_all_finite _ _ _ _ _ e0, real_of_all_finite _ _ _ _ _ e4, real_of_all_finite _ _ _ _ _ e5,
    real_of_all_finite _ _ _ _ _ e6, real_of_all_finite _ _ _ _ _ e7, real_of_all_finite _ _ _ _ _ e8,
    real_of_all_finite _ _ _ _ _ e9, real_of_all_finite _ _ _ _ _ e10, real_of_all_finite _ _ _ _ _ e11⟩

end Cert.Finite

end
-- ==== Proof.Bridge.lean ====
/-
  The kernel program's three result arrays are the reference's. Entry by entry the kernel's is the branch in the
  scale-and-shift arrangement and the reference's the branch in the centred arrangement, of the same launch arrays; under
  the precondition every float entry is real, the two programs' neighbourhood sums are one function that keeps real
  arrays real, and so the two arrangements agree.
-/
import proofs.«107533_j36429912605472_1_alg».proof.Defs
import proofs.«107533_j36429912605472_1_alg».proof.Proof.KB0
import proofs.«107533_j36429912605472_1_alg».proof.Proof.RefStages
import proofs.«107533_j36429912605472_1_alg».proof.Proof.SpecBranch
import proofs.«107533_j36429912605472_1_alg».proof.Proof.Agg
import proofs.«107533_j36429912605472_1_alg».proof.Proof.Finite
import proofs.«107533_j36429912605472_1_alg».proof.Proof.Keep

set_option maxRecDepth 16384

noncomputable section

namespace Cert.Bridge

open Idealize.ShloMosaic Idealize.ShloMosaic.TcCoe Idealize.SL.Sem Idealize.ShloMosaic.ValueIdx

/-- Branch 0: what the kernel program leaves in its result array is the reference's result. -/
theorem key0 [hP : Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (he : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.KernelIdeal.Gen.W15 m ρ c (Proc.devRef .tc Cert.KernelIdeal.main_v61) = Cert.ReferenceIdeal.Value.res_out0 (F := Ideal) m' c := by
  obtain ⟨r0, r4, r5, r6, r7, r8, r9, r10, r11⟩ := Cert.Finite.args_real m hpre c
  funext i
  obtain ⟨r, k, rfl⟩ : ∃ (r : Fin 100000) (k : Fin 64), i = ix2 r k := ⟨i 0, i 1, eq_ix2 i⟩
  show Cert.KernelIdeal.HostVals.f32At (S := Cert.KernelIdeal.S100000x64) (Cert.KernelIdeal.Gen.W15 m ρ c (Proc.devRef .tc Cert.KernelIdeal.main_v61)) (ix2 r k) = _
  rw [Cert.KernelIdeal.Keep.W15_out0 m ρ c]
  refine (Cert.KernelIdeal.KB0.out m ρ c r k).trans ?_
  refine Eq.trans ?_ (Cert.ReferenceIdeal.Stages.res0 m' c r k).symm
  unfold Cert.ReferenceIdeal.Stages.out Cert.ReferenceIdeal.Stages.xnArr Cert.ReferenceIdeal.Stages.xn
    Cert.KernelIdeal.KB0.agg Cert.KernelIdeal.KIn.xnKArr Cert.KernelIdeal.KIn.xnK
  rw [show Cert.ReferenceIdeal.Stages.aX m' c = Cert.KernelIdeal.KIn.aX m c from h0,
    show Cert.ReferenceIdeal.Stages.aG m' c = Cert.KernelIdeal.KIn.aG m c from h4,
    show Cert.ReferenceIdeal.Stages.aB m' c = Cert.KernelIdeal.KIn.aB m c from h5,
    show Cert.ReferenceIdeal.Stages.aW1 m' c = Cert.KernelIdeal.KB0.aW1 m c from h6,
    show Cert.ReferenceIdeal.Stages.aB1 m' c = Cert.KernelIdeal.KB0.aB1 m c from h7,
    show Cert.ReferenceIdeal.Stages.aW2 m' c = Cert.KernelIdeal.KB0.aW2 m c from h8,
    show Cert.ReferenceIdeal.Stages.aB2 m' c = Cert.KernelIdeal.KB0.aB2 m c from h9,
    show Cert.ReferenceIdeal.Stages.aGo m' c = Cert.KernelIdeal.KB0.aGo m c from h10,
    show Cert.ReferenceIdeal.Stages.aBo m' c = Cert.KernelIdeal.KB0.aBo m c from h11, he]
  simp only [← Cert.Agg.agg_eq]
  exact Cert.Spec.branch_eq (fun r i => Cert.KernelIdeal.KIn.aX m c (ix2 r i)) (fun i => Cert.KernelIdeal.KIn.aG m c (ix1 i))
    (fun i => Cert.KernelIdeal.KIn.aB m c (ix1 i)) (Cert.KernelIdeal.HostVals.aggK (Cert.KernelIdeal.KB0.aE m c))
    (fun i j => Cert.KernelIdeal.KB0.aW1 m c (ix3 Cert.KernelIdeal.KB0.bi i j)) (fun j => Cert.KernelIdeal.KB0.aB1 m c (ix2 Cert.KernelIdeal.KB0.bi j))
    (fun j k => Cert.KernelIdeal.KB0.aW2 m c (ix3 Cert.KernelIdeal.KB0.bi j k)) (fun k => Cert.KernelIdeal.KB0.aB2 m c (ix2 Cert.KernelIdeal.KB0.bi k))
    (fun k => Cert.KernelIdeal.KB0.aGo m c (ix2 Cert.KernelIdeal.KB0.bi k)) (fun k => Cert.KernelIdeal.KB0.aBo m c (ix2 Cert.KernelIdeal.KB0.bi k))
    (fun r i => r0 _) (fun i => r4 _) (fun i => r5 _) (fun a ha => Cert.Agg.aggK_isR _ a ha)
    (fun i j => r6 _) (fun j => r7 _) (fun j k => r8 _) (fun k => r9 _) (fun k => r10 _) (fun k => r11 _) r k

end Cert.Bridge

end
-- ==== Proof.R4Pay.lean ====
/-
  The arithmetic of the perceptron call's body on one row block, read entry by entry on the extended reals: the block's
  perceptron values, and the two running rows after the block's column sums are added.
-/
import proofs.«107533_j36429912605472_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R4Pay

open Cert.KernelIdeal Cert.KernelIdeal.Gen
open Idealize.ShloMosaic Idealize.ShloMosaic.ValueIdx

/-! ## The two products of a block: which operand entries meet at a contraction coordinate -/

/-! The first product contracts the 128 input features: of the left operand's index the row is the output's row and the
column the contraction coordinate; of the right operand's index the row is the contraction coordinate and the column
the output's column. -/

theorem lhsIn_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsIn_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsIn_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsIn_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The first product into the zero block, at row `p` and column `j`: the sum over the 128 input features. -/
theorem matmulIn_apply (x : FVec Ideal S5000x128 .bf16) (w : FVec Ideal S128x64 .bf16) (p : Fin 5000) (j : Fin 64) :
    matmul dot_S5000x128_S128x64_S5000x64_1_0_0_1_n_n none x w (constant (F := Ideal) S5000x64 .f32 0x00000000#32) (ix2 p j)
      = ∑ i : Fin 128, x (ix2 p i) * w (ix2 i j) := by
  simp only [matmul]
  rw [Ideal.matmul_constant_zero_apply, ← Equiv.sum_comp (contrEquiv1 dot_S5000x128_S128x64_S5000x64_1_0_0_1_n_n 128 rfl rfl).symm]
  refine Finset.sum_congr rfl fun c _ => ?_
  have hc := contrEquiv1_symm_val dot_S5000x128_S128x64_S5000x64_1_0_0_1_n_n 128 rfl rfl c
  have el : dot_S5000x128_S128x64_S5000x64_1_0_0_1_n_n.lhsIdx (ix2 p j) ((contrEquiv1 dot_S5000x128_S128x64_S5000x64_1_0_0_1_n_n 128 rfl rfl).symm c) = ix2 p c := funext fun a => Fin.ext (by
    match a with
    | ⟨0, _⟩ => exact lhsIn_0 _ _
    | ⟨1, _⟩ => exact (lhsIn_1 _ _).trans hc)
  have er : dot_S5000x128_S128x64_S5000x64_1_0_0_1_n_n.rhsIdx (ix2 p j) ((contrEquiv1 dot_S5000x128_S128x64_S5000x64_1_0_0_1_n_n 128 rfl rfl).symm c) = ix2 c j := funext fun a => Fin.ext (by
    match a with
    | ⟨0, _⟩ => exact (rhsIn_0 _ _).trans hc
    | ⟨1, _⟩ => exact rhsIn_1 _ _)
  rw [el, er]

/-! The second product contracts the 64 hidden features, in the same way. -/

theorem lhsHid_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsHid_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsHid_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsHid_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The second product into the zero block, at row `p` and column `j`: the sum over the 64 hidden features. -/
theorem matmulHid_apply (x : FVec Ideal S5000x64 .bf16) (w : FVec Ideal S64x64 .bf16) (p : Fin 5000) (j : Fin 64) :
    matmul dot_S5000x64_S64x64_S5000x64_1_0_0_1_n_n none x w (constant (F := Ideal) S5000x64 .f32 0x00000000#32) (ix2 p j)
      = ∑ i : Fin 64, x (ix2 p i) * w (ix2 i j) := by
  simp only [matmul]
  rw [Ideal.matmul_constant_zero_apply, ← Equiv.sum_comp (contrEquiv1 dot_S5000x64_S64x64_S5000x64_1_0_0_1_n_n 64 rfl rfl).symm]
  refine Finset.sum_congr rfl fun c _ => ?_
  have hc := contrEquiv1_symm_val dot_S5000x64_S64x64_S5000x64_1_0_0_1_n_n 64 rfl rfl c
  have el : dot_S5000x64_S64x64_S5000x64_1_0_0_1_n_n.lhsIdx (ix2 p j) ((contrEquiv1 dot_S5000x64_S64x64_S5000x64_1_0_0_1_n_n 64 rfl rfl).symm c) = ix2 p c := funext fun a => Fin.ext (by
    match a with
    | ⟨0, _⟩ => exact lhsHid_0 _ _
    | ⟨1, _⟩ => exact (lhsHid_1 _ _).trans hc)
  have er : dot_S5000x64_S64x64_S5000x64_1_0_0_1_n_n.rhsIdx (ix2 p j) ((contrEquiv1 dot_S5000x64_S64x64_S5000x64_1_0_0_1_n_n 64 rfl rfl).symm c) = ix2 c j := funext fun a => Fin.ext (by
    match a with
    | ⟨0, _⟩ => exact (rhsHid_0 _ _).trans hc
    | ⟨1, _⟩ => exact rhsHid_1 _ _)
  rw [el, er]

/-! ## Column sums of a block -/

/-- The sum of a block over its rows, laid out as a one-row array: at column `k` it is the sum of the block's column `k`. -/
theorem colsum_apply (x : FVec Ideal S5000x64 .f32) (u : Fin 1) (k : Fin 64) :
    shapeCast S1x64 (multiReduction (F := Ideal) .add [0] S64 x 0x00000000#32 reduces_S5000x64_S64 (.inl rfl) rfl)
        shapeCasts_S64_S1x64 (ix2 u k)
      = ∑ p : Fin 5000, x (ix2 p k) := by
  rw [shapeCast_a_1a_apply]
  refine (Ideal.multiReduction_add_single x 0x00000000#32 reduces_S5000x64_S64 (.inl rfl) rfl (ix1 k)).trans ?_
  refine Finset.sum_congr rfl fun p _ => congrArg x (funext fun a => ?_)
  match a with
  | ⟨0, _⟩ => rfl
  | ⟨1, _⟩ => rfl

/-! ## The payloads -/

/-- The block's perceptron values: `relu((x + a)·W1 + b1)·W2 + b2` at row `p`, column `k`. -/
theorem pay4_apply (v3 v5 : Vec Ideal S5000x128 .f32) (v9 : Vec Ideal S128x64 .bf16) (v12 : Vec Ideal S1x64 .f32)
    (v19 : Vec Ideal S64x64 .bf16) (v22 : Vec Ideal S1x64 .f32) (p : Fin 5000) (k : Fin 64) :
    k4_pay4 (F := Ideal) v3 v5 v9 v12 v19 v22 (ix2 p k)
      = (∑ j : Fin 64, max ((∑ i : Fin 128, (v3 (ix2 p i) + v5 (ix2 p i)) * v9 (ix2 i j)) + v12 (ix2 0 j)) 0
          * v19 (ix2 j k)) + v22 (ix2 0 k) := by
  unfold k4_pay4
  simp only [shapeCast_self]
  rw [addf_apply, broadcastTo_1b_ab_apply, matmulHid_apply]
  refine congrArg (· + v22 (ix2 0 k)) (Finset.sum_congr rfl fun j _ => ?_)
  rw [truncf_apply, maximumf_apply, addf_apply, broadcast_apply, broadcastTo_1b_ab_apply, matmulIn_apply,
    Ideal.ofBits_def, Ideal.ofBits_zero_f32]
  refine congrArg (fun t => max (t + v12 (ix2 0 j)) 0 * v19 (ix2 j k)) (Finset.sum_congr rfl fun i _ => ?_)
  rw [truncf_apply, addf_apply]

/-- The running row of sums after the block: the row before plus the block's column sums. -/
theorem pay5_apply (v3 v5 : Vec Ideal S5000x128 .f32) (v9 : Vec Ideal S128x64 .bf16) (v12 : Vec Ideal S1x64 .f32)
    (v19 : Vec Ideal S64x64 .bf16) (v22 : Vec Ideal S1x64 .f32) (v27 : Vec Ideal S1x64 .f32) (k : Fin 64) :
    k4_pay5 (F := Ideal) v3 v5 v9 v12 v19 v22 v27 (ix2 0 k)
      = v27 (ix2 0 k) + ∑ p : Fin 5000, k4_pay4 (F := Ideal) v3 v5 v9 v12 v19 v22 (ix2 p k) := by
  unfold k4_pay5
  rw [addf_apply, shapeCast_self, colsum_apply]

/-- The running row of sums of squares after the block. -/
theorem pay1_apply (v25 : FVec Ideal S5000x64 .f32) (v33 : Vec Ideal S1x64 .f32) (k : Fin 64) :
    k4_pay1 (F := Ideal) v25 v33 (ix2 0 k) = v33 (ix2 0 k) + ∑ p : Fin 5000, v25 (ix2 p k) * v25 (ix2 p k) := by
  unfold k4_pay1
  rw [addf_apply, shapeCast_self, colsum_apply]
  refine congrArg (v33 (ix2 0 k) + ·) (Finset.sum_congr rfl fun p _ => ?_)
  rw [mulf_apply]

/-- The two rows a first block starts from are zero. -/
theorem pay2_apply (k : Fin 64) : k4_pay2 (F := Ideal) (ix2 0 k) = 0 := by
  unfold k4_pay2
  rw [broadcast_apply, Ideal.ofBits_def, Ideal.ofBits_zero_f32]
theorem pay3_apply (k : Fin 64) : k4_pay3 (F := Ideal) (ix2 0 k) = 0 := by
  unfold k4_pay3
  rw [broadcast_apply, Ideal.ofBits_def, Ideal.ofBits_zero_f32]

end Cert.KernelIdeal.R4Pay

end
-- ==== Proof.R4.lean ====
/-
  The perceptron call of a branch: over twenty row blocks it computes `relu((xn + agg)·W1 + b1)·W2 + b2` for the block's
  rows (a change of float format is the identity on the extended reals, and a matrix product into a zero accumulator is
  the plain contraction), writes the block out, and accumulates per column the sum of the block's entries and of their
  squares from zero. So the result array is the perceptron of the whole arrays, and the two rows its column sums.

  The order of the argument: what one run of the body leaves in each result buffer, as the body's arithmetic of the
  buffers it reads; the operand blocks of a point read off the arrays (row `p` of block `t` is row `5000 t + p`);
  by induction on the point, the block buffer holds the perceptron's rows of the point's block and the two running
  rows hold the column sums over the rows of the blocks so far; the block written back by point `t` is block `t` of the
  perceptron array and row `r` is written by point `r / 5000`; the running rows are written back once, after the last
  block, when the sums over twenty blocks of five thousand rows are the sums over all hundred thousand rows.
-/
import proofs.«107533_j36429912605472_1_alg».proof.Proof.Gen.KernelIdeal.Frame
import proofs.«107533_j36429912605472_1_alg».proof.Proof.R4Pay
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.R4

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

/-! ## What one run of the body leaves in each result buffer -/

section Pieces

variable {F : FTy → Type} [FloatOps F]

/-- Every store and load of the body sits at offset zero of its buffer. -/
theorem hz : (![0, 0] : Fin 2 → Nat) = fun _ => 0 := funext fun a => by fin_cases a <;> rfl

/-- A later point leaves in the block buffer the perceptron values of the point's operand blocks. -/
theorem out_B_6 (c : Dev nD) (i : grid4.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : ¬cond4_0 i)
    (xa : Vec F S5000x128 .f32) (xb : Vec F S5000x128 .f32) (xc : Vec F S128x64 .bf16) (xd : Vec F S1x64 .f32) (xe : Vec F S64x64 .bf16) (xf : Vec F S1x64 .f32) (ya yb : Vec F S1x64 .f32) :
    out4_B_6 c i ma wa mb wb mc wc md wd me we mf wf mg wg mh wh mi wi hc xa xb xc xd xe xf ya yb = k4_pay4 xa xb xc xd xe xf := by
  unfold out4_B_6
  rw [View.read_writes_eq_canon _ _ _ (cover4_B_6 c i ma wa mb wb mc wc md wd me we mf wf mg wg mh wh mi wi hc xa xb xc xd xe xf ya yb)]
  unfold kernelRun4_B
  dsimp only
  sl_unfold_words
  rw [View.canon_unit_zero hz]
  simp only [View.readAt_eq_ld, wa.read_unread, wb.read_unread, wc.read_unread, wd.read_unread, we.read_unread, wf.read_unread,
    View.ld_unit_zero (S := S5000x128) hz, View.ld_unit_zero (S := S128x64) hz, View.ld_unit_zero (S := S64x64) hz,
    View.ld_unit_zero (S := S1x64) hz, View.ld_unit_zero (S := S5000x64) hz]

/-- A later point adds the block's column sums to the first running row. -/
theorem out_B_7 (c : Dev nD) (i : grid4.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : ¬cond4_0 i)
    (xa : Vec F S5000x128 .f32) (xb : Vec F S5000x128 .f32) (xc : Vec F S128x64 .bf16) (xd : Vec F S1x64 .f32) (xe : Vec F S64x64 .bf16) (xf : Vec F S1x64 .f32) (ya yb : Vec F S1x64 .f32) :
    out4_B_7 c i ma wa mb wb mc wc md wd me we mf wf mg wg mh wh mi wi hc xa xb xc xd xe xf ya yb = k4_pay5 xa xb xc xd xe xf ya := by
  unfold out4_B_7
  rw [View.read_writes_eq_canon _ _ _ (cover4_B_7 c i ma wa mb wb mc wc md wd me we mf wf mg wg mh wh mi wi hc xa xb xc xd xe xf ya yb)]
  unfold kernelRun4_B
  dsimp only
  sl_unfold_words
  rw [View.canon_unit_zero hz]
  simp only [View.readAt_eq_ld, wa.read_unread, wb.read_unread, wc.read_unread, wd.read_unread, we.read_unread, wf.read_unread, wh.read_unread,
    View.ld_unit_zero (S := S5000x128) hz, View.ld_unit_zero (S := S128x64) hz, View.ld_unit_zero (S := S64x64) hz,
    View.ld_unit_zero (S := S1x64) hz, View.ld_unit_zero (S := S5000x64) hz]

/-- A later point adds the column sums of the block's squares to the second running row. -/
theorem out_B_8 (c : Dev nD) (i : grid4.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : ¬cond4_0 i)
    (xa : Vec F S5000x128 .f32) (xb : Vec F S5000x128 .f32) (xc : Vec F S128x64 .bf16) (xd : Vec F S1x64 .f32) (xe : Vec F S64x64 .bf16) (xf : Vec F S1x64 .f32) (ya yb : Vec F S1x64 .f32) :
    out4_B_8 c i ma wa mb wb mc wc md wd me we mf wf mg wg mh wh mi wi hc xa xb xc xd xe xf ya yb = k4_pay1 (k4_pay4 xa xb xc xd xe xf) yb := by
  unfold out4_B_8
  rw [View.read_writes_eq_canon _ _ _ (cover4_B_8 c i ma wa mb wb mc wc md wd me we mf wf mg wg mh wh mi wi hc xa xb xc xd xe xf ya yb)]
  unfold kernelRun4_B
  dsimp only
  sl_unfold_words
  rw [View.canon_unit_zero hz]
  simp only [View.readAt_eq_ld, wa.read_unread, wb.read_unread, wc.read_unread, wd.read_unread, we.read_unread, wf.read_unread, wi.read_unread,
    View.ld_unit_zero (S := S5000x128) hz, View.ld_unit_zero (S := S128x64) hz, View.ld_unit_zero (S := S64x64) hz,
    View.ld_unit_zero (S := S1x64) hz, View.ld_unit_zero (S := S5000x64) hz]

/-- The first point leaves the same block values. -/
theorem out_A_6 (c : Dev nD) (i : grid4.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : cond4_0 i)
    (xa : Vec F S5000x128 .f32) (xb : Vec F S5000x128 .f32) (xc : Vec F S128x64 .bf16) (xd : Vec F S1x64 .f32) (xe : Vec F S64x64 .bf16) (xf : Vec F S1x64 .f32) :
    out4_A_6 c i ma wa mb wb mc wc md wd me we mf wf mg wg mh wh mi wi hc xa xb xc xd xe xf = k4_pay4 xa xb xc xd xe xf := by
  unfold out4_A_6
  rw [View.read_writes_eq_canon _ _ _ (cover4_A_6 c i ma wa mb wb mc wc md wd me we mf wf mg wg mh wh mi wi hc xa xb xc xd xe xf)]
  unfold kernelRun4_A
  dsimp only
  sl_unfold_words
  rw [View.canon_unit_zero hz]
  simp only [View.readAt_eq_ld, wa.read_unread, wb.read_unread, wc.read_unread, wd.read_unread, we.read_unread, wf.read_unread,
    View.ld_unit_zero (S := S5000x128) hz, View.ld_unit_zero (S := S128x64) hz, View.ld_unit_zero (S := S64x64) hz,
    View.ld_unit_zero (S := S1x64) hz, View.ld_unit_zero (S := S5000x64) hz]

/-- The first point stores the zero row, reads it back and adds the block's column sums to it. -/
theorem out_A_7 (c : Dev nD) (i : grid4.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : cond4_0 i)
    (xa : Vec F S5000x128 .f32) (xb : Vec F S5000x128 .f32) (xc : Vec F S128x64 .bf16) (xd : Vec F S1x64 .f32) (xe : Vec F S64x64 .bf16) (xf : Vec F S1x64 .f32) :
    out4_A_7 c i ma wa mb wb mc wc md wd me we mf wf mg wg mh wh mi wi hc xa xb xc xd xe xf = k4_pay5 xa xb xc xd xe xf k4_pay2 := by
  unfold out4_A_7
  rw [View.read_writes_eq_canon _ _ _ (cover4_A_7 c i ma wa mb wb mc wc md wd me we mf wf mg wg mh wh mi wi hc xa xb xc xd xe xf)]
  unfold kernelRun4_A
  dsimp only
  sl_unfold_words
  rw [View.canon_cons_unit_zero (S := S1x64) hz]
  simp only [View.readAt_eq_ld, wa.read_unread, wb.read_unread, wc.read_unread, wd.read_unread, we.read_unread, wf.read_unread, View.readCov_unit_zero (S := S1x64) _ hz,
    View.ld_unit_zero (S := S5000x128) hz, View.ld_unit_zero (S := S128x64) hz, View.ld_unit_zero (S := S64x64) hz,
    View.ld_unit_zero (S := S1x64) hz, View.ld_unit_zero (S := S5000x64) hz]

/-- The first point does the same with the squares. -/
theorem out_A_8 (c : Dev nD) (i : grid4.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : cond4_0 i)
    (xa : Vec F S5000x128 .f32) (xb : Vec F S5000x128 .f32) (xc : Vec F S128x64 .bf16) (xd : Vec F S1x64 .f32) (xe : Vec F S64x64 .bf16) (xf : Vec F S1x64 .f32) :
    out4_A_8 c i ma wa mb wb mc wc md wd me we mf wf mg wg mh wh mi wi hc xa xb xc xd xe xf = k4_pay1 (k4_pay4 xa xb xc xd xe xf) k4_pay3 := by
  unfold out4_A_8
  rw [View.read_writes_eq_canon _ _ _ (cover4_A_8 c i ma wa mb wb mc wc md wd me we mf wf mg wg mh wh mi wi hc xa xb xc xd xe xf)]
  unfold kernelRun4_A
  dsimp only
  sl_unfold_words
  rw [View.canon_cons_unit_zero (S := S1x64) hz]
  simp only [View.readAt_eq_ld, wa.read_unread, wb.read_unread, wc.read_unread, wd.read_unread, we.read_unread, wf.read_unread, View.readCov_unit_zero (S := S1x64) _ hz,
    View.ld_unit_zero (S := S5000x128) hz, View.ld_unit_zero (S := S128x64) hz, View.ld_unit_zero (S := S64x64) hz,
    View.ld_unit_zero (S := S1x64) hz, View.ld_unit_zero (S := S5000x64) hz]

end Pieces

/-! ## Sums over the rows, block by block -/

/-- Row `p` of block `s`. -/
def row (s : Fin 20) (p : Fin 5000) : Fin 100000 :=
  ⟨5000 * s.val + p.val, by have := s.isLt; have := p.isLt; omega⟩

/-- The sum of `f` over the rows of block `s` (zero past the last block). -/
def blockSum (f : Fin 100000 → EReal) (s : ℕ) : EReal :=
  if hs : s < 20 then ∑ p : Fin 5000, f (row ⟨s, hs⟩ p) else 0

theorem blockSum_of_lt (f : Fin 100000 → EReal) (s : ℕ) (hs : s < 20) :
    blockSum f s = ∑ p : Fin 5000, f (row ⟨s, hs⟩ p) := dif_pos hs

/-- The sum of `f` over the rows of blocks `0 … n`. -/
def runSum (f : Fin 100000 → EReal) (n : ℕ) : EReal := ∑ s ∈ Finset.range (n + 1), blockSum f s

theorem runSum_zero (f : Fin 100000 → EReal) : runSum f 0 = blockSum f 0 := Finset.sum_range_one _

theorem runSum_succ (f : Fin 100000 → EReal) (n : ℕ) : runSum f (n + 1) = runSum f n + blockSum f (n + 1) :=
  Finset.sum_range_succ _ (n + 1)

/-- The twenty blocks of five thousand rows are the hundred thousand rows. -/
def rowEquiv : Fin 20 × Fin 5000 ≃ Fin 100000 := finProdFinEquiv.trans (finCongr (by norm_num))

theorem rowEquiv_apply (x : Fin 20 × Fin 5000) : rowEquiv x = row x.1 x.2 :=
  Fin.ext (by show x.2.val + 5000 * x.1.val = 5000 * x.1.val + x.2.val; omega)

/-- After the last block the running sum is the sum over all rows. -/
theorem runSum_last (f : Fin 100000 → EReal) : runSum f 19 = ∑ r : Fin 100000, f r := by
  show ∑ s ∈ Finset.range 20, blockSum f s = _
  rw [Finset.sum_range (fun s => blockSum f s)]
  have hb : ∀ s : Fin 20, blockSum f s.val = ∑ p : Fin 5000, f (row s p) := fun s => dif_pos s.isLt
  rw [Finset.sum_congr rfl (fun s _ => hb s), ← Fintype.sum_prod_type' (fun s p => f (row s p))]
  exact Fintype.sum_equiv rowEquiv _ _ (fun x => by rw [rowEquiv_apply])

-- the buffer contents the call is entered from
variable (V : (c : Dev nD) → (b : Ref sig .tc) → Buf (Elt Ideal) ((c : Thread nD τ).loc b))

/-- The call's six operand arrays and its three result arrays, by their literal types. -/
abbrev xn (c : Dev nD) : Vec Ideal S100000x128 .f32 := V c main_v15
abbrev ag (c : Dev nD) : Vec Ideal S100000x128 .f32 := V c main_v75
abbrev w1 (c : Dev nD) : Vec Ideal S128x64 .bf16 := V c main_v78
abbrev b1 (c : Dev nD) : Vec Ideal S1x64 .f32 := V c main_v84
abbrev w2 (c : Dev nD) : Vec Ideal S64x64 .bf16 := V c main_v81
abbrev b2 (c : Dev nD) : Vec Ideal S1x64 .f32 := V c main_v87
abbrev h2 (c : Dev nD) : Vec Ideal S100000x64 .f32 := (dat4 (F := Ideal) V c).arrAt 6 cfg4.N
abbrev t1 (c : Dev nD) : Vec Ideal S1x64 .f32 := (dat4 (F := Ideal) V c).arrAt 7 cfg4.N
abbrev t2 (c : Dev nD) : Vec Ideal S1x64 .f32 := (dat4 (F := Ideal) V c).arrAt 8 cfg4.N

/-- The perceptron of the whole operand arrays. -/
def H (c : Dev nD) : Fin 100000 → Fin 64 → EReal := fun r k =>
  (∑ j : Fin 64, max ((∑ i : Fin 128, (xn V c (ix2 r i) + ag V c (ix2 r i)) * w1 V c (ix2 i j)) + b1 V c (ix2 0 j)) 0
      * w2 V c (ix2 j k)) + b2 V c (ix2 0 k)

/-! ## The operand blocks of a point -/

/-- The index maps, decided over the grid: the two row-blocked operands and the row-blocked result move with the
    point along the rows; every other window stays at its one block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- The operand blocks at point `t`, by their literal types. -/
abbrev xblk (c : Dev nD) (t : Fin cfg4.N) : Vec Ideal S5000x128 .f32 := iblk4 V c 0 t
abbrev ablk (c : Dev nD) (t : Fin cfg4.N) : Vec Ideal S5000x128 .f32 := iblk4 V c 1 t
abbrev w1blk (c : Dev nD) (t : Fin cfg4.N) : Vec Ideal S128x64 .bf16 := iblk4 V c 2 t
abbrev b1blk (c : Dev nD) (t : Fin cfg4.N) : Vec Ideal S1x64 .f32 := iblk4 V c 3 t
abbrev w2blk (c : Dev nD) (t : Fin cfg4.N) : Vec Ideal S64x64 .bf16 := iblk4 V c 4 t
abbrev b2blk (c : Dev nD) (t : Fin cfg4.N) : Vec Ideal S1x64 .f32 := iblk4 V c 5 t

/-- Row `p` of the first operand's block at point `t` is row `5000 t + p` of the array. -/
theorem xblk_apply (c : Dev nD) (t : Fin cfg4.N) (p : Fin 5000) (i : Fin 128) (r : Fin 100000)
    (hr : r.val = 5000 * t.val + p.val) : xblk V c t (ix2 p i) = xn V c (ix2 r i) := by
  obtain ⟨e0, e1, -⟩ := idx_facts t
  show V c main_v15 (((cfg4.win 0).blk t).view.emb (ix2 p i)) = V c main_v15 (ix2 r i)
  refine congrArg (V c main_v15) ?_
  funext a; apply Fin.ext
  match a with
  | ⟨0, _⟩ => show win4_0.index t (0 : Fin 2) * 5000 + 1 * p.val = r.val; omega
  | ⟨1, _⟩ => show win4_0.index t (1 : Fin 2) * 128 + 1 * i.val = i.val; omega

/-- The same for the second operand. -/
theorem ablk_apply (c : Dev nD) (t : Fin cfg4.N) (p : Fin 5000) (i : Fin 128) (r : Fin 100000)
    (hr : r.val = 5000 * t.val + p.val) : ablk V c t (ix2 p i) = ag V c (ix2 r i) := by
  obtain ⟨-, -, e0, e1, -⟩ := idx_facts t
  show V c main_v75 (((cfg4.win 1).blk t).view.emb (ix2 p i)) = V c main_v75 (ix2 r i)
  refine congrArg (V c main_v75) ?_
  funext a; apply Fin.ext
  match a with
  | ⟨0, _⟩ => show win4_1.index t (0 : Fin 2) * 5000 + 1 * p.val = r.val; omega
  | ⟨1, _⟩ => show win4_1.index t (1 : Fin 2) * 128 + 1 * i.val = i.val; omega

/-- The weight and bias windows hold their whole arrays at every point. -/
theorem w1blk_apply (c : Dev nD) (t : Fin cfg4.N) (i : Fin 128) (j : Fin 64) :
    w1blk V c t (ix2 i j) = w1 V c (ix2 i j) := by
  obtain ⟨-, -, -, -, e0, e1, -⟩ := idx_facts t
  show V c main_v78 (((cfg4.win 2).blk t).view.emb (ix2 i j)) = V c main_v78 (ix2 i j)
  refine congrArg (V c main_v78) ?_
  funext a; apply Fin.ext
  match a with
  | ⟨0, _⟩ => show win4_2.index t (0 : Fin 2) * 128 + 1 * i.val = i.val; omega
  | ⟨1, _⟩ => show win4_2.index t (1 : Fin 2) * 64 + 1 * j.val = j.val; omega

theorem b1blk_apply (c : Dev nD) (t : Fin cfg4.N) (j : Fin 64) :
    b1blk V c t (ix2 0 j) = b1 V c (ix2 0 j) := by
  obtain ⟨-, -, -, -, -, -, e0, e1, -⟩ := idx_facts t
  show V c main_v84 (((cfg4.win 3).blk t).view.emb (ix2 0 j)) = V c main_v84 (ix2 0 j)
  refine congrArg (V c main_v84) ?_
  funext a; apply Fin.ext
  match a with
  | ⟨0, _⟩ => show win4_3.index t (0 : Fin 2) * 1 + 1 * 0 = 0; omega
  | ⟨1, _⟩ => show win4_3.index t (1 : Fin 2) * 64 + 1 * j.val = j.val; omega

theorem w2blk_apply (c : Dev nD) (t : Fin cfg4.N) (j : Fin 64) (k : Fin 64) :
    w2blk V c t (ix2 j k) = w2 V c (ix2 j k) := by
  obtain ⟨-, -, -, -, -, -, -, -, e0, e1, -⟩ := idx_facts t
  show V c main_v81 (((cfg4.win 4).blk t).view.emb (ix2 j k)) = V c main_v81 (ix2 j k)
  refine congrArg (V c main_v81) ?_
  funext a; apply Fin.ext
  match a with
  | ⟨0, _⟩ => show win4_4.index t (0 : Fin 2) * 64 + 1 * j.val = j.val; omega
  | ⟨1, _⟩ => show win4_4.index t (1 : Fin 2) * 64 + 1 * k.val = k.val; omega

theorem b2blk_apply (c : Dev nD) (t : Fin cfg4.N) (k : Fin 64) :
    b2blk V c t (ix2 0 k) = b2 V c (ix2 0 k) := by
  obtain ⟨-, -, -, -, -, -, -, -, -, -, e0, e1, -⟩ := idx_facts t
  show V c main_v87 (((cfg4.win 5).blk t).view.emb (ix2 0 k)) = V c main_v87 (ix2 0 k)
  refine congrArg (V c main_v87) ?_
  funext a; apply Fin.ext
  match a with
  | ⟨0, _⟩ => show win4_5.index t (0 : Fin 2) * 1 + 1 * 0 = 0; omega
  | ⟨1, _⟩ => show win4_5.index t (1 : Fin 2) * 64 + 1 * k.val = k.val; omega

/-! ## What each point leaves in the result buffers -/

/-- An entry of the block's perceptron values is the perceptron's entry at the block's row in the arrays. -/
theorem pay4_blk (c : Dev nD) (t : Fin cfg4.N) (p : Fin 5000) (k : Fin 64) (r : Fin 100000)
    (hr : r.val = 5000 * t.val + p.val) :
    k4_pay4 (F := Ideal) (xblk V c t) (ablk V c t) (w1blk V c t) (b1blk V c t) (w2blk V c t) (b2blk V c t) (ix2 p k) = H V c r k := by
  rw [R4Pay.pay4_apply]
  unfold H
  simp only [xblk_apply V c t p _ r hr, ablk_apply V c t p _ r hr, w1blk_apply V c t, b1blk_apply V c t,
    w2blk_apply V c t, b2blk_apply V c t]

/-- Every point leaves its block's perceptron values in the block buffer. -/
theorem blockAt (c : Dev nD) (t : Fin cfg4.N) :
    (outsAt4 V c t.val t.isLt).1 = k4_pay4 (F := Ideal) (xblk V c t) (ablk V c t) (w1blk V c t) (b1blk V c t) (w2blk V c t) (b2blk V c t) := by
  by_cases h0 : t.val % 20 = 0
  · rw [outsAt4_A V c t h0]
    dsimp only
    exact out_A_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (xblk V c t) (ablk V c t) (w1blk V c t) (b1blk V c t) (w2blk V c t) (b2blk V c t)
  · rw [outsAt4_B V c t h0]
    dsimp only
    exact out_B_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (xblk V c t) (ablk V c t) (w1blk V c t) (b1blk V c t) (w2blk V c t) (b2blk V c t)
      (outsAt4 V c (t.val - 1) (Nat.lt_of_le_of_lt (Nat.sub_le _ _) t.isLt)).2.1 (outsAt4 V c (t.val - 1) (Nat.lt_of_le_of_lt (Nat.sub_le _ _) t.isLt)).2.2

/-- After point `n` the first running row holds the perceptron's column sums over the rows of blocks `0 … n`. -/
theorem sumAt (c : Dev nD) (k : Fin 64) : ∀ (n : ℕ) (h : n < cfg4.N),
    (outsAt4 V c n h).2.1 (ix2 0 k) = runSum (fun r => H V c r k) n
  | 0, h => by
    rw [outsAt4_A V c ⟨0, h⟩ rfl]
    dsimp only
    refine (congrFun (out_A_7 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) (ms4_8 ⟨0, h⟩) (hs4_8 ⟨0, h⟩) ((hcond4_0 ⟨0, h⟩).mpr rfl)
      (xblk V c ⟨0, h⟩) (ablk V c ⟨0, h⟩) (w1blk V c ⟨0, h⟩) (b1blk V c ⟨0, h⟩) (w2blk V c ⟨0, h⟩) (b2blk V c ⟨0, h⟩)) (ix2 0 k)).trans ?_
    rw [R4Pay.pay5_apply, R4Pay.pay2_apply, zero_add, runSum_zero, blockSum_of_lt _ 0 (by omega)]
    exact Finset.sum_congr rfl fun p _ => pay4_blk V c ⟨0, h⟩ p k (row ⟨0, by omega⟩ p) rfl
  | n + 1, h => by
    have hN : cfg4.N = 20 := N_4
    have h0 : ¬(⟨n + 1, h⟩ : Fin cfg4.N).val % 20 = 0 := by dsimp only; omega
    rw [outsAt4_B V c ⟨n + 1, h⟩ h0]
    dsimp only
    refine (congrFun (out_B_7 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩)
      (fun hh => h0 ((hcond4_0 ⟨n + 1, h⟩).mp hh)) (xblk V c ⟨n + 1, h⟩) (ablk V c ⟨n + 1, h⟩) (w1blk V c ⟨n + 1, h⟩) (b1blk V c ⟨n + 1, h⟩) (w2blk V c ⟨n + 1, h⟩) (b2blk V c ⟨n + 1, h⟩)
      (outsAt4 V c n (Nat.lt_of_succ_lt h)).2.1 (outsAt4 V c n (Nat.lt_of_succ_lt h)).2.2) (ix2 0 k)).trans ?_
    rw [R4Pay.pay5_apply, runSum_succ, sumAt c k n (Nat.lt_of_succ_lt h), blockSum_of_lt _ (n + 1) (by omega)]
    exact congrArg _ (Finset.sum_congr rfl fun p _ => pay4_blk V c ⟨n + 1, h⟩ p k (row ⟨n + 1, by omega⟩ p) rfl)

/-- After point `n` the second running row holds the column sums of the perceptron's squares over those rows. -/
theorem sumsqAt (c : Dev nD) (k : Fin 64) : ∀ (n : ℕ) (h : n < cfg4.N),
    (outsAt4 V c n h).2.2 (ix2 0 k) = runSum (fun r => H V c r k * H V c r k) n
  | 0, h => by
    rw [outsAt4_A V c ⟨0, h⟩ rfl]
    dsimp only
    refine (congrFun (out_A_8 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) (ms4_8 ⟨0, h⟩) (hs4_8 ⟨0, h⟩) ((hcond4_0 ⟨0, h⟩).mpr rfl)
      (xblk V c ⟨0, h⟩) (ablk V c ⟨0, h⟩) (w1blk V c ⟨0, h⟩) (b1blk V c ⟨0, h⟩) (w2blk V c ⟨0, h⟩) (b2blk V c ⟨0, h⟩)) (ix2 0 k)).trans ?_
    rw [R4Pay.pay1_apply, R4Pay.pay3_apply, zero_add, runSum_zero, blockSum_of_lt _ 0 (by omega)]
    exact Finset.sum_congr rfl fun p _ => by rw [pay4_blk V c ⟨0, h⟩ p k (row ⟨0, by omega⟩ p) rfl]
  | n + 1, h => by
    have hN : cfg4.N = 20 := N_4
    have h0 : ¬(⟨n + 1, h⟩ : Fin cfg4.N).val % 20 = 0 := by dsimp only; omega
    rw [outsAt4_B V c ⟨n + 1, h⟩ h0]
    dsimp only
    refine (congrFun (out_B_8 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩)
      (fun hh => h0 ((hcond4_0 ⟨n + 1, h⟩).mp hh)) (xblk V c ⟨n + 1, h⟩) (ablk V c ⟨n + 1, h⟩) (w1blk V c ⟨n + 1, h⟩) (b1blk V c ⟨n + 1, h⟩) (w2blk V c ⟨n + 1, h⟩) (b2blk V c ⟨n + 1, h⟩)
      (outsAt4 V c n (Nat.lt_of_succ_lt h)).2.1 (outsAt4 V c n (Nat.lt_of_succ_lt h)).2.2) (ix2 0 k)).trans ?_
    rw [R4Pay.pay1_apply, runSum_succ, sumsqAt c k n (Nat.lt_of_succ_lt h), blockSum_of_lt _ (n + 1) (by omega)]
    exact congrArg _ (Finset.sum_congr rfl fun p _ => by rw [pay4_blk V c ⟨n + 1, h⟩ p k (row ⟨n + 1, by omega⟩ p) rfl])

/-! ## From the blocks to the arrays -/

/-- The perceptron as an array. -/
abbrev Harr (c : Dev nD) : Vec Ideal S100000x64 .f32 := fun i => H V c (i 0) (i 1)

/-- A block of five thousand rows whose entries are the perceptron's at rows `5000 t + p` is block `t` of the
    perceptron array. -/
theorem blk_read (c : Dev nD) (t : Fin cfg4.N) (x : Vec Ideal S5000x64 .f32)
    (hx : ∀ (p : Fin 5000) (k : Fin 64) (r : Fin 100000), r.val = 5000 * t.val + p.val → x (ix2 p k) = H V c r k) :
    (x : S5000x64.Idx → Elt Ideal .f32) = ((cfg4.win 6).blk t).view.read (Elt Ideal) (Harr V c) := by
  obtain ⟨-, -, -, -, -, -, -, -, -, -, -, -, e0, e1, -⟩ := idx_facts t
  have hN : cfg4.N = 20 := N_4
  have ht : t.val < 20 := lt_of_lt_of_eq t.isLt hN
  funext j
  obtain ⟨p, k, rfl⟩ : ∃ (p : Fin 5000) (k : Fin 64), j = ix2 p k := ⟨j 0, j 1, eq_ix2 j⟩
  show x (ix2 p k) = H V c ((((cfg4.win 6).blk t).view.emb (ix2 p k)) 0) ((((cfg4.win 6).blk t).view.emb (ix2 p k)) 1)
  have hp : p.val < 5000 := p.isLt
  rw [hx p k ⟨5000 * t.val + p.val, by omega⟩ rfl]
  refine congrArg₂ (H V c) (Fin.ext ?_) (Fin.ext ?_)
  · show 5000 * t.val + p.val = win4_6.index t (0 : Fin 2) * 5000 + 1 * p.val; omega
  · show k.val = win4_6.index t (1 : Fin 2) * 64 + 1 * k.val; omega

/-- What point `t` writes back is block `t` of the perceptron array. -/
theorem flushed_blk (c : Dev nD) (t : Fin cfg4.N) :
    (dat4 (F := Ideal) V c).flushed 6 t = ((cfg4.win 6).blk t).view.read (Elt Ideal) (Harr V c) := by
  show (cfg4.win 6).cut (grid4.coords t) ((dat4 (F := Ideal) V c).after 6 t) = _
  rw [after4_6, blockAt V c t]
  exact blk_read V c t _ (fun p k r hr => pay4_blk V c t p k r hr)

/-- An index of the result array is in point `t`'s block iff each coordinate is in the block's range on its axis. -/
theorem mem_blk (t : Fin cfg4.N) (i : S100000x64.Idx) :
    i ∈ ((cfg4.win 6).blk t).view.set ↔ ∀ a : Fin 2, win4_6.index t a * S5000x64.size a ≤ (i a).val
      ∧ (i a).val < win4_6.index t a * S5000x64.size a + S5000x64.size a := by
  show i ∈ ((View.whole main_v88_0).slice (win4_6.rect t)).set ↔ _
  rw [View.set_slice_whole, Rect.mem_set_unit]
  exact Iff.rfl

/-- Row `r` is written back by point `r / 5000`. -/
theorem cover_blk (i : S100000x64.Idx) :
    ∃ t : Fin cfg4.N, (cfg4.win 6).flush t = true ∧ i ∈ ((cfg4.win 6).blk t).view.set := by
  have hN : cfg4.N = 20 := N_4
  have hi0 : (i 0).val < 100000 := (i 0).isLt
  have hi1 : (i 1).val < 64 := (i 1).isLt
  have ht : (i 0).val / 5000 < cfg4.N := by rw [hN]; omega
  obtain ⟨-, -, -, -, -, -, -, -, -, -, -, -, e0, e1, -⟩ := idx_facts ⟨(i 0).val / 5000, ht⟩
  refine ⟨⟨(i 0).val / 5000, ht⟩, flush4_6 _, ?_⟩
  rw [mem_blk]
  intro a
  match a with
  | ⟨0, _⟩ =>
    show win4_6.index ⟨(i 0).val / 5000, ht⟩ (0 : Fin 2) * 5000 ≤ (i 0).val
      ∧ (i 0).val < win4_6.index ⟨(i 0).val / 5000, ht⟩ (0 : Fin 2) * 5000 + 5000
    rw [e0]; dsimp only; omega
  | ⟨1, _⟩ =>
    show win4_6.index ⟨(i 0).val / 5000, ht⟩ (1 : Fin 2) * 64 ≤ (i 1).val
      ∧ (i 1).val < win4_6.index ⟨(i 0).val / 5000, ht⟩ (1 : Fin 2) * 64 + 64
    rw [e1]; omega

/-- The result array is the perceptron array. -/
theorem result_eq (c : Dev nD) : h2 V c = Harr V c :=
  (dat4 (F := Ideal) V c).arrAt_eq_of_cover 6 (Harr V c) (fun t _ => flushed_blk V c t) cover_blk

/-- The result array is the perceptron, entry by entry. -/
theorem final_h2 (c : Dev nD) (r : Fin 100000) (k : Fin 64) : h2 V c (ix2 r k) = H V c r k :=
  congrFun (result_eq V c) (ix2 r k)

/-! ## The two running rows, written back once -/

/-- The perceptron's column sums, and those of its squares, as rows. -/
def sumRow (c : Dev nD) : Vec Ideal S1x64 .f32 := fun i => ∑ r : Fin 100000, H V c r (i 1)
def sumsqRow (c : Dev nD) : Vec Ideal S1x64 .f32 := fun i => ∑ r : Fin 100000, H V c r (i 1) * H V c r (i 1)

theorem sumRow_apply (c : Dev nD) (k : Fin 64) : sumRow V c (ix2 0 k) = ∑ r : Fin 100000, H V c r k := by
  unfold sumRow; rfl
theorem sumsqRow_apply (c : Dev nD) (k : Fin 64) :
    sumsqRow V c (ix2 0 k) = ∑ r : Fin 100000, H V c r k * H V c r k := by
  unfold sumsqRow; rfl

/-- The first row window's one block is its whole array: a row with the entries of `G` is that block of `G`. -/
theorem row_read_sum (t : Fin cfg4.N) (x G : Vec Ideal S1x64 .f32) (hx : ∀ k : Fin 64, x (ix2 0 k) = G (ix2 0 k)) :
    (x : S1x64.Idx → Elt Ideal .f32) = ((cfg4.win 7).blk t).view.read (Elt Ideal) G := by
  obtain ⟨-, -, -, -, -, -, -, -, -, -, -, -, -, -, e0, e1, -⟩ := idx_facts t
  funext j
  obtain ⟨z, k, rfl⟩ : ∃ (z : Fin 1) (k : Fin 64), j = ix2 z k := ⟨j 0, j 1, eq_ix2 j⟩
  obtain rfl : z = 0 := Subsingleton.elim _ _
  show x (ix2 (0 : Fin 1) k) = G (((cfg4.win 7).blk t).view.emb (ix2 (0 : Fin 1) k))
  have he : ((cfg4.win 7).blk t).view.emb (ix2 (0 : Fin 1) k) = ix2 (0 : Fin 1) k := by
    funext a; apply Fin.ext
    match a with
    | ⟨0, _⟩ => show win4_7.index t (0 : Fin 2) * 1 + 1 * 0 = 0; omega
    | ⟨1, _⟩ => show win4_7.index t (1 : Fin 2) * 64 + 1 * k.val = k.val; omega
  rw [he, hx k]

/-- The one write-back, at the last point, writes the whole sum. -/
theorem flushed_sum (c : Dev nD) (t : Fin cfg4.N) (hf : (cfg4.win 7).flush t = true) :
    (dat4 (F := Ideal) V c).flushed 7 t = ((cfg4.win 7).blk t).view.read (Elt Ideal) (sumRow V c) := by
  have hN : cfg4.N = 20 := N_4
  have hl : t.val = 19 := by have := (flush4_7 t).mp hf; have := t.isLt; omega
  show (cfg4.win 7).cut (grid4.coords t) ((dat4 (F := Ideal) V c).after 7 t) = _
  rw [after4_7]
  refine row_read_sum t (outsAt4 V c t.val t.isLt).2.1 (sumRow V c) (fun k => ?_)
  rw [sumAt V c k t.val t.isLt, hl, runSum_last, sumRow_apply]

/-- Every entry of the row is in the last point's block. -/
theorem cover_sum (i : S1x64.Idx) :
    ∃ t : Fin cfg4.N, (cfg4.win 7).flush t = true ∧ i ∈ ((cfg4.win 7).blk t).view.set := by
  have hN : cfg4.N = 20 := N_4
  have ht : 19 < cfg4.N := by rw [hN]; omega
  have hi0 : (i 0).val < 1 := (i 0).isLt
  have hi1 : (i 1).val < 64 := (i 1).isLt
  obtain ⟨-, -, -, -, -, -, -, -, -, -, -, -, -, -, e0, e1, -⟩ := idx_facts ⟨19, ht⟩
  refine ⟨⟨19, ht⟩, (flush4_7 _).mpr rfl, ?_⟩
  show i ∈ ((View.whole main_v88_1).slice (win4_7.rect ⟨19, ht⟩)).set
  rw [View.set_slice_whole, Rect.mem_set_unit]
  intro a
  match a with
  | ⟨0, _⟩ =>
    show win4_7.index ⟨19, ht⟩ (0 : Fin 2) * 1 ≤ (i 0).val ∧ (i 0).val < win4_7.index ⟨19, ht⟩ (0 : Fin 2) * 1 + 1
    rw [e0]; omega
  | ⟨1, _⟩ =>
    show win4_7.index ⟨19, ht⟩ (1 : Fin 2) * 64 ≤ (i 1).val ∧ (i 1).val < win4_7.index ⟨19, ht⟩ (1 : Fin 2) * 64 + 64
    rw [e1]; omega

/-- The second row window's one block is its whole array: a row with the entries of `G` is that block of `G`. -/
theorem row_read_sumsq (t : Fin cfg4.N) (x G : Vec Ideal S1x64 .f32) (hx : ∀ k : Fin 64, x (ix2 0 k) = G (ix2 0 k)) :
    (x : S1x64.Idx → Elt Ideal .f32) = ((cfg4.win 8).blk t).view.read (Elt Ideal) G := by
  obtain ⟨-, -, -, -, -, -, -, -, -, -, -, -, -, -, -, -, e0, e1⟩ := idx_facts t
  funext j
  obtain ⟨z, k, rfl⟩ : ∃ (z : Fin 1) (k : Fin 64), j = ix2 z k := ⟨j 0, j 1, eq_ix2 j⟩
  obtain rfl : z = 0 := Subsingleton.elim _ _
  show x (ix2 (0 : Fin 1) k) = G (((cfg4.win 8).blk t).view.emb (ix2 (0 : Fin 1) k))
  have he : ((cfg4.win 8).blk t).view.emb (ix2 (0 : Fin 1) k) = ix2 (0 : Fin 1) k := by
    funext a; apply Fin.ext
    match a with
    | ⟨0, _⟩ => show win4_8.index t (0 : Fin 2) * 1 + 1 * 0 = 0; omega
    | ⟨1, _⟩ => show win4_8.index t (1 : Fin 2) * 64 + 1 * k.val = k.val; omega
  rw [he, hx k]

/-- The one write-back, at the last point, writes the whole sum. -/
theorem flushed_sumsq (c : Dev nD) (t : Fin cfg4.N) (hf : (cfg4.win 8).flush t = true) :
    (dat4 (F := Ideal) V c).flushed 8 t = ((cfg4.win 8).blk t).view.read (Elt Ideal) (sumsqRow V c) := by
  have hN : cfg4.N = 20 := N_4
  have hl : t.val = 19 := by have := (flush4_8 t).mp hf; have := t.isLt; omega
  show (cfg4.win 8).cut (grid4.coords t) ((dat4 (F := Ideal) V c).after 8 t) = _
  rw [after4_8]
  refine row_read_sumsq t (outsAt4 V c t.val t.isLt).2.2 (sumsqRow V c) (fun k => ?_)
  rw [sumsqAt V c k t.val t.isLt, hl, runSum_last, sumsqRow_apply]

/-- Every entry of the row is in the last point's block. -/
theorem cover_sumsq (i : S1x64.Idx) :
    ∃ t : Fin cfg4.N, (cfg4.win 8).flush t = true ∧ i ∈ ((cfg4.win 8).blk t).view.set := by
  have hN : cfg4.N = 20 := N_4
  have ht : 19 < cfg4.N := by rw [hN]; omega
  have hi0 : (i 0).val < 1 := (i 0).isLt
  have hi1 : (i 1).val < 64 := (i 1).isLt
  obtain ⟨-, -, -, -, -, -, -, -, -, -, -, -, -, -, -, -, e0, e1⟩ := idx_facts ⟨19, ht⟩
  refine ⟨⟨19, ht⟩, (flush4_8 _).mpr rfl, ?_⟩
  show i ∈ ((View.whole main_v88_2).slice (win4_8.rect ⟨19, ht⟩)).set
  rw [View.set_slice_whole, Rect.mem_set_unit]
  intro a
  match a with
  | ⟨0, _⟩ =>
    show win4_8.index ⟨19, ht⟩ (0 : Fin 2) * 1 ≤ (i 0).val ∧ (i 0).val < win4_8.index ⟨19, ht⟩ (0 : Fin 2) * 1 + 1
    rw [e0]; omega
  | ⟨1, _⟩ =>
    show win4_8.index ⟨19, ht⟩ (1 : Fin 2) * 64 ≤ (i 1).val ∧ (i 1).val < win4_8.index ⟨19, ht⟩ (1 : Fin 2) * 64 + 64
    rw [e1]; omega

/-- The first accumulated row ends at the perceptron's column sums. -/
theorem final_sum (c : Dev nD) (k : Fin 64) : t1 V c (ix2 0 k) = ∑ r : Fin 100000, H V c r k :=
  (congrFun ((dat4 (F := Ideal) V c).arrAt_eq_of_cover 7 (sumRow V c) (flushed_sum V c) cover_sum) (ix2 0 k)).trans
    (sumRow_apply V c k)

/-- The second at the column sums of its squares. -/
theorem final_sumsq (c : Dev nD) (k : Fin 64) : t2 V c (ix2 0 k) = ∑ r : Fin 100000, H V c r k * H V c r k :=
  (congrFun ((dat4 (F := Ideal) V c).arrAt_eq_of_cover 8 (sumsqRow V c) (flushed_sumsq V c) cover_sumsq) (ix2 0 k)).trans
    (sumsqRow_apply V c k)

end Cert.KernelIdeal.R4
end
-- ==== Proof.R5.lean ====
/-
  The closing elementwise call of a branch: `tanh(h·scale + shift)` block by block over the rows; the blocks tile the
  rows, so the whole result array is that function entry by entry.
-/
import proofs.«107533_j36429912605472_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R5

open Cert.KernelIdeal Cert.KernelIdeal.Gen
open Idealize.ShloMosaic Idealize.ShloMosaic.TcCoe Idealize.SL.Sem Idealize.ShloMosaic.ValueIdx
open Idealize.ShloMosaic.Pipeline (Dat)

-- the buffer contents the call is entered from
variable (V : (c : Dev nD) → (b : Ref sig .tc) → Buf (Elt Ideal) ((c : Thread nD τ).loc b))

/-- The call's three operand arrays and its result array, by their literal types. -/
abbrev hin (c : Dev nD) : Vec Ideal S100000x64 .f32 := V c main_v88_0
abbrev scl (c : Dev nD) : Vec Ideal S1x64 .f32 := V c main_v101
abbrev sft (c : Dev nD) : Vec Ideal S1x64 .f32 := V c main_v106
abbrev res (c : Dev nD) : Vec Ideal S100000x64 .f32 := (dat5 (F := Ideal) V c).arrAt 3 cfg5.N

/-! ## One block: the body's value at an entry -/

/-- The stores and loads of the body all start at the block's origin. -/
theorem origin_zero : (![0, 0] : Fin 2 → Nat) = fun _ => 0 := funext fun a => by fin_cases a <;> rfl

/-- The body's value at row `p`, lane `k` of a block: `tanh` of that entry of the hidden block times the scale row's
    lane `k` plus the shift row's lane `k` (every operand is first cast to its own shape, which changes nothing, and
    each one-row operand is repeated over the rows; `tanh` acts entry by entry). -/
theorem affine_tanh_apply (v0 : Vec Ideal S10000x64 .f32) (v2 v6 : Vec Ideal S1x64 .f32) (p : Fin 10000) (k : Fin 64) :
    k5_pay1 v0 v2 v6 (ix2 p k) = Ideal.tanh (v0 (ix2 p k) * v2 (ix2 0 k) + v6 (ix2 0 k)) := by
  unfold k5_pay1
  show Ideal.tanh (shapeCast S10000x64 v0 _ (ix2 p k) * broadcastTo S10000x64 (shapeCast S1x64 v2 _) _ (ix2 p k)
      + broadcastTo S10000x64 (shapeCast S1x64 v6 _) _ (ix2 p k)) = _
  rw [broadcastTo_1b_ab_apply, broadcastTo_1b_ab_apply, shapeCast_self, shapeCast_self, shapeCast_self]

/-! ## The whole array -/

/-- What the result array ends holding: `tanh(h·scale + shift)`, the two rows read at the entry's lane. -/
abbrev affineTanh (h : Vec Ideal S100000x64 .f32) (s b : Vec Ideal S1x64 .f32) : Vec Ideal S100000x64 .f32 :=
  fun i => Ideal.tanh (h i * s (ix2 0 (i 1)) + b (ix2 0 (i 1)))

/-- The four index maps over the ten grid points: the hidden window and the result window sit at block `(t, 0)`, the
    two one-row windows at block `(0, 0)`. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem points : cfg5.N = 10 := N_5

/-- Row `p` of block `t` is row `10000·t + p` of the array. -/
def row (t : Fin cfg5.N) (p : Fin 10000) : Fin 100000 :=
  ⟨t.val * 10000 + p.val, by have := t.isLt; have := points; have := p.isLt; omega⟩

/-- Where entry `(p, k)` of the result window's block at point `t` lies in the result array. -/
theorem emb_res (t : Fin cfg5.N) (p : Fin 10000) (k : Fin 64) :
    ((cfg5.win 3).blk t).view.emb (ix2 p k) = ix2 (row t p) k := by
  obtain ⟨-, -, -, -, -, -, e0, e1⟩ := idx_facts t
  funext a; apply Fin.ext
  match a with
  | ⟨0, _⟩ => show win5_3.index t (0 : Fin 2) * 10000 + 1 * p.val = t.val * 10000 + p.val; omega
  | ⟨1, _⟩ => show win5_3.index t (1 : Fin 2) * 64 + 1 * k.val = k.val; omega

/-- The hidden window's block at point `t` lies over the same rows. -/
theorem emb_h (t : Fin cfg5.N) (p : Fin 10000) (k : Fin 64) :
    ((cfg5.win 0).blk t).view.emb (ix2 p k) = ix2 (row t p) k := by
  obtain ⟨e0, e1, -⟩ := idx_facts t
  funext a; apply Fin.ext
  match a with
  | ⟨0, _⟩ => show win5_0.index t (0 : Fin 2) * 10000 + 1 * p.val = t.val * 10000 + p.val; omega
  | ⟨1, _⟩ => show win5_0.index t (1 : Fin 2) * 64 + 1 * k.val = k.val; omega

/-- The scale window's one block is the whole scale row, at every point. -/
theorem emb_s (t : Fin cfg5.N) (k : Fin 64) :
    ((cfg5.win 1).blk t).view.emb (ix2 (0 : Fin 1) k) = ix2 (0 : Fin 1) k := by
  obtain ⟨-, -, e0, e1, -⟩ := idx_facts t
  funext a; apply Fin.ext
  match a with
  | ⟨0, _⟩ => show win5_1.index t (0 : Fin 2) * 1 + 1 * 0 = 0; omega
  | ⟨1, _⟩ => show win5_1.index t (1 : Fin 2) * 64 + 1 * k.val = k.val; omega

/-- The shift window's one block is the whole shift row, at every point. -/
theorem emb_b (t : Fin cfg5.N) (k : Fin 64) :
    ((cfg5.win 2).blk t).view.emb (ix2 (0 : Fin 1) k) = ix2 (0 : Fin 1) k := by
  obtain ⟨-, -, -, -, e0, e1, -⟩ := idx_facts t
  funext a; apply Fin.ext
  match a with
  | ⟨0, _⟩ => show win5_2.index t (0 : Fin 2) * 1 + 1 * 0 = 0; omega
  | ⟨1, _⟩ => show win5_2.index t (1 : Fin 2) * 64 + 1 * k.val = k.val; omega

/-- What point `t` writes back is block `t` of `tanh(h·scale + shift)`: the body's one store fills the block with its
    value on the three operand blocks, and those are the operands read over the same rows (the rows themselves, for the
    two one-row operands). -/
theorem flushed_eq (c : Dev nD) (t : Fin cfg5.N) :
    (dat5 V c).flushed 3 t
      = ((cfg5.win 3).blk t).view.read (Elt Ideal) (affineTanh (hin V c) (scl V c) (sft V c)) := by
  show (cfg5.win 3).cut (grid5.coords t) ((dat5 V c).after 3 t) = _
  rw [after5_3]
  unfold out5_3
  rw [View.canon_unit_zero origin_zero]
  simp only [View.ld_unit_zero (S := S10000x64) origin_zero, View.ld_unit_zero (S := S1x64) origin_zero]
  refine funext fun (j : S10000x64.Idx) => ?_
  obtain ⟨p, k, rfl⟩ : ∃ (p : Fin 10000) (k : Fin 64), j = ix2 p k := ⟨j 0, j 1, eq_ix2 j⟩
  refine (affine_tanh_apply (iblk5 V c 0 t) (iblk5 V c 1 t) (iblk5 V c 2 t) p k).trans ?_
  show Ideal.tanh (hin V c (((cfg5.win 0).blk t).view.emb (ix2 p k))
        * scl V c (((cfg5.win 1).blk t).view.emb (ix2 (0 : Fin 1) k))
      + sft V c (((cfg5.win 2).blk t).view.emb (ix2 (0 : Fin 1) k)))
    = affineTanh (hin V c) (scl V c) (sft V c) (((cfg5.win 3).blk t).view.emb (ix2 p k))
  rw [emb_h, emb_s, emb_b, emb_res]

/-- An index of the result array is in point `t`'s block iff each coordinate is in the block's range on its axis. -/
theorem mem_blk (t : Fin cfg5.N) (i : S100000x64.Idx) :
    i ∈ ((cfg5.win 3).blk t).view.set ↔ ∀ a : Fin 2, win5_3.index t a * S10000x64.size a ≤ (i a).val
      ∧ (i a).val < win5_3.index t a * S10000x64.size a + S10000x64.size a := by
  show i ∈ ((View.whole main_v61).slice (win5_3.rect t)).set ↔ _
  rw [View.set_slice_whole, Rect.mem_set_unit]
  exact Iff.rfl

/-- The ten blocks tile the rows: row `r` is in the block of point `r / 10000`, and every point writes back. -/
theorem cover (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  obtain ⟨t, ht⟩ : ∃ t : Fin cfg5.N, t.val = (i 0).val / 10000 := ⟨⟨(i 0).val / 10000, by have := points; omega⟩, rfl⟩
  obtain ⟨-, -, -, -, -, -, e0, e1⟩ := idx_facts t
  refine ⟨t, flush5_3 t, ?_⟩
  rw [mem_blk]
  intro a
  match a with
  | ⟨0, _⟩ =>
    show win5_3.index t (0 : Fin 2) * 10000 ≤ (i 0).val ∧ (i 0).val < win5_3.index t (0 : Fin 2) * 10000 + 10000
    omega
  | ⟨1, _⟩ =>
    show win5_3.index t (1 : Fin 2) * 64 ≤ (i 1).val ∧ (i 1).val < win5_3.index t (1 : Fin 2) * 64 + 64
    omega

/-- So the result array is `tanh(h·scale + shift)` as one function of the operand arrays. -/
theorem res_eq (c : Dev nD) : res V c = affineTanh (hin V c) (scl V c) (sft V c) :=
  (dat5 V c).arrAt_eq_of_cover 3 (affineTanh (hin V c) (scl V c) (sft V c)) (fun t _ => flushed_eq V c t) cover

/-- After the call the result array holds `tanh(h·scale + shift)` at every entry. -/
theorem final (c : Dev nD) (r : Fin 100000) (k : Fin 64) :
    res V c (ix2 r k) = Ideal.tanh (hin V c (ix2 r k) * scl V c (ix2 0 k) + sft V c (ix2 0 k)) :=
  congrFun (res_eq V c) (ix2 r k)

end Cert.KernelIdeal.R5

end
-- ==== Proof.KB1.lean ====
/-
  One branch composed: the host's neighbourhood sum and weight slices, the perceptron call, the host's scale and shift
  rows from the perceptron's column sums, and the closing elementwise call. Together they leave in the branch's result
  array the hyperbolic tangent of the scale-and-shift batch normalisation of the perceptron of the normalised features.
-/
import proofs.«107533_j36429912605472_1_alg».proof.Proof.Gen.KernelIdeal.Frame
import proofs.«107533_j36429912605472_1_alg».proof.Proof.Spec
import proofs.«107533_j36429912605472_1_alg».proof.Proof.R4
import proofs.«107533_j36429912605472_1_alg».proof.Proof.R5
import proofs.«107533_j36429912605472_1_alg».proof.Proof.HostVals
import proofs.«107533_j36429912605472_1_alg».proof.Proof.Keep
import proofs.«107533_j36429912605472_1_alg».proof.Proof.KIn
import Idealize.ShloMosaic.Lib.ValueIdx

set_option maxRecDepth 16384

noncomputable section

namespace Cert.KernelIdeal.KB1

open Cert.KernelIdeal Cert.KernelIdeal.Gen
open Idealize.ShloMosaic Idealize.ShloMosaic.TcCoe Idealize.SL.Sem Idealize.ShloMosaic.ValueIdx
open Cert.Spec Cert.KernelIdeal.HostVals

variable (m : (ℓ : Loc nD τ sig) → Buf (Elt Ideal) ℓ) (ρ : Dev nD → PrngReg) (c : Dev nD)

/-- The branch's index in the stacked parameter arrays. -/
abbrev bi : Fin 3 := 1

/-- The branch's edge array and the stacked parameter arrays, as launched. -/
abbrev aE : IVec S2x1000000 32 := m ((c : Thread nD τ).loc main_arg2)
abbrev aW1 : FVec Ideal S3x128x64 .f32 := m ((c : Thread nD τ).loc main_arg6)
abbrev aB1 : FVec Ideal S3x64 .f32 := m ((c : Thread nD τ).loc main_arg7)
abbrev aW2 : FVec Ideal S3x64x64 .f32 := m ((c : Thread nD τ).loc main_arg8)
abbrev aB2 : FVec Ideal S3x64 .f32 := m ((c : Thread nD τ).loc main_arg9)
abbrev aGo : FVec Ideal S3x64 .f32 := m ((c : Thread nD τ).loc main_arg10)
abbrev aBo : FVec Ideal S3x64 .f32 := m ((c : Thread nD τ).loc main_arg11)

/-- The branch's neighbourhood sums of the normalised features, entry by entry. -/
def agg : Fin 100000 → Fin 128 → EReal := fun r i => aggK (aE m c) (KIn.xnKArr m c) (ix2 r i)

/-- The branch's perceptron. -/
def HK : Fin 100000 → Fin 64 → EReal :=
  mlp (KIn.xnK m c) (agg m c) (fun i j => aW1 m c (ix3 bi i j)) (fun j => aB1 m c (ix2 bi j))
    (fun j k => aW2 m c (ix3 bi j k)) (fun k => aB2 m c (ix2 bi k))

/-- The normalised features are still in their buffer when this branch starts. -/
theorem xn_at : W7 m ρ c (Proc.devRef .tc main_v15) = KIn.xnKArr m c :=
  (Keep.W7_xn m ρ c).trans (KIn.xn_eq m ρ c)

/-- What the perceptron call is entered from. -/
theorem xn_in : V8 m ρ c main_v15 = KIn.xnKArr m c :=
  (h4_keep_xn (W7 m ρ c)).trans (xn_at m ρ c)

theorem agg_in : V8 m ρ c main_v75 = aggK (aE m c) (KIn.xnKArr m c) := by
  refine (h4_agg (W7 m ρ c)).trans ?_
  rw [Keep.W7_arg2 m ρ c, xn_at m ρ c]

/-- The perceptron call's result array is the branch's perceptron. -/
theorem H_eq : R4.H (V8 m ρ) c = HK m c := by
  funext r k
  unfold R4.H HK mlp agg
  have hx : ∀ i, R4.xn (V8 m ρ) c (ix2 r i) = KIn.xnK m c r i := fun i => by
    show (V8 m ρ c main_v15 : FVec Ideal S100000x128 .f32) (ix2 r i) = _
    rw [xn_in m ρ c]; rfl
  have ha : ∀ i, R4.ag (V8 m ρ) c (ix2 r i) = aggK (aE m c) (KIn.xnKArr m c) (ix2 r i) := fun i => by
    show (V8 m ρ c main_v75 : FVec Ideal S100000x128 .f32) (ix2 r i) = _
    rw [agg_in m ρ c]
  have hw1 : ∀ i j, R4.w1 (V8 m ρ) c (ix2 i j) = aW1 m c (ix3 bi i j) := fun i j =>
    (h4_w1 (W7 m ρ c) i j).trans (by rw [Keep.W7_arg6 m ρ c])
  have hb1 : ∀ j, R4.b1 (V8 m ρ) c (ix2 0 j) = aB1 m c (ix2 bi j) := fun j =>
    (h4_b1 (W7 m ρ c) j).trans (by rw [Keep.W7_arg7 m ρ c])
  have hw2 : ∀ j k, R4.w2 (V8 m ρ) c (ix2 j k) = aW2 m c (ix3 bi j k) := fun j k =>
    (h4_w2 (W7 m ρ c) j k).trans (by rw [Keep.W7_arg8 m ρ c])
  have hb2 : ∀ k, R4.b2 (V8 m ρ) c (ix2 0 k) = aB2 m c (ix2 bi k) := fun k =>
    (h4_b2 (W7 m ρ c) k).trans (by rw [Keep.W7_arg9 m ρ c])
  simp only [hx, ha, hw1, hb1, hw2, hb2]

/-- The three arrays the perceptron call leaves, at the boundary after it. -/
theorem h_out (r : Fin 100000) (k : Fin 64) :
    f32At (S := S100000x64) (W9 m ρ c (Proc.devRef .tc main_v88_0)) (ix2 r k) = HK m c r k := by
  have e : W9 m ρ c (Proc.devRef .tc main_v88_0) = (dat4 (F := Ideal) (V8 m ρ) c).arrAt 6 cfg4.N := W9_arr m ρ c 6
  show (W9 m ρ c (Proc.devRef .tc main_v88_0) : FVec Ideal S100000x64 .f32) (ix2 r k) = _
  rw [e]
  exact (R4.final_h2 (V8 m ρ) c r k).trans (congrFun (congrFun (H_eq m ρ c) r) k)
theorem sum_out (k : Fin 64) :
    f32At (S := S1x64) (W9 m ρ c (Proc.devRef .tc main_v88_1)) (ix2 0 k) = ∑ r : Fin 100000, HK m c r k := by
  have e : W9 m ρ c (Proc.devRef .tc main_v88_1) = (dat4 (F := Ideal) (V8 m ρ) c).arrAt 7 cfg4.N := W9_arr m ρ c 7
  show (W9 m ρ c (Proc.devRef .tc main_v88_1) : FVec Ideal S1x64 .f32) (ix2 0 k) = _
  rw [e]
  refine (R4.final_sum (V8 m ρ) c k).trans ?_
  rw [H_eq]
theorem sumsq_out (k : Fin 64) :
    f32At (S := S1x64) (W9 m ρ c (Proc.devRef .tc main_v88_2)) (ix2 0 k) = ∑ r : Fin 100000, HK m c r k * HK m c r k := by
  have e : W9 m ρ c (Proc.devRef .tc main_v88_2) = (dat4 (F := Ideal) (V8 m ρ) c).arrAt 8 cfg4.N := W9_arr m ρ c 8
  show (W9 m ρ c (Proc.devRef .tc main_v88_2) : FVec Ideal S1x64 .f32) (ix2 0 k) = _
  rw [e]
  refine (R4.final_sumsq (V8 m ρ) c k).trans ?_
  rw [H_eq]

/-- The host's scale and shift rows are those of the perceptron's batch normalisation. -/
theorem scale_eq (k : Fin 64) :
    f32At (S := S1x64) (W10 m ρ c (Proc.devRef .tc main_v101)) (ix2 0 k) = scaleK (HK m c) (fun k => aGo m c (ix2 bi k)) k := by
  refine (h5_scale (W9 m ρ c) k).trans ?_
  rw [sum_out, sumsq_out, Keep.W9_arg10 m ρ c]
  rfl
theorem shift_eq (k : Fin 64) :
    f32At (S := S1x64) (W10 m ρ c (Proc.devRef .tc main_v106)) (ix2 0 k)
      = shiftK (HK m c) (fun k => aGo m c (ix2 bi k)) (fun k => aBo m c (ix2 bi k)) k := by
  refine (h5_shift (W9 m ρ c) k).trans ?_
  rw [sum_out, Keep.W9_arg11 m ρ c]
  show _ - _ * f32At (S := S1x64) (W10 m ρ c (Proc.devRef .tc main_v101)) (ix2 0 k) = _
  rw [scale_eq]
  rfl

/-- The branch's result array after its closing call. -/
theorem out (r : Fin 100000) (k : Fin 64) :
    f32At (S := S100000x64) (W11 m ρ c (Proc.devRef .tc main_v107)) (ix2 r k)
      = outK (KIn.xnK m c) (agg m c) (fun i j => aW1 m c (ix3 bi i j)) (fun j => aB1 m c (ix2 bi j))
          (fun j k => aW2 m c (ix3 bi j k)) (fun k => aB2 m c (ix2 bi k)) (fun k => aGo m c (ix2 bi k))
          (fun k => aBo m c (ix2 bi k)) r k := by
  have e7 : W11 m ρ c (Proc.devRef .tc main_v107) = (dat5 (F := Ideal) (V10 m ρ) c).arrAt 3 cfg5.N := W11_arr m ρ c 3
  have hfin := R5.final (V10 m ρ) c r k
  have hh : R5.hin (V10 m ρ) c (ix2 r k) = HK m c r k := by
    show f32At (S := S100000x64) (W10 m ρ c (Proc.devRef .tc main_v88_0)) (ix2 r k) = _
    rw [show W10 m ρ c (Proc.devRef .tc main_v88_0) = W9 m ρ c (Proc.devRef .tc main_v88_0) from h5_keep_h (W9 m ρ c)]
    exact h_out m ρ c r k
  have hs : R5.scl (V10 m ρ) c (ix2 0 k) = scaleK (HK m c) (fun k => aGo m c (ix2 bi k)) k := scale_eq m ρ c k
  have ht : R5.sft (V10 m ρ) c (ix2 0 k) = shiftK (HK m c) (fun k => aGo m c (ix2 bi k)) (fun k => aBo m c (ix2 bi k)) k :=
    shift_eq m ρ c k
  show (W11 m ρ c (Proc.devRef .tc main_v107) : FVec Ideal S100000x64 .f32) (ix2 r k) = _
  rw [e7]
  refine hfin.trans ?_
  rw [hh, hs, ht]
  rfl

end Cert.KernelIdeal.KB1

end
-- ==== Proof.Bridge1.lean ====
/-
  The kernel program's three result arrays are the reference's. Entry by entry the kernel's is the branch in the
  scale-and-shift arrangement and the reference's the branch in the centred arrangement, of the same launch arrays; under
  the precondition every float entry is real, the two programs' neighbourhood sums are one function that keeps real
  arrays real, and so the two arrangements agree.
-/
import proofs.«107533_j36429912605472_1_alg».proof.Defs
import proofs.«107533_j36429912605472_1_alg».proof.Proof.KB1
import proofs.«107533_j36429912605472_1_alg».proof.Proof.RefStages
import proofs.«107533_j36429912605472_1_alg».proof.Proof.SpecBranch
import proofs.«107533_j36429912605472_1_alg».proof.Proof.Agg
import proofs.«107533_j36429912605472_1_alg».proof.Proof.Finite
import proofs.«107533_j36429912605472_1_alg».proof.Proof.Keep

set_option maxRecDepth 16384

noncomputable section

namespace Cert.Bridge

open Idealize.ShloMosaic Idealize.ShloMosaic.TcCoe Idealize.SL.Sem Idealize.ShloMosaic.ValueIdx

/-- Branch 1: what the kernel program leaves in its result array is the reference's result. -/
theorem key1 [hP : Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (he : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.KernelIdeal.Gen.W15 m ρ c (Proc.devRef .tc Cert.KernelIdeal.main_v107) = Cert.ReferenceIdeal.Value.res_out1 (F := Ideal) m' c := by
  obtain ⟨r0, r4, r5, r6, r7, r8, r9, r10, r11⟩ := Cert.Finite.args_real m hpre c
  funext i
  obtain ⟨r, k, rfl⟩ : ∃ (r : Fin 100000) (k : Fin 64), i = ix2 r k := ⟨i 0, i 1, eq_ix2 i⟩
  show Cert.KernelIdeal.HostVals.f32At (S := Cert.KernelIdeal.S100000x64) (Cert.KernelIdeal.Gen.W15 m ρ c (Proc.devRef .tc Cert.KernelIdeal.main_v107)) (ix2 r k) = _
  rw [Cert.KernelIdeal.Keep.W15_out1 m ρ c]
  refine (Cert.KernelIdeal.KB1.out m ρ c r k).trans ?_
  refine Eq.trans ?_ (Cert.ReferenceIdeal.Stages.res1 m' c r k).symm
  unfold Cert.ReferenceIdeal.Stages.out Cert.ReferenceIdeal.Stages.xnArr Cert.ReferenceIdeal.Stages.xn
    Cert.KernelIdeal.KB1.agg Cert.KernelIdeal.KIn.xnKArr Cert.KernelIdeal.KIn.xnK
  rw [show Cert.ReferenceIdeal.Stages.aX m' c = Cert.KernelIdeal.KIn.aX m c from h0,
    show Cert.ReferenceIdeal.Stages.aG m' c = Cert.KernelIdeal.KIn.aG m c from h4,
    show Cert.ReferenceIdeal.Stages.aB m' c = Cert.KernelIdeal.KIn.aB m c from h5,
    show Cert.ReferenceIdeal.Stages.aW1 m' c = Cert.KernelIdeal.KB1.aW1 m c from h6,
    show Cert.ReferenceIdeal.Stages.aB1 m' c = Cert.KernelIdeal.KB1.aB1 m c from h7,
    show Cert.ReferenceIdeal.Stages.aW2 m' c = Cert.KernelIdeal.KB1.aW2 m c from h8,
    show Cert.ReferenceIdeal.Stages.aB2 m' c = Cert.KernelIdeal.KB1.aB2 m c from h9,
    show Cert.ReferenceIdeal.Stages.aGo m' c = Cert.KernelIdeal.KB1.aGo m c from h10,
    show Cert.ReferenceIdeal.Stages.aBo m' c = Cert.KernelIdeal.KB1.aBo m c from h11, he]
  simp only [← Cert.Agg.agg_eq]
  exact Cert.Spec.branch_eq (fun r i => Cert.KernelIdeal.KIn.aX m c (ix2 r i)) (fun i => Cert.KernelIdeal.KIn.aG m c (ix1 i))
    (fun i => Cert.KernelIdeal.KIn.aB m c (ix1 i)) (Cert.KernelIdeal.HostVals.aggK (Cert.KernelIdeal.KB1.aE m c))
    (fun i j => Cert.KernelIdeal.KB1.aW1 m c (ix3 Cert.KernelIdeal.KB1.bi i j)) (fun j => Cert.KernelIdeal.KB1.aB1 m c (ix2 Cert.KernelIdeal.KB1.bi j))
    (fun j k => Cert.KernelIdeal.KB1.aW2 m c (ix3 Cert.KernelIdeal.KB1.bi j k)) (fun k => Cert.KernelIdeal.KB1.aB2 m c (ix2 Cert.KernelIdeal.KB1.bi k))
    (fun k => Cert.KernelIdeal.KB1.aGo m c (ix2 Cert.KernelIdeal.KB1.bi k)) (fun k => Cert.KernelIdeal.KB1.aBo m c (ix2 Cert.KernelIdeal.KB1.bi k))
    (fun r i => r0 _) (fun i => r4 _) (fun i => r5 _) (fun a ha => Cert.Agg.aggK_isR _ a ha)
    (fun i j => r6 _) (fun j => r7 _) (fun j k => r8 _) (fun k => r9 _) (fun k => r10 _) (fun k => r11 _) r k

end Cert.Bridge

end
-- ==== Proof.R6Pay.lean ====
/-
  The arithmetic of the perceptron call's body on one row block, read entry by entry on the extended reals: the block's
  perceptron values, and the two running rows after the block's column sums are added.
-/
import proofs.«107533_j36429912605472_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R6Pay

open Cert.KernelIdeal Cert.KernelIdeal.Gen
open Idealize.ShloMosaic Idealize.ShloMosaic.ValueIdx

/-! ## The two products of a block: which operand entries meet at a contraction coordinate -/

/-! The first product contracts the 128 input features: of the left operand's index the row is the output's row and the
column the contraction coordinate; of the right operand's index the row is the contraction coordinate and the column
the output's column. -/

theorem lhsIn_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsIn_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsIn_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsIn_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The first product into the zero block, at row `p` and column `j`: the sum over the 128 input features. -/
theorem matmulIn_apply (x : FVec Ideal S5000x128 .bf16) (w : FVec Ideal S128x64 .bf16) (p : Fin 5000) (j : Fin 64) :
    matmul dot_S5000x128_S128x64_S5000x64_1_0_0_1_n_n none x w (constant (F := Ideal) S5000x64 .f32 0x00000000#32) (ix2 p j)
      = ∑ i : Fin 128, x (ix2 p i) * w (ix2 i j) := by
  simp only [matmul]
  rw [Ideal.matmul_constant_zero_apply, ← Equiv.sum_comp (contrEquiv1 dot_S5000x128_S128x64_S5000x64_1_0_0_1_n_n 128 rfl rfl).symm]
  refine Finset.sum_congr rfl fun c _ => ?_
  have hc := contrEquiv1_symm_val dot_S5000x128_S128x64_S5000x64_1_0_0_1_n_n 128 rfl rfl c
  have el : dot_S5000x128_S128x64_S5000x64_1_0_0_1_n_n.lhsIdx (ix2 p j) ((contrEquiv1 dot_S5000x128_S128x64_S5000x64_1_0_0_1_n_n 128 rfl rfl).symm c) = ix2 p c := funext fun a => Fin.ext (by
    match a with
    | ⟨0, _⟩ => exact lhsIn_0 _ _
    | ⟨1, _⟩ => exact (lhsIn_1 _ _).trans hc)
  have er : dot_S5000x128_S128x64_S5000x64_1_0_0_1_n_n.rhsIdx (ix2 p j) ((contrEquiv1 dot_S5000x128_S128x64_S5000x64_1_0_0_1_n_n 128 rfl rfl).symm c) = ix2 c j := funext fun a => Fin.ext (by
    match a with
    | ⟨0, _⟩ => exact (rhsIn_0 _ _).trans hc
    | ⟨1, _⟩ => exact rhsIn_1 _ _)
  rw [el, er]

/-! The second product contracts the 64 hidden features, in the same way. -/

theorem lhsHid_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsHid_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsHid_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsHid_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The second product into the zero block, at row `p` and column `j`: the sum over the 64 hidden features. -/
theorem matmulHid_apply (x : FVec Ideal S5000x64 .bf16) (w : FVec Ideal S64x64 .bf16) (p : Fin 5000) (j : Fin 64) :
    matmul dot_S5000x64_S64x64_S5000x64_1_0_0_1_n_n none x w (constant (F := Ideal) S5000x64 .f32 0x00000000#32) (ix2 p j)
      = ∑ i : Fin 64, x (ix2 p i) * w (ix2 i j) := by
  simp only [matmul]
  rw [Ideal.matmul_constant_zero_apply, ← Equiv.sum_comp (contrEquiv1 dot_S5000x64_S64x64_S5000x64_1_0_0_1_n_n 64 rfl rfl).symm]
  refine Finset.sum_congr rfl fun c _ => ?_
  have hc := contrEquiv1_symm_val dot_S5000x64_S64x64_S5000x64_1_0_0_1_n_n 64 rfl rfl c
  have el : dot_S5000x64_S64x64_S5000x64_1_0_0_1_n_n.lhsIdx (ix2 p j) ((contrEquiv1 dot_S5000x64_S64x64_S5000x64_1_0_0_1_n_n 64 rfl rfl).symm c) = ix2 p c := funext fun a => Fin.ext (by
    match a with
    | ⟨0, _⟩ => exact lhsHid_0 _ _
    | ⟨1, _⟩ => exact (lhsHid_1 _ _).trans hc)
  have er : dot_S5000x64_S64x64_S5000x64_1_0_0_1_n_n.rhsIdx (ix2 p j) ((contrEquiv1 dot_S5000x64_S64x64_S5000x64_1_0_0_1_n_n 64 rfl rfl).symm c) = ix2 c j := funext fun a => Fin.ext (by
    match a with
    | ⟨0, _⟩ => exact (rhsHid_0 _ _).trans hc
    | ⟨1, _⟩ => exact rhsHid_1 _ _)
  rw [el, er]

/-! ## Column sums of a block -/

/-- The sum of a block over its rows, laid out as a one-row array: at column `k` it is the sum of the block's column `k`. -/
theorem colsum_apply (x : FVec Ideal S5000x64 .f32) (u : Fin 1) (k : Fin 64) :
    shapeCast S1x64 (multiReduction (F := Ideal) .add [0] S64 x 0x00000000#32 reduces_S5000x64_S64 (.inl rfl) rfl)
        shapeCasts_S64_S1x64 (ix2 u k)
      = ∑ p : Fin 5000, x (ix2 p k) := by
  rw [shapeCast_a_1a_apply]
  refine (Ideal.multiReduction_add_single x 0x00000000#32 reduces_S5000x64_S64 (.inl rfl) rfl (ix1 k)).trans ?_
  refine Finset.sum_congr rfl fun p _ => congrArg x (funext fun a => ?_)
  match a with
  | ⟨0, _⟩ => rfl
  | ⟨1, _⟩ => rfl

/-! ## The payloads -/

/-- The block's perceptron values: `relu((x + a)·W1 + b1)·W2 + b2` at row `p`, column `k`. -/
theorem pay4_apply (v3 v5 : Vec Ideal S5000x128 .f32) (v9 : Vec Ideal S128x64 .bf16) (v12 : Vec Ideal S1x64 .f32)
    (v19 : Vec Ideal S64x64 .bf16) (v22 : Vec Ideal S1x64 .f32) (p : Fin 5000) (k : Fin 64) :
    k6_pay4 (F := Ideal) v3 v5 v9 v12 v19 v22 (ix2 p k)
      = (∑ j : Fin 64, max ((∑ i : Fin 128, (v3 (ix2 p i) + v5 (ix2 p i)) * v9 (ix2 i j)) + v12 (ix2 0 j)) 0
          * v19 (ix2 j k)) + v22 (ix2 0 k) := by
  unfold k6_pay4
  simp only [shapeCast_self]
  rw [addf_apply, broadcastTo_1b_ab_apply, matmulHid_apply]
  refine congrArg (· + v22 (ix2 0 k)) (Finset.sum_congr rfl fun j _ => ?_)
  rw [truncf_apply, maximumf_apply, addf_apply, broadcast_apply, broadcastTo_1b_ab_apply, matmulIn_apply,
    Ideal.ofBits_def, Ideal.ofBits_zero_f32]
  refine congrArg (fun t => max (t + v12 (ix2 0 j)) 0 * v19 (ix2 j k)) (Finset.sum_congr rfl fun i _ => ?_)
  rw [truncf_apply, addf_apply]

/-- The running row of sums after the block: the row before plus the block's column sums. -/
theorem pay5_apply (v3 v5 : Vec Ideal S5000x128 .f32) (v9 : Vec Ideal S128x64 .bf16) (v12 : Vec Ideal S1x64 .f32)
    (v19 : Vec Ideal S64x64 .bf16) (v22 : Vec Ideal S1x64 .f32) (v27 : Vec Ideal S1x64 .f32) (k : Fin 64) :
    k6_pay5 (F := Ideal) v3 v5 v9 v12 v19 v22 v27 (ix2 0 k)
      = v27 (ix2 0 k) + ∑ p : Fin 5000, k6_pay4 (F := Ideal) v3 v5 v9 v12 v19 v22 (ix2 p k) := by
  unfold k6_pay5
  rw [addf_apply, shapeCast_self, colsum_apply]

/-- The running row of sums of squares after the block. -/
theorem pay1_apply (v25 : FVec Ideal S5000x64 .f32) (v33 : Vec Ideal S1x64 .f32) (k : Fin 64) :
    k6_pay1 (F := Ideal) v25 v33 (ix2 0 k) = v33 (ix2 0 k) + ∑ p : Fin 5000, v25 (ix2 p k) * v25 (ix2 p k) := by
  unfold k6_pay1
  rw [addf_apply, shapeCast_self, colsum_apply]
  refine congrArg (v33 (ix2 0 k) + ·) (Finset.sum_congr rfl fun p _ => ?_)
  rw [mulf_apply]

/-- The two rows a first block starts from are zero. -/
theorem pay2_apply (k : Fin 64) : k6_pay2 (F := Ideal) (ix2 0 k) = 0 := by
  unfold k6_pay2
  rw [broadcast_apply, Ideal.ofBits_def, Ideal.ofBits_zero_f32]
theorem pay3_apply (k : Fin 64) : k6_pay3 (F := Ideal) (ix2 0 k) = 0 := by
  unfold k6_pay3
  rw [broadcast_apply, Ideal.ofBits_def, Ideal.ofBits_zero_f32]

end Cert.KernelIdeal.R6Pay

end
-- ==== Proof.R6.lean ====
/-
  The perceptron call of a branch: over twenty row blocks it computes `relu((xn + agg)·W1 + b1)·W2 + b2` for the block's
  rows (a change of float format is the identity on the extended reals, and a matrix product into a zero accumulator is
  the plain contraction), writes the block out, and accumulates per column the sum of the block's entries and of their
  squares from zero. So the result array is the perceptron of the whole arrays, and the two rows its column sums.

  The order of the argument: what one run of the body leaves in each result buffer, as the body's arithmetic of the
  buffers it reads; the operand blocks of a point read off the arrays (row `p` of block `t` is row `5000 t + p`);
  by induction on the point, the block buffer holds the perceptron's rows of the point's block and the two running
  rows hold the column sums over the rows of the blocks so far; the block written back by point `t` is block `t` of the
  perceptron array and row `r` is written by point `r / 5000`; the running rows are written back once, after the last
  block, when the sums over twenty blocks of five thousand rows are the sums over all hundred thousand rows.
-/
import proofs.«107533_j36429912605472_1_alg».proof.Proof.Gen.KernelIdeal.Frame
import proofs.«107533_j36429912605472_1_alg».proof.Proof.R6Pay
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.R6

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

/-! ## What one run of the body leaves in each result buffer -/

section Pieces

variable {F : FTy → Type} [FloatOps F]

/-- Every store and load of the body sits at offset zero of its buffer. -/
theorem hz : (![0, 0] : Fin 2 → Nat) = fun _ => 0 := funext fun a => by fin_cases a <;> rfl

/-- A later point leaves in the block buffer the perceptron values of the point's operand blocks. -/
theorem out_B_6 (c : Dev nD) (i : grid6.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : ¬cond6_0 i)
    (xa : Vec F S5000x128 .f32) (xb : Vec F S5000x128 .f32) (xc : Vec F S128x64 .bf16) (xd : Vec F S1x64 .f32) (xe : Vec F S64x64 .bf16) (xf : Vec F S1x64 .f32) (ya yb : Vec F S1x64 .f32) :
    out6_B_6 c i ma wa mb wb mc wc md wd me we mf wf mg wg mh wh mi wi hc xa xb xc xd xe xf ya yb = k6_pay4 xa xb xc xd xe xf := by
  unfold out6_B_6
  rw [View.read_writes_eq_canon _ _ _ (cover6_B_6 c i ma wa mb wb mc wc md wd me we mf wf mg wg mh wh mi wi hc xa xb xc xd xe xf ya yb)]
  unfold kernelRun6_B
  dsimp only
  sl_unfold_words
  rw [View.canon_unit_zero hz]
  simp only [View.readAt_eq_ld, wa.read_unread, wb.read_unread, wc.read_unread, wd.read_unread, we.read_unread, wf.read_unread,
    View.ld_unit_zero (S := S5000x128) hz, View.ld_unit_zero (S := S128x64) hz, View.ld_unit_zero (S := S64x64) hz,
    View.ld_unit_zero (S := S1x64) hz, View.ld_unit_zero (S := S5000x64) hz]

/-- A later point adds the block's column sums to the first running row. -/
theorem out_B_7 (c : Dev nD) (i : grid6.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : ¬cond6_0 i)
    (xa : Vec F S5000x128 .f32) (xb : Vec F S5000x128 .f32) (xc : Vec F S128x64 .bf16) (xd : Vec F S1x64 .f32) (xe : Vec F S64x64 .bf16) (xf : Vec F S1x64 .f32) (ya yb : Vec F S1x64 .f32) :
    out6_B_7 c i ma wa mb wb mc wc md wd me we mf wf mg wg mh wh mi wi hc xa xb xc xd xe xf ya yb = k6_pay5 xa xb xc xd xe xf ya := by
  unfold out6_B_7
  rw [View.read_writes_eq_canon _ _ _ (cover6_B_7 c i ma wa mb wb mc wc md wd me we mf wf mg wg mh wh mi wi hc xa xb xc xd xe xf ya yb)]
  unfold kernelRun6_B
  dsimp only
  sl_unfold_words
  rw [View.canon_unit_zero hz]
  simp only [View.readAt_eq_ld, wa.read_unread, wb.read_unread, wc.read_unread, wd.read_unread, we.read_unread, wf.read_unread, wh.read_unread,
    View.ld_unit_zero (S := S5000x128) hz, View.ld_unit_zero (S := S128x64) hz, View.ld_unit_zero (S := S64x64) hz,
    View.ld_unit_zero (S := S1x64) hz, View.ld_unit_zero (S := S5000x64) hz]

/-- A later point adds the column sums of the block's squares to the second running row. -/
theorem out_B_8 (c : Dev nD) (i : grid6.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : ¬cond6_0 i)
    (xa : Vec F S5000x128 .f32) (xb : Vec F S5000x128 .f32) (xc : Vec F S128x64 .bf16) (xd : Vec F S1x64 .f32) (xe : Vec F S64x64 .bf16) (xf : Vec F S1x64 .f32) (ya yb : Vec F S1x64 .f32) :
    out6_B_8 c i ma wa mb wb mc wc md wd me we mf wf mg wg mh wh mi wi hc xa xb xc xd xe xf ya yb = k6_pay1 (k6_pay4 xa xb xc xd xe xf) yb := by
  unfold out6_B_8
  rw [View.read_writes_eq_canon _ _ _ (cover6_B_8 c i ma wa mb wb mc wc md wd me we mf wf mg wg mh wh mi wi hc xa xb xc xd xe xf ya yb)]
  unfold kernelRun6_B
  dsimp only
  sl_unfold_words
  rw [View.canon_unit_zero hz]
  simp only [View.readAt_eq_ld, wa.read_unread, wb.read_unread, wc.read_unread, wd.read_unread, we.read_unread, wf.read_unread, wi.read_unread,
    View.ld_unit_zero (S := S5000x128) hz, View.ld_unit_zero (S := S128x64) hz, View.ld_unit_zero (S := S64x64) hz,
    View.ld_unit_zero (S := S1x64) hz, View.ld_unit_zero (S := S5000x64) hz]

/-- The first point leaves the same block values. -/
theorem out_A_6 (c : Dev nD) (i : grid6.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : cond6_0 i)
    (xa : Vec F S5000x128 .f32) (xb : Vec F S5000x128 .f32) (xc : Vec F S128x64 .bf16) (xd : Vec F S1x64 .f32) (xe : Vec F S64x64 .bf16) (xf : Vec F S1x64 .f32) :
    out6_A_6 c i ma wa mb wb mc wc md wd me we mf wf mg wg mh wh mi wi hc xa xb xc xd xe xf = k6_pay4 xa xb xc xd xe xf := by
  unfold out6_A_6
  rw [View.read_writes_eq_canon _ _ _ (cover6_A_6 c i ma wa mb wb mc wc md wd me we mf wf mg wg mh wh mi wi hc xa xb xc xd xe xf)]
  unfold kernelRun6_A
  dsimp only
  sl_unfold_words
  rw [View.canon_unit_zero hz]
  simp only [View.readAt_eq_ld, wa.read_unread, wb.read_unread, wc.read_unread, wd.read_unread, we.read_unread, wf.read_unread,
    View.ld_unit_zero (S := S5000x128) hz, View.ld_unit_zero (S := S128x64) hz, View.ld_unit_zero (S := S64x64) hz,
    View.ld_unit_zero (S := S1x64) hz, View.ld_unit_zero (S := S5000x64) hz]

/-- The first point stores the zero row, reads it back and adds the block's column sums to it. -/
theorem out_A_7 (c : Dev nD) (i : grid6.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : cond6_0 i)
    (xa : Vec F S5000x128 .f32) (xb : Vec F S5000x128 .f32) (xc : Vec F S128x64 .bf16) (xd : Vec F S1x64 .f32) (xe : Vec F S64x64 .bf16) (xf : Vec F S1x64 .f32) :
    out6_A_7 c i ma wa mb wb mc wc md wd me we mf wf mg wg mh wh mi wi hc xa xb xc xd xe xf = k6_pay5 xa xb xc xd xe xf k6_pay2 := by
  unfold out6_A_7
  rw [View.read_writes_eq_canon _ _ _ (cover6_A_7 c i ma wa mb wb mc wc md wd me we mf wf mg wg mh wh mi wi hc xa xb xc xd xe xf)]
  unfold kernelRun6_A
  dsimp only
  sl_unfold_words
  rw [View.canon_cons_unit_zero (S := S1x64) hz]
  simp only [View.readAt_eq_ld, wa.read_unread, wb.read_unread, wc.read_unread, wd.read_unread, we.read_unread, wf.read_unread, View.readCov_unit_zero (S := S1x64) _ hz,
    View.ld_unit_zero (S := S5000x128) hz, View.ld_unit_zero (S := S128x64) hz, View.ld_unit_zero (S := S64x64) hz,
    View.ld_unit_zero (S := S1x64) hz, View.ld_unit_zero (S := S5000x64) hz]

/-- The first point does the same with the squares. -/
theorem out_A_8 (c : Dev nD) (i : grid6.Coords) (ma : Memref sig .tc .vmem S5000x128 .f32) (wa : ma.IsWhole) (mb : Memref sig .tc .vmem S5000x128 .f32) (wb : mb.IsWhole) (mc : Memref sig .tc .vmem S128x64 .bf16) (wc : mc.IsWhole) (md : Memref sig .tc .vmem S1x64 .f32) (wd : md.IsWhole) (me : Memref sig .tc .vmem S64x64 .bf16) (we : me.IsWhole) (mf : Memref sig .tc .vmem S1x64 .f32) (wf : mf.IsWhole) (mg : Memref sig .tc .vmem S5000x64 .f32) (wg : mg.IsWhole) (mh : Memref sig .tc .vmem S1x64 .f32) (wh : mh.IsWhole) (mi : Memref sig .tc .vmem S1x64 .f32) (wi : mi.IsWhole) (hc : cond6_0 i)
    (xa : Vec F S5000x128 .f32) (xb : Vec F S5000x128 .f32) (xc : Vec F S128x64 .bf16) (xd : Vec F S1x64 .f32) (xe : Vec F S64x64 .bf16) (xf : Vec F S1x64 .f32) :
    out6_A_8 c i ma wa mb wb mc wc md wd me we mf wf mg wg mh wh mi wi hc xa xb xc xd xe xf = k6_pay1 (k6_pay4 xa xb xc xd xe xf) k6_pay3 := by
  unfold out6_A_8
  rw [View.read_writes_eq_canon _ _ _ (cover6_A_8 c i ma wa mb wb mc wc md wd me we mf wf mg wg mh wh mi wi hc xa xb xc xd xe xf)]
  unfold kernelRun6_A
  dsimp only
  sl_unfold_words
  rw [View.canon_cons_unit_zero (S := S1x64) hz]
  simp only [View.readAt_eq_ld, wa.read_unread, wb.read_unread, wc.read_unread, wd.read_unread, we.read_unread, wf.read_unread, View.readCov_unit_zero (S := S1x64) _ hz,
    View.ld_unit_zero (S := S5000x128) hz, View.ld_unit_zero (S := S128x64) hz, View.ld_unit_zero (S := S64x64) hz,
    View.ld_unit_zero (S := S1x64) hz, View.ld_unit_zero (S := S5000x64) hz]

end Pieces

/-! ## Sums over the rows, block by block -/

/-- Row `p` of block `s`. -/
def row (s : Fin 20) (p : Fin 5000) : Fin 100000 :=
  ⟨5000 * s.val + p.val, by have := s.isLt; have := p.isLt; omega⟩

/-- The sum of `f` over the rows of block `s` (zero past the last block). -/
def blockSum (f : Fin 100000 → EReal) (s : ℕ) : EReal :=
  if hs : s < 20 then ∑ p : Fin 5000, f (row ⟨s, hs⟩ p) else 0

theorem blockSum_of_lt (f : Fin 100000 → EReal) (s : ℕ) (hs : s < 20) :
    blockSum f s = ∑ p : Fin 5000, f (row ⟨s, hs⟩ p) := dif_pos hs

/-- The sum of `f` over the rows of blocks `0 … n`. -/
def runSum (f : Fin 100000 → EReal) (n : ℕ) : EReal := ∑ s ∈ Finset.range (n + 1), blockSum f s

theorem runSum_zero (f : Fin 100000 → EReal) : runSum f 0 = blockSum f 0 := Finset.sum_range_one _

theorem runSum_succ (f : Fin 100000 → EReal) (n : ℕ) : runSum f (n + 1) = runSum f n + blockSum f (n + 1) :=
  Finset.sum_range_succ _ (n + 1)

/-- The twenty blocks of five thousand rows are the hundred thousand rows. -/
def rowEquiv : Fin 20 × Fin 5000 ≃ Fin 100000 := finProdFinEquiv.trans (finCongr (by norm_num))

theorem rowEquiv_apply (x : Fin 20 × Fin 5000) : rowEquiv x = row x.1 x.2 :=
  Fin.ext (by show x.2.val + 5000 * x.1.val = 5000 * x.1.val + x.2.val; omega)

/-- After the last block the running sum is the sum over all rows. -/
theorem runSum_last (f : Fin 100000 → EReal) : runSum f 19 = ∑ r : Fin 100000, f r := by
  show ∑ s ∈ Finset.range 20, blockSum f s = _
  rw [Finset.sum_range (fun s => blockSum f s)]
  have hb : ∀ s : Fin 20, blockSum f s.val = ∑ p : Fin 5000, f (row s p) := fun s => dif_pos s.isLt
  rw [Finset.sum_congr rfl (fun s _ => hb s), ← Fintype.sum_prod_type' (fun s p => f (row s p))]
  exact Fintype.sum_equiv rowEquiv _ _ (fun x => by rw [rowEquiv_apply])

-- the buffer contents the call is entered from
variable (V : (c : Dev nD) → (b : Ref sig .tc) → Buf (Elt Ideal) ((c : Thread nD τ).loc b))

/-- The call's six operand arrays and its three result arrays, by their literal types. -/
abbrev xn (c : Dev nD) : Vec Ideal S100000x128 .f32 := V c main_v15
abbrev ag (c : Dev nD) : Vec Ideal S100000x128 .f32 := V c main_v121
abbrev w1 (c : Dev nD) : Vec Ideal S128x64 .bf16 := V c main_v124
abbrev b1 (c : Dev nD) : Vec Ideal S1x64 .f32 := V c main_v130
abbrev w2 (c : Dev nD) : Vec Ideal S64x64 .bf16 := V c main_v127
abbrev b2 (c : Dev nD) : Vec Ideal S1x64 .f32 := V c main_v133
abbrev h2 (c : Dev nD) : Vec Ideal S100000x64 .f32 := (dat6 (F := Ideal) V c).arrAt 6 cfg6.N
abbrev t1 (c : Dev nD) : Vec Ideal S1x64 .f32 := (dat6 (F := Ideal) V c).arrAt 7 cfg6.N
abbrev t2 (c : Dev nD) : Vec Ideal S1x64 .f32 := (dat6 (F := Ideal) V c).arrAt 8 cfg6.N

/-- The perceptron of the whole operand arrays. -/
def H (c : Dev nD) : Fin 100000 → Fin 64 → EReal := fun r k =>
  (∑ j : Fin 64, max ((∑ i : Fin 128, (xn V c (ix2 r i) + ag V c (ix2 r i)) * w1 V c (ix2 i j)) + b1 V c (ix2 0 j)) 0
      * w2 V c (ix2 j k)) + b2 V c (ix2 0 k)

/-! ## The operand blocks of a point -/

/-- The index maps, decided over the grid: the two row-blocked operands and the row-blocked result move with the
    point along the rows; every other window stays at its one block. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0 :=
  (by decide +kernel : ∀ t : Fin grid6.N, _)

/-- The operand blocks at point `t`, by their literal types. -/
abbrev xblk (c : Dev nD) (t : Fin cfg6.N) : Vec Ideal S5000x128 .f32 := iblk6 V c 0 t
abbrev ablk (c : Dev nD) (t : Fin cfg6.N) : Vec Ideal S5000x128 .f32 := iblk6 V c 1 t
abbrev w1blk (c : Dev nD) (t : Fin cfg6.N) : Vec Ideal S128x64 .bf16 := iblk6 V c 2 t
abbrev b1blk (c : Dev nD) (t : Fin cfg6.N) : Vec Ideal S1x64 .f32 := iblk6 V c 3 t
abbrev w2blk (c : Dev nD) (t : Fin cfg6.N) : Vec Ideal S64x64 .bf16 := iblk6 V c 4 t
abbrev b2blk (c : Dev nD) (t : Fin cfg6.N) : Vec Ideal S1x64 .f32 := iblk6 V c 5 t

/-- Row `p` of the first operand's block at point `t` is row `5000 t + p` of the array. -/
theorem xblk_apply (c : Dev nD) (t : Fin cfg6.N) (p : Fin 5000) (i : Fin 128) (r : Fin 100000)
    (hr : r.val = 5000 * t.val + p.val) : xblk V c t (ix2 p i) = xn V c (ix2 r i) := by
  obtain ⟨e0, e1, -⟩ := idx_facts t
  show V c main_v15 (((cfg6.win 0).blk t).view.emb (ix2 p i)) = V c main_v15 (ix2 r i)
  refine congrArg (V c main_v15) ?_
  funext a; apply Fin.ext
  match a with
  | ⟨0, _⟩ => show win6_0.index t (0 : Fin 2) * 5000 + 1 * p.val = r.val; omega
  | ⟨1, _⟩ => show win6_0.index t (1 : Fin 2) * 128 + 1 * i.val = i.val; omega

/-- The same for the second operand. -/
theorem ablk_apply (c : Dev nD) (t : Fin cfg6.N) (p : Fin 5000) (i : Fin 128) (r : Fin 100000)
    (hr : r.val = 5000 * t.val + p.val) : ablk V c t (ix2 p i) = ag V c (ix2 r i) := by
  obtain ⟨-, -, e0, e1, -⟩ := idx_facts t
  show V c main_v121 (((cfg6.win 1).blk t).view.emb (ix2 p i)) = V c main_v121 (ix2 r i)
  refine congrArg (V c main_v121) ?_
  funext a; apply Fin.ext
  match a with
  | ⟨0, _⟩ => show win6_1.index t (0 : Fin 2) * 5000 + 1 * p.val = r.val; omega
  | ⟨1, _⟩ => show win6_1.index t (1 : Fin 2) * 128 + 1 * i.val = i.val; omega

/-- The weight and bias windows hold their whole arrays at every point. -/
theorem w1blk_apply (c : Dev nD) (t : Fin cfg6.N) (i : Fin 128) (j : Fin 64) :
    w1blk V c t (ix2 i j) = w1 V c (ix2 i j) := by
  obtain ⟨-, -, -, -, e0, e1, -⟩ := idx_facts t
  show V c main_v124 (((cfg6.win 2).blk t).view.emb (ix2 i j)) = V c main_v124 (ix2 i j)
  refine congrArg (V c main_v124) ?_
  funext a; apply Fin.ext
  match a with
  | ⟨0, _⟩ => show win6_2.index t (0 : Fin 2) * 128 + 1 * i.val = i.val; omega
  | ⟨1, _⟩ => show win6_2.index t (1 : Fin 2) * 64 + 1 * j.val = j.val; omega

theorem b1blk_apply (c : Dev nD) (t : Fin cfg6.N) (j : Fin 64) :
    b1blk V c t (ix2 0 j) = b1 V c (ix2 0 j) := by
  obtain ⟨-, -, -, -, -, -, e0, e1, -⟩ := idx_facts t
  show V c main_v130 (((cfg6.win 3).blk t).view.emb (ix2 0 j)) = V c main_v130 (ix2 0 j)
  refine congrArg (V c main_v130) ?_
  funext a; apply Fin.ext
  match a with
  | ⟨0, _⟩ => show win6_3.index t (0 : Fin 2) * 1 + 1 * 0 = 0; omega
  | ⟨1, _⟩ => show win6_3.index t (1 : Fin 2) * 64 + 1 * j.val = j.val; omega

theorem w2blk_apply (c : Dev nD) (t : Fin cfg6.N) (j : Fin 64) (k : Fin 64) :
    w2blk V c t (ix2 j k) = w2 V c (ix2 j k) := by
  obtain ⟨-, -, -, -, -, -, -, -, e0, e1, -⟩ := idx_facts t
  show V c main_v127 (((cfg6.win 4).blk t).view.emb (ix2 j k)) = V c main_v127 (ix2 j k)
  refine congrArg (V c main_v127) ?_
  funext a; apply Fin.ext
  match a with
  | ⟨0, _⟩ => show win6_4.index t (0 : Fin 2) * 64 + 1 * j.val = j.val; omega
  | ⟨1, _⟩ => show win6_4.index t (1 : Fin 2) * 64 + 1 * k.val = k.val; omega

theorem b2blk_apply (c : Dev nD) (t : Fin cfg6.N) (k : Fin 64) :
    b2blk V c t (ix2 0 k) = b2 V c (ix2 0 k) := by
  obtain ⟨-, -, -, -, -, -, -, -, -, -, e0, e1, -⟩ := idx_facts t
  show V c main_v133 (((cfg6.win 5).blk t).view.emb (ix2 0 k)) = V c main_v133 (ix2 0 k)
  refine congrArg (V c main_v133) ?_
  funext a; apply Fin.ext
  match a with
  | ⟨0, _⟩ => show win6_5.index t (0 : Fin 2) * 1 + 1 * 0 = 0; omega
  | ⟨1, _⟩ => show win6_5.index t (1 : Fin 2) * 64 + 1 * k.val = k.val; omega

/-! ## What each point leaves in the result buffers -/

/-- An entry of the block's perceptron values is the perceptron's entry at the block's row in the arrays. -/
theorem pay4_blk (c : Dev nD) (t : Fin cfg6.N) (p : Fin 5000) (k : Fin 64) (r : Fin 100000)
    (hr : r.val = 5000 * t.val + p.val) :
    k6_pay4 (F := Ideal) (xblk V c t) (ablk V c t) (w1blk V c t) (b1blk V c t) (w2blk V c t) (b2blk V c t) (ix2 p k) = H V c r k := by
  rw [R6Pay.pay4_apply]
  unfold H
  simp only [xblk_apply V c t p _ r hr, ablk_apply V c t p _ r hr, w1blk_apply V c t, b1blk_apply V c t,
    w2blk_apply V c t, b2blk_apply V c t]

/-- Every point leaves its block's perceptron values in the block buffer. -/
theorem blockAt (c : Dev nD) (t : Fin cfg6.N) :
    (outsAt6 V c t.val t.isLt).1 = k6_pay4 (F := Ideal) (xblk V c t) (ablk V c t) (w1blk V c t) (b1blk V c t) (w2blk V c t) (b2blk V c t) := by
  by_cases h0 : t.val % 20 = 0
  · rw [outsAt6_A V c t h0]
    dsimp only
    exact out_A_6 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (xblk V c t) (ablk V c t) (w1blk V c t) (b1blk V c t) (w2blk V c t) (b2blk V c t)
  · rw [outsAt6_B V c t h0]
    dsimp only
    exact out_B_6 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (xblk V c t) (ablk V c t) (w1blk V c t) (b1blk V c t) (w2blk V c t) (b2blk V c t)
      (outsAt6 V c (t.val - 1) (Nat.lt_of_le_of_lt (Nat.sub_le _ _) t.isLt)).2.1 (outsAt6 V c (t.val - 1) (Nat.lt_of_le_of_lt (Nat.sub_le _ _) t.isLt)).2.2

/-- After point `n` the first running row holds the perceptron's column sums over the rows of blocks `0 … n`. -/
theorem sumAt (c : Dev nD) (k : Fin 64) : ∀ (n : ℕ) (h : n < cfg6.N),
    (outsAt6 V c n h).2.1 (ix2 0 k) = runSum (fun r => H V c r k) n
  | 0, h => by
    rw [outsAt6_A V c ⟨0, h⟩ rfl]
    dsimp only
    refine (congrFun (out_A_7 (F := Ideal) c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) (ms6_5 ⟨0, h⟩) (hs6_5 ⟨0, h⟩) (ms6_6 ⟨0, h⟩) (hs6_6 ⟨0, h⟩) (ms6_7 ⟨0, h⟩) (hs6_7 ⟨0, h⟩) (ms6_8 ⟨0, h⟩) (hs6_8 ⟨0, h⟩) ((hcond6_0 ⟨0, h⟩).mpr rfl)
      (xblk V c ⟨0, h⟩) (ablk V c ⟨0, h⟩) (w1blk V c ⟨0, h⟩) (b1blk V c ⟨0, h⟩) (w2blk V c ⟨0, h⟩) (b2blk V c ⟨0, h⟩)) (ix2 0 k)).trans ?_
    rw [R6Pay.pay5_apply, R6Pay.pay2_apply, zero_add, runSum_zero, blockSum_of_lt _ 0 (by omega)]
    exact Finset.sum_congr rfl fun p _ => pay4_blk V c ⟨0, h⟩ p k (row ⟨0, by omega⟩ p) rfl
  | n + 1, h => by
    have hN : cfg6.N = 20 := N_6
    have h0 : ¬(⟨n + 1, h⟩ : Fin cfg6.N).val % 20 = 0 := by dsimp only; omega
    rw [outsAt6_B V c ⟨n + 1, h⟩ h0]
    dsimp only
    refine (congrFun (out_B_7 (F := Ideal) c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (ms6_7 ⟨n + 1, h⟩) (hs6_7 ⟨n + 1, h⟩) (ms6_8 ⟨n + 1, h⟩) (hs6_8 ⟨n + 1, h⟩)
      (fun hh => h0 ((hcond6_0 ⟨n + 1, h⟩).mp hh)) (xblk V c ⟨n + 1, h⟩) (ablk V c ⟨n + 1, h⟩) (w1blk V c ⟨n + 1, h⟩) (b1blk V c ⟨n + 1, h⟩) (w2blk V c ⟨n + 1, h⟩) (b2blk V c ⟨n + 1, h⟩)
      (outsAt6 V c n (Nat.lt_of_succ_lt h)).2.1 (outsAt6 V c n (Nat.lt_of_succ_lt h)).2.2) (ix2 0 k)).trans ?_
    rw [R6Pay.pay5_apply, runSum_succ, sumAt c k n (Nat.lt_of_succ_lt h), blockSum_of_lt _ (n + 1) (by omega)]
    exact congrArg _ (Finset.sum_congr rfl fun p _ => pay4_blk V c ⟨n + 1, h⟩ p k (row ⟨n + 1, by omega⟩ p) rfl)

/-- After point `n` the second running row holds the column sums of the perceptron's squares over those rows. -/
theorem sumsqAt (c : Dev nD) (k : Fin 64) : ∀ (n : ℕ) (h : n < cfg6.N),
    (outsAt6 V c n h).2.2 (ix2 0 k) = runSum (fun r => H V c r k * H V c r k) n
  | 0, h => by
    rw [outsAt6_A V c ⟨0, h⟩ rfl]
    dsimp only
    refine (congrFun (out_A_8 (F := Ideal) c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) (ms6_5 ⟨0, h⟩) (hs6_5 ⟨0, h⟩) (ms6_6 ⟨0, h⟩) (hs6_6 ⟨0, h⟩) (ms6_7 ⟨0, h⟩) (hs6_7 ⟨0, h⟩) (ms6_8 ⟨0, h⟩) (hs6_8 ⟨0, h⟩) ((hcond6_0 ⟨0, h⟩).mpr rfl)
      (xblk V c ⟨0, h⟩) (ablk V c ⟨0, h⟩) (w1blk V c ⟨0, h⟩) (b1blk V c ⟨0, h⟩) (w2blk V c ⟨0, h⟩) (b2blk V c ⟨0, h⟩)) (ix2 0 k)).trans ?_
    rw [R6Pay.pay1_apply, R6Pay.pay3_apply, zero_add, runSum_zero, blockSum_of_lt _ 0 (by omega)]
    exact Finset.sum_congr rfl fun p _ => by rw [pay4_blk V c ⟨0, h⟩ p k (row ⟨0, by omega⟩ p) rfl]
  | n + 1, h => by
    have hN : cfg6.N = 20 := N_6
    have h0 : ¬(⟨n + 1, h⟩ : Fin cfg6.N).val % 20 = 0 := by dsimp only; omega
    rw [outsAt6_B V c ⟨n + 1, h⟩ h0]
    dsimp only
    refine (congrFun (out_B_8 (F := Ideal) c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (ms6_7 ⟨n + 1, h⟩) (hs6_7 ⟨n + 1, h⟩) (ms6_8 ⟨n + 1, h⟩) (hs6_8 ⟨n + 1, h⟩)
      (fun hh => h0 ((hcond6_0 ⟨n + 1, h⟩).mp hh)) (xblk V c ⟨n + 1, h⟩) (ablk V c ⟨n + 1, h⟩) (w1blk V c ⟨n + 1, h⟩) (b1blk V c ⟨n + 1, h⟩) (w2blk V c ⟨n + 1, h⟩) (b2blk V c ⟨n + 1, h⟩)
      (outsAt6 V c n (Nat.lt_of_succ_lt h)).2.1 (outsAt6 V c n (Nat.lt_of_succ_lt h)).2.2) (ix2 0 k)).trans ?_
    rw [R6Pay.pay1_apply, runSum_succ, sumsqAt c k n (Nat.lt_of_succ_lt h), blockSum_of_lt _ (n + 1) (by omega)]
    exact congrArg _ (Finset.sum_congr rfl fun p _ => by rw [pay4_blk V c ⟨n + 1, h⟩ p k (row ⟨n + 1, by omega⟩ p) rfl])

/-! ## From the blocks to the arrays -/

/-- The perceptron as an array. -/
abbrev Harr (c : Dev nD) : Vec Ideal S100000x64 .f32 := fun i => H V c (i 0) (i 1)

/-- A block of five thousand rows whose entries are the perceptron's at rows `5000 t + p` is block `t` of the
    perceptron array. -/
theorem blk_read (c : Dev nD) (t : Fin cfg6.N) (x : Vec Ideal S5000x64 .f32)
    (hx : ∀ (p : Fin 5000) (k : Fin 64) (r : Fin 100000), r.val = 5000 * t.val + p.val → x (ix2 p k) = H V c r k) :
    (x : S5000x64.Idx → Elt Ideal .f32) = ((cfg6.win 6).blk t).view.read (Elt Ideal) (Harr V c) := by
  obtain ⟨-, -, -, -, -, -, -, -, -, -, -, -, e0, e1, -⟩ := idx_facts t
  have hN : cfg6.N = 20 := N_6
  have ht : t.val < 20 := lt_of_lt_of_eq t.isLt hN
  funext j
  obtain ⟨p, k, rfl⟩ : ∃ (p : Fin 5000) (k : Fin 64), j = ix2 p k := ⟨j 0, j 1, eq_ix2 j⟩
  show x (ix2 p k) = H V c ((((cfg6.win 6).blk t).view.emb (ix2 p k)) 0) ((((cfg6.win 6).blk t).view.emb (ix2 p k)) 1)
  have hp : p.val < 5000 := p.isLt
  rw [hx p k ⟨5000 * t.val + p.val, by omega⟩ rfl]
  refine congrArg₂ (H V c) (Fin.ext ?_) (Fin.ext ?_)
  · show 5000 * t.val + p.val = win6_6.index t (0 : Fin 2) * 5000 + 1 * p.val; omega
  · show k.val = win6_6.index t (1 : Fin 2) * 64 + 1 * k.val; omega

/-- What point `t` writes back is block `t` of the perceptron array. -/
theorem flushed_blk (c : Dev nD) (t : Fin cfg6.N) :
    (dat6 (F := Ideal) V c).flushed 6 t = ((cfg6.win 6).blk t).view.read (Elt Ideal) (Harr V c) := by
  show (cfg6.win 6).cut (grid6.coords t) ((dat6 (F := Ideal) V c).after 6 t) = _
  rw [after6_6, blockAt V c t]
  exact blk_read V c t _ (fun p k r hr => pay4_blk V c t p k r hr)

/-- An index of the result array is in point `t`'s block iff each coordinate is in the block's range on its axis. -/
theorem mem_blk (t : Fin cfg6.N) (i : S100000x64.Idx) :
    i ∈ ((cfg6.win 6).blk t).view.set ↔ ∀ a : Fin 2, win6_6.index t a * S5000x64.size a ≤ (i a).val
      ∧ (i a).val < win6_6.index t a * S5000x64.size a + S5000x64.size a := by
  show i ∈ ((View.whole main_v134_0).slice (win6_6.rect t)).set ↔ _
  rw [View.set_slice_whole, Rect.mem_set_unit]
  exact Iff.rfl

/-- Row `r` is written back by point `r / 5000`. -/
theorem cover_blk (i : S100000x64.Idx) :
    ∃ t : Fin cfg6.N, (cfg6.win 6).flush t = true ∧ i ∈ ((cfg6.win 6).blk t).view.set := by
  have hN : cfg6.N = 20 := N_6
  have hi0 : (i 0).val < 100000 := (i 0).isLt
  have hi1 : (i 1).val < 64 := (i 1).isLt
  have ht : (i 0).val / 5000 < cfg6.N := by rw [hN]; omega
  obtain ⟨-, -, -, -, -, -, -, -, -, -, -, -, e0, e1, -⟩ := idx_facts ⟨(i 0).val / 5000, ht⟩
  refine ⟨⟨(i 0).val / 5000, ht⟩, flush6_6 _, ?_⟩
  rw [mem_blk]
  intro a
  match a with
  | ⟨0, _⟩ =>
    show win6_6.index ⟨(i 0).val / 5000, ht⟩ (0 : Fin 2) * 5000 ≤ (i 0).val
      ∧ (i 0).val < win6_6.index ⟨(i 0).val / 5000, ht⟩ (0 : Fin 2) * 5000 + 5000
    rw [e0]; dsimp only; omega
  | ⟨1, _⟩ =>
    show win6_6.index ⟨(i 0).val / 5000, ht⟩ (1 : Fin 2) * 64 ≤ (i 1).val
      ∧ (i 1).val < win6_6.index ⟨(i 0).val / 5000, ht⟩ (1 : Fin 2) * 64 + 64
    rw [e1]; omega

/-- The result array is the perceptron array. -/
theorem result_eq (c : Dev nD) : h2 V c = Harr V c :=
  (dat6 (F := Ideal) V c).arrAt_eq_of_cover 6 (Harr V c) (fun t _ => flushed_blk V c t) cover_blk

/-- The result array is the perceptron, entry by entry. -/
theorem final_h2 (c : Dev nD) (r : Fin 100000) (k : Fin 64) : h2 V c (ix2 r k) = H V c r k :=
  congrFun (result_eq V c) (ix2 r k)

/-! ## The two running rows, written back once -/

/-- The perceptron's column sums, and those of its squares, as rows. -/
def sumRow (c : Dev nD) : Vec Ideal S1x64 .f32 := fun i => ∑ r : Fin 100000, H V c r (i 1)
def sumsqRow (c : Dev nD) : Vec Ideal S1x64 .f32 := fun i => ∑ r : Fin 100000, H V c r (i 1) * H V c r (i 1)

theorem sumRow_apply (c : Dev nD) (k : Fin 64) : sumRow V c (ix2 0 k) = ∑ r : Fin 100000, H V c r k := by
  unfold sumRow; rfl
theorem sumsqRow_apply (c : Dev nD) (k : Fin 64) :
    sumsqRow V c (ix2 0 k) = ∑ r : Fin 100000, H V c r k * H V c r k := by
  unfold sumsqRow; rfl

/-- The first row window's one block is its whole array: a row with the entries of `G` is that block of `G`. -/
theorem row_read_sum (t : Fin cfg6.N) (x G : Vec Ideal S1x64 .f32) (hx : ∀ k : Fin 64, x (ix2 0 k) = G (ix2 0 k)) :
    (x : S1x64.Idx → Elt Ideal .f32) = ((cfg6.win 7).blk t).view.read (Elt Ideal) G := by
  obtain ⟨-, -, -, -, -, -, -, -, -, -, -, -, -, -, e0, e1, -⟩ := idx_facts t
  funext j
  obtain ⟨z, k, rfl⟩ : ∃ (z : Fin 1) (k : Fin 64), j = ix2 z k := ⟨j 0, j 1, eq_ix2 j⟩
  obtain rfl : z = 0 := Subsingleton.elim _ _
  show x (ix2 (0 : Fin 1) k) = G (((cfg6.win 7).blk t).view.emb (ix2 (0 : Fin 1) k))
  have he : ((cfg6.win 7).blk t).view.emb (ix2 (0 : Fin 1) k) = ix2 (0 : Fin 1) k := by
    funext a; apply Fin.ext
    match a with
    | ⟨0, _⟩ => show win6_7.index t (0 : Fin 2) * 1 + 1 * 0 = 0; omega
    | ⟨1, _⟩ => show win6_7.index t (1 : Fin 2) * 64 + 1 * k.val = k.val; omega
  rw [he, hx k]

/-- The one write-back, at the last point, writes the whole sum. -/
theorem flushed_sum (c : Dev nD) (t : Fin cfg6.N) (hf : (cfg6.win 7).flush t = true) :
    (dat6 (F := Ideal) V c).flushed 7 t = ((cfg6.win 7).blk t).view.read (Elt Ideal) (sumRow V c) := by
  have hN : cfg6.N = 20 := N_6
  have hl : t.val = 19 := by have := (flush6_7 t).mp hf; have := t.isLt; omega
  show (cfg6.win 7).cut (grid6.coords t) ((dat6 (F := Ideal) V c).after 7 t) = _
  rw [after6_7]
  refine row_read_sum t (outsAt6 V c t.val t.isLt).2.1 (sumRow V c) (fun k => ?_)
  rw [sumAt V c k t.val t.isLt, hl, runSum_last, sumRow_apply]

/-- Every entry of the row is in the last point's block. -/
theorem cover_sum (i : S1x64.Idx) :
    ∃ t : Fin cfg6.N, (cfg6.win 7).flush t = true ∧ i ∈ ((cfg6.win 7).blk t).view.set := by
  have hN : cfg6.N = 20 := N_6
  have ht : 19 < cfg6.N := by rw [hN]; omega
  have hi0 : (i 0).val < 1 := (i 0).isLt
  have hi1 : (i 1).val < 64 := (i 1).isLt
  obtain ⟨-, -, -, -, -, -, -, -, -, -, -, -, -, -, e0, e1, -⟩ := idx_facts ⟨19, ht⟩
  refine ⟨⟨19, ht⟩, (flush6_7 _).mpr rfl, ?_⟩
  show i ∈ ((View.whole main_v134_1).slice (win6_7.rect ⟨19, ht⟩)).set
  rw [View.set_slice_whole, Rect.mem_set_unit]
  intro a
  match a with
  | ⟨0, _⟩ =>
    show win6_7.index ⟨19, ht⟩ (0 : Fin 2) * 1 ≤ (i 0).val ∧ (i 0).val < win6_7.index ⟨19, ht⟩ (0 : Fin 2) * 1 + 1
    rw [e0]; omega
  | ⟨1, _⟩ =>
    show win6_7.index ⟨19, ht⟩ (1 : Fin 2) * 64 ≤ (i 1).val ∧ (i 1).val < win6_7.index ⟨19, ht⟩ (1 : Fin 2) * 64 + 64
    rw [e1]; omega

/-- The second row window's one block is its whole array: a row with the entries of `G` is that block of `G`. -/
theorem row_read_sumsq (t : Fin cfg6.N) (x G : Vec Ideal S1x64 .f32) (hx : ∀ k : Fin 64, x (ix2 0 k) = G (ix2 0 k)) :
    (x : S1x64.Idx → Elt Ideal .f32) = ((cfg6.win 8).blk t).view.read (Elt Ideal) G := by
  obtain ⟨-, -, -, -, -, -, -, -, -, -, -, -, -, -, -, -, e0, e1⟩ := idx_facts t
  funext j
  obtain ⟨z, k, rfl⟩ : ∃ (z : Fin 1) (k : Fin 64), j = ix2 z k := ⟨j 0, j 1, eq_ix2 j⟩
  obtain rfl : z = 0 := Subsingleton.elim _ _
  show x (ix2 (0 : Fin 1) k) = G (((cfg6.win 8).blk t).view.emb (ix2 (0 : Fin 1) k))
  have he : ((cfg6.win 8).blk t).view.emb (ix2 (0 : Fin 1) k) = ix2 (0 : Fin 1) k := by
    funext a; apply Fin.ext
    match a with
    | ⟨0, _⟩ => show win6_8.index t (0 : Fin 2) * 1 + 1 * 0 = 0; omega
    | ⟨1, _⟩ => show win6_8.index t (1 : Fin 2) * 64 + 1 * k.val = k.val; omega
  rw [he, hx k]

/-- The one write-back, at the last point, writes the whole sum. -/
theorem flushed_sumsq (c : Dev nD) (t : Fin cfg6.N) (hf : (cfg6.win 8).flush t = true) :
    (dat6 (F := Ideal) V c).flushed 8 t = ((cfg6.win 8).blk t).view.read (Elt Ideal) (sumsqRow V c) := by
  have hN : cfg6.N = 20 := N_6
  have hl : t.val = 19 := by have := (flush6_8 t).mp hf; have := t.isLt; omega
  show (cfg6.win 8).cut (grid6.coords t) ((dat6 (F := Ideal) V c).after 8 t) = _
  rw [after6_8]
  refine row_read_sumsq t (outsAt6 V c t.val t.isLt).2.2 (sumsqRow V c) (fun k => ?_)
  rw [sumsqAt V c k t.val t.isLt, hl, runSum_last, sumsqRow_apply]

/-- Every entry of the row is in the last point's block. -/
theorem cover_sumsq (i : S1x64.Idx) :
    ∃ t : Fin cfg6.N, (cfg6.win 8).flush t = true ∧ i ∈ ((cfg6.win 8).blk t).view.set := by
  have hN : cfg6.N = 20 := N_6
  have ht : 19 < cfg6.N := by rw [hN]; omega
  have hi0 : (i 0).val < 1 := (i 0).isLt
  have hi1 : (i 1).val < 64 := (i 1).isLt
  obtain ⟨-, -, -, -, -, -, -, -, -, -, -, -, -, -, -, -, e0, e1⟩ := idx_facts ⟨19, ht⟩
  refine ⟨⟨19, ht⟩, (flush6_8 _).mpr rfl, ?_⟩
  show i ∈ ((View.whole main_v134_2).slice (win6_8.rect ⟨19, ht⟩)).set
  rw [View.set_slice_whole, Rect.mem_set_unit]
  intro a
  match a with
  | ⟨0, _⟩ =>
    show win6_8.index ⟨19, ht⟩ (0 : Fin 2) * 1 ≤ (i 0).val ∧ (i 0).val < win6_8.index ⟨19, ht⟩ (0 : Fin 2) * 1 + 1
    rw [e0]; omega
  | ⟨1, _⟩ =>
    show win6_8.index ⟨19, ht⟩ (1 : Fin 2) * 64 ≤ (i 1).val ∧ (i 1).val < win6_8.index ⟨19, ht⟩ (1 : Fin 2) * 64 + 64
    rw [e1]; omega

/-- The first accumulated row ends at the perceptron's column sums. -/
theorem final_sum (c : Dev nD) (k : Fin 64) : t1 V c (ix2 0 k) = ∑ r : Fin 100000, H V c r k :=
  (congrFun ((dat6 (F := Ideal) V c).arrAt_eq_of_cover 7 (sumRow V c) (flushed_sum V c) cover_sum) (ix2 0 k)).trans
    (sumRow_apply V c k)

/-- The second at the column sums of its squares. -/
theorem final_sumsq (c : Dev nD) (k : Fin 64) : t2 V c (ix2 0 k) = ∑ r : Fin 100000, H V c r k * H V c r k :=
  (congrFun ((dat6 (F := Ideal) V c).arrAt_eq_of_cover 8 (sumsqRow V c) (flushed_sumsq V c) cover_sumsq) (ix2 0 k)).trans
    (sumsqRow_apply V c k)

end Cert.KernelIdeal.R6
end
-- ==== Proof.R7.lean ====
/-
  The closing elementwise call of a branch: `tanh(h·scale + shift)` block by block over the rows; the blocks tile the
  rows, so the whole result array is that function entry by entry.
-/
import proofs.«107533_j36429912605472_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R7

open Cert.KernelIdeal Cert.KernelIdeal.Gen
open Idealize.ShloMosaic Idealize.ShloMosaic.TcCoe Idealize.SL.Sem Idealize.ShloMosaic.ValueIdx
open Idealize.ShloMosaic.Pipeline (Dat)

-- the buffer contents the call is entered from
variable (V : (c : Dev nD) → (b : Ref sig .tc) → Buf (Elt Ideal) ((c : Thread nD τ).loc b))

/-- The call's three operand arrays and its result array, by their literal types. -/
abbrev hin (c : Dev nD) : Vec Ideal S100000x64 .f32 := V c main_v134_0
abbrev scl (c : Dev nD) : Vec Ideal S1x64 .f32 := V c main_v147
abbrev sft (c : Dev nD) : Vec Ideal S1x64 .f32 := V c main_v152
abbrev res (c : Dev nD) : Vec Ideal S100000x64 .f32 := (dat7 (F := Ideal) V c).arrAt 3 cfg7.N

/-! ## One block: the body's value at an entry -/

/-- The stores and loads of the body all start at the block's origin. -/
theorem origin_zero : (![0, 0] : Fin 2 → Nat) = fun _ => 0 := funext fun a => by fin_cases a <;> rfl

/-- The body's value at row `p`, lane `k` of a block: `tanh` of that entry of the hidden block times the scale row's
    lane `k` plus the shift row's lane `k` (every operand is first cast to its own shape, which changes nothing, and
    each one-row operand is repeated over the rows; `tanh` acts entry by entry). -/
theorem affine_tanh_apply (v0 : Vec Ideal S10000x64 .f32) (v2 v6 : Vec Ideal S1x64 .f32) (p : Fin 10000) (k : Fin 64) :
    k7_pay1 v0 v2 v6 (ix2 p k) = Ideal.tanh (v0 (ix2 p k) * v2 (ix2 0 k) + v6 (ix2 0 k)) := by
  unfold k7_pay1
  show Ideal.tanh (shapeCast S10000x64 v0 _ (ix2 p k) * broadcastTo S10000x64 (shapeCast S1x64 v2 _) _ (ix2 p k)
      + broadcastTo S10000x64 (shapeCast S1x64 v6 _) _ (ix2 p k)) = _
  rw [broadcastTo_1b_ab_apply, broadcastTo_1b_ab_apply, shapeCast_self, shapeCast_self, shapeCast_self]

/-! ## The whole array -/

/-- What the result array ends holding: `tanh(h·scale + shift)`, the two rows read at the entry's lane. -/
abbrev affineTanh (h : Vec Ideal S100000x64 .f32) (s b : Vec Ideal S1x64 .f32) : Vec Ideal S100000x64 .f32 :=
  fun i => Ideal.tanh (h i * s (ix2 0 (i 1)) + b (ix2 0 (i 1)))

/-- The four index maps over the ten grid points: the hidden window and the result window sit at block `(t, 0)`, the
    two one-row windows at block `(0, 0)`. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

theorem points : cfg7.N = 10 := N_7

/-- Row `p` of block `t` is row `10000·t + p` of the array. -/
def row (t : Fin cfg7.N) (p : Fin 10000) : Fin 100000 :=
  ⟨t.val * 10000 + p.val, by have := t.isLt; have := points; have := p.isLt; omega⟩

/-- Where entry `(p, k)` of the result window's block at point `t` lies in the result array. -/
theorem emb_res (t : Fin cfg7.N) (p : Fin 10000) (k : Fin 64) :
    ((cfg7.win 3).blk t).view.emb (ix2 p k) = ix2 (row t p) k := by
  obtain ⟨-, -, -, -, -, -, e0, e1⟩ := idx_facts t
  funext a; apply Fin.ext
  match a with
  | ⟨0, _⟩ => show win7_3.index t (0 : Fin 2) * 10000 + 1 * p.val = t.val * 10000 + p.val; omega
  | ⟨1, _⟩ => show win7_3.index t (1 : Fin 2) * 64 + 1 * k.val = k.val; omega

/-- The hidden window's block at point `t` lies over the same rows. -/
theorem emb_h (t : Fin cfg7.N) (p : Fin 10000) (k : Fin 64) :
    ((cfg7.win 0).blk t).view.emb (ix2 p k) = ix2 (row t p) k := by
  obtain ⟨e0, e1, -⟩ := idx_facts t
  funext a; apply Fin.ext
  match a with
  | ⟨0, _⟩ => show win7_0.index t (0 : Fin 2) * 10000 + 1 * p.val = t.val * 10000 + p.val; omega
  | ⟨1, _⟩ => show win7_0.index t (1 : Fin 2) * 64 + 1 * k.val = k.val; omega

/-- The scale window's one block is the whole scale row, at every point. -/
theorem emb_s (t : Fin cfg7.N) (k : Fin 64) :
    ((cfg7.win 1).blk t).view.emb (ix2 (0 : Fin 1) k) = ix2 (0 : Fin 1) k := by
  obtain ⟨-, -, e0, e1, -⟩ := idx_facts t
  funext a; apply Fin.ext
  match a with
  | ⟨0, _⟩ => show win7_1.index t (0 : Fin 2) * 1 + 1 * 0 = 0; omega
  | ⟨1, _⟩ => show win7_1.index t (1 : Fin 2) * 64 + 1 * k.val = k.val; omega

/-- The shift window's one block is the whole shift row, at every point. -/
theorem emb_b (t : Fin cfg7.N) (k : Fin 64) :
    ((cfg7.win 2).blk t).view.emb (ix2 (0 : Fin 1) k) = ix2 (0 : Fin 1) k := by
  obtain ⟨-, -, -, -, e0, e1, -⟩ := idx_facts t
  funext a; apply Fin.ext
  match a with
  | ⟨0, _⟩ => show win7_2.index t (0 : Fin 2) * 1 + 1 * 0 = 0; omega
  | ⟨1, _⟩ => show win7_2.index t (1 : Fin 2) * 64 + 1 * k.val = k.val; omega

/-- What point `t` writes back is block `t` of `tanh(h·scale + shift)`: the body's one store fills the block with its
    value on the three operand blocks, and those are the operands read over the same rows (the rows themselves, for the
    two one-row operands). -/
theorem flushed_eq (c : Dev nD) (t : Fin cfg7.N) :
    (dat7 V c).flushed 3 t
      = ((cfg7.win 3).blk t).view.read (Elt Ideal) (affineTanh (hin V c) (scl V c) (sft V c)) := by
  show (cfg7.win 3).cut (grid7.coords t) ((dat7 V c).after 3 t) = _
  rw [after7_3]
  unfold out7_3
  rw [View.canon_unit_zero origin_zero]
  simp only [View.ld_unit_zero (S := S10000x64) origin_zero, View.ld_unit_zero (S := S1x64) origin_zero]
  refine funext fun (j : S10000x64.Idx) => ?_
  obtain ⟨p, k, rfl⟩ : ∃ (p : Fin 10000) (k : Fin 64), j = ix2 p k := ⟨j 0, j 1, eq_ix2 j⟩
  refine (affine_tanh_apply (iblk7 V c 0 t) (iblk7 V c 1 t) (iblk7 V c 2 t) p k).trans ?_
  show Ideal.tanh (hin V c (((cfg7.win 0).blk t).view.emb (ix2 p k))
        * scl V c (((cfg7.win 1).blk t).view.emb (ix2 (0 : Fin 1) k))
      + sft V c (((cfg7.win 2).blk t).view.emb (ix2 (0 : Fin 1) k)))
    = affineTanh (hin V c) (scl V c) (sft V c) (((cfg7.win 3).blk t).view.emb (ix2 p k))
  rw [emb_h, emb_s, emb_b, emb_res]

/-- An index of the result array is in point `t`'s block iff each coordinate is in the block's range on its axis. -/
theorem mem_blk (t : Fin cfg7.N) (i : S100000x64.Idx) :
    i ∈ ((cfg7.win 3).blk t).view.set ↔ ∀ a : Fin 2, win7_3.index t a * S10000x64.size a ≤ (i a).val
      ∧ (i a).val < win7_3.index t a * S10000x64.size a + S10000x64.size a := by
  show i ∈ ((View.whole main_v61).slice (win7_3.rect t)).set ↔ _
  rw [View.set_slice_whole, Rect.mem_set_unit]
  exact Iff.rfl

/-- The ten blocks tile the rows: row `r` is in the block of point `r / 10000`, and every point writes back. -/
theorem cover (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  obtain ⟨t, ht⟩ : ∃ t : Fin cfg7.N, t.val = (i 0).val / 10000 := ⟨⟨(i 0).val / 10000, by have := points; omega⟩, rfl⟩
  obtain ⟨-, -, -, -, -, -, e0, e1⟩ := idx_facts t
  refine ⟨t, flush7_3 t, ?_⟩
  rw [mem_blk]
  intro a
  match a with
  | ⟨0, _⟩ =>
    show win7_3.index t (0 : Fin 2) * 10000 ≤ (i 0).val ∧ (i 0).val < win7_3.index t (0 : Fin 2) * 10000 + 10000
    omega
  | ⟨1, _⟩ =>
    show win7_3.index t (1 : Fin 2) * 64 ≤ (i 1).val ∧ (i 1).val < win7_3.index t (1 : Fin 2) * 64 + 64
    omega

/-- So the result array is `tanh(h·scale + shift)` as one function of the operand arrays. -/
theorem res_eq (c : Dev nD) : res V c = affineTanh (hin V c) (scl V c) (sft V c) :=
  (dat7 V c).arrAt_eq_of_cover 3 (affineTanh (hin V c) (scl V c) (sft V c)) (fun t _ => flushed_eq V c t) cover

/-- After the call the result array holds `tanh(h·scale + shift)` at every entry. -/
theorem final (c : Dev nD) (r : Fin 100000) (k : Fin 64) :
    res V c (ix2 r k) = Ideal.tanh (hin V c (ix2 r k) * scl V c (ix2 0 k) + sft V c (ix2 0 k)) :=
  congrFun (res_eq V c) (ix2 r k)

end Cert.KernelIdeal.R7

end
-- ==== Proof.KB2.lean ====
/-
  One branch composed: the host's neighbourhood sum and weight slices, the perceptron call, the host's scale and shift
  rows from the perceptron's column sums, and the closing elementwise call. Together they leave in the branch's result
  array the hyperbolic tangent of the scale-and-shift batch normalisation of the perceptron of the normalised features.
-/
import proofs.«107533_j36429912605472_1_alg».proof.Proof.Gen.KernelIdeal.Frame
import proofs.«107533_j36429912605472_1_alg».proof.Proof.Spec
import proofs.«107533_j36429912605472_1_alg».proof.Proof.R6
import proofs.«107533_j36429912605472_1_alg».proof.Proof.R7
import proofs.«107533_j36429912605472_1_alg».proof.Proof.HostVals
import proofs.«107533_j36429912605472_1_alg».proof.Proof.Keep
import proofs.«107533_j36429912605472_1_alg».proof.Proof.KIn
import Idealize.ShloMosaic.Lib.ValueIdx

set_option maxRecDepth 16384

noncomputable section

namespace Cert.KernelIdeal.KB2

open Cert.KernelIdeal Cert.KernelIdeal.Gen
open Idealize.ShloMosaic Idealize.ShloMosaic.TcCoe Idealize.SL.Sem Idealize.ShloMosaic.ValueIdx
open Cert.Spec Cert.KernelIdeal.HostVals

variable (m : (ℓ : Loc nD τ sig) → Buf (Elt Ideal) ℓ) (ρ : Dev nD → PrngReg) (c : Dev nD)

/-- The branch's index in the stacked parameter arrays. -/
abbrev bi : Fin 3 := 2

/-- The branch's edge array and the stacked parameter arrays, as launched. -/
abbrev aE : IVec S2x1000000 32 := m ((c : Thread nD τ).loc main_arg3)
abbrev aW1 : FVec Ideal S3x128x64 .f32 := m ((c : Thread nD τ).loc main_arg6)
abbrev aB1 : FVec Ideal S3x64 .f32 := m ((c : Thread nD τ).loc main_arg7)
abbrev aW2 : FVec Ideal S3x64x64 .f32 := m ((c : Thread nD τ).loc main_arg8)
abbrev aB2 : FVec Ideal S3x64 .f32 := m ((c : Thread nD τ).loc main_arg9)
abbrev aGo : FVec Ideal S3x64 .f32 := m ((c : Thread nD τ).loc main_arg10)
abbrev aBo : FVec Ideal S3x64 .f32 := m ((c : Thread nD τ).loc main_arg11)

/-- The branch's neighbourhood sums of the normalised features, entry by entry. -/
def agg : Fin 100000 → Fin 128 → EReal := fun r i => aggK (aE m c) (KIn.xnKArr m c) (ix2 r i)

/-- The branch's perceptron. -/
def HK : Fin 100000 → Fin 64 → EReal :=
  mlp (KIn.xnK m c) (agg m c) (fun i j => aW1 m c (ix3 bi i j)) (fun j => aB1 m c (ix2 bi j))
    (fun j k => aW2 m c (ix3 bi j k)) (fun k => aB2 m c (ix2 bi k))

/-- The normalised features are still in their buffer when this branch starts. -/
theorem xn_at : W11 m ρ c (Proc.devRef .tc main_v15) = KIn.xnKArr m c :=
  (Keep.W11_xn m ρ c).trans (KIn.xn_eq m ρ c)

/-- What the perceptron call is entered from. -/
theorem xn_in : V12 m ρ c main_v15 = KIn.xnKArr m c :=
  (h6_keep_xn (W11 m ρ c)).trans (xn_at m ρ c)

theorem agg_in : V12 m ρ c main_v121 = aggK (aE m c) (KIn.xnKArr m c) := by
  refine (h6_agg (W11 m ρ c)).trans ?_
  rw [Keep.W11_arg3 m ρ c, xn_at m ρ c]

/-- The perceptron call's result array is the branch's perceptron. -/
theorem H_eq : R6.H (V12 m ρ) c = HK m c := by
  funext r k
  unfold R6.H HK mlp agg
  have hx : ∀ i, R6.xn (V12 m ρ) c (ix2 r i) = KIn.xnK m c r i := fun i => by
    show (V12 m ρ c main_v15 : FVec Ideal S100000x128 .f32) (ix2 r i) = _
    rw [xn_in m ρ c]; rfl
  have ha : ∀ i, R6.ag (V12 m ρ) c (ix2 r i) = aggK (aE m c) (KIn.xnKArr m c) (ix2 r i) := fun i => by
    show (V12 m ρ c main_v121 : FVec Ideal S100000x128 .f32) (ix2 r i) = _
    rw [agg_in m ρ c]
  have hw1 : ∀ i j, R6.w1 (V12 m ρ) c (ix2 i j) = aW1 m c (ix3 bi i j) := fun i j =>
    (h6_w1 (W11 m ρ c) i j).trans (by rw [Keep.W11_arg6 m ρ c])
  have hb1 : ∀ j, R6.b1 (V12 m ρ) c (ix2 0 j) = aB1 m c (ix2 bi j) := fun j =>
    (h6_b1 (W11 m ρ c) j).trans (by rw [Keep.W11_arg7 m ρ c])
  have hw2 : ∀ j k, R6.w2 (V12 m ρ) c (ix2 j k) = aW2 m c (ix3 bi j k) := fun j k =>
    (h6_w2 (W11 m ρ c) j k).trans (by rw [Keep.W11_arg8 m ρ c])
  have hb2 : ∀ k, R6.b2 (V12 m ρ) c (ix2 0 k) = aB2 m c (ix2 bi k) := fun k =>
    (h6_b2 (W11 m ρ c) k).trans (by rw [Keep.W11_arg9 m ρ c])
  simp only [hx, ha, hw1, hb1, hw2, hb2]

/-- The three arrays the perceptron call leaves, at the boundary after it. -/
theorem h_out (r : Fin 100000) (k : Fin 64) :
    f32At (S := S100000x64) (W13 m ρ c (Proc.devRef .tc main_v134_0)) (ix2 r k) = HK m c r k := by
  have e : W13 m ρ c (Proc.devRef .tc main_v134_0) = (dat6 (F := Ideal) (V12 m ρ) c).arrAt 6 cfg6.N := W13_arr m ρ c 6
  show (W13 m ρ c (Proc.devRef .tc main_v134_0) : FVec Ideal S100000x64 .f32) (ix2 r k) = _
  rw [e]
  exact (R6.final_h2 (V12 m ρ) c r k).trans (congrFun (congrFun (H_eq m ρ c) r) k)
theorem sum_out (k : Fin 64) :
    f32At (S := S1x64) (W13 m ρ c (Proc.devRef .tc main_v134_1)) (ix2 0 k) = ∑ r : Fin 100000, HK m c r k := by
  have e : W13 m ρ c (Proc.devRef .tc main_v134_1) = (dat6 (F := Ideal) (V12 m ρ) c).arrAt 7 cfg6.N := W13_arr m ρ c 7
  show (W13 m ρ c (Proc.devRef .tc main_v134_1) : FVec Ideal S1x64 .f32) (ix2 0 k) = _
  rw [e]
  refine (R6.final_sum (V12 m ρ) c k).trans ?_
  rw [H_eq]
theorem sumsq_out (k : Fin 64) :
    f32At (S := S1x64) (W13 m ρ c (Proc.devRef .tc main_v134_2)) (ix2 0 k) = ∑ r : Fin 100000, HK m c r k * HK m c r k := by
  have e : W13 m ρ c (Proc.devRef .tc main_v134_2) = (dat6 (F := Ideal) (V12 m ρ) c).arrAt 8 cfg6.N := W13_arr m ρ c 8
  show (W13 m ρ c (Proc.devRef .tc main_v134_2) : FVec Ideal S1x64 .f32) (ix2 0 k) = _
  rw [e]
  refine (R6.final_sumsq (V12 m ρ) c k).trans ?_
  rw [H_eq]

/-- The host's scale and shift rows are those of the perceptron's batch normalisation. -/
theorem scale_eq (k : Fin 64) :
    f32At (S := S1x64) (W14 m ρ c (Proc.devRef .tc main_v147)) (ix2 0 k) = scaleK (HK m c) (fun k => aGo m c (ix2 bi k)) k := by
  refine (h7_scale (W13 m ρ c) k).trans ?_
  rw [sum_out, sumsq_out, Keep.W13_arg10 m ρ c]
  rfl
theorem shift_eq (k : Fin 64) :
    f32At (S := S1x64) (W14 m ρ c (Proc.devRef .tc main_v152)) (ix2 0 k)
      = shiftK (HK m c) (fun k => aGo m c (ix2 bi k)) (fun k => aBo m c (ix2 bi k)) k := by
  refine (h7_shift (W13 m ρ c) k).trans ?_
  rw [sum_out, Keep.W13_arg11 m ρ c]
  show _ - _ * f32At (S := S1x64) (W14 m ρ c (Proc.devRef .tc main_v147)) (ix2 0 k) = _
  rw [scale_eq]
  rfl

/-- The branch's result array after its closing call. -/
theorem out (r : Fin 100000) (k : Fin 64) :
    f32At (S := S100000x64) (W15 m ρ c (Proc.devRef .tc main_v153)) (ix2 r k)
      = outK (KIn.xnK m c) (agg m c) (fun i j => aW1 m c (ix3 bi i j)) (fun j => aB1 m c (ix2 bi j))
          (fun j k => aW2 m c (ix3 bi j k)) (fun k => aB2 m c (ix2 bi k)) (fun k => aGo m c (ix2 bi k))
          (fun k => aBo m c (ix2 bi k)) r k := by
  have e7 : W15 m ρ c (Proc.devRef .tc main_v153) = (dat7 (F := Ideal) (V14 m ρ) c).arrAt 3 cfg7.N := W15_arr m ρ c 3
  have hfin := R7.final (V14 m ρ) c r k
  have hh : R7.hin (V14 m ρ) c (ix2 r k) = HK m c r k := by
    show f32At (S := S100000x64) (W14 m ρ c (Proc.devRef .tc main_v134_0)) (ix2 r k) = _
    rw [show W14 m ρ c (Proc.devRef .tc main_v134_0) = W13 m ρ c (Proc.devRef .tc main_v134_0) from h7_keep_h (W13 m ρ c)]
    exact h_out m ρ c r k
  have hs : R7.scl (V14 m ρ) c (ix2 0 k) = scaleK (HK m c) (fun k => aGo m c (ix2 bi k)) k := scale_eq m ρ c k
  have ht : R7.sft (V14 m ρ) c (ix2 0 k) = shiftK (HK m c) (fun k => aGo m c (ix2 bi k)) (fun k => aBo m c (ix2 bi k)) k :=
    shift_eq m ρ c k
  show (W15 m ρ c (Proc.devRef .tc main_v153) : FVec Ideal S100000x64 .f32) (ix2 r k) = _
  rw [e7]
  refine hfin.trans ?_
  rw [hh, hs, ht]
  rfl

end Cert.KernelIdeal.KB2

end
-- ==== Proof.Bridge2.lean ====
/-
  The kernel program's three result arrays are the reference's. Entry by entry the kernel's is the branch in the
  scale-and-shift arrangement and the reference's the branch in the centred arrangement, of the same launch arrays; under
  the precondition every float entry is real, the two programs' neighbourhood sums are one function that keeps real
  arrays real, and so the two arrangements agree.
-/
import proofs.«107533_j36429912605472_1_alg».proof.Defs
import proofs.«107533_j36429912605472_1_alg».proof.Proof.KB2
import proofs.«107533_j36429912605472_1_alg».proof.Proof.RefStages
import proofs.«107533_j36429912605472_1_alg».proof.Proof.SpecBranch
import proofs.«107533_j36429912605472_1_alg».proof.Proof.Agg
import proofs.«107533_j36429912605472_1_alg».proof.Proof.Finite
import proofs.«107533_j36429912605472_1_alg».proof.Proof.Keep

set_option maxRecDepth 16384

noncomputable section

namespace Cert.Bridge

open Idealize.ShloMosaic Idealize.ShloMosaic.TcCoe Idealize.SL.Sem Idealize.ShloMosaic.ValueIdx

/-- Branch 2: what the kernel program leaves in its result array is the reference's result. -/
theorem key2 [hP : Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (he : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.KernelIdeal.Gen.W15 m ρ c (Proc.devRef .tc Cert.KernelIdeal.main_v153) = Cert.ReferenceIdeal.Value.res_out2 (F := Ideal) m' c := by
  obtain ⟨r0, r4, r5, r6, r7, r8, r9, r10, r11⟩ := Cert.Finite.args_real m hpre c
  funext i
  obtain ⟨r, k, rfl⟩ : ∃ (r : Fin 100000) (k : Fin 64), i = ix2 r k := ⟨i 0, i 1, eq_ix2 i⟩
  show Cert.KernelIdeal.HostVals.f32At (S := Cert.KernelIdeal.S100000x64) (Cert.KernelIdeal.Gen.W15 m ρ c (Proc.devRef .tc Cert.KernelIdeal.main_v153)) (ix2 r k) = _
  refine (Cert.KernelIdeal.KB2.out m ρ c r k).trans ?_
  refine Eq.trans ?_ (Cert.ReferenceIdeal.Stages.res2 m' c r k).symm
  unfold Cert.ReferenceIdeal.Stages.out Cert.ReferenceIdeal.Stages.xnArr Cert.ReferenceIdeal.Stages.xn
    Cert.KernelIdeal.KB2.agg Cert.KernelIdeal.KIn.xnKArr Cert.KernelIdeal.KIn.xnK
  rw [show Cert.ReferenceIdeal.Stages.aX m' c = Cert.KernelIdeal.KIn.aX m c from h0,
    show Cert.ReferenceIdeal.Stages.aG m' c = Cert.KernelIdeal.KIn.aG m c from h4,
    show Cert.ReferenceIdeal.Stages.aB m' c = Cert.KernelIdeal.KIn.aB m c from h5,
    show Cert.ReferenceIdeal.Stages.aW1 m' c = Cert.KernelIdeal.KB2.aW1 m c from h6,
    show Cert.ReferenceIdeal.Stages.aB1 m' c = Cert.KernelIdeal.KB2.aB1 m c from h7,
    show Cert.ReferenceIdeal.Stages.aW2 m' c = Cert.KernelIdeal.KB2.aW2 m c from h8,
    show Cert.ReferenceIdeal.Stages.aB2 m' c = Cert.KernelIdeal.KB2.aB2 m c from h9,
    show Cert.ReferenceIdeal.Stages.aGo m' c = Cert.KernelIdeal.KB2.aGo m c from h10,
    show Cert.ReferenceIdeal.Stages.aBo m' c = Cert.KernelIdeal.KB2.aBo m c from h11, he]
  simp only [← Cert.Agg.agg_eq]
  exact Cert.Spec.branch_eq (fun r i => Cert.KernelIdeal.KIn.aX m c (ix2 r i)) (fun i => Cert.KernelIdeal.KIn.aG m c (ix1 i))
    (fun i => Cert.KernelIdeal.KIn.aB m c (ix1 i)) (Cert.KernelIdeal.HostVals.aggK (Cert.KernelIdeal.KB2.aE m c))
    (fun i j => Cert.KernelIdeal.KB2.aW1 m c (ix3 Cert.KernelIdeal.KB2.bi i j)) (fun j => Cert.KernelIdeal.KB2.aB1 m c (ix2 Cert.KernelIdeal.KB2.bi j))
    (fun j k => Cert.KernelIdeal.KB2.aW2 m c (ix3 Cert.KernelIdeal.KB2.bi j k)) (fun k => Cert.KernelIdeal.KB2.aB2 m c (ix2 Cert.KernelIdeal.KB2.bi k))
    (fun k => Cert.KernelIdeal.KB2.aGo m c (ix2 Cert.KernelIdeal.KB2.bi k)) (fun k => Cert.KernelIdeal.KB2.aBo m c (ix2 Cert.KernelIdeal.KB2.bi k))
    (fun r i => r0 _) (fun i => r4 _) (fun i => r5 _) (fun a ha => Cert.Agg.aggK_isR _ a ha)
    (fun i j => r6 _) (fun j => r7 _) (fun j k => r8 _) (fun k => r9 _) (fun k => r10 _) (fun k => r11 _) r k

end Cert.Bridge

end
-- ==== Proof.lean ====
/-
  The certificate's claims, assembled.

  Both programs compute the same three arrays from the same twelve arguments: a batch normalisation of the node features
  over the rows; then, per branch, a neighbourhood sum over that branch's edges, a two-layer perceptron with a rectifier
  on the normalised features plus the sum, a second batch normalisation and a hyperbolic tangent. They differ in how a
  batch normalisation is arranged. The kernel program folds the statistics into a scale and a shift taken from the column
  sums of `h` and of `h²`: `h·s + (β − μ·s)` with `s = γ·(E[h²] − μ² + ε)^(−1/2)`. The reference centres first:
  `γ·(h − μ)·(σ² + ε)^(−1/2) + β` with `σ² = mean((h − μ)²)`. Over the reals the two agree because
  `mean((h − μ)²) = E[h²] − μ²`; over the extended reals that step needs every entry to be a real number, which the
  precondition gives (every float argument's entries have absolute value below `+∞`) and every stage preserves.

  The three runs: each program as printed runs and leaves its arguments as launched (the generated frames; for the
  reference the generated run with the results dropped). The idealisation rewrote no operation, so that claim is `True`.
  For the value claim the witnesses are the reference's three result arrays; the reference's run ends at them as it
  stands, and the kernel program's run ends at the contents of the last segment boundary, which the bridge lemmas
  identify with the reference's results, branch by branch, from the agreement of the arguments.
-/
import proofs.«107533_j36429912605472_1_alg».proof.Defs
import proofs.«107533_j36429912605472_1_alg».proof.Proof.Gen.Kernel
import proofs.«107533_j36429912605472_1_alg».proof.Proof.Gen.Kernel.Skeleton
import proofs.«107533_j36429912605472_1_alg».proof.Proof.Gen.Kernel.Launch
import proofs.«107533_j36429912605472_1_alg».proof.Proof.Gen.Kernel.Points
import proofs.«107533_j36429912605472_1_alg».proof.Proof.Gen.Kernel.Frame
import proofs.«107533_j36429912605472_1_alg».proof.Proof.Gen.KernelIdeal
import proofs.«107533_j36429912605472_1_alg».proof.Proof.Gen.KernelIdeal.Skeleton
import proofs.«107533_j36429912605472_1_alg».proof.Proof.Gen.KernelIdeal.Launch
import proofs.«107533_j36429912605472_1_alg».proof.Proof.Gen.KernelIdeal.Points
import proofs.«107533_j36429912605472_1_alg».proof.Proof.Gen.KernelIdeal.Frame
import proofs.«107533_j36429912605472_1_alg».proof.Proof.Gen.ReferenceIdeal
import proofs.«107533_j36429912605472_1_alg».proof.Proof.Gen.Pre_finite_inputs
import Idealize.ShloMosaic.Adequacy
import Idealize.ShloMosaic.Init
import proofs.«107533_j36429912605472_1_alg».proof.Proof.KRun
import proofs.«107533_j36429912605472_1_alg».proof.Proof.Bridge
import proofs.«107533_j36429912605472_1_alg».proof.Proof.Bridge1
import proofs.«107533_j36429912605472_1_alg».proof.Proof.Bridge2
import proofs.«107533_j36429912605472_1_alg».proof.Proof.Gen.ReferenceIdeal.Run

set_option maxRecDepth 16384

noncomputable section

namespace Cert.Proof

open Idealize.ShloMosaic Idealize.SL.Sem Cert.Kernel

/-- The kernel program as printed runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the reference: its run ends at the three results and the twelve arguments; drop the results. -/
theorem frame_ri : Cert.frame_ReferenceIdeal := fun m ρ _ =>
  (θ_run Cert.ReferenceIdeal.defs _ _).mono (fun _ h c => (h c).2.2.2) (Cert.ReferenceIdeal.Value.run (F := Ideal) m ρ)

/-- From arguments that agree, both programs end at the reference's three result arrays. -/
theorem algebraic : Cert.algebraic_KernelIdeal_ReferenceIdeal := by
  intro m ρ m' ρ' hpre hagree
  refine ⟨fun c => Cert.ReferenceIdeal.Value.res_out0 (F := Ideal) m' c,
    fun c => Cert.ReferenceIdeal.Value.res_out1 (F := Ideal) m' c,
    fun c => Cert.ReferenceIdeal.Value.res_out2 (F := Ideal) m' c, ?_,
    Cert.ReferenceIdeal.Value.run (F := Ideal) m' ρ'⟩
  refine (θ_run Cert.KernelIdeal.defs _ _).mono (fun r h c => ?_) (Cert.KernelIdeal.KRun.run_vals (F := Ideal) m ρ)
  obtain ⟨a0, a1, a2, a3, a4, a5, a6, a7, a8, a9, a10, a11⟩ := hagree c
  exact ⟨(h c).1.trans (Cert.Bridge.key0 m ρ m' hpre c a0 a1 a4 a5 a6 a7 a8 a9 a10 a11),
    (h c).2.1.trans (Cert.Bridge.key1 m ρ m' hpre c a0 a2 a4 a5 a6 a7 a8 a9 a10 a11),
    (h c).2.2.1.trans (Cert.Bridge.key2 m ρ m' hpre c a0 a3 a4 a5 a6 a7 a8 a9 a10 a11),
    (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
